-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S77 : Shape := ⟨1, ![77]⟩
abbrev S49408x768 : Shape := ⟨2, ![49408, 768]⟩
abbrev S77x768 : Shape := ⟨2, ![77, 768]⟩
abbrev S_ : Shape := ⟨0, ![]⟩

class Facts : Prop where
  bcast_S_S49408x768 : S_.BroadcastsInDim S49408x768 (![] : Fin 0 → Fin S49408x768.rank)
  reducesTo_S49408x768_S_d0_1 : S49408x768.ReducesTo [0, 1] S_
  h_S_ : 0 < S_.numel
  bcast_S_S77x768 : S_.BroadcastsInDim S77x768 (![] : Fin 0 → Fin S77x768.rank)
  reducesTo_S77x768_S_d0_1 : S77x768.ReducesTo [0, 1] S_
  bcast_S_S77 : S_.BroadcastsInDim S77 (![] : Fin 0 → Fin S77.rank)
  reducesTo_S77_S_d0 : S77.ReducesTo [0] S_

variable [Facts]

def fn_part1 {F : FTy → Type} [FloatOps F] (main_arg1 : IVec S77 32) (main_v15 : IVec S_ 1) (main_c_5 : IVec S_ 32) : IVec S_ 1 :=
  let main_v16 : IVec S77 32 := broadcastInDim S77 ![] bcast_S_S77 main_c_5
  let main_v17 : IVec S77 1 := cmpi .sge main_arg1 main_v16
  let main_c_6 : IVec S_ 32 := constantI S_ 32 77#32
  let main_v18 : IVec S77 32 := broadcastInDim S77 ![] bcast_S_S77 main_c_6
  let main_v19 : IVec S77 1 := cmpi .slt main_arg1 main_v18
  let main_v20 : IVec S77 1 := andi main_v17 main_v19
  let main_c_7 : IVec S_ 1 := constantI S_ 1 1#1
  let main_v21 : IVec S_ 1 := (fun x v => Host.reduce IntOp.andi x v reducesTo_S77_S_d0 h_S_) main_v20 main_c_7
  let main_v22 : IVec S_ 1 := andi main_v15 main_v21
  main_v22

def fn {F : FTy → Type} [FloatOps F] (main_arg0 : IVec S77 32) (main_arg1 : IVec S77 32) (main_arg2 : FVec F S49408x768 .f32) (main_arg3 : FVec F S77x768 .f32) : IVec S_ 1 :=
  let main_v0 : FVec F S49408x768 .f32 := Host.absf main_arg2
  let main_cst : FVec F S_ .f32 := constant S_ .f32 0x7F800000#32
  let main_v1 : FVec F S49408x768 .f32 := broadcastInDim S49408x768 ![] bcast_S_S49408x768 main_cst
  let main_v2 : IVec S49408x768 1 := cmpf .olt main_v0 main_v1
  let main_c : IVec S_ 1 := constantI S_ 1 1#1
  let main_v3 : IVec S_ 1 := (fun x v => Host.reduce IntOp.andi x v reducesTo_S49408x768_S_d0_1 h_S_) main_v2 main_c
  let main_v4 : FVec F S77x768 .f32 := Host.absf main_arg3
  let main_cst_0 : FVec F S_ .f32 := constant S_ .f32 0x7F800000#32
  let main_v5 : FVec F S77x768 .f32 := broadcastInDim S77x768 ![] bcast_S_S77x768 main_cst_0
  let main_v6 : IVec S77x768 1 := cmpf .olt main_v4 main_v5
  let main_c_1 : IVec S_ 1 := constantI S_ 1 1#1
  let main_v7 : IVec S_ 1 := (fun x v => Host.reduce IntOp.andi x v reducesTo_S77x768_S_d0_1 h_S_) main_v6 main_c_1
  let main_v8 : IVec S_ 1 := andi main_v3 main_v7
  let main_c_2 : IVec S_ 32 := constantI S_ 32 0#32
  let main_v9 : IVec S77 32 := broadcastInDim S77 ![] bcast_S_S77 main_c_2
  let main_v10 : IVec S77 1 := cmpi .sge main_arg0 main_v9
  let main_c_3 : IVec S_ 32 := constantI S_ 32 49408#32
  let main_v11 : IVec S77 32 := broadcastInDim S77 ![] bcast_S_S77 main_c_3
  let main_v12 : IVec S77 1 := cmpi .slt main_arg0 main_v11
  let main_v13 : IVec S77 1 := andi main_v10 main_v12
  let main_c_4 : IVec S_ 1 := constantI S_ 1 1#1
  let main_v14 : IVec S_ 1 := (fun x v => Host.reduce IntOp.andi x v reducesTo_S77_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S77 : Shape := ⟨1, ![77]⟩
abbrev S49408x768 : Shape := ⟨2, ![49408, 768]⟩
abbrev S77x768 : Shape := ⟨2, ![77, 768]⟩
abbrev S_ : Shape := ⟨0, ![]⟩
abbrev S1 : Shape := ⟨1, ![1]⟩
abbrev S1x768 : Shape := ⟨2, ![1, 768]⟩
abbrev S768 : Shape := ⟨1, ![768]⟩
abbrev S1x77x768 : Shape := ⟨3, ![1, 77, 768]⟩

abbrev nBuf : Space → Nat
  | .hbm => 20
  | .vmem => 4
  | .smem => 2
  | _ => 0

abbrev bufTy : (tb : Table) → Fin (tcTables nBuf tb) → BufTy
  | .hbm, ⟨0, _⟩ => ⟨S77, .i32⟩
  | .hbm, ⟨1, _⟩ => ⟨S77, .i32⟩
  | .hbm, ⟨2, _⟩ => ⟨S49408x768, .f32⟩
  | .hbm, ⟨3, _⟩ => ⟨S77x768, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S77, .i32⟩
  | .hbm, ⟨8, _⟩ => ⟨S77, .i32⟩
  | .hbm, ⟨9, _⟩ => ⟨S_, .i32⟩
  | .hbm, ⟨10, _⟩ => ⟨S77, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S77, .i32⟩
  | .hbm, ⟨15, _⟩ => ⟨S77, .i32⟩
  | .hbm, ⟨16, _⟩ => ⟨S_, .i32⟩
  | .hbm, ⟨17, _⟩ => ⟨S77, .i32⟩
  | .hbm, ⟨18, _⟩ => ⟨S77x768, .f32⟩
  | .hbm, ⟨19, _⟩ => ⟨S1x77x768, .f32⟩
  | .local _ .vmem, ⟨0, _⟩ => ⟨S77x768, .f32⟩
  | .local _ .vmem, ⟨1, _⟩ => ⟨S77x768, .f32⟩
  | .local _ .vmem, ⟨2, _⟩ => ⟨S77x768, .f32⟩
  | .local _ .vmem, ⟨3, _⟩ => ⟨S77x768, .f32⟩
  | .local _ .smem, ⟨0, _⟩ => ⟨S77, .i32⟩
  | .local _ .smem, ⟨1, _⟩ => ⟨S77, .i32⟩
  | _, _ => ⟨S77, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_c_1 : Ref sig .tc := ⟨.hbm, 11, rfl⟩
abbrev main_c_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v2 : Ref sig .tc := ⟨.hbm, 18, rfl⟩
abbrev main_v3 : Ref sig .tc := ⟨.hbm, 19, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v0 : BitVec 32) : Fin 2 → Nat :=
  let c0_i32_2 : BitVec 32 := 0#32
  ![v0.toNat, 0]

def k0_off2 (v1 : BitVec 32) : Fin 2 → Nat :=
  let c0_i32_5 : BitVec 32 := 0#32
  ![v1.toNat, 0]

def k0_off3 (v2 : BitVec 32) : Fin 2 → Nat :=
  let c0_i32_8 : BitVec 32 := 0#32
  ![v2.toNat, 0]

def k0_off4 (v3 : BitVec 32) : Fin 2 → Nat :=
  let c0_i32_11 : BitVec 32 := 0#32
  ![v3.toNat, 0]

def k0_off5 (v4 : BitVec 32) : Fin 2 → Nat :=
  let c0_i32_14 : BitVec 32 := 0#32
  ![v4.toNat, 0]

def k0_off6 (v5 : BitVec 32) : Fin 2 → Nat :=
  let c0_i32_17 : BitVec 32 := 0#32
  ![v5.toNat, 0]

def k0_off7 (v6 : BitVec 32) : Fin 2 → Nat :=
  let c0_i32_20 : BitVec 32 := 0#32
  ![v6.toNat, 0]

def k0_off8 (v7 : BitVec 32) : Fin 2 → Nat :=
  let c0_i32_23 : BitVec 32 := 0#32
  ![v7.toNat, 0]

def k0_off9 (v8 : BitVec 32) : Fin 2 → Nat :=
  let c0_i32_26 : BitVec 32 := 0#32
  ![v8.toNat, 0]

def k0_off10 (v9 : BitVec 32) : Fin 2 → Nat :=
  let c0_i32_29 : BitVec 32 := 0#32
  ![v9.toNat, 0]

def k0_off11 (v10 : BitVec 32) : Fin 2 → Nat :=
  let c0_i32_32 : BitVec 32 := 0#32
  ![v10.toNat, 0]

def k0_off12 (v11 : BitVec 32) : Fin 2 → Nat :=
  let c0_i32_35 : BitVec 32 := 0#32
  ![v11.toNat, 0]

def k0_off13 (v12 : BitVec 32) : Fin 2 → Nat :=
  let c0_i32_38 : BitVec 32 := 0#32
  ![v12.toNat, 0]

def k0_off14 (v13 : BitVec 32) : Fin 2 → Nat :=
  let c0_i32_41 : BitVec 32 := 0#32
  ![v13.toNat, 0]

def k0_off15 (v14 : BitVec 32) : Fin 2 → Nat :=
  let c0_i32_44 : BitVec 32 := 0#32
  ![v14.toNat, 0]

def k0_off16 (v15 : BitVec 32) : Fin 2 → Nat :=
  let c0_i32_47 : BitVec 32 := 0#32
  ![v15.toNat, 0]

def k0_off17 (v16 : BitVec 32) : Fin 2 → Nat :=
  let c0_i32_50 : BitVec 32 := 0#32
  ![v16.toNat, 0]

def k0_off18 (v17 : BitVec 32) : Fin 2 → Nat :=
  let c0_i32_53 : BitVec 32 := 0#32
  ![v17.toNat, 0]

def k0_off19 (v18 : BitVec 32) : Fin 2 → Nat :=
  let c0_i32_56 : BitVec 32 := 0#32
  ![v18.toNat, 0]

def k0_off20 (v19 : BitVec 32) : Fin 2 → Nat :=
  let c0_i32_59 : BitVec 32 := 0#32
  ![v19.toNat, 0]

def k0_off21 (v20 : BitVec 32) : Fin 2 → Nat :=
  let c0_i32_62 : BitVec 32 := 0#32
  ![v20.toNat, 0]

def k0_off22 (v21 : BitVec 32) : Fin 2 → Nat :=
  let c0_i32_65 : BitVec 32 := 0#32
  ![v21.toNat, 0]

def k0_off23 (v22 : BitVec 32) : Fin 2 → Nat :=
  let c0_i32_68 : BitVec 32 := 0#32
  ![v22.toNat, 0]

def k0_off24 (v23 : BitVec 32) : Fin 2 → Nat :=
  let c0_i32_71 : BitVec 32 := 0#32
  ![v23.toNat, 0]

def k0_off25 (v24 : BitVec 32) : Fin 2 → Nat :=
  let c0_i32_74 : BitVec 32 := 0#32
  ![v24.toNat, 0]

def k0_off26 (v25 : BitVec 32) : Fin 2 → Nat :=
  let c0_i32_77 : BitVec 32 := 0#32
  ![v25.toNat, 0]

def k0_off27 (v26 : BitVec 32) : Fin 2 → Nat :=
  let c0_i32_80 : BitVec 32 := 0#32
  ![v26.toNat, 0]

def k0_off28 (v27 : BitVec 32) : Fin 2 → Nat :=
  let c0_i32_83 : BitVec 32 := 0#32
  ![v27.toNat, 0]

def k0_off29 (v28 : BitVec 32) : Fin 2 → Nat :=
  let c0_i32_86 : BitVec 32 := 0#32
  ![v28.toNat, 0]

def k0_off30 (v29 : BitVec 32) : Fin 2 → Nat :=
  let c0_i32_89 : BitVec 32 := 0#32
  ![v29.toNat, 0]

def k0_off31 (v30 : BitVec 32) : Fin 2 → Nat :=
  let c0_i32_92 : BitVec 32 := 0#32
  ![v30.toNat, 0]

def k0_off32 (v31 : BitVec 32) : Fin 2 → Nat :=
  let c0_i32_95 : BitVec 32 := 0#32
  ![v31.toNat, 0]

def k0_off33 (v32 : BitVec 32) : Fin 2 → Nat :=
  let c0_i32_98 : BitVec 32 := 0#32
  ![v32.toNat, 0]

def k0_off34 (v33 : BitVec 32) : Fin 2 → Nat :=
  let c0_i32_101 : BitVec 32 := 0#32
  ![v33.toNat, 0]

def k0_off35 (v34 : BitVec 32) : Fin 2 → Nat :=
  let c0_i32_104 : BitVec 32 := 0#32
  ![v34.toNat, 0]

def k0_off36 (v35 : BitVec 32) : Fin 2 → Nat :=
  let c0_i32_107 : BitVec 32 := 0#32
  ![v35.toNat, 0]

def k0_off37 (v36 : BitVec 32) : Fin 2 → Nat :=
  let c0_i32_110 : BitVec 32 := 0#32
  ![v36.toNat, 0]

def k0_off38 (v37 : BitVec 32) : Fin 2 → Nat :=
  let c0_i32_113 : BitVec 32 := 0#32
  ![v37.toNat, 0]

def k0_off39 (v38 : BitVec 32) : Fin 2 → Nat :=
  let c0_i32_116 : BitVec 32 := 0#32
  ![v38.toNat, 0]

def k0_off40 (v39 : BitVec 32) : Fin 2 → Nat :=
  let c0_i32_119 : BitVec 32 := 0#32
  ![v39.toNat, 0]

def k0_off41 (v40 : BitVec 32) : Fin 2 → Nat :=
  let c0_i32_122 : BitVec 32 := 0#32
  ![v40.toNat, 0]

def k0_off42 (v41 : BitVec 32) : Fin 2 → Nat :=
  let c0_i32_125 : BitVec 32 := 0#32
  ![v41.toNat, 0]

def k0_off43 (v42 : BitVec 32) : Fin 2 → Nat :=
  let c0_i32_128 : BitVec 32 := 0#32
  ![v42.toNat, 0]

def k0_off44 (v43 : BitVec 32) : Fin 2 → Nat :=
  let c0_i32_131 : BitVec 32 := 0#32
  ![v43.toNat, 0]

def k0_off45 (v44 : BitVec 32) : Fin 2 → Nat :=
  let c0_i32_134 : BitVec 32 := 0#32
  ![v44.toNat, 0]

def k0_off46 (v45 : BitVec 32) : Fin 2 → Nat :=
  let c0_i32_137 : BitVec 32 := 0#32
  ![v45.toNat, 0]

def k0_off47 (v46 : BitVec 32) : Fin 2 → Nat :=
  let c0_i32_140 : BitVec 32 := 0#32
  ![v46.toNat, 0]

def k0_off48 (v47 : BitVec 32) : Fin 2 → Nat :=
  let c0_i32_143 : BitVec 32 := 0#32
  ![v47.toNat, 0]

def k0_off49 (v48 : BitVec 32) : Fin 2 → Nat :=
  let c0_i32_146 : BitVec 32 := 0#32
  ![v48.toNat, 0]

def k0_off50 (v49 : BitVec 32) : Fin 2 → Nat :=
  let c0_i32_149 : BitVec 32 := 0#32
  ![v49.toNat, 0]

def k0_off51 (v50 : BitVec 32) : Fin 2 → Nat :=
  let c0_i32_152 : BitVec 32 := 0#32
  ![v50.toNat, 0]

def k0_off52 (v51 : BitVec 32) : Fin 2 → Nat :=
  let c0_i32_155 : BitVec 32 := 0#32
  ![v51.toNat, 0]

def k0_off53 (v52 : BitVec 32) : Fin 2 → Nat :=
  let c0_i32_158 : BitVec 32 := 0#32
  ![v52.toNat, 0]

def k0_off54 (v53 : BitVec 32) : Fin 2 → Nat :=
  let c0_i32_161 : BitVec 32 := 0#32
  ![v53.toNat, 0]

def k0_off55 (v54 : BitVec 32) : Fin 2 → Nat :=
  let c0_i32_164 : BitVec 32 := 0#32
  ![v54.toNat, 0]

def k0_off56 (v55 : BitVec 32) : Fin 2 → Nat :=
  let c0_i32_167 : BitVec 32 := 0#32
  ![v55.toNat, 0]

def k0_off57 (v56 : BitVec 32) : Fin 2 → Nat :=
  let c0_i32_170 : BitVec 32 := 0#32
  ![v56.toNat, 0]

def k0_off58 (v57 : BitVec 32) : Fin 2 → Nat :=
  let c0_i32_173 : BitVec 32 := 0#32
  ![v57.toNat, 0]

def k0_off59 (v58 : BitVec 32) : Fin 2 → Nat :=
  let c0_i32_176 : BitVec 32 := 0#32
  ![v58.toNat, 0]

def k0_off60 (v59 : BitVec 32) : Fin 2 → Nat :=
  let c0_i32_179 : BitVec 32 := 0#32
  ![v59.toNat, 0]

def k0_off61 (v60 : BitVec 32) : Fin 2 → Nat :=
  let c0_i32_182 : BitVec 32 := 0#32
  ![v60.toNat, 0]

def k0_off62 (v61 : BitVec 32) : Fin 2 → Nat :=
  let c0_i32_185 : BitVec 32 := 0#32
  ![v61.toNat, 0]

def k0_off63 (v62 : BitVec 32) : Fin 2 → Nat :=
  let c0_i32_188 : BitVec 32 := 0#32
  ![v62.toNat, 0]

def k0_off64 (v63 : BitVec 32) : Fin 2 → Nat :=
  let c0_i32_191 : BitVec 32 := 0#32
  ![v63.toNat, 0]

def k0_off65 (v64 : BitVec 32) : Fin 2 → Nat :=
  let c0_i32_194 : BitVec 32 := 0#32
  ![v64.toNat, 0]

def k0_off66 (v65 : BitVec 32) : Fin 2 → Nat :=
  let c0_i32_197 : BitVec 32 := 0#32
  ![v65.toNat, 0]

def k0_off67 (v66 : BitVec 32) : Fin 2 → Nat :=
  let c0_i32_200 : BitVec 32 := 0#32
  ![v66.toNat, 0]

def k0_off68 (v67 : BitVec 32) : Fin 2 → Nat :=
  let c0_i32_203 : BitVec 32 := 0#32
  ![v67.toNat, 0]

def k0_off69 (v68 : BitVec 32) : Fin 2 → Nat :=
  let c0_i32_206 : BitVec 32 := 0#32
  ![v68.toNat, 0]

def k0_off70 (v69 : BitVec 32) : Fin 2 → Nat :=
  let c0_i32_209 : BitVec 32 := 0#32
  ![v69.toNat, 0]

def k0_off71 (v70 : BitVec 32) : Fin 2 → Nat :=
  let c0_i32_212 : BitVec 32 := 0#32
  ![v70.toNat, 0]

def k0_off72 (v71 : BitVec 32) : Fin 2 → Nat :=
  let c0_i32_215 : BitVec 32 := 0#32
  ![v71.toNat, 0]

def k0_off73 (v72 : BitVec 32) : Fin 2 → Nat :=
  let c0_i32_218 : BitVec 32 := 0#32
  ![v72.toNat, 0]

def k0_off74 (v73 : BitVec 32) : Fin 2 → Nat :=
  let c0_i32_221 : BitVec 32 := 0#32
  ![v73.toNat, 0]

def k0_off75 (v74 : BitVec 32) : Fin 2 → Nat :=
  let c0_i32_224 : BitVec 32 := 0#32
  ![v74.toNat, 0]

def k0_off76 (v75 : BitVec 32) : Fin 2 → Nat :=
  let c0_i32_227 : BitVec 32 := 0#32
  ![v75.toNat, 0]

def k0_off77 (v76 : BitVec 32) : Fin 2 → Nat :=
  let c0_i32_230 : BitVec 32 := 0#32
  ![v76.toNat, 0]

def k0_off78 (v539 : BitVec 32) : Fin 2 → Nat :=
  let v540 : Index := Scalar.indexCast v539
  let c0_232 : Index := 0#32
  ![v540.toNat, 0]

def k0_chk78 (v539 : BitVec 32) : Prop :=
  (∀ a, (k0_off78 v539) a + S1x768.size a ≤ S77x768.size a)
instance k0_chk78.dec : ∀ (v539 : BitVec 32), Decidable (k0_chk78 v539) := fun v539 => decidable_of_iff' _ (Iff.of_eq (k0_chk78.eq_1 v539))
theorem k0_off78_inb : ∀ (v539 : BitVec 32) (k0_hw78 : k0_chk78 v539), ∀ a, (k0_off78 v539) a + S1x768.size a ≤ S77x768.size a := fun v539 k0_hw78 => k0_hw78

def k0_off79 (v546 : BitVec 32) : Fin 2 → Nat :=
  let v547 : Index := Scalar.indexCast v546
  let c0_236 : Index := 0#32
  ![v547.toNat, 0]

def k0_chk79 (v546 : BitVec 32) : Prop :=
  (∀ a, (k0_off79 v546) a + S1x768.size a ≤ S77x768.size a)
instance k0_chk79.dec : ∀ (v546 : BitVec 32), Decidable (k0_chk79 v546) := fun v546 => decidable_of_iff' _ (Iff.of_eq (k0_chk79.eq_1 v546))
theorem k0_off79_inb : ∀ (v546 : BitVec 32) (k0_hw79 : k0_chk79 v546), ∀ a, (k0_off79 v546) a + S1x768.size a ≤ S77x768.size a := fun v546 k0_hw79 => k0_hw79

def k0_off80 (v553 : BitVec 32) : Fin 2 → Nat :=
  let v554 : Index := Scalar.indexCast v553
  let c0_240 : Index := 0#32
  ![v554.toNat, 0]

def k0_chk80 (v553 : BitVec 32) : Prop :=
  (∀ a, (k0_off80 v553) a + S1x768.size a ≤ S77x768.size a)
instance k0_chk80.dec : ∀ (v553 : BitVec 32), Decidable (k0_chk80 v553) := fun v553 => decidable_of_iff' _ (Iff.of_eq (k0_chk80.eq_1 v553))
theorem k0_off80_inb : ∀ (v553 : BitVec 32) (k0_hw80 : k0_chk80 v553), ∀ a, (k0_off80 v553) a + S1x768.size a ≤ S77x768.size a := fun v553 k0_hw80 => k0_hw80

def k0_off81 (v560 : BitVec 32) : Fin 2 → Nat :=
  let v561 : Index := Scalar.indexCast v560
  let c0_244 : Index := 0#32
  ![v561.toNat, 0]

def k0_chk81 (v560 : BitVec 32) : Prop :=
  (∀ a, (k0_off81 v560) a + S1x768.size a ≤ S77x768.size a)
instance k0_chk81.dec : ∀ (v560 : BitVec 32), Decidable (k0_chk81 v560) := fun v560 => decidable_of_iff' _ (Iff.of_eq (k0_chk81.eq_1 v560))
theorem k0_off81_inb : ∀ (v560 : BitVec 32) (k0_hw81 : k0_chk81 v560), ∀ a, (k0_off81 v560) a + S1x768.size a ≤ S77x768.size a := fun v560 k0_hw81 => k0_hw81

def k0_off82 (v567 : BitVec 32) : Fin 2 → Nat :=
  let v568 : Index := Scalar.indexCast v567
  let c0_248 : Index := 0#32
  ![v568.toNat, 0]

def k0_chk82 (v567 : BitVec 32) : Prop :=
  (∀ a, (k0_off82 v567) a + S1x768.size a ≤ S77x768.size a)
instance k0_chk82.dec : ∀ (v567 : BitVec 32), Decidable (k0_chk82 v567) := fun v567 => decidable_of_iff' _ (Iff.of_eq (k0_chk82.eq_1 v567))
theorem k0_off82_inb : ∀ (v567 : BitVec 32) (k0_hw82 : k0_chk82 v567), ∀ a, (k0_off82 v567) a + S1x768.size a ≤ S77x768.size a := fun v567 k0_hw82 => k0_hw82

def k0_off83 (v574 : BitVec 32) : Fin 2 → Nat :=
  let v575 : Index := Scalar.indexCast v574
  let c0_252 : Index := 0#32
  ![v575.toNat, 0]

def k0_chk83 (v574 : BitVec 32) : Prop :=
  (∀ a, (k0_off83 v574) a + S1x768.size a ≤ S77x768.size a)
instance k0_chk83.dec : ∀ (v574 : BitVec 32), Decidable (k0_chk83 v574) := fun v574 => decidable_of_iff' _ (Iff.of_eq (k0_chk83.eq_1 v574))
theorem k0_off83_inb : ∀ (v574 : BitVec 32) (k0_hw83 : k0_chk83 v574), ∀ a, (k0_off83 v574) a + S1x768.size a ≤ S77x768.size a := fun v574 k0_hw83 => k0_hw83

def k0_off84 (v581 : BitVec 32) : Fin 2 → Nat :=
  let v582 : Index := Scalar.indexCast v581
  let c0_256 : Index := 0#32
  ![v582.toNat, 0]

def k0_chk84 (v581 : BitVec 32) : Prop :=
  (∀ a, (k0_off84 v581) a + S1x768.size a ≤ S77x768.size a)
instance k0_chk84.dec : ∀ (v581 : BitVec 32), Decidable (k0_chk84 v581) := fun v581 => decidable_of_iff' _ (Iff.of_eq (k0_chk84.eq_1 v581))
theorem k0_off84_inb : ∀ (v581 : BitVec 32) (k0_hw84 : k0_chk84 v581), ∀ a, (k0_off84 v581) a + S1x768.size a ≤ S77x768.size a := fun v581 k0_hw84 => k0_hw84

def k0_off85 (v588 : BitVec 32) : Fin 2 → Nat :=
  let v589 : Index := Scalar.indexCast v588
  let c0_260 : Index := 0#32
  ![v589.toNat, 0]

def k0_chk85 (v588 : BitVec 32) : Prop :=
  (∀ a, (k0_off85 v588) a + S1x768.size a ≤ S77x768.size a)
instance k0_chk85.dec : ∀ (v588 : BitVec 32), Decidable (k0_chk85 v588) := fun v588 => decidable_of_iff' _ (Iff.of_eq (k0_chk85.eq_1 v588))
theorem k0_off85_inb : ∀ (v588 : BitVec 32) (k0_hw85 : k0_chk85 v588), ∀ a, (k0_off85 v588) a + S1x768.size a ≤ S77x768.size a := fun v588 k0_hw85 => k0_hw85

def k0_off86 (v595 : BitVec 32) : Fin 2 → Nat :=
  let v596 : Index := Scalar.indexCast v595
  let c0_264 : Index := 0#32
  ![v596.toNat, 0]

def k0_chk86 (v595 : BitVec 32) : Prop :=
  (∀ a, (k0_off86 v595) a + S1x768.size a ≤ S77x768.size a)
instance k0_chk86.dec : ∀ (v595 : BitVec 32), Decidable (k0_chk86 v595) := fun v595 => decidable_of_iff' _ (Iff.of_eq (k0_chk86.eq_1 v595))
theorem k0_off86_inb : ∀ (v595 : BitVec 32) (k0_hw86 : k0_chk86 v595), ∀ a, (k0_off86 v595) a + S1x768.size a ≤ S77x768.size a := fun v595 k0_hw86 => k0_hw86

def k0_off87 (v602 : BitVec 32) : Fin 2 → Nat :=
  let v603 : Index := Scalar.indexCast v602
  let c0_268 : Index := 0#32
  ![v603.toNat, 0]

def k0_chk87 (v602 : BitVec 32) : Prop :=
  (∀ a, (k0_off87 v602) a + S1x768.size a ≤ S77x768.size a)
instance k0_chk87.dec : ∀ (v602 : BitVec 32), Decidable (k0_chk87 v602) := fun v602 => decidable_of_iff' _ (Iff.of_eq (k0_chk87.eq_1 v602))
theorem k0_off87_inb : ∀ (v602 : BitVec 32) (k0_hw87 : k0_chk87 v602), ∀ a, (k0_off87 v602) a + S1x768.size a ≤ S77x768.size a := fun v602 k0_hw87 => k0_hw87

def k0_off88 (v609 : BitVec 32) : Fin 2 → Nat :=
  let v610 : Index := Scalar.indexCast v609
  let c0_272 : Index := 0#32
  ![v610.toNat, 0]

def k0_chk88 (v609 : BitVec 32) : Prop :=
  (∀ a, (k0_off88 v609) a + S1x768.size a ≤ S77x768.size a)
instance k0_chk88.dec : ∀ (v609 : BitVec 32), Decidable (k0_chk88 v609) := fun v609 => decidable_of_iff' _ (Iff.of_eq (k0_chk88.eq_1 v609))
theorem k0_off88_inb : ∀ (v609 : BitVec 32) (k0_hw88 : k0_chk88 v609), ∀ a, (k0_off88 v609) a + S1x768.size a ≤ S77x768.size a := fun v609 k0_hw88 => k0_hw88

def k0_off89 (v616 : BitVec 32) : Fin 2 → Nat :=
  let v617 : Index := Scalar.indexCast v616
  let c0_276 : Index := 0#32
  ![v617.toNat, 0]

def k0_chk89 (v616 : BitVec 32) : Prop :=
  (∀ a, (k0_off89 v616) a + S1x768.size a ≤ S77x768.size a)
instance k0_chk89.dec : ∀ (v616 : BitVec 32), Decidable (k0_chk89 v616) := fun v616 => decidable_of_iff' _ (Iff.of_eq (k0_chk89.eq_1 v616))
theorem k0_off89_inb : ∀ (v616 : BitVec 32) (k0_hw89 : k0_chk89 v616), ∀ a, (k0_off89 v616) a + S1x768.size a ≤ S77x768.size a := fun v616 k0_hw89 => k0_hw89

def k0_off90 (v623 : BitVec 32) : Fin 2 → Nat :=
  let v624 : Index := Scalar.indexCast v623
  let c0_280 : Index := 0#32
  ![v624.toNat, 0]

def k0_chk90 (v623 : BitVec 32) : Prop :=
  (∀ a, (k0_off90 v623) a + S1x768.size a ≤ S77x768.size a)
instance k0_chk90.dec : ∀ (v623 : BitVec 32), Decidable (k0_chk90 v623) := fun v623 => decidable_of_iff' _ (Iff.of_eq (k0_chk90.eq_1 v623))
theorem k0_off90_inb : ∀ (v623 : BitVec 32) (k0_hw90 : k0_chk90 v623), ∀ a, (k0_off90 v623) a + S1x768.size a ≤ S77x768.size a := fun v623 k0_hw90 => k0_hw90

def k0_off91 (v630 : BitVec 32) : Fin 2 → Nat :=
  let v631 : Index := Scalar.indexCast v630
  let c0_284 : Index := 0#32
  ![v631.toNat, 0]

def k0_chk91 (v630 : BitVec 32) : Prop :=
  (∀ a, (k0_off91 v630) a + S1x768.size a ≤ S77x768.size a)
instance k0_chk91.dec : ∀ (v630 : BitVec 32), Decidable (k0_chk91 v630) := fun v630 => decidable_of_iff' _ (Iff.of_eq (k0_chk91.eq_1 v630))
theorem k0_off91_inb : ∀ (v630 : BitVec 32) (k0_hw91 : k0_chk91 v630), ∀ a, (k0_off91 v630) a + S1x768.size a ≤ S77x768.size a := fun v630 k0_hw91 => k0_hw91

def k0_off92 (v637 : BitVec 32) : Fin 2 → Nat :=
  let v638 : Index := Scalar.indexCast v637
  let c0_288 : Index := 0#32
  ![v638.toNat, 0]

def k0_chk92 (v637 : BitVec 32) : Prop :=
  (∀ a, (k0_off92 v637) a + S1x768.size a ≤ S77x768.size a)
instance k0_chk92.dec : ∀ (v637 : BitVec 32), Decidable (k0_chk92 v637) := fun v637 => decidable_of_iff' _ (Iff.of_eq (k0_chk92.eq_1 v637))
theorem k0_off92_inb : ∀ (v637 : BitVec 32) (k0_hw92 : k0_chk92 v637), ∀ a, (k0_off92 v637) a + S1x768.size a ≤ S77x768.size a := fun v637 k0_hw92 => k0_hw92

def k0_off93 (v644 : BitVec 32) : Fin 2 → Nat :=
  let v645 : Index := Scalar.indexCast v644
  let c0_292 : Index := 0#32
  ![v645.toNat, 0]

def k0_chk93 (v644 : BitVec 32) : Prop :=
  (∀ a, (k0_off93 v644) a + S1x768.size a ≤ S77x768.size a)
instance k0_chk93.dec : ∀ (v644 : BitVec 32), Decidable (k0_chk93 v644) := fun v644 => decidable_of_iff' _ (Iff.of_eq (k0_chk93.eq_1 v644))
theorem k0_off93_inb : ∀ (v644 : BitVec 32) (k0_hw93 : k0_chk93 v644), ∀ a, (k0_off93 v644) a + S1x768.size a ≤ S77x768.size a := fun v644 k0_hw93 => k0_hw93

def k0_off94 (v651 : BitVec 32) : Fin 2 → Nat :=
  let v652 : Index := Scalar.indexCast v651
  let c0_296 : Index := 0#32
  ![v652.toNat, 0]

def k0_chk94 (v651 : BitVec 32) : Prop :=
  (∀ a, (k0_off94 v651) a + S1x768.size a ≤ S77x768.size a)
instance k0_chk94.dec : ∀ (v651 : BitVec 32), Decidable (k0_chk94 v651) := fun v651 => decidable_of_iff' _ (Iff.of_eq (k0_chk94.eq_1 v651))
theorem k0_off94_inb : ∀ (v651 : BitVec 32) (k0_hw94 : k0_chk94 v651), ∀ a, (k0_off94 v651) a + S1x768.size a ≤ S77x768.size a := fun v651 k0_hw94 => k0_hw94

def k0_off95 (v658 : BitVec 32) : Fin 2 → Nat :=
  let v659 : Index := Scalar.indexCast v658
  let c0_300 : Index := 0#32
  ![v659.toNat, 0]

def k0_chk95 (v658 : BitVec 32) : Prop :=
  (∀ a, (k0_off95 v658) a + S1x768.size a ≤ S77x768.size a)
instance k0_chk95.dec : ∀ (v658 : BitVec 32), Decidable (k0_chk95 v658) := fun v658 => decidable_of_iff' _ (Iff.of_eq (k0_chk95.eq_1 v658))
theorem k0_off95_inb : ∀ (v658 : BitVec 32) (k0_hw95 : k0_chk95 v658), ∀ a, (k0_off95 v658) a + S1x768.size a ≤ S77x768.size a := fun v658 k0_hw95 => k0_hw95

def k0_off96 (v665 : BitVec 32) : Fin 2 → Nat :=
  let v666 : Index := Scalar.indexCast v665
  let c0_304 : Index := 0#32
  ![v666.toNat, 0]

def k0_chk96 (v665 : BitVec 32) : Prop :=
  (∀ a, (k0_off96 v665) a + S1x768.size a ≤ S77x768.size a)
instance k0_chk96.dec : ∀ (v665 : BitVec 32), Decidable (k0_chk96 v665) := fun v665 => decidable_of_iff' _ (Iff.of_eq (k0_chk96.eq_1 v665))
theorem k0_off96_inb : ∀ (v665 : BitVec 32) (k0_hw96 : k0_chk96 v665), ∀ a, (k0_off96 v665) a + S1x768.size a ≤ S77x768.size a := fun v665 k0_hw96 => k0_hw96

def k0_off97 (v672 : BitVec 32) : Fin 2 → Nat :=
  let v673 : Index := Scalar.indexCast v672
  let c0_308 : Index := 0#32
  ![v673.toNat, 0]

def k0_chk97 (v672 : BitVec 32) : Prop :=
  (∀ a, (k0_off97 v672) a + S1x768.size a ≤ S77x768.size a)
instance k0_chk97.dec : ∀ (v672 : BitVec 32), Decidable (k0_chk97 v672) := fun v672 => decidable_of_iff' _ (Iff.of_eq (k0_chk97.eq_1 v672))
theorem k0_off97_inb : ∀ (v672 : BitVec 32) (k0_hw97 : k0_chk97 v672), ∀ a, (k0_off97 v672) a + S1x768.size a ≤ S77x768.size a := fun v672 k0_hw97 => k0_hw97

def k0_off98 (v679 : BitVec 32) : Fin 2 → Nat :=
  let v680 : Index := Scalar.indexCast v679
  let c0_312 : Index := 0#32
  ![v680.toNat, 0]

def k0_chk98 (v679 : BitVec 32) : Prop :=
  (∀ a, (k0_off98 v679) a + S1x768.size a ≤ S77x768.size a)
instance k0_chk98.dec : ∀ (v679 : BitVec 32), Decidable (k0_chk98 v679) := fun v679 => decidable_of_iff' _ (Iff.of_eq (k0_chk98.eq_1 v679))
theorem k0_off98_inb : ∀ (v679 : BitVec 32) (k0_hw98 : k0_chk98 v679), ∀ a, (k0_off98 v679) a + S1x768.size a ≤ S77x768.size a := fun v679 k0_hw98 => k0_hw98

def k0_off99 (v686 : BitVec 32) : Fin 2 → Nat :=
  let v687 : Index := Scalar.indexCast v686
  let c0_316 : Index := 0#32
  ![v687.toNat, 0]

def k0_chk99 (v686 : BitVec 32) : Prop :=
  (∀ a, (k0_off99 v686) a + S1x768.size a ≤ S77x768.size a)
instance k0_chk99.dec : ∀ (v686 : BitVec 32), Decidable (k0_chk99 v686) := fun v686 => decidable_of_iff' _ (Iff.of_eq (k0_chk99.eq_1 v686))
theorem k0_off99_inb : ∀ (v686 : BitVec 32) (k0_hw99 : k0_chk99 v686), ∀ a, (k0_off99 v686) a + S1x768.size a ≤ S77x768.size a := fun v686 k0_hw99 => k0_hw99

def k0_off100 (v693 : BitVec 32) : Fin 2 → Nat :=
  let v694 : Index := Scalar.indexCast v693
  let c0_320 : Index := 0#32
  ![v694.toNat, 0]

def k0_chk100 (v693 : BitVec 32) : Prop :=
  (∀ a, (k0_off100 v693) a + S1x768.size a ≤ S77x768.size a)
instance k0_chk100.dec : ∀ (v693 : BitVec 32), Decidable (k0_chk100 v693) := fun v693 => decidable_of_iff' _ (Iff.of_eq (k0_chk100.eq_1 v693))
theorem k0_off100_inb : ∀ (v693 : BitVec 32) (k0_hw100 : k0_chk100 v693), ∀ a, (k0_off100 v693) a + S1x768.size a ≤ S77x768.size a := fun v693 k0_hw100 => k0_hw100

def k0_off101 (v700 : BitVec 32) : Fin 2 → Nat :=
  let v701 : Index := Scalar.indexCast v700
  let c0_324 : Index := 0#32
  ![v701.toNat, 0]

def k0_chk101 (v700 : BitVec 32) : Prop :=
  (∀ a, (k0_off101 v700) a + S1x768.size a ≤ S77x768.size a)
instance k0_chk101.dec : ∀ (v700 : BitVec 32), Decidable (k0_chk101 v700) := fun v700 => decidable_of_iff' _ (Iff.of_eq (k0_chk101.eq_1 v700))
theorem k0_off101_inb : ∀ (v700 : BitVec 32) (k0_hw101 : k0_chk101 v700), ∀ a, (k0_off101 v700) a + S1x768.size a ≤ S77x768.size a := fun v700 k0_hw101 => k0_hw101

def k0_off102 (v707 : BitVec 32) : Fin 2 → Nat :=
  let v708 : Index := Scalar.indexCast v707
  let c0_328 : Index := 0#32
  ![v708.toNat, 0]

def k0_chk102 (v707 : BitVec 32) : Prop :=
  (∀ a, (k0_off102 v707) a + S1x768.size a ≤ S77x768.size a)
instance k0_chk102.dec : ∀ (v707 : BitVec 32), Decidable (k0_chk102 v707) := fun v707 => decidable_of_iff' _ (Iff.of_eq (k0_chk102.eq_1 v707))
theorem k0_off102_inb : ∀ (v707 : BitVec 32) (k0_hw102 : k0_chk102 v707), ∀ a, (k0_off102 v707) a + S1x768.size a ≤ S77x768.size a := fun v707 k0_hw102 => k0_hw102

def k0_off103 (v714 : BitVec 32) : Fin 2 → Nat :=
  let v715 : Index := Scalar.indexCast v714
  let c0_332 : Index := 0#32
  ![v715.toNat, 0]

def k0_chk103 (v714 : BitVec 32) : Prop :=
  (∀ a, (k0_off103 v714) a + S1x768.size a ≤ S77x768.size a)
instance k0_chk103.dec : ∀ (v714 : BitVec 32), Decidable (k0_chk103 v714) := fun v714 => decidable_of_iff' _ (Iff.of_eq (k0_chk103.eq_1 v714))
theorem k0_off103_inb : ∀ (v714 : BitVec 32) (k0_hw103 : k0_chk103 v714), ∀ a, (k0_off103 v714) a + S1x768.size a ≤ S77x768.size a := fun v714 k0_hw103 => k0_hw103

def k0_off104 (v721 : BitVec 32) : Fin 2 → Nat :=
  let v722 : Index := Scalar.indexCast v721
  let c0_336 : Index := 0#32
  ![v722.toNat, 0]

def k0_chk104 (v721 : BitVec 32) : Prop :=
  (∀ a, (k0_off104 v721) a + S1x768.size a ≤ S77x768.size a)
instance k0_chk104.dec : ∀ (v721 : BitVec 32), Decidable (k0_chk104 v721) := fun v721 => decidable_of_iff' _ (Iff.of_eq (k0_chk104.eq_1 v721))
theorem k0_off104_inb : ∀ (v721 : BitVec 32) (k0_hw104 : k0_chk104 v721), ∀ a, (k0_off104 v721) a + S1x768.size a ≤ S77x768.size a := fun v721 k0_hw104 => k0_hw104

def k0_off105 (v728 : BitVec 32) : Fin 2 → Nat :=
  let v729 : Index := Scalar.indexCast v728
  let c0_340 : Index := 0#32
  ![v729.toNat, 0]

def k0_chk105 (v728 : BitVec 32) : Prop :=
  (∀ a, (k0_off105 v728) a + S1x768.size a ≤ S77x768.size a)
instance k0_chk105.dec : ∀ (v728 : BitVec 32), Decidable (k0_chk105 v728) := fun v728 => decidable_of_iff' _ (Iff.of_eq (k0_chk105.eq_1 v728))
theorem k0_off105_inb : ∀ (v728 : BitVec 32) (k0_hw105 : k0_chk105 v728), ∀ a, (k0_off105 v728) a + S1x768.size a ≤ S77x768.size a := fun v728 k0_hw105 => k0_hw105

def k0_off106 (v735 : BitVec 32) : Fin 2 → Nat :=
  let v736 : Index := Scalar.indexCast v735
  let c0_344 : Index := 0#32
  ![v736.toNat, 0]

def k0_chk106 (v735 : BitVec 32) : Prop :=
  (∀ a, (k0_off106 v735) a + S1x768.size a ≤ S77x768.size a)
instance k0_chk106.dec : ∀ (v735 : BitVec 32), Decidable (k0_chk106 v735) := fun v735 => decidable_of_iff' _ (Iff.of_eq (k0_chk106.eq_1 v735))
theorem k0_off106_inb : ∀ (v735 : BitVec 32) (k0_hw106 : k0_chk106 v735), ∀ a, (k0_off106 v735) a + S1x768.size a ≤ S77x768.size a := fun v735 k0_hw106 => k0_hw106

def k0_off107 (v742 : BitVec 32) : Fin 2 → Nat :=
  let v743 : Index := Scalar.indexCast v742
  let c0_348 : Index := 0#32
  ![v743.toNat, 0]

def k0_chk107 (v742 : BitVec 32) : Prop :=
  (∀ a, (k0_off107 v742) a + S1x768.size a ≤ S77x768.size a)
instance k0_chk107.dec : ∀ (v742 : BitVec 32), Decidable (k0_chk107 v742) := fun v742 => decidable_of_iff' _ (Iff.of_eq (k0_chk107.eq_1 v742))
theorem k0_off107_inb : ∀ (v742 : BitVec 32) (k0_hw107 : k0_chk107 v742), ∀ a, (k0_off107 v742) a + S1x768.size a ≤ S77x768.size a := fun v742 k0_hw107 => k0_hw107

def k0_off108 (v749 : BitVec 32) : Fin 2 → Nat :=
  let v750 : Index := Scalar.indexCast v749
  let c0_352 : Index := 0#32
  ![v750.toNat, 0]

def k0_chk108 (v749 : BitVec 32) : Prop :=
  (∀ a, (k0_off108 v749) a + S1x768.size a ≤ S77x768.size a)
instance k0_chk108.dec : ∀ (v749 : BitVec 32), Decidable (k0_chk108 v749) := fun v749 => decidable_of_iff' _ (Iff.of_eq (k0_chk108.eq_1 v749))
theorem k0_off108_inb : ∀ (v749 : BitVec 32) (k0_hw108 : k0_chk108 v749), ∀ a, (k0_off108 v749) a + S1x768.size a ≤ S77x768.size a := fun v749 k0_hw108 => k0_hw108

def k0_off109 (v756 : BitVec 32) : Fin 2 → Nat :=
  let v757 : Index := Scalar.indexCast v756
  let c0_356 : Index := 0#32
  ![v757.toNat, 0]

def k0_chk109 (v756 : BitVec 32) : Prop :=
  (∀ a, (k0_off109 v756) a + S1x768.size a ≤ S77x768.size a)
instance k0_chk109.dec : ∀ (v756 : BitVec 32), Decidable (k0_chk109 v756) := fun v756 => decidable_of_iff' _ (Iff.of_eq (k0_chk109.eq_1 v756))
theorem k0_off109_inb : ∀ (v756 : BitVec 32) (k0_hw109 : k0_chk109 v756), ∀ a, (k0_off109 v756) a + S1x768.size a ≤ S77x768.size a := fun v756 k0_hw109 => k0_hw109

def k0_off110 (v763 : BitVec 32) : Fin 2 → Nat :=
  let v764 : Index := Scalar.indexCast v763
  let c0_360 : Index := 0#32
  ![v764.toNat, 0]

def k0_chk110 (v763 : BitVec 32) : Prop :=
  (∀ a, (k0_off110 v763) a + S1x768.size a ≤ S77x768.size a)
instance k0_chk110.dec : ∀ (v763 : BitVec 32), Decidable (k0_chk110 v763) := fun v763 => decidable_of_iff' _ (Iff.of_eq (k0_chk110.eq_1 v763))
theorem k0_off110_inb : ∀ (v763 : BitVec 32) (k0_hw110 : k0_chk110 v763), ∀ a, (k0_off110 v763) a + S1x768.size a ≤ S77x768.size a := fun v763 k0_hw110 => k0_hw110

def k0_off111 (v770 : BitVec 32) : Fin 2 → Nat :=
  let v771 : Index := Scalar.indexCast v770
  let c0_364 : Index := 0#32
  ![v771.toNat, 0]

def k0_chk111 (v770 : BitVec 32) : Prop :=
  (∀ a, (k0_off111 v770) a + S1x768.size a ≤ S77x768.size a)
instance k0_chk111.dec : ∀ (v770 : BitVec 32), Decidable (k0_chk111 v770) := fun v770 => decidable_of_iff' _ (Iff.of_eq (k0_chk111.eq_1 v770))
theorem k0_off111_inb : ∀ (v770 : BitVec 32) (k0_hw111 : k0_chk111 v770), ∀ a, (k0_off111 v770) a + S1x768.size a ≤ S77x768.size a := fun v770 k0_hw111 => k0_hw111

def k0_off112 (v777 : BitVec 32) : Fin 2 → Nat :=
  let v778 : Index := Scalar.indexCast v777
  let c0_368 : Index := 0#32
  ![v778.toNat, 0]

def k0_chk112 (v777 : BitVec 32) : Prop :=
  (∀ a, (k0_off112 v777) a + S1x768.size a ≤ S77x768.size a)
instance k0_chk112.dec : ∀ (v777 : BitVec 32), Decidable (k0_chk112 v777) := fun v777 => decidable_of_iff' _ (Iff.of_eq (k0_chk112.eq_1 v777))
theorem k0_off112_inb : ∀ (v777 : BitVec 32) (k0_hw112 : k0_chk112 v777), ∀ a, (k0_off112 v777) a + S1x768.size a ≤ S77x768.size a := fun v777 k0_hw112 => k0_hw112

def k0_off113 (v784 : BitVec 32) : Fin 2 → Nat :=
  let v785 : Index := Scalar.indexCast v784
  let c0_372 : Index := 0#32
  ![v785.toNat, 0]

def k0_chk113 (v784 : BitVec 32) : Prop :=
  (∀ a, (k0_off113 v784) a + S1x768.size a ≤ S77x768.size a)
instance k0_chk113.dec : ∀ (v784 : BitVec 32), Decidable (k0_chk113 v784) := fun v784 => decidable_of_iff' _ (Iff.of_eq (k0_chk113.eq_1 v784))
theorem k0_off113_inb : ∀ (v784 : BitVec 32) (k0_hw113 : k0_chk113 v784), ∀ a, (k0_off113 v784) a + S1x768.size a ≤ S77x768.size a := fun v784 k0_hw113 => k0_hw113

def k0_off114 (v791 : BitVec 32) : Fin 2 → Nat :=
  let v792 : Index := Scalar.indexCast v791
  let c0_376 : Index := 0#32
  ![v792.toNat, 0]

def k0_chk114 (v791 : BitVec 32) : Prop :=
  (∀ a, (k0_off114 v791) a + S1x768.size a ≤ S77x768.size a)
instance k0_chk114.dec : ∀ (v791 : BitVec 32), Decidable (k0_chk114 v791) := fun v791 => decidable_of_iff' _ (Iff.of_eq (k0_chk114.eq_1 v791))
theorem k0_off114_inb : ∀ (v791 : BitVec 32) (k0_hw114 : k0_chk114 v791), ∀ a, (k0_off114 v791) a + S1x768.size a ≤ S77x768.size a := fun v791 k0_hw114 => k0_hw114

def k0_off115 (v798 : BitVec 32) : Fin 2 → Nat :=
  let v799 : Index := Scalar.indexCast v798
  let c0_380 : Index := 0#32
  ![v799.toNat, 0]

def k0_chk115 (v798 : BitVec 32) : Prop :=
  (∀ a, (k0_off115 v798) a + S1x768.size a ≤ S77x768.size a)
instance k0_chk115.dec : ∀ (v798 : BitVec 32), Decidable (k0_chk115 v798) := fun v798 => decidable_of_iff' _ (Iff.of_eq (k0_chk115.eq_1 v798))
theorem k0_off115_inb : ∀ (v798 : BitVec 32) (k0_hw115 : k0_chk115 v798), ∀ a, (k0_off115 v798) a + S1x768.size a ≤ S77x768.size a := fun v798 k0_hw115 => k0_hw115

def k0_off116 (v805 : BitVec 32) : Fin 2 → Nat :=
  let v806 : Index := Scalar.indexCast v805
  let c0_384 : Index := 0#32
  ![v806.toNat, 0]

def k0_chk116 (v805 : BitVec 32) : Prop :=
  (∀ a, (k0_off116 v805) a + S1x768.size a ≤ S77x768.size a)
instance k0_chk116.dec : ∀ (v805 : BitVec 32), Decidable (k0_chk116 v805) := fun v805 => decidable_of_iff' _ (Iff.of_eq (k0_chk116.eq_1 v805))
theorem k0_off116_inb : ∀ (v805 : BitVec 32) (k0_hw116 : k0_chk116 v805), ∀ a, (k0_off116 v805) a + S1x768.size a ≤ S77x768.size a := fun v805 k0_hw116 => k0_hw116

def k0_off117 (v812 : BitVec 32) : Fin 2 → Nat :=
  let v813 : Index := Scalar.indexCast v812
  let c0_388 : Index := 0#32
  ![v813.toNat, 0]

def k0_chk117 (v812 : BitVec 32) : Prop :=
  (∀ a, (k0_off117 v812) a + S1x768.size a ≤ S77x768.size a)
instance k0_chk117.dec : ∀ (v812 : BitVec 32), Decidable (k0_chk117 v812) := fun v812 => decidable_of_iff' _ (Iff.of_eq (k0_chk117.eq_1 v812))
theorem k0_off117_inb : ∀ (v812 : BitVec 32) (k0_hw117 : k0_chk117 v812), ∀ a, (k0_off117 v812) a + S1x768.size a ≤ S77x768.size a := fun v812 k0_hw117 => k0_hw117

def k0_off118 (v819 : BitVec 32) : Fin 2 → Nat :=
  let v820 : Index := Scalar.indexCast v819
  let c0_392 : Index := 0#32
  ![v820.toNat, 0]

def k0_chk118 (v819 : BitVec 32) : Prop :=
  (∀ a, (k0_off118 v819) a + S1x768.size a ≤ S77x768.size a)
instance k0_chk118.dec : ∀ (v819 : BitVec 32), Decidable (k0_chk118 v819) := fun v819 => decidable_of_iff' _ (Iff.of_eq (k0_chk118.eq_1 v819))
theorem k0_off118_inb : ∀ (v819 : BitVec 32) (k0_hw118 : k0_chk118 v819), ∀ a, (k0_off118 v819) a + S1x768.size a ≤ S77x768.size a := fun v819 k0_hw118 => k0_hw118

def k0_off119 (v826 : BitVec 32) : Fin 2 → Nat :=
  let v827 : Index := Scalar.indexCast v826
  let c0_396 : Index := 0#32
  ![v827.toNat, 0]

def k0_chk119 (v826 : BitVec 32) : Prop :=
  (∀ a, (k0_off119 v826) a + S1x768.size a ≤ S77x768.size a)
instance k0_chk119.dec : ∀ (v826 : BitVec 32), Decidable (k0_chk119 v826) := fun v826 => decidable_of_iff' _ (Iff.of_eq (k0_chk119.eq_1 v826))
theorem k0_off119_inb : ∀ (v826 : BitVec 32) (k0_hw119 : k0_chk119 v826), ∀ a, (k0_off119 v826) a + S1x768.size a ≤ S77x768.size a := fun v826 k0_hw119 => k0_hw119

def k0_off120 (v833 : BitVec 32) : Fin 2 → Nat :=
  let v834 : Index := Scalar.indexCast v833
  let c0_400 : Index := 0#32
  ![v834.toNat, 0]

def k0_chk120 (v833 : BitVec 32) : Prop :=
  (∀ a, (k0_off120 v833) a + S1x768.size a ≤ S77x768.size a)
instance k0_chk120.dec : ∀ (v833 : BitVec 32), Decidable (k0_chk120 v833) := fun v833 => decidable_of_iff' _ (Iff.of_eq (k0_chk120.eq_1 v833))
theorem k0_off120_inb : ∀ (v833 : BitVec 32) (k0_hw120 : k0_chk120 v833), ∀ a, (k0_off120 v833) a + S1x768.size a ≤ S77x768.size a := fun v833 k0_hw120 => k0_hw120

def k0_off121 (v840 : BitVec 32) : Fin 2 → Nat :=
  let v841 : Index := Scalar.indexCast v840
  let c0_404 : Index := 0#32
  ![v841.toNat, 0]

def k0_chk121 (v840 : BitVec 32) : Prop :=
  (∀ a, (k0_off121 v840) a + S1x768.size a ≤ S77x768.size a)
instance k0_chk121.dec : ∀ (v840 : BitVec 32), Decidable (k0_chk121 v840) := fun v840 => decidable_of_iff' _ (Iff.of_eq (k0_chk121.eq_1 v840))
theorem k0_off121_inb : ∀ (v840 : BitVec 32) (k0_hw121 : k0_chk121 v840), ∀ a, (k0_off121 v840) a + S1x768.size a ≤ S77x768.size a := fun v840 k0_hw121 => k0_hw121

def k0_off122 (v847 : BitVec 32) : Fin 2 → Nat :=
  let v848 : Index := Scalar.indexCast v847
  let c0_408 : Index := 0#32
  ![v848.toNat, 0]

def k0_chk122 (v847 : BitVec 32) : Prop :=
  (∀ a, (k0_off122 v847) a + S1x768.size a ≤ S77x768.size a)
instance k0_chk122.dec : ∀ (v847 : BitVec 32), Decidable (k0_chk122 v847) := fun v847 => decidable_of_iff' _ (Iff.of_eq (k0_chk122.eq_1 v847))
theorem k0_off122_inb : ∀ (v847 : BitVec 32) (k0_hw122 : k0_chk122 v847), ∀ a, (k0_off122 v847) a + S1x768.size a ≤ S77x768.size a := fun v847 k0_hw122 => k0_hw122

def k0_off123 (v854 : BitVec 32) : Fin 2 → Nat :=
  let v855 : Index := Scalar.indexCast v854
  let c0_412 : Index := 0#32
  ![v855.toNat, 0]

def k0_chk123 (v854 : BitVec 32) : Prop :=
  (∀ a, (k0_off123 v854) a + S1x768.size a ≤ S77x768.size a)
instance k0_chk123.dec : ∀ (v854 : BitVec 32), Decidable (k0_chk123 v854) := fun v854 => decidable_of_iff' _ (Iff.of_eq (k0_chk123.eq_1 v854))
theorem k0_off123_inb : ∀ (v854 : BitVec 32) (k0_hw123 : k0_chk123 v854), ∀ a, (k0_off123 v854) a + S1x768.size a ≤ S77x768.size a := fun v854 k0_hw123 => k0_hw123

def k0_off124 (v861 : BitVec 32) : Fin 2 → Nat :=
  let v862 : Index := Scalar.indexCast v861
  let c0_416 : Index := 0#32
  ![v862.toNat, 0]

def k0_chk124 (v861 : BitVec 32) : Prop :=
  (∀ a, (k0_off124 v861) a + S1x768.size a ≤ S77x768.size a)
instance k0_chk124.dec : ∀ (v861 : BitVec 32), Decidable (k0_chk124 v861) := fun v861 => decidable_of_iff' _ (Iff.of_eq (k0_chk124.eq_1 v861))
theorem k0_off124_inb : ∀ (v861 : BitVec 32) (k0_hw124 : k0_chk124 v861), ∀ a, (k0_off124 v861) a + S1x768.size a ≤ S77x768.size a := fun v861 k0_hw124 => k0_hw124

def k0_off125 (v868 : BitVec 32) : Fin 2 → Nat :=
  let v869 : Index := Scalar.indexCast v868
  let c0_420 : Index := 0#32
  ![v869.toNat, 0]

def k0_chk125 (v868 : BitVec 32) : Prop :=
  (∀ a, (k0_off125 v868) a + S1x768.size a ≤ S77x768.size a)
instance k0_chk125.dec : ∀ (v868 : BitVec 32), Decidable (k0_chk125 v868) := fun v868 => decidable_of_iff' _ (Iff.of_eq (k0_chk125.eq_1 v868))
theorem k0_off125_inb : ∀ (v868 : BitVec 32) (k0_hw125 : k0_chk125 v868), ∀ a, (k0_off125 v868) a + S1x768.size a ≤ S77x768.size a := fun v868 k0_hw125 => k0_hw125

def k0_off126 (v875 : BitVec 32) : Fin 2 → Nat :=
  let v876 : Index := Scalar.indexCast v875
  let c0_424 : Index := 0#32
  ![v876.toNat, 0]

def k0_chk126 (v875 : BitVec 32) : Prop :=
  (∀ a, (k0_off126 v875) a + S1x768.size a ≤ S77x768.size a)
instance k0_chk126.dec : ∀ (v875 : BitVec 32), Decidable (k0_chk126 v875) := fun v875 => decidable_of_iff' _ (Iff.of_eq (k0_chk126.eq_1 v875))
theorem k0_off126_inb : ∀ (v875 : BitVec 32) (k0_hw126 : k0_chk126 v875), ∀ a, (k0_off126 v875) a + S1x768.size a ≤ S77x768.size a := fun v875 k0_hw126 => k0_hw126

def k0_off127 (v882 : BitVec 32) : Fin 2 → Nat :=
  let v883 : Index := Scalar.indexCast v882
  let c0_428 : Index := 0#32
  ![v883.toNat, 0]

def k0_chk127 (v882 : BitVec 32) : Prop :=
  (∀ a, (k0_off127 v882) a + S1x768.size a ≤ S77x768.size a)
instance k0_chk127.dec : ∀ (v882 : BitVec 32), Decidable (k0_chk127 v882) := fun v882 => decidable_of_iff' _ (Iff.of_eq (k0_chk127.eq_1 v882))
theorem k0_off127_inb : ∀ (v882 : BitVec 32) (k0_hw127 : k0_chk127 v882), ∀ a, (k0_off127 v882) a + S1x768.size a ≤ S77x768.size a := fun v882 k0_hw127 => k0_hw127

def k0_off128 (v889 : BitVec 32) : Fin 2 → Nat :=
  let v890 : Index := Scalar.indexCast v889
  let c0_432 : Index := 0#32
  ![v890.toNat, 0]

def k0_chk128 (v889 : BitVec 32) : Prop :=
  (∀ a, (k0_off128 v889) a + S1x768.size a ≤ S77x768.size a)
instance k0_chk128.dec : ∀ (v889 : BitVec 32), Decidable (k0_chk128 v889) := fun v889 => decidable_of_iff' _ (Iff.of_eq (k0_chk128.eq_1 v889))
theorem k0_off128_inb : ∀ (v889 : BitVec 32) (k0_hw128 : k0_chk128 v889), ∀ a, (k0_off128 v889) a + S1x768.size a ≤ S77x768.size a := fun v889 k0_hw128 => k0_hw128

def k0_off129 (v896 : BitVec 32) : Fin 2 → Nat :=
  let v897 : Index := Scalar.indexCast v896
  let c0_436 : Index := 0#32
  ![v897.toNat, 0]

def k0_chk129 (v896 : BitVec 32) : Prop :=
  (∀ a, (k0_off129 v896) a + S1x768.size a ≤ S77x768.size a)
instance k0_chk129.dec : ∀ (v896 : BitVec 32), Decidable (k0_chk129 v896) := fun v896 => decidable_of_iff' _ (Iff.of_eq (k0_chk129.eq_1 v896))
theorem k0_off129_inb : ∀ (v896 : BitVec 32) (k0_hw129 : k0_chk129 v896), ∀ a, (k0_off129 v896) a + S1x768.size a ≤ S77x768.size a := fun v896 k0_hw129 => k0_hw129

def k0_off130 (v903 : BitVec 32) : Fin 2 → Nat :=
  let v904 : Index := Scalar.indexCast v903
  let c0_440 : Index := 0#32
  ![v904.toNat, 0]

def k0_chk130 (v903 : BitVec 32) : Prop :=
  (∀ a, (k0_off130 v903) a + S1x768.size a ≤ S77x768.size a)
instance k0_chk130.dec : ∀ (v903 : BitVec 32), Decidable (k0_chk130 v903) := fun v903 => decidable_of_iff' _ (Iff.of_eq (k0_chk130.eq_1 v903))
theorem k0_off130_inb : ∀ (v903 : BitVec 32) (k0_hw130 : k0_chk130 v903), ∀ a, (k0_off130 v903) a + S1x768.size a ≤ S77x768.size a := fun v903 k0_hw130 => k0_hw130

def k0_off131 (v910 : BitVec 32) : Fin 2 → Nat :=
  let v911 : Index := Scalar.indexCast v910
  let c0_444 : Index := 0#32
  ![v911.toNat, 0]

def k0_chk131 (v910 : BitVec 32) : Prop :=
  (∀ a, (k0_off131 v910) a + S1x768.size a ≤ S77x768.size a)
instance k0_chk131.dec : ∀ (v910 : BitVec 32), Decidable (k0_chk131 v910) := fun v910 => decidable_of_iff' _ (Iff.of_eq (k0_chk131.eq_1 v910))
theorem k0_off131_inb : ∀ (v910 : BitVec 32) (k0_hw131 : k0_chk131 v910), ∀ a, (k0_off131 v910) a + S1x768.size a ≤ S77x768.size a := fun v910 k0_hw131 => k0_hw131

def k0_off132 (v917 : BitVec 32) : Fin 2 → Nat :=
  let v918 : Index := Scalar.indexCast v917
  let c0_448 : Index := 0#32
  ![v918.toNat, 0]

def k0_chk132 (v917 : BitVec 32) : Prop :=
  (∀ a, (k0_off132 v917) a + S1x768.size a ≤ S77x768.size a)
instance k0_chk132.dec : ∀ (v917 : BitVec 32), Decidable (k0_chk132 v917) := fun v917 => decidable_of_iff' _ (Iff.of_eq (k0_chk132.eq_1 v917))
theorem k0_off132_inb : ∀ (v917 : BitVec 32) (k0_hw132 : k0_chk132 v917), ∀ a, (k0_off132 v917) a + S1x768.size a ≤ S77x768.size a := fun v917 k0_hw132 => k0_hw132

def k0_off133 (v924 : BitVec 32) : Fin 2 → Nat :=
  let v925 : Index := Scalar.indexCast v924
  let c0_452 : Index := 0#32
  ![v925.toNat, 0]

def k0_chk133 (v924 : BitVec 32) : Prop :=
  (∀ a, (k0_off133 v924) a + S1x768.size a ≤ S77x768.size a)
instance k0_chk133.dec : ∀ (v924 : BitVec 32), Decidable (k0_chk133 v924) := fun v924 => decidable_of_iff' _ (Iff.of_eq (k0_chk133.eq_1 v924))
theorem k0_off133_inb : ∀ (v924 : BitVec 32) (k0_hw133 : k0_chk133 v924), ∀ a, (k0_off133 v924) a + S1x768.size a ≤ S77x768.size a := fun v924 k0_hw133 => k0_hw133

def k0_off134 (v931 : BitVec 32) : Fin 2 → Nat :=
  let v932 : Index := Scalar.indexCast v931
  let c0_456 : Index := 0#32
  ![v932.toNat, 0]

def k0_chk134 (v931 : BitVec 32) : Prop :=
  (∀ a, (k0_off134 v931) a + S1x768.size a ≤ S77x768.size a)
instance k0_chk134.dec : ∀ (v931 : BitVec 32), Decidable (k0_chk134 v931) := fun v931 => decidable_of_iff' _ (Iff.of_eq (k0_chk134.eq_1 v931))
theorem k0_off134_inb : ∀ (v931 : BitVec 32) (k0_hw134 : k0_chk134 v931), ∀ a, (k0_off134 v931) a + S1x768.size a ≤ S77x768.size a := fun v931 k0_hw134 => k0_hw134

def k0_off135 (v938 : BitVec 32) : Fin 2 → Nat :=
  let v939 : Index := Scalar.indexCast v938
  let c0_460 : Index := 0#32
  ![v939.toNat, 0]

def k0_chk135 (v938 : BitVec 32) : Prop :=
  (∀ a, (k0_off135 v938) a + S1x768.size a ≤ S77x768.size a)
instance k0_chk135.dec : ∀ (v938 : BitVec 32), Decidable (k0_chk135 v938) := fun v938 => decidable_of_iff' _ (Iff.of_eq (k0_chk135.eq_1 v938))
theorem k0_off135_inb : ∀ (v938 : BitVec 32) (k0_hw135 : k0_chk135 v938), ∀ a, (k0_off135 v938) a + S1x768.size a ≤ S77x768.size a := fun v938 k0_hw135 => k0_hw135

def k0_off136 (v945 : BitVec 32) : Fin 2 → Nat :=
  let v946 : Index := Scalar.indexCast v945
  let c0_464 : Index := 0#32
  ![v946.toNat, 0]

def k0_chk136 (v945 : BitVec 32) : Prop :=
  (∀ a, (k0_off136 v945) a + S1x768.size a ≤ S77x768.size a)
instance k0_chk136.dec : ∀ (v945 : BitVec 32), Decidable (k0_chk136 v945) := fun v945 => decidable_of_iff' _ (Iff.of_eq (k0_chk136.eq_1 v945))
theorem k0_off136_inb : ∀ (v945 : BitVec 32) (k0_hw136 : k0_chk136 v945), ∀ a, (k0_off136 v945) a + S1x768.size a ≤ S77x768.size a := fun v945 k0_hw136 => k0_hw136

def k0_off137 (v952 : BitVec 32) : Fin 2 → Nat :=
  let v953 : Index := Scalar.indexCast v952
  let c0_468 : Index := 0#32
  ![v953.toNat, 0]

def k0_chk137 (v952 : BitVec 32) : Prop :=
  (∀ a, (k0_off137 v952) a + S1x768.size a ≤ S77x768.size a)
instance k0_chk137.dec : ∀ (v952 : BitVec 32), Decidable (k0_chk137 v952) := fun v952 => decidable_of_iff' _ (Iff.of_eq (k0_chk137.eq_1 v952))
theorem k0_off137_inb : ∀ (v952 : BitVec 32) (k0_hw137 : k0_chk137 v952), ∀ a, (k0_off137 v952) a + S1x768.size a ≤ S77x768.size a := fun v952 k0_hw137 => k0_hw137

def k0_off138 (v959 : BitVec 32) : Fin 2 → Nat :=
  let v960 : Index := Scalar.indexCast v959
  let c0_472 : Index := 0#32
  ![v960.toNat, 0]

def k0_chk138 (v959 : BitVec 32) : Prop :=
  (∀ a, (k0_off138 v959) a + S1x768.size a ≤ S77x768.size a)
instance k0_chk138.dec : ∀ (v959 : BitVec 32), Decidable (k0_chk138 v959) := fun v959 => decidable_of_iff' _ (Iff.of_eq (k0_chk138.eq_1 v959))
theorem k0_off138_inb : ∀ (v959 : BitVec 32) (k0_hw138 : k0_chk138 v959), ∀ a, (k0_off138 v959) a + S1x768.size a ≤ S77x768.size a := fun v959 k0_hw138 => k0_hw138

def k0_off139 (v966 : BitVec 32) : Fin 2 → Nat :=
  let v967 : Index := Scalar.indexCast v966
  let c0_476 : Index := 0#32
  ![v967.toNat, 0]

def k0_chk139 (v966 : BitVec 32) : Prop :=
  (∀ a, (k0_off139 v966) a + S1x768.size a ≤ S77x768.size a)
instance k0_chk139.dec : ∀ (v966 : BitVec 32), Decidable (k0_chk139 v966) := fun v966 => decidable_of_iff' _ (Iff.of_eq (k0_chk139.eq_1 v966))
theorem k0_off139_inb : ∀ (v966 : BitVec 32) (k0_hw139 : k0_chk139 v966), ∀ a, (k0_off139 v966) a + S1x768.size a ≤ S77x768.size a := fun v966 k0_hw139 => k0_hw139

def k0_off140 (v973 : BitVec 32) : Fin 2 → Nat :=
  let v974 : Index := Scalar.indexCast v973
  let c0_480 : Index := 0#32
  ![v974.toNat, 0]

def k0_chk140 (v973 : BitVec 32) : Prop :=
  (∀ a, (k0_off140 v973) a + S1x768.size a ≤ S77x768.size a)
instance k0_chk140.dec : ∀ (v973 : BitVec 32), Decidable (k0_chk140 v973) := fun v973 => decidable_of_iff' _ (Iff.of_eq (k0_chk140.eq_1 v973))
theorem k0_off140_inb : ∀ (v973 : BitVec 32) (k0_hw140 : k0_chk140 v973), ∀ a, (k0_off140 v973) a + S1x768.size a ≤ S77x768.size a := fun v973 k0_hw140 => k0_hw140

def k0_off141 (v980 : BitVec 32) : Fin 2 → Nat :=
  let v981 : Index := Scalar.indexCast v980
  let c0_484 : Index := 0#32
  ![v981.toNat, 0]

def k0_chk141 (v980 : BitVec 32) : Prop :=
  (∀ a, (k0_off141 v980) a + S1x768.size a ≤ S77x768.size a)
instance k0_chk141.dec : ∀ (v980 : BitVec 32), Decidable (k0_chk141 v980) := fun v980 => decidable_of_iff' _ (Iff.of_eq (k0_chk141.eq_1 v980))
theorem k0_off141_inb : ∀ (v980 : BitVec 32) (k0_hw141 : k0_chk141 v980), ∀ a, (k0_off141 v980) a + S1x768.size a ≤ S77x768.size a := fun v980 k0_hw141 => k0_hw141

def k0_off142 (v987 : BitVec 32) : Fin 2 → Nat :=
  let v988 : Index := Scalar.indexCast v987
  let c0_488 : Index := 0#32
  ![v988.toNat, 0]

def k0_chk142 (v987 : BitVec 32) : Prop :=
  (∀ a, (k0_off142 v987) a + S1x768.size a ≤ S77x768.size a)
instance k0_chk142.dec : ∀ (v987 : BitVec 32), Decidable (k0_chk142 v987) := fun v987 => decidable_of_iff' _ (Iff.of_eq (k0_chk142.eq_1 v987))
theorem k0_off142_inb : ∀ (v987 : BitVec 32) (k0_hw142 : k0_chk142 v987), ∀ a, (k0_off142 v987) a + S1x768.size a ≤ S77x768.size a := fun v987 k0_hw142 => k0_hw142

def k0_off143 (v994 : BitVec 32) : Fin 2 → Nat :=
  let v995 : Index := Scalar.indexCast v994
  let c0_492 : Index := 0#32
  ![v995.toNat, 0]

def k0_chk143 (v994 : BitVec 32) : Prop :=
  (∀ a, (k0_off143 v994) a + S1x768.size a ≤ S77x768.size a)
instance k0_chk143.dec : ∀ (v994 : BitVec 32), Decidable (k0_chk143 v994) := fun v994 => decidable_of_iff' _ (Iff.of_eq (k0_chk143.eq_1 v994))
theorem k0_off143_inb : ∀ (v994 : BitVec 32) (k0_hw143 : k0_chk143 v994), ∀ a, (k0_off143 v994) a + S1x768.size a ≤ S77x768.size a := fun v994 k0_hw143 => k0_hw143

def k0_off144 (v1001 : BitVec 32) : Fin 2 → Nat :=
  let v1002 : Index := Scalar.indexCast v1001
  let c0_496 : Index := 0#32
  ![v1002.toNat, 0]

def k0_chk144 (v1001 : BitVec 32) : Prop :=
  (∀ a, (k0_off144 v1001) a + S1x768.size a ≤ S77x768.size a)
instance k0_chk144.dec : ∀ (v1001 : BitVec 32), Decidable (k0_chk144 v1001) := fun v1001 => decidable_of_iff' _ (Iff.of_eq (k0_chk144.eq_1 v1001))
theorem k0_off144_inb : ∀ (v1001 : BitVec 32) (k0_hw144 : k0_chk144 v1001), ∀ a, (k0_off144 v1001) a + S1x768.size a ≤ S77x768.size a := fun v1001 k0_hw144 => k0_hw144

def k0_off145 (v1008 : BitVec 32) : Fin 2 → Nat :=
  let v1009 : Index := Scalar.indexCast v1008
  let c0_500 : Index := 0#32
  ![v1009.toNat, 0]

def k0_chk145 (v1008 : BitVec 32) : Prop :=
  (∀ a, (k0_off145 v1008) a + S1x768.size a ≤ S77x768.size a)
instance k0_chk145.dec : ∀ (v1008 : BitVec 32), Decidable (k0_chk145 v1008) := fun v1008 => decidable_of_iff' _ (Iff.of_eq (k0_chk145.eq_1 v1008))
theorem k0_off145_inb : ∀ (v1008 : BitVec 32) (k0_hw145 : k0_chk145 v1008), ∀ a, (k0_off145 v1008) a + S1x768.size a ≤ S77x768.size a := fun v1008 k0_hw145 => k0_hw145

def k0_off146 (v1015 : BitVec 32) : Fin 2 → Nat :=
  let v1016 : Index := Scalar.indexCast v1015
  let c0_504 : Index := 0#32
  ![v1016.toNat, 0]

def k0_chk146 (v1015 : BitVec 32) : Prop :=
  (∀ a, (k0_off146 v1015) a + S1x768.size a ≤ S77x768.size a)
instance k0_chk146.dec : ∀ (v1015 : BitVec 32), Decidable (k0_chk146 v1015) := fun v1015 => decidable_of_iff' _ (Iff.of_eq (k0_chk146.eq_1 v1015))
theorem k0_off146_inb : ∀ (v1015 : BitVec 32) (k0_hw146 : k0_chk146 v1015), ∀ a, (k0_off146 v1015) a + S1x768.size a ≤ S77x768.size a := fun v1015 k0_hw146 => k0_hw146

def k0_off147 (v1022 : BitVec 32) : Fin 2 → Nat :=
  let v1023 : Index := Scalar.indexCast v1022
  let c0_508 : Index := 0#32
  ![v1023.toNat, 0]

def k0_chk147 (v1022 : BitVec 32) : Prop :=
  (∀ a, (k0_off147 v1022) a + S1x768.size a ≤ S77x768.size a)
instance k0_chk147.dec : ∀ (v1022 : BitVec 32), Decidable (k0_chk147 v1022) := fun v1022 => decidable_of_iff' _ (Iff.of_eq (k0_chk147.eq_1 v1022))
theorem k0_off147_inb : ∀ (v1022 : BitVec 32) (k0_hw147 : k0_chk147 v1022), ∀ a, (k0_off147 v1022) a + S1x768.size a ≤ S77x768.size a := fun v1022 k0_hw147 => k0_hw147

def k0_off148 (v1029 : BitVec 32) : Fin 2 → Nat :=
  let v1030 : Index := Scalar.indexCast v1029
  let c0_512 : Index := 0#32
  ![v1030.toNat, 0]

def k0_chk148 (v1029 : BitVec 32) : Prop :=
  (∀ a, (k0_off148 v1029) a + S1x768.size a ≤ S77x768.size a)
instance k0_chk148.dec : ∀ (v1029 : BitVec 32), Decidable (k0_chk148 v1029) := fun v1029 => decidable_of_iff' _ (Iff.of_eq (k0_chk148.eq_1 v1029))
theorem k0_off148_inb : ∀ (v1029 : BitVec 32) (k0_hw148 : k0_chk148 v1029), ∀ a, (k0_off148 v1029) a + S1x768.size a ≤ S77x768.size a := fun v1029 k0_hw148 => k0_hw148

def k0_off149 (v1036 : BitVec 32) : Fin 2 → Nat :=
  let v1037 : Index := Scalar.indexCast v1036
  let c0_516 : Index := 0#32
  ![v1037.toNat, 0]

def k0_chk149 (v1036 : BitVec 32) : Prop :=
  (∀ a, (k0_off149 v1036) a + S1x768.size a ≤ S77x768.size a)
instance k0_chk149.dec : ∀ (v1036 : BitVec 32), Decidable (k0_chk149 v1036) := fun v1036 => decidable_of_iff' _ (Iff.of_eq (k0_chk149.eq_1 v1036))
theorem k0_off149_inb : ∀ (v1036 : BitVec 32) (k0_hw149 : k0_chk149 v1036), ∀ a, (k0_off149 v1036) a + S1x768.size a ≤ S77x768.size a := fun v1036 k0_hw149 => k0_hw149

def k0_off150 (v1043 : BitVec 32) : Fin 2 → Nat :=
  let v1044 : Index := Scalar.indexCast v1043
  let c0_520 : Index := 0#32
  ![v1044.toNat, 0]

def k0_chk150 (v1043 : BitVec 32) : Prop :=
  (∀ a, (k0_off150 v1043) a + S1x768.size a ≤ S77x768.size a)
instance k0_chk150.dec : ∀ (v1043 : BitVec 32), Decidable (k0_chk150 v1043) := fun v1043 => decidable_of_iff' _ (Iff.of_eq (k0_chk150.eq_1 v1043))
theorem k0_off150_inb : ∀ (v1043 : BitVec 32) (k0_hw150 : k0_chk150 v1043), ∀ a, (k0_off150 v1043) a + S1x768.size a ≤ S77x768.size a := fun v1043 k0_hw150 => k0_hw150

def k0_off151 (v1050 : BitVec 32) : Fin 2 → Nat :=
  let v1051 : Index := Scalar.indexCast v1050
  let c0_524 : Index := 0#32
  ![v1051.toNat, 0]

def k0_chk151 (v1050 : BitVec 32) : Prop :=
  (∀ a, (k0_off151 v1050) a + S1x768.size a ≤ S77x768.size a)
instance k0_chk151.dec : ∀ (v1050 : BitVec 32), Decidable (k0_chk151 v1050) := fun v1050 => decidable_of_iff' _ (Iff.of_eq (k0_chk151.eq_1 v1050))
theorem k0_off151_inb : ∀ (v1050 : BitVec 32) (k0_hw151 : k0_chk151 v1050), ∀ a, (k0_off151 v1050) a + S1x768.size a ≤ S77x768.size a := fun v1050 k0_hw151 => k0_hw151

def k0_off152 (v1057 : BitVec 32) : Fin 2 → Nat :=
  let v1058 : Index := Scalar.indexCast v1057
  let c0_528 : Index := 0#32
  ![v1058.toNat, 0]

def k0_chk152 (v1057 : BitVec 32) : Prop :=
  (∀ a, (k0_off152 v1057) a + S1x768.size a ≤ S77x768.size a)
instance k0_chk152.dec : ∀ (v1057 : BitVec 32), Decidable (k0_chk152 v1057) := fun v1057 => decidable_of_iff' _ (Iff.of_eq (k0_chk152.eq_1 v1057))
theorem k0_off152_inb : ∀ (v1057 : BitVec 32) (k0_hw152 : k0_chk152 v1057), ∀ a, (k0_off152 v1057) a + S1x768.size a ≤ S77x768.size a := fun v1057 k0_hw152 => k0_hw152

def k0_off153 (v1064 : BitVec 32) : Fin 2 → Nat :=
  let v1065 : Index := Scalar.indexCast v1064
  let c0_532 : Index := 0#32
  ![v1065.toNat, 0]

def k0_chk153 (v1064 : BitVec 32) : Prop :=
  (∀ a, (k0_off153 v1064) a + S1x768.size a ≤ S77x768.size a)
instance k0_chk153.dec : ∀ (v1064 : BitVec 32), Decidable (k0_chk153 v1064) := fun v1064 => decidable_of_iff' _ (Iff.of_eq (k0_chk153.eq_1 v1064))
theorem k0_off153_inb : ∀ (v1064 : BitVec 32) (k0_hw153 : k0_chk153 v1064), ∀ a, (k0_off153 v1064) a + S1x768.size a ≤ S77x768.size a := fun v1064 k0_hw153 => k0_hw153

def k0_off154 (v1071 : BitVec 32) : Fin 2 → Nat :=
  let v1072 : Index := Scalar.indexCast v1071
  let c0_536 : Index := 0#32
  ![v1072.toNat, 0]

def k0_chk154 (v1071 : BitVec 32) : Prop :=
  (∀ a, (k0_off154 v1071) a + S1x768.size a ≤ S77x768.size a)
instance k0_chk154.dec : ∀ (v1071 : BitVec 32), Decidable (k0_chk154 v1071) := fun v1071 => decidable_of_iff' _ (Iff.of_eq (k0_chk154.eq_1 v1071))
theorem k0_off154_inb : ∀ (v1071 : BitVec 32) (k0_hw154 : k0_chk154 v1071), ∀ a, (k0_off154 v1071) a + S1x768.size a ≤ S77x768.size a := fun v1071 k0_hw154 => k0_hw154

def k0_off155 (v0 : BitVec 32) : Fin 2 → Nat :=
  let c0_i32_542 : BitVec 32 := 0#32
  ![v0.toNat, 0]

def k0_chk1 (v0 : BitVec 32) : Prop :=
  (∀ a, (k0_off1 v0) a + S1x768.size a ≤ S49408x768.size a) ∧
  (∀ a, (k0_off155 v0) a + S1x768.size a ≤ S49408x768.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x768.size a ≤ S49408x768.size a := fun v0 k0_hw1 => k0_hw1.1
theorem k0_off155_inb : ∀ (v0 : BitVec 32) (k0_hw1 : k0_chk1 v0), ∀ a, (k0_off155 v0) a + S1x768.size a ≤ S49408x768.size a := fun v0 k0_hw1 => k0_hw1.2

def k0_off156 (v1 : BitVec 32) : Fin 2 → Nat :=
  let c0_i32_546 : BitVec 32 := 0#32
  ![v1.toNat, 0]

def k0_chk2 (v1 : BitVec 32) : Prop :=
  (∀ a, (k0_off2 v1) a + S1x768.size a ≤ S49408x768.size a) ∧
  (∀ a, (k0_off156 v1) a + S1x768.size a ≤ S49408x768.size a)
instance k0_chk2.dec : ∀ (v1 : BitVec 32), Decidable (k0_chk2 v1) := fun v1 => decidable_of_iff' _ (Iff.of_eq (k0_chk2.eq_1 v1))
theorem k0_off2_inb : ∀ (v1 : BitVec 32) (k0_hw2 : k0_chk2 v1), ∀ a, (k0_off2 v1) a + S1x768.size a ≤ S49408x768.size a := fun v1 k0_hw2 => k0_hw2.1
theorem k0_off156_inb : ∀ (v1 : BitVec 32) (k0_hw2 : k0_chk2 v1), ∀ a, (k0_off156 v1) a + S1x768.size a ≤ S49408x768.size a := fun v1 k0_hw2 => k0_hw2.2

def k0_off157 (v2 : BitVec 32) : Fin 2 → Nat :=
  let c0_i32_550 : BitVec 32 := 0#32
  ![v2.toNat, 0]

def k0_chk3 (v2 : BitVec 32) : Prop :=
  (∀ a, (k0_off3 v2) a + S1x768.size a ≤ S49408x768.size a) ∧
  (∀ a, (k0_off157 v2) a + S1x768.size a ≤ S49408x768.size a)
instance k0_chk3.dec : ∀ (v2 : BitVec 32), Decidable (k0_chk3 v2) := fun v2 => decidable_of_iff' _ (Iff.of_eq (k0_chk3.eq_1 v2))
theorem k0_off3_inb : ∀ (v2 : BitVec 32) (k0_hw3 : k0_chk3 v2), ∀ a, (k0_off3 v2) a + S1x768.size a ≤ S49408x768.size a := fun v2 k0_hw3 => k0_hw3.1
theorem k0_off157_inb : ∀ (v2 : BitVec 32) (k0_hw3 : k0_chk3 v2), ∀ a, (k0_off157 v2) a + S1x768.size a ≤ S49408x768.size a := fun v2 k0_hw3 => k0_hw3.2

def k0_off158 (v3 : BitVec 32) : Fin 2 → Nat :=
  let c0_i32_554 : BitVec 32 := 0#32
  ![v3.toNat, 0]

def k0_chk4 (v3 : BitVec 32) : Prop :=
  (∀ a, (k0_off4 v3) a + S1x768.size a ≤ S49408x768.size a) ∧
  (∀ a, (k0_off158 v3) a + S1x768.size a ≤ S49408x768.size a)
instance k0_chk4.dec : ∀ (v3 : BitVec 32), Decidable (k0_chk4 v3) := fun v3 => decidable_of_iff' _ (Iff.of_eq (k0_chk4.eq_1 v3))
theorem k0_off4_inb : ∀ (v3 : BitVec 32) (k0_hw4 : k0_chk4 v3), ∀ a, (k0_off4 v3) a + S1x768.size a ≤ S49408x768.size a := fun v3 k0_hw4 => k0_hw4.1
theorem k0_off158_inb : ∀ (v3 : BitVec 32) (k0_hw4 : k0_chk4 v3), ∀ a, (k0_off158 v3) a + S1x768.size a ≤ S49408x768.size a := fun v3 k0_hw4 => k0_hw4.2

def k0_off159 (v4 : BitVec 32) : Fin 2 → Nat :=
  let c0_i32_558 : BitVec 32 := 0#32
  ![v4.toNat, 0]

def k0_chk5 (v4 : BitVec 32) : Prop :=
  (∀ a, (k0_off5 v4) a + S1x768.size a ≤ S49408x768.size a) ∧
  (∀ a, (k0_off159 v4) a + S1x768.size a ≤ S49408x768.size a)
instance k0_chk5.dec : ∀ (v4 : BitVec 32), Decidable (k0_chk5 v4) := fun v4 => decidable_of_iff' _ (Iff.of_eq (k0_chk5.eq_1 v4))
theorem k0_off5_inb : ∀ (v4 : BitVec 32) (k0_hw5 : k0_chk5 v4), ∀ a, (k0_off5 v4) a + S1x768.size a ≤ S49408x768.size a := fun v4 k0_hw5 => k0_hw5.1
theorem k0_off159_inb : ∀ (v4 : BitVec 32) (k0_hw5 : k0_chk5 v4), ∀ a, (k0_off159 v4) a + S1x768.size a ≤ S49408x768.size a := fun v4 k0_hw5 => k0_hw5.2

def k0_off160 (v5 : BitVec 32) : Fin 2 → Nat :=
  let c0_i32_562 : BitVec 32 := 0#32
  ![v5.toNat, 0]

def k0_chk6 (v5 : BitVec 32) : Prop :=
  (∀ a, (k0_off6 v5) a + S1x768.size a ≤ S49408x768.size a) ∧
  (∀ a, (k0_off160 v5) a + S1x768.size a ≤ S49408x768.size a)
instance k0_chk6.dec : ∀ (v5 : BitVec 32), Decidable (k0_chk6 v5) := fun v5 => decidable_of_iff' _ (Iff.of_eq (k0_chk6.eq_1 v5))
theorem k0_off6_inb : ∀ (v5 : BitVec 32) (k0_hw6 : k0_chk6 v5), ∀ a, (k0_off6 v5) a + S1x768.size a ≤ S49408x768.size a := fun v5 k0_hw6 => k0_hw6.1
theorem k0_off160_inb : ∀ (v5 : BitVec 32) (k0_hw6 : k0_chk6 v5), ∀ a, (k0_off160 v5) a + S1x768.size a ≤ S49408x768.size a := fun v5 k0_hw6 => k0_hw6.2

def k0_off161 (v6 : BitVec 32) : Fin 2 → Nat :=
  let c0_i32_566 : BitVec 32 := 0#32
  ![v6.toNat, 0]

def k0_chk7 (v6 : BitVec 32) : Prop :=
  (∀ a, (k0_off7 v6) a + S1x768.size a ≤ S49408x768.size a) ∧
  (∀ a, (k0_off161 v6) a + S1x768.size a ≤ S49408x768.size a)
instance k0_chk7.dec : ∀ (v6 : BitVec 32), Decidable (k0_chk7 v6) := fun v6 => decidable_of_iff' _ (Iff.of_eq (k0_chk7.eq_1 v6))
theorem k0_off7_inb : ∀ (v6 : BitVec 32) (k0_hw7 : k0_chk7 v6), ∀ a, (k0_off7 v6) a + S1x768.size a ≤ S49408x768.size a := fun v6 k0_hw7 => k0_hw7.1
theorem k0_off161_inb : ∀ (v6 : BitVec 32) (k0_hw7 : k0_chk7 v6), ∀ a, (k0_off161 v6) a + S1x768.size a ≤ S49408x768.size a := fun v6 k0_hw7 => k0_hw7.2

def k0_off162 (v7 : BitVec 32) : Fin 2 → Nat :=
  let c0_i32_570 : BitVec 32 := 0#32
  ![v7.toNat, 0]

def k0_chk8 (v7 : BitVec 32) : Prop :=
  (∀ a, (k0_off8 v7) a + S1x768.size a ≤ S49408x768.size a) ∧
  (∀ a, (k0_off162 v7) a + S1x768.size a ≤ S49408x768.size a)
instance k0_chk8.dec : ∀ (v7 : BitVec 32), Decidable (k0_chk8 v7) := fun v7 => decidable_of_iff' _ (Iff.of_eq (k0_chk8.eq_1 v7))
theorem k0_off8_inb : ∀ (v7 : BitVec 32) (k0_hw8 : k0_chk8 v7), ∀ a, (k0_off8 v7) a + S1x768.size a ≤ S49408x768.size a := fun v7 k0_hw8 => k0_hw8.1
theorem k0_off162_inb : ∀ (v7 : BitVec 32) (k0_hw8 : k0_chk8 v7), ∀ a, (k0_off162 v7) a + S1x768.size a ≤ S49408x768.size a := fun v7 k0_hw8 => k0_hw8.2

def k0_off163 (v8 : BitVec 32) : Fin 2 → Nat :=
  let c0_i32_574 : BitVec 32 := 0#32
  ![v8.toNat, 0]

def k0_chk9 (v8 : BitVec 32) : Prop :=
  (∀ a, (k0_off9 v8) a + S1x768.size a ≤ S49408x768.size a) ∧
  (∀ a, (k0_off163 v8) a + S1x768.size a ≤ S49408x768.size a)
instance k0_chk9.dec : ∀ (v8 : BitVec 32), Decidable (k0_chk9 v8) := fun v8 => decidable_of_iff' _ (Iff.of_eq (k0_chk9.eq_1 v8))
theorem k0_off9_inb : ∀ (v8 : BitVec 32) (k0_hw9 : k0_chk9 v8), ∀ a, (k0_off9 v8) a + S1x768.size a ≤ S49408x768.size a := fun v8 k0_hw9 => k0_hw9.1
theorem k0_off163_inb : ∀ (v8 : BitVec 32) (k0_hw9 : k0_chk9 v8), ∀ a, (k0_off163 v8) a + S1x768.size a ≤ S49408x768.size a := fun v8 k0_hw9 => k0_hw9.2

def k0_off164 (v9 : BitVec 32) : Fin 2 → Nat :=
  let c0_i32_578 : BitVec 32 := 0#32
  ![v9.toNat, 0]

def k0_chk10 (v9 : BitVec 32) : Prop :=
  (∀ a, (k0_off10 v9) a + S1x768.size a ≤ S49408x768.size a) ∧
  (∀ a, (k0_off164 v9) a + S1x768.size a ≤ S49408x768.size a)
instance k0_chk10.dec : ∀ (v9 : BitVec 32), Decidable (k0_chk10 v9) := fun v9 => decidable_of_iff' _ (Iff.of_eq (k0_chk10.eq_1 v9))
theorem k0_off10_inb : ∀ (v9 : BitVec 32) (k0_hw10 : k0_chk10 v9), ∀ a, (k0_off10 v9) a + S1x768.size a ≤ S49408x768.size a := fun v9 k0_hw10 => k0_hw10.1
theorem k0_off164_inb : ∀ (v9 : BitVec 32) (k0_hw10 : k0_chk10 v9), ∀ a, (k0_off164 v9) a + S1x768.size a ≤ S49408x768.size a := fun v9 k0_hw10 => k0_hw10.2

def k0_off165 (v10 : BitVec 32) : Fin 2 → Nat :=
  let c0_i32_582 : BitVec 32 := 0#32
  ![v10.toNat, 0]

def k0_chk11 (v10 : BitVec 32) : Prop :=
  (∀ a, (k0_off11 v10) a + S1x768.size a ≤ S49408x768.size a) ∧
  (∀ a, (k0_off165 v10) a + S1x768.size a ≤ S49408x768.size a)
instance k0_chk11.dec : ∀ (v10 : BitVec 32), Decidable (k0_chk11 v10) := fun v10 => decidable_of_iff' _ (Iff.of_eq (k0_chk11.eq_1 v10))
theorem k0_off11_inb : ∀ (v10 : BitVec 32) (k0_hw11 : k0_chk11 v10), ∀ a, (k0_off11 v10) a + S1x768.size a ≤ S49408x768.size a := fun v10 k0_hw11 => k0_hw11.1
theorem k0_off165_inb : ∀ (v10 : BitVec 32) (k0_hw11 : k0_chk11 v10), ∀ a, (k0_off165 v10) a + S1x768.size a ≤ S49408x768.size a := fun v10 k0_hw11 => k0_hw11.2

def k0_off166 (v11 : BitVec 32) : Fin 2 → Nat :=
  let c0_i32_586 : BitVec 32 := 0#32
  ![v11.toNat, 0]

def k0_chk12 (v11 : BitVec 32) : Prop :=
  (∀ a, (k0_off12 v11) a + S1x768.size a ≤ S49408x768.size a) ∧
  (∀ a, (k0_off166 v11) a + S1x768.size a ≤ S49408x768.size a)
instance k0_chk12.dec : ∀ (v11 : BitVec 32), Decidable (k0_chk12 v11) := fun v11 => decidable_of_iff' _ (Iff.of_eq (k0_chk12.eq_1 v11))
theorem k0_off12_inb : ∀ (v11 : BitVec 32) (k0_hw12 : k0_chk12 v11), ∀ a, (k0_off12 v11) a + S1x768.size a ≤ S49408x768.size a := fun v11 k0_hw12 => k0_hw12.1
theorem k0_off166_inb : ∀ (v11 : BitVec 32) (k0_hw12 : k0_chk12 v11), ∀ a, (k0_off166 v11) a + S1x768.size a ≤ S49408x768.size a := fun v11 k0_hw12 => k0_hw12.2

def k0_off167 (v12 : BitVec 32) : Fin 2 → Nat :=
  let c0_i32_590 : BitVec 32 := 0#32
  ![v12.toNat, 0]

def k0_chk13 (v12 : BitVec 32) : Prop :=
  (∀ a, (k0_off13 v12) a + S1x768.size a ≤ S49408x768.size a) ∧
  (∀ a, (k0_off167 v12) a + S1x768.size a ≤ S49408x768.size a)
instance k0_chk13.dec : ∀ (v12 : BitVec 32), Decidable (k0_chk13 v12) := fun v12 => decidable_of_iff' _ (Iff.of_eq (k0_chk13.eq_1 v12))
theorem k0_off13_inb : ∀ (v12 : BitVec 32) (k0_hw13 : k0_chk13 v12), ∀ a, (k0_off13 v12) a + S1x768.size a ≤ S49408x768.size a := fun v12 k0_hw13 => k0_hw13.1
theorem k0_off167_inb : ∀ (v12 : BitVec 32) (k0_hw13 : k0_chk13 v12), ∀ a, (k0_off167 v12) a + S1x768.size a ≤ S49408x768.size a := fun v12 k0_hw13 => k0_hw13.2

def k0_off168 (v13 : BitVec 32) : Fin 2 → Nat :=
  let c0_i32_594 : BitVec 32 := 0#32
  ![v13.toNat, 0]

def k0_chk14 (v13 : BitVec 32) : Prop :=
  (∀ a, (k0_off14 v13) a + S1x768.size a ≤ S49408x768.size a) ∧
  (∀ a, (k0_off168 v13) a + S1x768.size a ≤ S49408x768.size a)
instance k0_chk14.dec : ∀ (v13 : BitVec 32), Decidable (k0_chk14 v13) := fun v13 => decidable_of_iff' _ (Iff.of_eq (k0_chk14.eq_1 v13))
theorem k0_off14_inb : ∀ (v13 : BitVec 32) (k0_hw14 : k0_chk14 v13), ∀ a, (k0_off14 v13) a + S1x768.size a ≤ S49408x768.size a := fun v13 k0_hw14 => k0_hw14.1
theorem k0_off168_inb : ∀ (v13 : BitVec 32) (k0_hw14 : k0_chk14 v13), ∀ a, (k0_off168 v13) a + S1x768.size a ≤ S49408x768.size a := fun v13 k0_hw14 => k0_hw14.2

def k0_off169 (v14 : BitVec 32) : Fin 2 → Nat :=
  let c0_i32_598 : BitVec 32 := 0#32
  ![v14.toNat, 0]

def k0_chk15 (v14 : BitVec 32) : Prop :=
  (∀ a, (k0_off15 v14) a + S1x768.size a ≤ S49408x768.size a) ∧
  (∀ a, (k0_off169 v14) a + S1x768.size a ≤ S49408x768.size a)
instance k0_chk15.dec : ∀ (v14 : BitVec 32), Decidable (k0_chk15 v14) := fun v14 => decidable_of_iff' _ (Iff.of_eq (k0_chk15.eq_1 v14))
theorem k0_off15_inb : ∀ (v14 : BitVec 32) (k0_hw15 : k0_chk15 v14), ∀ a, (k0_off15 v14) a + S1x768.size a ≤ S49408x768.size a := fun v14 k0_hw15 => k0_hw15.1
theorem k0_off169_inb : ∀ (v14 : BitVec 32) (k0_hw15 : k0_chk15 v14), ∀ a, (k0_off169 v14) a + S1x768.size a ≤ S49408x768.size a := fun v14 k0_hw15 => k0_hw15.2

def k0_off170 (v15 : BitVec 32) : Fin 2 → Nat :=
  let c0_i32_602 : BitVec 32 := 0#32
  ![v15.toNat, 0]

def k0_chk16 (v15 : BitVec 32) : Prop :=
  (∀ a, (k0_off16 v15) a + S1x768.size a ≤ S49408x768.size a) ∧
  (∀ a, (k0_off170 v15) a + S1x768.size a ≤ S49408x768.size a)
instance k0_chk16.dec : ∀ (v15 : BitVec 32), Decidable (k0_chk16 v15) := fun v15 => decidable_of_iff' _ (Iff.of_eq (k0_chk16.eq_1 v15))
theorem k0_off16_inb : ∀ (v15 : BitVec 32) (k0_hw16 : k0_chk16 v15), ∀ a, (k0_off16 v15) a + S1x768.size a ≤ S49408x768.size a := fun v15 k0_hw16 => k0_hw16.1
theorem k0_off170_inb : ∀ (v15 : BitVec 32) (k0_hw16 : k0_chk16 v15), ∀ a, (k0_off170 v15) a + S1x768.size a ≤ S49408x768.size a := fun v15 k0_hw16 => k0_hw16.2

def k0_off171 (v16 : BitVec 32) : Fin 2 → Nat :=
  let c0_i32_606 : BitVec 32 := 0#32
  ![v16.toNat, 0]

def k0_chk17 (v16 : BitVec 32) : Prop :=
  (∀ a, (k0_off17 v16) a + S1x768.size a ≤ S49408x768.size a) ∧
  (∀ a, (k0_off171 v16) a + S1x768.size a ≤ S49408x768.size a)
instance k0_chk17.dec : ∀ (v16 : BitVec 32), Decidable (k0_chk17 v16) := fun v16 => decidable_of_iff' _ (Iff.of_eq (k0_chk17.eq_1 v16))
theorem k0_off17_inb : ∀ (v16 : BitVec 32) (k0_hw17 : k0_chk17 v16), ∀ a, (k0_off17 v16) a + S1x768.size a ≤ S49408x768.size a := fun v16 k0_hw17 => k0_hw17.1
theorem k0_off171_inb : ∀ (v16 : BitVec 32) (k0_hw17 : k0_chk17 v16), ∀ a, (k0_off171 v16) a + S1x768.size a ≤ S49408x768.size a := fun v16 k0_hw17 => k0_hw17.2

def k0_off172 (v17 : BitVec 32) : Fin 2 → Nat :=
  let c0_i32_610 : BitVec 32 := 0#32
  ![v17.toNat, 0]

def k0_chk18 (v17 : BitVec 32) : Prop :=
  (∀ a, (k0_off18 v17) a + S1x768.size a ≤ S49408x768.size a) ∧
  (∀ a, (k0_off172 v17) a + S1x768.size a ≤ S49408x768.size a)
instance k0_chk18.dec : ∀ (v17 : BitVec 32), Decidable (k0_chk18 v17) := fun v17 => decidable_of_iff' _ (Iff.of_eq (k0_chk18.eq_1 v17))
theorem k0_off18_inb : ∀ (v17 : BitVec 32) (k0_hw18 : k0_chk18 v17), ∀ a, (k0_off18 v17) a + S1x768.size a ≤ S49408x768.size a := fun v17 k0_hw18 => k0_hw18.1
theorem k0_off172_inb : ∀ (v17 : BitVec 32) (k0_hw18 : k0_chk18 v17), ∀ a, (k0_off172 v17) a + S1x768.size a ≤ S49408x768.size a := fun v17 k0_hw18 => k0_hw18.2

def k0_off173 (v18 : BitVec 32) : Fin 2 → Nat :=
  let c0_i32_614 : BitVec 32 := 0#32
  ![v18.toNat, 0]

def k0_chk19 (v18 : BitVec 32) : Prop :=
  (∀ a, (k0_off19 v18) a + S1x768.size a ≤ S49408x768.size a) ∧
  (∀ a, (k0_off173 v18) a + S1x768.size a ≤ S49408x768.size a)
instance k0_chk19.dec : ∀ (v18 : BitVec 32), Decidable (k0_chk19 v18) := fun v18 => decidable_of_iff' _ (Iff.of_eq (k0_chk19.eq_1 v18))
theorem k0_off19_inb : ∀ (v18 : BitVec 32) (k0_hw19 : k0_chk19 v18), ∀ a, (k0_off19 v18) a + S1x768.size a ≤ S49408x768.size a := fun v18 k0_hw19 => k0_hw19.1
theorem k0_off173_inb : ∀ (v18 : BitVec 32) (k0_hw19 : k0_chk19 v18), ∀ a, (k0_off173 v18) a + S1x768.size a ≤ S49408x768.size a := fun v18 k0_hw19 => k0_hw19.2

def k0_off174 (v19 : BitVec 32) : Fin 2 → Nat :=
  let c0_i32_618 : BitVec 32 := 0#32
  ![v19.toNat, 0]

def k0_chk20 (v19 : BitVec 32) : Prop :=
  (∀ a, (k0_off20 v19) a + S1x768.size a ≤ S49408x768.size a) ∧
  (∀ a, (k0_off174 v19) a + S1x768.size a ≤ S49408x768.size a)
instance k0_chk20.dec : ∀ (v19 : BitVec 32), Decidable (k0_chk20 v19) := fun v19 => decidable_of_iff' _ (Iff.of_eq (k0_chk20.eq_1 v19))
theorem k0_off20_inb : ∀ (v19 : BitVec 32) (k0_hw20 : k0_chk20 v19), ∀ a, (k0_off20 v19) a + S1x768.size a ≤ S49408x768.size a := fun v19 k0_hw20 => k0_hw20.1
theorem k0_off174_inb : ∀ (v19 : BitVec 32) (k0_hw20 : k0_chk20 v19), ∀ a, (k0_off174 v19) a + S1x768.size a ≤ S49408x768.size a := fun v19 k0_hw20 => k0_hw20.2

def k0_off175 (v20 : BitVec 32) : Fin 2 → Nat :=
  let c0_i32_622 : BitVec 32 := 0#32
  ![v20.toNat, 0]

def k0_chk21 (v20 : BitVec 32) : Prop :=
  (∀ a, (k0_off21 v20) a + S1x768.size a ≤ S49408x768.size a) ∧
  (∀ a, (k0_off175 v20) a + S1x768.size a ≤ S49408x768.size a)
instance k0_chk21.dec : ∀ (v20 : BitVec 32), Decidable (k0_chk21 v20) := fun v20 => decidable_of_iff' _ (Iff.of_eq (k0_chk21.eq_1 v20))
theorem k0_off21_inb : ∀ (v20 : BitVec 32) (k0_hw21 : k0_chk21 v20), ∀ a, (k0_off21 v20) a + S1x768.size a ≤ S49408x768.size a := fun v20 k0_hw21 => k0_hw21.1
theorem k0_off175_inb : ∀ (v20 : BitVec 32) (k0_hw21 : k0_chk21 v20), ∀ a, (k0_off175 v20) a + S1x768.size a ≤ S49408x768.size a := fun v20 k0_hw21 => k0_hw21.2

def k0_off176 (v21 : BitVec 32) : Fin 2 → Nat :=
  let c0_i32_626 : BitVec 32 := 0#32
  ![v21.toNat, 0]

def k0_chk22 (v21 : BitVec 32) : Prop :=
  (∀ a, (k0_off22 v21) a + S1x768.size a ≤ S49408x768.size a) ∧
  (∀ a, (k0_off176 v21) a + S1x768.size a ≤ S49408x768.size a)
instance k0_chk22.dec : ∀ (v21 : BitVec 32), Decidable (k0_chk22 v21) := fun v21 => decidable_of_iff' _ (Iff.of_eq (k0_chk22.eq_1 v21))
theorem k0_off22_inb : ∀ (v21 : BitVec 32) (k0_hw22 : k0_chk22 v21), ∀ a, (k0_off22 v21) a + S1x768.size a ≤ S49408x768.size a := fun v21 k0_hw22 => k0_hw22.1
theorem k0_off176_inb : ∀ (v21 : BitVec 32) (k0_hw22 : k0_chk22 v21), ∀ a, (k0_off176 v21) a + S1x768.size a ≤ S49408x768.size a := fun v21 k0_hw22 => k0_hw22.2

def k0_off177 (v22 : BitVec 32) : Fin 2 → Nat :=
  let c0_i32_630 : BitVec 32 := 0#32
  ![v22.toNat, 0]

def k0_chk23 (v22 : BitVec 32) : Prop :=
  (∀ a, (k0_off23 v22) a + S1x768.size a ≤ S49408x768.size a) ∧
  (∀ a, (k0_off177 v22) a + S1x768.size a ≤ S49408x768.size a)
instance k0_chk23.dec : ∀ (v22 : BitVec 32), Decidable (k0_chk23 v22) := fun v22 => decidable_of_iff' _ (Iff.of_eq (k0_chk23.eq_1 v22))
theorem k0_off23_inb : ∀ (v22 : BitVec 32) (k0_hw23 : k0_chk23 v22), ∀ a, (k0_off23 v22) a + S1x768.size a ≤ S49408x768.size a := fun v22 k0_hw23 => k0_hw23.1
theorem k0_off177_inb : ∀ (v22 : BitVec 32) (k0_hw23 : k0_chk23 v22), ∀ a, (k0_off177 v22) a + S1x768.size a ≤ S49408x768.size a := fun v22 k0_hw23 => k0_hw23.2

def k0_off178 (v23 : BitVec 32) : Fin 2 → Nat :=
  let c0_i32_634 : BitVec 32 := 0#32
  ![v23.toNat, 0]

def k0_chk24 (v23 : BitVec 32) : Prop :=
  (∀ a, (k0_off24 v23) a + S1x768.size a ≤ S49408x768.size a) ∧
  (∀ a, (k0_off178 v23) a + S1x768.size a ≤ S49408x768.size a)
instance k0_chk24.dec : ∀ (v23 : BitVec 32), Decidable (k0_chk24 v23) := fun v23 => decidable_of_iff' _ (Iff.of_eq (k0_chk24.eq_1 v23))
theorem k0_off24_inb : ∀ (v23 : BitVec 32) (k0_hw24 : k0_chk24 v23), ∀ a, (k0_off24 v23) a + S1x768.size a ≤ S49408x768.size a := fun v23 k0_hw24 => k0_hw24.1
theorem k0_off178_inb : ∀ (v23 : BitVec 32) (k0_hw24 : k0_chk24 v23), ∀ a, (k0_off178 v23) a + S1x768.size a ≤ S49408x768.size a := fun v23 k0_hw24 => k0_hw24.2

def k0_off179 (v24 : BitVec 32) : Fin 2 → Nat :=
  let c0_i32_638 : BitVec 32 := 0#32
  ![v24.toNat, 0]

def k0_chk25 (v24 : BitVec 32) : Prop :=
  (∀ a, (k0_off25 v24) a + S1x768.size a ≤ S49408x768.size a) ∧
  (∀ a, (k0_off179 v24) a + S1x768.size a ≤ S49408x768.size a)
instance k0_chk25.dec : ∀ (v24 : BitVec 32), Decidable (k0_chk25 v24) := fun v24 => decidable_of_iff' _ (Iff.of_eq (k0_chk25.eq_1 v24))
theorem k0_off25_inb : ∀ (v24 : BitVec 32) (k0_hw25 : k0_chk25 v24), ∀ a, (k0_off25 v24) a + S1x768.size a ≤ S49408x768.size a := fun v24 k0_hw25 => k0_hw25.1
theorem k0_off179_inb : ∀ (v24 : BitVec 32) (k0_hw25 : k0_chk25 v24), ∀ a, (k0_off179 v24) a + S1x768.size a ≤ S49408x768.size a := fun v24 k0_hw25 => k0_hw25.2

def k0_off180 (v25 : BitVec 32) : Fin 2 → Nat :=
  let c0_i32_642 : BitVec 32 := 0#32
  ![v25.toNat, 0]

def k0_chk26 (v25 : BitVec 32) : Prop :=
  (∀ a, (k0_off26 v25) a + S1x768.size a ≤ S49408x768.size a) ∧
  (∀ a, (k0_off180 v25) a + S1x768.size a ≤ S49408x768.size a)
instance k0_chk26.dec : ∀ (v25 : BitVec 32), Decidable (k0_chk26 v25) := fun v25 => decidable_of_iff' _ (Iff.of_eq (k0_chk26.eq_1 v25))
theorem k0_off26_inb : ∀ (v25 : BitVec 32) (k0_hw26 : k0_chk26 v25), ∀ a, (k0_off26 v25) a + S1x768.size a ≤ S49408x768.size a := fun v25 k0_hw26 => k0_hw26.1
theorem k0_off180_inb : ∀ (v25 : BitVec 32) (k0_hw26 : k0_chk26 v25), ∀ a, (k0_off180 v25) a + S1x768.size a ≤ S49408x768.size a := fun v25 k0_hw26 => k0_hw26.2

def k0_off181 (v26 : BitVec 32) : Fin 2 → Nat :=
  let c0_i32_646 : BitVec 32 := 0#32
  ![v26.toNat, 0]

def k0_chk27 (v26 : BitVec 32) : Prop :=
  (∀ a, (k0_off27 v26) a + S1x768.size a ≤ S49408x768.size a) ∧
  (∀ a, (k0_off181 v26) a + S1x768.size a ≤ S49408x768.size a)
instance k0_chk27.dec : ∀ (v26 : BitVec 32), Decidable (k0_chk27 v26) := fun v26 => decidable_of_iff' _ (Iff.of_eq (k0_chk27.eq_1 v26))
theorem k0_off27_inb : ∀ (v26 : BitVec 32) (k0_hw27 : k0_chk27 v26), ∀ a, (k0_off27 v26) a + S1x768.size a ≤ S49408x768.size a := fun v26 k0_hw27 => k0_hw27.1
theorem k0_off181_inb : ∀ (v26 : BitVec 32) (k0_hw27 : k0_chk27 v26), ∀ a, (k0_off181 v26) a + S1x768.size a ≤ S49408x768.size a := fun v26 k0_hw27 => k0_hw27.2

def k0_off182 (v27 : BitVec 32) : Fin 2 → Nat :=
  let c0_i32_650 : BitVec 32 := 0#32
  ![v27.toNat, 0]

def k0_chk28 (v27 : BitVec 32) : Prop :=
  (∀ a, (k0_off28 v27) a + S1x768.size a ≤ S49408x768.size a) ∧
  (∀ a, (k0_off182 v27) a + S1x768.size a ≤ S49408x768.size a)
instance k0_chk28.dec : ∀ (v27 : BitVec 32), Decidable (k0_chk28 v27) := fun v27 => decidable_of_iff' _ (Iff.of_eq (k0_chk28.eq_1 v27))
theorem k0_off28_inb : ∀ (v27 : BitVec 32) (k0_hw28 : k0_chk28 v27), ∀ a, (k0_off28 v27) a + S1x768.size a ≤ S49408x768.size a := fun v27 k0_hw28 => k0_hw28.1
theorem k0_off182_inb : ∀ (v27 : BitVec 32) (k0_hw28 : k0_chk28 v27), ∀ a, (k0_off182 v27) a + S1x768.size a ≤ S49408x768.size a := fun v27 k0_hw28 => k0_hw28.2

def k0_off183 (v28 : BitVec 32) : Fin 2 → Nat :=
  let c0_i32_654 : BitVec 32 := 0#32
  ![v28.toNat, 0]

def k0_chk29 (v28 : BitVec 32) : Prop :=
  (∀ a, (k0_off29 v28) a + S1x768.size a ≤ S49408x768.size a) ∧
  (∀ a, (k0_off183 v28) a + S1x768.size a ≤ S49408x768.size a)
instance k0_chk29.dec : ∀ (v28 : BitVec 32), Decidable (k0_chk29 v28) := fun v28 => decidable_of_iff' _ (Iff.of_eq (k0_chk29.eq_1 v28))
theorem k0_off29_inb : ∀ (v28 : BitVec 32) (k0_hw29 : k0_chk29 v28), ∀ a, (k0_off29 v28) a + S1x768.size a ≤ S49408x768.size a := fun v28 k0_hw29 => k0_hw29.1
theorem k0_off183_inb : ∀ (v28 : BitVec 32) (k0_hw29 : k0_chk29 v28), ∀ a, (k0_off183 v28) a + S1x768.size a ≤ S49408x768.size a := fun v28 k0_hw29 => k0_hw29.2

def k0_off184 (v29 : BitVec 32) : Fin 2 → Nat :=
  let c0_i32_658 : BitVec 32 := 0#32
  ![v29.toNat, 0]

def k0_chk30 (v29 : BitVec 32) : Prop :=
  (∀ a, (k0_off30 v29) a + S1x768.size a ≤ S49408x768.size a) ∧
  (∀ a, (k0_off184 v29) a + S1x768.size a ≤ S49408x768.size a)
instance k0_chk30.dec : ∀ (v29 : BitVec 32), Decidable (k0_chk30 v29) := fun v29 => decidable_of_iff' _ (Iff.of_eq (k0_chk30.eq_1 v29))
theorem k0_off30_inb : ∀ (v29 : BitVec 32) (k0_hw30 : k0_chk30 v29), ∀ a, (k0_off30 v29) a + S1x768.size a ≤ S49408x768.size a := fun v29 k0_hw30 => k0_hw30.1
theorem k0_off184_inb : ∀ (v29 : BitVec 32) (k0_hw30 : k0_chk30 v29), ∀ a, (k0_off184 v29) a + S1x768.size a ≤ S49408x768.size a := fun v29 k0_hw30 => k0_hw30.2

def k0_off185 (v30 : BitVec 32) : Fin 2 → Nat :=
  let c0_i32_662 : BitVec 32 := 0#32
  ![v30.toNat, 0]

def k0_chk31 (v30 : BitVec 32) : Prop :=
  (∀ a, (k0_off31 v30) a + S1x768.size a ≤ S49408x768.size a) ∧
  (∀ a, (k0_off185 v30) a + S1x768.size a ≤ S49408x768.size a)
instance k0_chk31.dec : ∀ (v30 : BitVec 32), Decidable (k0_chk31 v30) := fun v30 => decidable_of_iff' _ (Iff.of_eq (k0_chk31.eq_1 v30))
theorem k0_off31_inb : ∀ (v30 : BitVec 32) (k0_hw31 : k0_chk31 v30), ∀ a, (k0_off31 v30) a + S1x768.size a ≤ S49408x768.size a := fun v30 k0_hw31 => k0_hw31.1
theorem k0_off185_inb : ∀ (v30 : BitVec 32) (k0_hw31 : k0_chk31 v30), ∀ a, (k0_off185 v30) a + S1x768.size a ≤ S49408x768.size a := fun v30 k0_hw31 => k0_hw31.2

def k0_off186 (v31 : BitVec 32) : Fin 2 → Nat :=
  let c0_i32_666 : BitVec 32 := 0#32
  ![v31.toNat, 0]

def k0_chk32 (v31 : BitVec 32) : Prop :=
  (∀ a, (k0_off32 v31) a + S1x768.size a ≤ S49408x768.size a) ∧
  (∀ a, (k0_off186 v31) a + S1x768.size a ≤ S49408x768.size a)
instance k0_chk32.dec : ∀ (v31 : BitVec 32), Decidable (k0_chk32 v31) := fun v31 => decidable_of_iff' _ (Iff.of_eq (k0_chk32.eq_1 v31))
theorem k0_off32_inb : ∀ (v31 : BitVec 32) (k0_hw32 : k0_chk32 v31), ∀ a, (k0_off32 v31) a + S1x768.size a ≤ S49408x768.size a := fun v31 k0_hw32 => k0_hw32.1
theorem k0_off186_inb : ∀ (v31 : BitVec 32) (k0_hw32 : k0_chk32 v31), ∀ a, (k0_off186 v31) a + S1x768.size a ≤ S49408x768.size a := fun v31 k0_hw32 => k0_hw32.2

def k0_off187 (v32 : BitVec 32) : Fin 2 → Nat :=
  let c0_i32_670 : BitVec 32 := 0#32
  ![v32.toNat, 0]

def k0_chk33 (v32 : BitVec 32) : Prop :=
  (∀ a, (k0_off33 v32) a + S1x768.size a ≤ S49408x768.size a) ∧
  (∀ a, (k0_off187 v32) a + S1x768.size a ≤ S49408x768.size a)
instance k0_chk33.dec : ∀ (v32 : BitVec 32), Decidable (k0_chk33 v32) := fun v32 => decidable_of_iff' _ (Iff.of_eq (k0_chk33.eq_1 v32))
theorem k0_off33_inb : ∀ (v32 : BitVec 32) (k0_hw33 : k0_chk33 v32), ∀ a, (k0_off33 v32) a + S1x768.size a ≤ S49408x768.size a := fun v32 k0_hw33 => k0_hw33.1
theorem k0_off187_inb : ∀ (v32 : BitVec 32) (k0_hw33 : k0_chk33 v32), ∀ a, (k0_off187 v32) a + S1x768.size a ≤ S49408x768.size a := fun v32 k0_hw33 => k0_hw33.2

def k0_off188 (v33 : BitVec 32) : Fin 2 → Nat :=
  let c0_i32_674 : BitVec 32 := 0#32
  ![v33.toNat, 0]

def k0_chk34 (v33 : BitVec 32) : Prop :=
  (∀ a, (k0_off34 v33) a + S1x768.size a ≤ S49408x768.size a) ∧
  (∀ a, (k0_off188 v33) a + S1x768.size a ≤ S49408x768.size a)
instance k0_chk34.dec : ∀ (v33 : BitVec 32), Decidable (k0_chk34 v33) := fun v33 => decidable_of_iff' _ (Iff.of_eq (k0_chk34.eq_1 v33))
theorem k0_off34_inb : ∀ (v33 : BitVec 32) (k0_hw34 : k0_chk34 v33), ∀ a, (k0_off34 v33) a + S1x768.size a ≤ S49408x768.size a := fun v33 k0_hw34 => k0_hw34.1
theorem k0_off188_inb : ∀ (v33 : BitVec 32) (k0_hw34 : k0_chk34 v33), ∀ a, (k0_off188 v33) a + S1x768.size a ≤ S49408x768.size a := fun v33 k0_hw34 => k0_hw34.2

def k0_off189 (v34 : BitVec 32) : Fin 2 → Nat :=
  let c0_i32_678 : BitVec 32 := 0#32
  ![v34.toNat, 0]

def k0_chk35 (v34 : BitVec 32) : Prop :=
  (∀ a, (k0_off35 v34) a + S1x768.size a ≤ S49408x768.size a) ∧
  (∀ a, (k0_off189 v34) a + S1x768.size a ≤ S49408x768.size a)
instance k0_chk35.dec : ∀ (v34 : BitVec 32), Decidable (k0_chk35 v34) := fun v34 => decidable_of_iff' _ (Iff.of_eq (k0_chk35.eq_1 v34))
theorem k0_off35_inb : ∀ (v34 : BitVec 32) (k0_hw35 : k0_chk35 v34), ∀ a, (k0_off35 v34) a + S1x768.size a ≤ S49408x768.size a := fun v34 k0_hw35 => k0_hw35.1
theorem k0_off189_inb : ∀ (v34 : BitVec 32) (k0_hw35 : k0_chk35 v34), ∀ a, (k0_off189 v34) a + S1x768.size a ≤ S49408x768.size a := fun v34 k0_hw35 => k0_hw35.2

def k0_off190 (v35 : BitVec 32) : Fin 2 → Nat :=
  let c0_i32_682 : BitVec 32 := 0#32
  ![v35.toNat, 0]

def k0_chk36 (v35 : BitVec 32) : Prop :=
  (∀ a, (k0_off36 v35) a + S1x768.size a ≤ S49408x768.size a) ∧
  (∀ a, (k0_off190 v35) a + S1x768.size a ≤ S49408x768.size a)
instance k0_chk36.dec : ∀ (v35 : BitVec 32), Decidable (k0_chk36 v35) := fun v35 => decidable_of_iff' _ (Iff.of_eq (k0_chk36.eq_1 v35))
theorem k0_off36_inb : ∀ (v35 : BitVec 32) (k0_hw36 : k0_chk36 v35), ∀ a, (k0_off36 v35) a + S1x768.size a ≤ S49408x768.size a := fun v35 k0_hw36 => k0_hw36.1
theorem k0_off190_inb : ∀ (v35 : BitVec 32) (k0_hw36 : k0_chk36 v35), ∀ a, (k0_off190 v35) a + S1x768.size a ≤ S49408x768.size a := fun v35 k0_hw36 => k0_hw36.2

def k0_off191 (v36 : BitVec 32) : Fin 2 → Nat :=
  let c0_i32_686 : BitVec 32 := 0#32
  ![v36.toNat, 0]

def k0_chk37 (v36 : BitVec 32) : Prop :=
  (∀ a, (k0_off37 v36) a + S1x768.size a ≤ S49408x768.size a) ∧
  (∀ a, (k0_off191 v36) a + S1x768.size a ≤ S49408x768.size a)
instance k0_chk37.dec : ∀ (v36 : BitVec 32), Decidable (k0_chk37 v36) := fun v36 => decidable_of_iff' _ (Iff.of_eq (k0_chk37.eq_1 v36))
theorem k0_off37_inb : ∀ (v36 : BitVec 32) (k0_hw37 : k0_chk37 v36), ∀ a, (k0_off37 v36) a + S1x768.size a ≤ S49408x768.size a := fun v36 k0_hw37 => k0_hw37.1
theorem k0_off191_inb : ∀ (v36 : BitVec 32) (k0_hw37 : k0_chk37 v36), ∀ a, (k0_off191 v36) a + S1x768.size a ≤ S49408x768.size a := fun v36 k0_hw37 => k0_hw37.2

def k0_off192 (v37 : BitVec 32) : Fin 2 → Nat :=
  let c0_i32_690 : BitVec 32 := 0#32
  ![v37.toNat, 0]

def k0_chk38 (v37 : BitVec 32) : Prop :=
  (∀ a, (k0_off38 v37) a + S1x768.size a ≤ S49408x768.size a) ∧
  (∀ a, (k0_off192 v37) a + S1x768.size a ≤ S49408x768.size a)
instance k0_chk38.dec : ∀ (v37 : BitVec 32), Decidable (k0_chk38 v37) := fun v37 => decidable_of_iff' _ (Iff.of_eq (k0_chk38.eq_1 v37))
theorem k0_off38_inb : ∀ (v37 : BitVec 32) (k0_hw38 : k0_chk38 v37), ∀ a, (k0_off38 v37) a + S1x768.size a ≤ S49408x768.size a := fun v37 k0_hw38 => k0_hw38.1
theorem k0_off192_inb : ∀ (v37 : BitVec 32) (k0_hw38 : k0_chk38 v37), ∀ a, (k0_off192 v37) a + S1x768.size a ≤ S49408x768.size a := fun v37 k0_hw38 => k0_hw38.2

def k0_off193 (v38 : BitVec 32) : Fin 2 → Nat :=
  let c0_i32_694 : BitVec 32 := 0#32
  ![v38.toNat, 0]

def k0_chk39 (v38 : BitVec 32) : Prop :=
  (∀ a, (k0_off39 v38) a + S1x768.size a ≤ S49408x768.size a) ∧
  (∀ a, (k0_off193 v38) a + S1x768.size a ≤ S49408x768.size a)
instance k0_chk39.dec : ∀ (v38 : BitVec 32), Decidable (k0_chk39 v38) := fun v38 => decidable_of_iff' _ (Iff.of_eq (k0_chk39.eq_1 v38))
theorem k0_off39_inb : ∀ (v38 : BitVec 32) (k0_hw39 : k0_chk39 v38), ∀ a, (k0_off39 v38) a + S1x768.size a ≤ S49408x768.size a := fun v38 k0_hw39 => k0_hw39.1
theorem k0_off193_inb : ∀ (v38 : BitVec 32) (k0_hw39 : k0_chk39 v38), ∀ a, (k0_off193 v38) a + S1x768.size a ≤ S49408x768.size a := fun v38 k0_hw39 => k0_hw39.2

def k0_off194 (v39 : BitVec 32) : Fin 2 → Nat :=
  let c0_i32_698 : BitVec 32 := 0#32
  ![v39.toNat, 0]

def k0_chk40 (v39 : BitVec 32) : Prop :=
  (∀ a, (k0_off40 v39) a + S1x768.size a ≤ S49408x768.size a) ∧
  (∀ a, (k0_off194 v39) a + S1x768.size a ≤ S49408x768.size a)
instance k0_chk40.dec : ∀ (v39 : BitVec 32), Decidable (k0_chk40 v39) := fun v39 => decidable_of_iff' _ (Iff.of_eq (k0_chk40.eq_1 v39))
theorem k0_off40_inb : ∀ (v39 : BitVec 32) (k0_hw40 : k0_chk40 v39), ∀ a, (k0_off40 v39) a + S1x768.size a ≤ S49408x768.size a := fun v39 k0_hw40 => k0_hw40.1
theorem k0_off194_inb : ∀ (v39 : BitVec 32) (k0_hw40 : k0_chk40 v39), ∀ a, (k0_off194 v39) a + S1x768.size a ≤ S49408x768.size a := fun v39 k0_hw40 => k0_hw40.2

def k0_off195 (v40 : BitVec 32) : Fin 2 → Nat :=
  let c0_i32_702 : BitVec 32 := 0#32
  ![v40.toNat, 0]

def k0_chk41 (v40 : BitVec 32) : Prop :=
  (∀ a, (k0_off41 v40) a + S1x768.size a ≤ S49408x768.size a) ∧
  (∀ a, (k0_off195 v40) a + S1x768.size a ≤ S49408x768.size a)
instance k0_chk41.dec : ∀ (v40 : BitVec 32), Decidable (k0_chk41 v40) := fun v40 => decidable_of_iff' _ (Iff.of_eq (k0_chk41.eq_1 v40))
theorem k0_off41_inb : ∀ (v40 : BitVec 32) (k0_hw41 : k0_chk41 v40), ∀ a, (k0_off41 v40) a + S1x768.size a ≤ S49408x768.size a := fun v40 k0_hw41 => k0_hw41.1
theorem k0_off195_inb : ∀ (v40 : BitVec 32) (k0_hw41 : k0_chk41 v40), ∀ a, (k0_off195 v40) a + S1x768.size a ≤ S49408x768.size a := fun v40 k0_hw41 => k0_hw41.2

def k0_off196 (v41 : BitVec 32) : Fin 2 → Nat :=
  let c0_i32_706 : BitVec 32 := 0#32
  ![v41.toNat, 0]

def k0_chk42 (v41 : BitVec 32) : Prop :=
  (∀ a, (k0_off42 v41) a + S1x768.size a ≤ S49408x768.size a) ∧
  (∀ a, (k0_off196 v41) a + S1x768.size a ≤ S49408x768.size a)
instance k0_chk42.dec : ∀ (v41 : BitVec 32), Decidable (k0_chk42 v41) := fun v41 => decidable_of_iff' _ (Iff.of_eq (k0_chk42.eq_1 v41))
theorem k0_off42_inb : ∀ (v41 : BitVec 32) (k0_hw42 : k0_chk42 v41), ∀ a, (k0_off42 v41) a + S1x768.size a ≤ S49408x768.size a := fun v41 k0_hw42 => k0_hw42.1
theorem k0_off196_inb : ∀ (v41 : BitVec 32) (k0_hw42 : k0_chk42 v41), ∀ a, (k0_off196 v41) a + S1x768.size a ≤ S49408x768.size a := fun v41 k0_hw42 => k0_hw42.2

def k0_off197 (v42 : BitVec 32) : Fin 2 → Nat :=
  let c0_i32_710 : BitVec 32 := 0#32
  ![v42.toNat, 0]

def k0_chk43 (v42 : BitVec 32) : Prop :=
  (∀ a, (k0_off43 v42) a + S1x768.size a ≤ S49408x768.size a) ∧
  (∀ a, (k0_off197 v42) a + S1x768.size a ≤ S49408x768.size a)
instance k0_chk43.dec : ∀ (v42 : BitVec 32), Decidable (k0_chk43 v42) := fun v42 => decidable_of_iff' _ (Iff.of_eq (k0_chk43.eq_1 v42))
theorem k0_off43_inb : ∀ (v42 : BitVec 32) (k0_hw43 : k0_chk43 v42), ∀ a, (k0_off43 v42) a + S1x768.size a ≤ S49408x768.size a := fun v42 k0_hw43 => k0_hw43.1
theorem k0_off197_inb : ∀ (v42 : BitVec 32) (k0_hw43 : k0_chk43 v42), ∀ a, (k0_off197 v42) a + S1x768.size a ≤ S49408x768.size a := fun v42 k0_hw43 => k0_hw43.2

def k0_off198 (v43 : BitVec 32) : Fin 2 → Nat :=
  let c0_i32_714 : BitVec 32 := 0#32
  ![v43.toNat, 0]

def k0_chk44 (v43 : BitVec 32) : Prop :=
  (∀ a, (k0_off44 v43) a + S1x768.size a ≤ S49408x768.size a) ∧
  (∀ a, (k0_off198 v43) a + S1x768.size a ≤ S49408x768.size a)
instance k0_chk44.dec : ∀ (v43 : BitVec 32), Decidable (k0_chk44 v43) := fun v43 => decidable_of_iff' _ (Iff.of_eq (k0_chk44.eq_1 v43))
theorem k0_off44_inb : ∀ (v43 : BitVec 32) (k0_hw44 : k0_chk44 v43), ∀ a, (k0_off44 v43) a + S1x768.size a ≤ S49408x768.size a := fun v43 k0_hw44 => k0_hw44.1
theorem k0_off198_inb : ∀ (v43 : BitVec 32) (k0_hw44 : k0_chk44 v43), ∀ a, (k0_off198 v43) a + S1x768.size a ≤ S49408x768.size a := fun v43 k0_hw44 => k0_hw44.2

def k0_off199 (v44 : BitVec 32) : Fin 2 → Nat :=
  let c0_i32_718 : BitVec 32 := 0#32
  ![v44.toNat, 0]

def k0_chk45 (v44 : BitVec 32) : Prop :=
  (∀ a, (k0_off45 v44) a + S1x768.size a ≤ S49408x768.size a) ∧
  (∀ a, (k0_off199 v44) a + S1x768.size a ≤ S49408x768.size a)
instance k0_chk45.dec : ∀ (v44 : BitVec 32), Decidable (k0_chk45 v44) := fun v44 => decidable_of_iff' _ (Iff.of_eq (k0_chk45.eq_1 v44))
theorem k0_off45_inb : ∀ (v44 : BitVec 32) (k0_hw45 : k0_chk45 v44), ∀ a, (k0_off45 v44) a + S1x768.size a ≤ S49408x768.size a := fun v44 k0_hw45 => k0_hw45.1
theorem k0_off199_inb : ∀ (v44 : BitVec 32) (k0_hw45 : k0_chk45 v44), ∀ a, (k0_off199 v44) a + S1x768.size a ≤ S49408x768.size a := fun v44 k0_hw45 => k0_hw45.2

def k0_off200 (v45 : BitVec 32) : Fin 2 → Nat :=
  let c0_i32_722 : BitVec 32 := 0#32
  ![v45.toNat, 0]

def k0_chk46 (v45 : BitVec 32) : Prop :=
  (∀ a, (k0_off46 v45) a + S1x768.size a ≤ S49408x768.size a) ∧
  (∀ a, (k0_off200 v45) a + S1x768.size a ≤ S49408x768.size a)
instance k0_chk46.dec : ∀ (v45 : BitVec 32), Decidable (k0_chk46 v45) := fun v45 => decidable_of_iff' _ (Iff.of_eq (k0_chk46.eq_1 v45))
theorem k0_off46_inb : ∀ (v45 : BitVec 32) (k0_hw46 : k0_chk46 v45), ∀ a, (k0_off46 v45) a + S1x768.size a ≤ S49408x768.size a := fun v45 k0_hw46 => k0_hw46.1
theorem k0_off200_inb : ∀ (v45 : BitVec 32) (k0_hw46 : k0_chk46 v45), ∀ a, (k0_off200 v45) a + S1x768.size a ≤ S49408x768.size a := fun v45 k0_hw46 => k0_hw46.2

def k0_off201 (v46 : BitVec 32) : Fin 2 → Nat :=
  let c0_i32_726 : BitVec 32 := 0#32
  ![v46.toNat, 0]

def k0_chk47 (v46 : BitVec 32) : Prop :=
  (∀ a, (k0_off47 v46) a + S1x768.size a ≤ S49408x768.size a) ∧
  (∀ a, (k0_off201 v46) a + S1x768.size a ≤ S49408x768.size a)
instance k0_chk47.dec : ∀ (v46 : BitVec 32), Decidable (k0_chk47 v46) := fun v46 => decidable_of_iff' _ (Iff.of_eq (k0_chk47.eq_1 v46))
theorem k0_off47_inb : ∀ (v46 : BitVec 32) (k0_hw47 : k0_chk47 v46), ∀ a, (k0_off47 v46) a + S1x768.size a ≤ S49408x768.size a := fun v46 k0_hw47 => k0_hw47.1
theorem k0_off201_inb : ∀ (v46 : BitVec 32) (k0_hw47 : k0_chk47 v46), ∀ a, (k0_off201 v46) a + S1x768.size a ≤ S49408x768.size a := fun v46 k0_hw47 => k0_hw47.2

def k0_off202 (v47 : BitVec 32) : Fin 2 → Nat :=
  let c0_i32_730 : BitVec 32 := 0#32
  ![v47.toNat, 0]

def k0_chk48 (v47 : BitVec 32) : Prop :=
  (∀ a, (k0_off48 v47) a + S1x768.size a ≤ S49408x768.size a) ∧
  (∀ a, (k0_off202 v47) a + S1x768.size a ≤ S49408x768.size a)
instance k0_chk48.dec : ∀ (v47 : BitVec 32), Decidable (k0_chk48 v47) := fun v47 => decidable_of_iff' _ (Iff.of_eq (k0_chk48.eq_1 v47))
theorem k0_off48_inb : ∀ (v47 : BitVec 32) (k0_hw48 : k0_chk48 v47), ∀ a, (k0_off48 v47) a + S1x768.size a ≤ S49408x768.size a := fun v47 k0_hw48 => k0_hw48.1
theorem k0_off202_inb : ∀ (v47 : BitVec 32) (k0_hw48 : k0_chk48 v47), ∀ a, (k0_off202 v47) a + S1x768.size a ≤ S49408x768.size a := fun v47 k0_hw48 => k0_hw48.2

def k0_off203 (v48 : BitVec 32) : Fin 2 → Nat :=
  let c0_i32_734 : BitVec 32 := 0#32
  ![v48.toNat, 0]

def k0_chk49 (v48 : BitVec 32) : Prop :=
  (∀ a, (k0_off49 v48) a + S1x768.size a ≤ S49408x768.size a) ∧
  (∀ a, (k0_off203 v48) a + S1x768.size a ≤ S49408x768.size a)
instance k0_chk49.dec : ∀ (v48 : BitVec 32), Decidable (k0_chk49 v48) := fun v48 => decidable_of_iff' _ (Iff.of_eq (k0_chk49.eq_1 v48))
theorem k0_off49_inb : ∀ (v48 : BitVec 32) (k0_hw49 : k0_chk49 v48), ∀ a, (k0_off49 v48) a + S1x768.size a ≤ S49408x768.size a := fun v48 k0_hw49 => k0_hw49.1
theorem k0_off203_inb : ∀ (v48 : BitVec 32) (k0_hw49 : k0_chk49 v48), ∀ a, (k0_off203 v48) a + S1x768.size a ≤ S49408x768.size a := fun v48 k0_hw49 => k0_hw49.2

def k0_off204 (v49 : BitVec 32) : Fin 2 → Nat :=
  let c0_i32_738 : BitVec 32 := 0#32
  ![v49.toNat, 0]

def k0_chk50 (v49 : BitVec 32) : Prop :=
  (∀ a, (k0_off50 v49) a + S1x768.size a ≤ S49408x768.size a) ∧
  (∀ a, (k0_off204 v49) a + S1x768.size a ≤ S49408x768.size a)
instance k0_chk50.dec : ∀ (v49 : BitVec 32), Decidable (k0_chk50 v49) := fun v49 => decidable_of_iff' _ (Iff.of_eq (k0_chk50.eq_1 v49))
theorem k0_off50_inb : ∀ (v49 : BitVec 32) (k0_hw50 : k0_chk50 v49), ∀ a, (k0_off50 v49) a + S1x768.size a ≤ S49408x768.size a := fun v49 k0_hw50 => k0_hw50.1
theorem k0_off204_inb : ∀ (v49 : BitVec 32) (k0_hw50 : k0_chk50 v49), ∀ a, (k0_off204 v49) a + S1x768.size a ≤ S49408x768.size a := fun v49 k0_hw50 => k0_hw50.2

def k0_off205 (v50 : BitVec 32) : Fin 2 → Nat :=
  let c0_i32_742 : BitVec 32 := 0#32
  ![v50.toNat, 0]

def k0_chk51 (v50 : BitVec 32) : Prop :=
  (∀ a, (k0_off51 v50) a + S1x768.size a ≤ S49408x768.size a) ∧
  (∀ a, (k0_off205 v50) a + S1x768.size a ≤ S49408x768.size a)
instance k0_chk51.dec : ∀ (v50 : BitVec 32), Decidable (k0_chk51 v50) := fun v50 => decidable_of_iff' _ (Iff.of_eq (k0_chk51.eq_1 v50))
theorem k0_off51_inb : ∀ (v50 : BitVec 32) (k0_hw51 : k0_chk51 v50), ∀ a, (k0_off51 v50) a + S1x768.size a ≤ S49408x768.size a := fun v50 k0_hw51 => k0_hw51.1
theorem k0_off205_inb : ∀ (v50 : BitVec 32) (k0_hw51 : k0_chk51 v50), ∀ a, (k0_off205 v50) a + S1x768.size a ≤ S49408x768.size a := fun v50 k0_hw51 => k0_hw51.2

def k0_off206 (v51 : BitVec 32) : Fin 2 → Nat :=
  let c0_i32_746 : BitVec 32 := 0#32
  ![v51.toNat, 0]

def k0_chk52 (v51 : BitVec 32) : Prop :=
  (∀ a, (k0_off52 v51) a + S1x768.size a ≤ S49408x768.size a) ∧
  (∀ a, (k0_off206 v51) a + S1x768.size a ≤ S49408x768.size a)
instance k0_chk52.dec : ∀ (v51 : BitVec 32), Decidable (k0_chk52 v51) := fun v51 => decidable_of_iff' _ (Iff.of_eq (k0_chk52.eq_1 v51))
theorem k0_off52_inb : ∀ (v51 : BitVec 32) (k0_hw52 : k0_chk52 v51), ∀ a, (k0_off52 v51) a + S1x768.size a ≤ S49408x768.size a := fun v51 k0_hw52 => k0_hw52.1
theorem k0_off206_inb : ∀ (v51 : BitVec 32) (k0_hw52 : k0_chk52 v51), ∀ a, (k0_off206 v51) a + S1x768.size a ≤ S49408x768.size a := fun v51 k0_hw52 => k0_hw52.2

def k0_off207 (v52 : BitVec 32) : Fin 2 → Nat :=
  let c0_i32_750 : BitVec 32 := 0#32
  ![v52.toNat, 0]

def k0_chk53 (v52 : BitVec 32) : Prop :=
  (∀ a, (k0_off53 v52) a + S1x768.size a ≤ S49408x768.size a) ∧
  (∀ a, (k0_off207 v52) a + S1x768.size a ≤ S49408x768.size a)
instance k0_chk53.dec : ∀ (v52 : BitVec 32), Decidable (k0_chk53 v52) := fun v52 => decidable_of_iff' _ (Iff.of_eq (k0_chk53.eq_1 v52))
theorem k0_off53_inb : ∀ (v52 : BitVec 32) (k0_hw53 : k0_chk53 v52), ∀ a, (k0_off53 v52) a + S1x768.size a ≤ S49408x768.size a := fun v52 k0_hw53 => k0_hw53.1
theorem k0_off207_inb : ∀ (v52 : BitVec 32) (k0_hw53 : k0_chk53 v52), ∀ a, (k0_off207 v52) a + S1x768.size a ≤ S49408x768.size a := fun v52 k0_hw53 => k0_hw53.2

def k0_off208 (v53 : BitVec 32) : Fin 2 → Nat :=
  let c0_i32_754 : BitVec 32 := 0#32
  ![v53.toNat, 0]

def k0_chk54 (v53 : BitVec 32) : Prop :=
  (∀ a, (k0_off54 v53) a + S1x768.size a ≤ S49408x768.size a) ∧
  (∀ a, (k0_off208 v53) a + S1x768.size a ≤ S49408x768.size a)
instance k0_chk54.dec : ∀ (v53 : BitVec 32), Decidable (k0_chk54 v53) := fun v53 => decidable_of_iff' _ (Iff.of_eq (k0_chk54.eq_1 v53))
theorem k0_off54_inb : ∀ (v53 : BitVec 32) (k0_hw54 : k0_chk54 v53), ∀ a, (k0_off54 v53) a + S1x768.size a ≤ S49408x768.size a := fun v53 k0_hw54 => k0_hw54.1
theorem k0_off208_inb : ∀ (v53 : BitVec 32) (k0_hw54 : k0_chk54 v53), ∀ a, (k0_off208 v53) a + S1x768.size a ≤ S49408x768.size a := fun v53 k0_hw54 => k0_hw54.2

def k0_off209 (v54 : BitVec 32) : Fin 2 → Nat :=
  let c0_i32_758 : BitVec 32 := 0#32
  ![v54.toNat, 0]

def k0_chk55 (v54 : BitVec 32) : Prop :=
  (∀ a, (k0_off55 v54) a + S1x768.size a ≤ S49408x768.size a) ∧
  (∀ a, (k0_off209 v54) a + S1x768.size a ≤ S49408x768.size a)
instance k0_chk55.dec : ∀ (v54 : BitVec 32), Decidable (k0_chk55 v54) := fun v54 => decidable_of_iff' _ (Iff.of_eq (k0_chk55.eq_1 v54))
theorem k0_off55_inb : ∀ (v54 : BitVec 32) (k0_hw55 : k0_chk55 v54), ∀ a, (k0_off55 v54) a + S1x768.size a ≤ S49408x768.size a := fun v54 k0_hw55 => k0_hw55.1
theorem k0_off209_inb : ∀ (v54 : BitVec 32) (k0_hw55 : k0_chk55 v54), ∀ a, (k0_off209 v54) a + S1x768.size a ≤ S49408x768.size a := fun v54 k0_hw55 => k0_hw55.2

def k0_off210 (v55 : BitVec 32) : Fin 2 → Nat :=
  let c0_i32_762 : BitVec 32 := 0#32
  ![v55.toNat, 0]

def k0_chk56 (v55 : BitVec 32) : Prop :=
  (∀ a, (k0_off56 v55) a + S1x768.size a ≤ S49408x768.size a) ∧
  (∀ a, (k0_off210 v55) a + S1x768.size a ≤ S49408x768.size a)
instance k0_chk56.dec : ∀ (v55 : BitVec 32), Decidable (k0_chk56 v55) := fun v55 => decidable_of_iff' _ (Iff.of_eq (k0_chk56.eq_1 v55))
theorem k0_off56_inb : ∀ (v55 : BitVec 32) (k0_hw56 : k0_chk56 v55), ∀ a, (k0_off56 v55) a + S1x768.size a ≤ S49408x768.size a := fun v55 k0_hw56 => k0_hw56.1
theorem k0_off210_inb : ∀ (v55 : BitVec 32) (k0_hw56 : k0_chk56 v55), ∀ a, (k0_off210 v55) a + S1x768.size a ≤ S49408x768.size a := fun v55 k0_hw56 => k0_hw56.2

def k0_off211 (v56 : BitVec 32) : Fin 2 → Nat :=
  let c0_i32_766 : BitVec 32 := 0#32
  ![v56.toNat, 0]

def k0_chk57 (v56 : BitVec 32) : Prop :=
  (∀ a, (k0_off57 v56) a + S1x768.size a ≤ S49408x768.size a) ∧
  (∀ a, (k0_off211 v56) a + S1x768.size a ≤ S49408x768.size a)
instance k0_chk57.dec : ∀ (v56 : BitVec 32), Decidable (k0_chk57 v56) := fun v56 => decidable_of_iff' _ (Iff.of_eq (k0_chk57.eq_1 v56))
theorem k0_off57_inb : ∀ (v56 : BitVec 32) (k0_hw57 : k0_chk57 v56), ∀ a, (k0_off57 v56) a + S1x768.size a ≤ S49408x768.size a := fun v56 k0_hw57 => k0_hw57.1
theorem k0_off211_inb : ∀ (v56 : BitVec 32) (k0_hw57 : k0_chk57 v56), ∀ a, (k0_off211 v56) a + S1x768.size a ≤ S49408x768.size a := fun v56 k0_hw57 => k0_hw57.2

def k0_off212 (v57 : BitVec 32) : Fin 2 → Nat :=
  let c0_i32_770 : BitVec 32 := 0#32
  ![v57.toNat, 0]

def k0_chk58 (v57 : BitVec 32) : Prop :=
  (∀ a, (k0_off58 v57) a + S1x768.size a ≤ S49408x768.size a) ∧
  (∀ a, (k0_off212 v57) a + S1x768.size a ≤ S49408x768.size a)
instance k0_chk58.dec : ∀ (v57 : BitVec 32), Decidable (k0_chk58 v57) := fun v57 => decidable_of_iff' _ (Iff.of_eq (k0_chk58.eq_1 v57))
theorem k0_off58_inb : ∀ (v57 : BitVec 32) (k0_hw58 : k0_chk58 v57), ∀ a, (k0_off58 v57) a + S1x768.size a ≤ S49408x768.size a := fun v57 k0_hw58 => k0_hw58.1
theorem k0_off212_inb : ∀ (v57 : BitVec 32) (k0_hw58 : k0_chk58 v57), ∀ a, (k0_off212 v57) a + S1x768.size a ≤ S49408x768.size a := fun v57 k0_hw58 => k0_hw58.2

def k0_off213 (v58 : BitVec 32) : Fin 2 → Nat :=
  let c0_i32_774 : BitVec 32 := 0#32
  ![v58.toNat, 0]

def k0_chk59 (v58 : BitVec 32) : Prop :=
  (∀ a, (k0_off59 v58) a + S1x768.size a ≤ S49408x768.size a) ∧
  (∀ a, (k0_off213 v58) a + S1x768.size a ≤ S49408x768.size a)
instance k0_chk59.dec : ∀ (v58 : BitVec 32), Decidable (k0_chk59 v58) := fun v58 => decidable_of_iff' _ (Iff.of_eq (k0_chk59.eq_1 v58))
theorem k0_off59_inb : ∀ (v58 : BitVec 32) (k0_hw59 : k0_chk59 v58), ∀ a, (k0_off59 v58) a + S1x768.size a ≤ S49408x768.size a := fun v58 k0_hw59 => k0_hw59.1
theorem k0_off213_inb : ∀ (v58 : BitVec 32) (k0_hw59 : k0_chk59 v58), ∀ a, (k0_off213 v58) a + S1x768.size a ≤ S49408x768.size a := fun v58 k0_hw59 => k0_hw59.2

def k0_off214 (v59 : BitVec 32) : Fin 2 → Nat :=
  let c0_i32_778 : BitVec 32 := 0#32
  ![v59.toNat, 0]

def k0_chk60 (v59 : BitVec 32) : Prop :=
  (∀ a, (k0_off60 v59) a + S1x768.size a ≤ S49408x768.size a) ∧
  (∀ a, (k0_off214 v59) a + S1x768.size a ≤ S49408x768.size a)
instance k0_chk60.dec : ∀ (v59 : BitVec 32), Decidable (k0_chk60 v59) := fun v59 => decidable_of_iff' _ (Iff.of_eq (k0_chk60.eq_1 v59))
theorem k0_off60_inb : ∀ (v59 : BitVec 32) (k0_hw60 : k0_chk60 v59), ∀ a, (k0_off60 v59) a + S1x768.size a ≤ S49408x768.size a := fun v59 k0_hw60 => k0_hw60.1
theorem k0_off214_inb : ∀ (v59 : BitVec 32) (k0_hw60 : k0_chk60 v59), ∀ a, (k0_off214 v59) a + S1x768.size a ≤ S49408x768.size a := fun v59 k0_hw60 => k0_hw60.2

def k0_off215 (v60 : BitVec 32) : Fin 2 → Nat :=
  let c0_i32_782 : BitVec 32 := 0#32
  ![v60.toNat, 0]

def k0_chk61 (v60 : BitVec 32) : Prop :=
  (∀ a, (k0_off61 v60) a + S1x768.size a ≤ S49408x768.size a) ∧
  (∀ a, (k0_off215 v60) a + S1x768.size a ≤ S49408x768.size a)
instance k0_chk61.dec : ∀ (v60 : BitVec 32), Decidable (k0_chk61 v60) := fun v60 => decidable_of_iff' _ (Iff.of_eq (k0_chk61.eq_1 v60))
theorem k0_off61_inb : ∀ (v60 : BitVec 32) (k0_hw61 : k0_chk61 v60), ∀ a, (k0_off61 v60) a + S1x768.size a ≤ S49408x768.size a := fun v60 k0_hw61 => k0_hw61.1
theorem k0_off215_inb : ∀ (v60 : BitVec 32) (k0_hw61 : k0_chk61 v60), ∀ a, (k0_off215 v60) a + S1x768.size a ≤ S49408x768.size a := fun v60 k0_hw61 => k0_hw61.2

def k0_off216 (v61 : BitVec 32) : Fin 2 → Nat :=
  let c0_i32_786 : BitVec 32 := 0#32
  ![v61.toNat, 0]

def k0_chk62 (v61 : BitVec 32) : Prop :=
  (∀ a, (k0_off62 v61) a + S1x768.size a ≤ S49408x768.size a) ∧
  (∀ a, (k0_off216 v61) a + S1x768.size a ≤ S49408x768.size a)
instance k0_chk62.dec : ∀ (v61 : BitVec 32), Decidable (k0_chk62 v61) := fun v61 => decidable_of_iff' _ (Iff.of_eq (k0_chk62.eq_1 v61))
theorem k0_off62_inb : ∀ (v61 : BitVec 32) (k0_hw62 : k0_chk62 v61), ∀ a, (k0_off62 v61) a + S1x768.size a ≤ S49408x768.size a := fun v61 k0_hw62 => k0_hw62.1
theorem k0_off216_inb : ∀ (v61 : BitVec 32) (k0_hw62 : k0_chk62 v61), ∀ a, (k0_off216 v61) a + S1x768.size a ≤ S49408x768.size a := fun v61 k0_hw62 => k0_hw62.2

def k0_off217 (v62 : BitVec 32) : Fin 2 → Nat :=
  let c0_i32_790 : BitVec 32 := 0#32
  ![v62.toNat, 0]

def k0_chk63 (v62 : BitVec 32) : Prop :=
  (∀ a, (k0_off63 v62) a + S1x768.size a ≤ S49408x768.size a) ∧
  (∀ a, (k0_off217 v62) a + S1x768.size a ≤ S49408x768.size a)
instance k0_chk63.dec : ∀ (v62 : BitVec 32), Decidable (k0_chk63 v62) := fun v62 => decidable_of_iff' _ (Iff.of_eq (k0_chk63.eq_1 v62))
theorem k0_off63_inb : ∀ (v62 : BitVec 32) (k0_hw63 : k0_chk63 v62), ∀ a, (k0_off63 v62) a + S1x768.size a ≤ S49408x768.size a := fun v62 k0_hw63 => k0_hw63.1
theorem k0_off217_inb : ∀ (v62 : BitVec 32) (k0_hw63 : k0_chk63 v62), ∀ a, (k0_off217 v62) a + S1x768.size a ≤ S49408x768.size a := fun v62 k0_hw63 => k0_hw63.2

def k0_off218 (v63 : BitVec 32) : Fin 2 → Nat :=
  let c0_i32_794 : BitVec 32 := 0#32
  ![v63.toNat, 0]

def k0_chk64 (v63 : BitVec 32) : Prop :=
  (∀ a, (k0_off64 v63) a + S1x768.size a ≤ S49408x768.size a) ∧
  (∀ a, (k0_off218 v63) a + S1x768.size a ≤ S49408x768.size a)
instance k0_chk64.dec : ∀ (v63 : BitVec 32), Decidable (k0_chk64 v63) := fun v63 => decidable_of_iff' _ (Iff.of_eq (k0_chk64.eq_1 v63))
theorem k0_off64_inb : ∀ (v63 : BitVec 32) (k0_hw64 : k0_chk64 v63), ∀ a, (k0_off64 v63) a + S1x768.size a ≤ S49408x768.size a := fun v63 k0_hw64 => k0_hw64.1
theorem k0_off218_inb : ∀ (v63 : BitVec 32) (k0_hw64 : k0_chk64 v63), ∀ a, (k0_off218 v63) a + S1x768.size a ≤ S49408x768.size a := fun v63 k0_hw64 => k0_hw64.2

def k0_off219 (v64 : BitVec 32) : Fin 2 → Nat :=
  let c0_i32_798 : BitVec 32 := 0#32
  ![v64.toNat, 0]

def k0_chk65 (v64 : BitVec 32) : Prop :=
  (∀ a, (k0_off65 v64) a + S1x768.size a ≤ S49408x768.size a) ∧
  (∀ a, (k0_off219 v64) a + S1x768.size a ≤ S49408x768.size a)
instance k0_chk65.dec : ∀ (v64 : BitVec 32), Decidable (k0_chk65 v64) := fun v64 => decidable_of_iff' _ (Iff.of_eq (k0_chk65.eq_1 v64))
theorem k0_off65_inb : ∀ (v64 : BitVec 32) (k0_hw65 : k0_chk65 v64), ∀ a, (k0_off65 v64) a + S1x768.size a ≤ S49408x768.size a := fun v64 k0_hw65 => k0_hw65.1
theorem k0_off219_inb : ∀ (v64 : BitVec 32) (k0_hw65 : k0_chk65 v64), ∀ a, (k0_off219 v64) a + S1x768.size a ≤ S49408x768.size a := fun v64 k0_hw65 => k0_hw65.2

def k0_off220 (v65 : BitVec 32) : Fin 2 → Nat :=
  let c0_i32_802 : BitVec 32 := 0#32
  ![v65.toNat, 0]

def k0_chk66 (v65 : BitVec 32) : Prop :=
  (∀ a, (k0_off66 v65) a + S1x768.size a ≤ S49408x768.size a) ∧
  (∀ a, (k0_off220 v65) a + S1x768.size a ≤ S49408x768.size a)
instance k0_chk66.dec : ∀ (v65 : BitVec 32), Decidable (k0_chk66 v65) := fun v65 => decidable_of_iff' _ (Iff.of_eq (k0_chk66.eq_1 v65))
theorem k0_off66_inb : ∀ (v65 : BitVec 32) (k0_hw66 : k0_chk66 v65), ∀ a, (k0_off66 v65) a + S1x768.size a ≤ S49408x768.size a := fun v65 k0_hw66 => k0_hw66.1
theorem k0_off220_inb : ∀ (v65 : BitVec 32) (k0_hw66 : k0_chk66 v65), ∀ a, (k0_off220 v65) a + S1x768.size a ≤ S49408x768.size a := fun v65 k0_hw66 => k0_hw66.2

def k0_off221 (v66 : BitVec 32) : Fin 2 → Nat :=
  let c0_i32_806 : BitVec 32 := 0#32
  ![v66.toNat, 0]

def k0_chk67 (v66 : BitVec 32) : Prop :=
  (∀ a, (k0_off67 v66) a + S1x768.size a ≤ S49408x768.size a) ∧
  (∀ a, (k0_off221 v66) a + S1x768.size a ≤ S49408x768.size a)
instance k0_chk67.dec : ∀ (v66 : BitVec 32), Decidable (k0_chk67 v66) := fun v66 => decidable_of_iff' _ (Iff.of_eq (k0_chk67.eq_1 v66))
theorem k0_off67_inb : ∀ (v66 : BitVec 32) (k0_hw67 : k0_chk67 v66), ∀ a, (k0_off67 v66) a + S1x768.size a ≤ S49408x768.size a := fun v66 k0_hw67 => k0_hw67.1
theorem k0_off221_inb : ∀ (v66 : BitVec 32) (k0_hw67 : k0_chk67 v66), ∀ a, (k0_off221 v66) a + S1x768.size a ≤ S49408x768.size a := fun v66 k0_hw67 => k0_hw67.2

def k0_off222 (v67 : BitVec 32) : Fin 2 → Nat :=
  let c0_i32_810 : BitVec 32 := 0#32
  ![v67.toNat, 0]

def k0_chk68 (v67 : BitVec 32) : Prop :=
  (∀ a, (k0_off68 v67) a + S1x768.size a ≤ S49408x768.size a) ∧
  (∀ a, (k0_off222 v67) a + S1x768.size a ≤ S49408x768.size a)
instance k0_chk68.dec : ∀ (v67 : BitVec 32), Decidable (k0_chk68 v67) := fun v67 => decidable_of_iff' _ (Iff.of_eq (k0_chk68.eq_1 v67))
theorem k0_off68_inb : ∀ (v67 : BitVec 32) (k0_hw68 : k0_chk68 v67), ∀ a, (k0_off68 v67) a + S1x768.size a ≤ S49408x768.size a := fun v67 k0_hw68 => k0_hw68.1
theorem k0_off222_inb : ∀ (v67 : BitVec 32) (k0_hw68 : k0_chk68 v67), ∀ a, (k0_off222 v67) a + S1x768.size a ≤ S49408x768.size a := fun v67 k0_hw68 => k0_hw68.2

def k0_off223 (v68 : BitVec 32) : Fin 2 → Nat :=
  let c0_i32_814 : BitVec 32 := 0#32
  ![v68.toNat, 0]

def k0_chk69 (v68 : BitVec 32) : Prop :=
  (∀ a, (k0_off69 v68) a + S1x768.size a ≤ S49408x768.size a) ∧
  (∀ a, (k0_off223 v68) a + S1x768.size a ≤ S49408x768.size a)
instance k0_chk69.dec : ∀ (v68 : BitVec 32), Decidable (k0_chk69 v68) := fun v68 => decidable_of_iff' _ (Iff.of_eq (k0_chk69.eq_1 v68))
theorem k0_off69_inb : ∀ (v68 : BitVec 32) (k0_hw69 : k0_chk69 v68), ∀ a, (k0_off69 v68) a + S1x768.size a ≤ S49408x768.size a := fun v68 k0_hw69 => k0_hw69.1
theorem k0_off223_inb : ∀ (v68 : BitVec 32) (k0_hw69 : k0_chk69 v68), ∀ a, (k0_off223 v68) a + S1x768.size a ≤ S49408x768.size a := fun v68 k0_hw69 => k0_hw69.2

def k0_off224 (v69 : BitVec 32) : Fin 2 → Nat :=
  let c0_i32_818 : BitVec 32 := 0#32
  ![v69.toNat, 0]

def k0_chk70 (v69 : BitVec 32) : Prop :=
  (∀ a, (k0_off70 v69) a + S1x768.size a ≤ S49408x768.size a) ∧
  (∀ a, (k0_off224 v69) a + S1x768.size a ≤ S49408x768.size a)
instance k0_chk70.dec : ∀ (v69 : BitVec 32), Decidable (k0_chk70 v69) := fun v69 => decidable_of_iff' _ (Iff.of_eq (k0_chk70.eq_1 v69))
theorem k0_off70_inb : ∀ (v69 : BitVec 32) (k0_hw70 : k0_chk70 v69), ∀ a, (k0_off70 v69) a + S1x768.size a ≤ S49408x768.size a := fun v69 k0_hw70 => k0_hw70.1
theorem k0_off224_inb : ∀ (v69 : BitVec 32) (k0_hw70 : k0_chk70 v69), ∀ a, (k0_off224 v69) a + S1x768.size a ≤ S49408x768.size a := fun v69 k0_hw70 => k0_hw70.2

def k0_off225 (v70 : BitVec 32) : Fin 2 → Nat :=
  let c0_i32_822 : BitVec 32 := 0#32
  ![v70.toNat, 0]

def k0_chk71 (v70 : BitVec 32) : Prop :=
  (∀ a, (k0_off71 v70) a + S1x768.size a ≤ S49408x768.size a) ∧
  (∀ a, (k0_off225 v70) a + S1x768.size a ≤ S49408x768.size a)
instance k0_chk71.dec : ∀ (v70 : BitVec 32), Decidable (k0_chk71 v70) := fun v70 => decidable_of_iff' _ (Iff.of_eq (k0_chk71.eq_1 v70))
theorem k0_off71_inb : ∀ (v70 : BitVec 32) (k0_hw71 : k0_chk71 v70), ∀ a, (k0_off71 v70) a + S1x768.size a ≤ S49408x768.size a := fun v70 k0_hw71 => k0_hw71.1
theorem k0_off225_inb : ∀ (v70 : BitVec 32) (k0_hw71 : k0_chk71 v70), ∀ a, (k0_off225 v70) a + S1x768.size a ≤ S49408x768.size a := fun v70 k0_hw71 => k0_hw71.2

def k0_off226 (v71 : BitVec 32) : Fin 2 → Nat :=
  let c0_i32_826 : BitVec 32 := 0#32
  ![v71.toNat, 0]

def k0_chk72 (v71 : BitVec 32) : Prop :=
  (∀ a, (k0_off72 v71) a + S1x768.size a ≤ S49408x768.size a) ∧
  (∀ a, (k0_off226 v71) a + S1x768.size a ≤ S49408x768.size a)
instance k0_chk72.dec : ∀ (v71 : BitVec 32), Decidable (k0_chk72 v71) := fun v71 => decidable_of_iff' _ (Iff.of_eq (k0_chk72.eq_1 v71))
theorem k0_off72_inb : ∀ (v71 : BitVec 32) (k0_hw72 : k0_chk72 v71), ∀ a, (k0_off72 v71) a + S1x768.size a ≤ S49408x768.size a := fun v71 k0_hw72 => k0_hw72.1
theorem k0_off226_inb : ∀ (v71 : BitVec 32) (k0_hw72 : k0_chk72 v71), ∀ a, (k0_off226 v71) a + S1x768.size a ≤ S49408x768.size a := fun v71 k0_hw72 => k0_hw72.2

def k0_off227 (v72 : BitVec 32) : Fin 2 → Nat :=
  let c0_i32_830 : BitVec 32 := 0#32
  ![v72.toNat, 0]

def k0_chk73 (v72 : BitVec 32) : Prop :=
  (∀ a, (k0_off73 v72) a + S1x768.size a ≤ S49408x768.size a) ∧
  (∀ a, (k0_off227 v72) a + S1x768.size a ≤ S49408x768.size a)
instance k0_chk73.dec : ∀ (v72 : BitVec 32), Decidable (k0_chk73 v72) := fun v72 => decidable_of_iff' _ (Iff.of_eq (k0_chk73.eq_1 v72))
theorem k0_off73_inb : ∀ (v72 : BitVec 32) (k0_hw73 : k0_chk73 v72), ∀ a, (k0_off73 v72) a + S1x768.size a ≤ S49408x768.size a := fun v72 k0_hw73 => k0_hw73.1
theorem k0_off227_inb : ∀ (v72 : BitVec 32) (k0_hw73 : k0_chk73 v72), ∀ a, (k0_off227 v72) a + S1x768.size a ≤ S49408x768.size a := fun v72 k0_hw73 => k0_hw73.2

def k0_off228 (v73 : BitVec 32) : Fin 2 → Nat :=
  let c0_i32_834 : BitVec 32 := 0#32
  ![v73.toNat, 0]

def k0_chk74 (v73 : BitVec 32) : Prop :=
  (∀ a, (k0_off74 v73) a + S1x768.size a ≤ S49408x768.size a) ∧
  (∀ a, (k0_off228 v73) a + S1x768.size a ≤ S49408x768.size a)
instance k0_chk74.dec : ∀ (v73 : BitVec 32), Decidable (k0_chk74 v73) := fun v73 => decidable_of_iff' _ (Iff.of_eq (k0_chk74.eq_1 v73))
theorem k0_off74_inb : ∀ (v73 : BitVec 32) (k0_hw74 : k0_chk74 v73), ∀ a, (k0_off74 v73) a + S1x768.size a ≤ S49408x768.size a := fun v73 k0_hw74 => k0_hw74.1
theorem k0_off228_inb : ∀ (v73 : BitVec 32) (k0_hw74 : k0_chk74 v73), ∀ a, (k0_off228 v73) a + S1x768.size a ≤ S49408x768.size a := fun v73 k0_hw74 => k0_hw74.2

def k0_off229 (v74 : BitVec 32) : Fin 2 → Nat :=
  let c0_i32_838 : BitVec 32 := 0#32
  ![v74.toNat, 0]

def k0_chk75 (v74 : BitVec 32) : Prop :=
  (∀ a, (k0_off75 v74) a + S1x768.size a ≤ S49408x768.size a) ∧
  (∀ a, (k0_off229 v74) a + S1x768.size a ≤ S49408x768.size a)
instance k0_chk75.dec : ∀ (v74 : BitVec 32), Decidable (k0_chk75 v74) := fun v74 => decidable_of_iff' _ (Iff.of_eq (k0_chk75.eq_1 v74))
theorem k0_off75_inb : ∀ (v74 : BitVec 32) (k0_hw75 : k0_chk75 v74), ∀ a, (k0_off75 v74) a + S1x768.size a ≤ S49408x768.size a := fun v74 k0_hw75 => k0_hw75.1
theorem k0_off229_inb : ∀ (v74 : BitVec 32) (k0_hw75 : k0_chk75 v74), ∀ a, (k0_off229 v74) a + S1x768.size a ≤ S49408x768.size a := fun v74 k0_hw75 => k0_hw75.2

def k0_off230 (v75 : BitVec 32) : Fin 2 → Nat :=
  let c0_i32_842 : BitVec 32 := 0#32
  ![v75.toNat, 0]

def k0_chk76 (v75 : BitVec 32) : Prop :=
  (∀ a, (k0_off76 v75) a + S1x768.size a ≤ S49408x768.size a) ∧
  (∀ a, (k0_off230 v75) a + S1x768.size a ≤ S49408x768.size a)
instance k0_chk76.dec : ∀ (v75 : BitVec 32), Decidable (k0_chk76 v75) := fun v75 => decidable_of_iff' _ (Iff.of_eq (k0_chk76.eq_1 v75))
theorem k0_off76_inb : ∀ (v75 : BitVec 32) (k0_hw76 : k0_chk76 v75), ∀ a, (k0_off76 v75) a + S1x768.size a ≤ S49408x768.size a := fun v75 k0_hw76 => k0_hw76.1
theorem k0_off230_inb : ∀ (v75 : BitVec 32) (k0_hw76 : k0_chk76 v75), ∀ a, (k0_off230 v75) a + S1x768.size a ≤ S49408x768.size a := fun v75 k0_hw76 => k0_hw76.2

def k0_off231 (v76 : BitVec 32) : Fin 2 → Nat :=
  let c0_i32_846 : BitVec 32 := 0#32
  ![v76.toNat, 0]

def k0_chk77 (v76 : BitVec 32) : Prop :=
  (∀ a, (k0_off77 v76) a + S1x768.size a ≤ S49408x768.size a) ∧
  (∀ a, (k0_off231 v76) a + S1x768.size a ≤ S49408x768.size a)
instance k0_chk77.dec : ∀ (v76 : BitVec 32), Decidable (k0_chk77 v76) := fun v76 => decidable_of_iff' _ (Iff.of_eq (k0_chk77.eq_1 v76))
theorem k0_off77_inb : ∀ (v76 : BitVec 32) (k0_hw77 : k0_chk77 v76), ∀ a, (k0_off77 v76) a + S1x768.size a ≤ S49408x768.size a := fun v76 k0_hw77 => k0_hw77.1
theorem k0_off231_inb : ∀ (v76 : BitVec 32) (k0_hw77 : k0_chk77 v76), ∀ a, (k0_off231 v76) a + S1x768.size a ≤ S49408x768.size a := fun v76 k0_hw77 => k0_hw77.2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S77x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S77x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S_S77 : S_.BroadcastsInDim S77 (![] : Fin 0 → Fin S77.rank)
  inb_S77_S1_0 : ∀ a, (![0] : Fin 1 → Nat) a + S1.size a ≤ S77.size a
  numel1_S1 : S1.numel = 1
  inb_S77_S1_1 : ∀ a, (![1] : Fin 1 → Nat) a + S1.size a ≤ S77.size a
  inb_S77_S1_2 : ∀ a, (![2] : Fin 1 → Nat) a + S1.size a ≤ S77.size a
  inb_S77_S1_3 : ∀ a, (![3] : Fin 1 → Nat) a + S1.size a ≤ S77.size a
  inb_S77_S1_4 : ∀ a, (![4] : Fin 1 → Nat) a + S1.size a ≤ S77.size a
  inb_S77_S1_5 : ∀ a, (![5] : Fin 1 → Nat) a + S1.size a ≤ S77.size a
  inb_S77_S1_6 : ∀ a, (![6] : Fin 1 → Nat) a + S1.size a ≤ S77.size a
  inb_S77_S1_7 : ∀ a, (![7] : Fin 1 → Nat) a + S1.size a ≤ S77.size a
  inb_S77_S1_8 : ∀ a, (![8] : Fin 1 → Nat) a + S1.size a ≤ S77.size a
  inb_S77_S1_9 : ∀ a, (![9] : Fin 1 → Nat) a + S1.size a ≤ S77.size a
  inb_S77_S1_10 : ∀ a, (![10] : Fin 1 → Nat) a + S1.size a ≤ S77.size a
  inb_S77_S1_11 : ∀ a, (![11] : Fin 1 → Nat) a + S1.size a ≤ S77.size a
  inb_S77_S1_12 : ∀ a, (![12] : Fin 1 → Nat) a + S1.size a ≤ S77.size a
  inb_S77_S1_13 : ∀ a, (![13] : Fin 1 → Nat) a + S1.size a ≤ S77.size a
  inb_S77_S1_14 : ∀ a, (![14] : Fin 1 → Nat) a + S1.size a ≤ S77.size a
  inb_S77_S1_15 : ∀ a, (![15] : Fin 1 → Nat) a + S1.size a ≤ S77.size a
  inb_S77_S1_16 : ∀ a, (![16] : Fin 1 → Nat) a + S1.size a ≤ S77.size a
  inb_S77_S1_17 : ∀ a, (![17] : Fin 1 → Nat) a + S1.size a ≤ S77.size a
  inb_S77_S1_18 : ∀ a, (![18] : Fin 1 → Nat) a + S1.size a ≤ S77.size a
  inb_S77_S1_19 : ∀ a, (![19] : Fin 1 → Nat) a + S1.size a ≤ S77.size a
  inb_S77_S1_20 : ∀ a, (![20] : Fin 1 → Nat) a + S1.size a ≤ S77.size a
  inb_S77_S1_21 : ∀ a, (![21] : Fin 1 → Nat) a + S1.size a ≤ S77.size a
  inb_S77_S1_22 : ∀ a, (![22] : Fin 1 → Nat) a + S1.size a ≤ S77.size a
  inb_S77_S1_23 : ∀ a, (![23] : Fin 1 → Nat) a + S1.size a ≤ S77.size a
  inb_S77_S1_24 : ∀ a, (![24] : Fin 1 → Nat) a + S1.size a ≤ S77.size a
  inb_S77_S1_25 : ∀ a, (![25] : Fin 1 → Nat) a + S1.size a ≤ S77.size a
  inb_S77_S1_26 : ∀ a, (![26] : Fin 1 → Nat) a + S1.size a ≤ S77.size a
  inb_S77_S1_27 : ∀ a, (![27] : Fin 1 → Nat) a + S1.size a ≤ S77.size a
  inb_S77_S1_28 : ∀ a, (![28] : Fin 1 → Nat) a + S1.size a ≤ S77.size a
  inb_S77_S1_29 : ∀ a, (![29] : Fin 1 → Nat) a + S1.size a ≤ S77.size a
  inb_S77_S1_30 : ∀ a, (![30] : Fin 1 → Nat) a + S1.size a ≤ S77.size a
  inb_S77_S1_31 : ∀ a, (![31] : Fin 1 → Nat) a + S1.size a ≤ S77.size a
  inb_S77_S1_32 : ∀ a, (![32] : Fin 1 → Nat) a + S1.size a ≤ S77.size a
  inb_S77_S1_33 : ∀ a, (![33] : Fin 1 → Nat) a + S1.size a ≤ S77.size a
  inb_S77_S1_34 : ∀ a, (![34] : Fin 1 → Nat) a + S1.size a ≤ S77.size a
  inb_S77_S1_35 : ∀ a, (![35] : Fin 1 → Nat) a + S1.size a ≤ S77.size a
  inb_S77_S1_36 : ∀ a, (![36] : Fin 1 → Nat) a + S1.size a ≤ S77.size a
  inb_S77_S1_37 : ∀ a, (![37] : Fin 1 → Nat) a + S1.size a ≤ S77.size a
  inb_S77_S1_38 : ∀ a, (![38] : Fin 1 → Nat) a + S1.size a ≤ S77.size a
  inb_S77_S1_39 : ∀ a, (![39] : Fin 1 → Nat) a + S1.size a ≤ S77.size a
  inb_S77_S1_40 : ∀ a, (![40] : Fin 1 → Nat) a + S1.size a ≤ S77.size a
  inb_S77_S1_41 : ∀ a, (![41] : Fin 1 → Nat) a + S1.size a ≤ S77.size a
  inb_S77_S1_42 : ∀ a, (![42] : Fin 1 → Nat) a + S1.size a ≤ S77.size a
  inb_S77_S1_43 : ∀ a, (![43] : Fin 1 → Nat) a + S1.size a ≤ S77.size a
  inb_S77_S1_44 : ∀ a, (![44] : Fin 1 → Nat) a + S1.size a ≤ S77.size a
  inb_S77_S1_45 : ∀ a, (![45] : Fin 1 → Nat) a + S1.size a ≤ S77.size a
  inb_S77_S1_46 : ∀ a, (![46] : Fin 1 → Nat) a + S1.size a ≤ S77.size a
  inb_S77_S1_47 : ∀ a, (![47] : Fin 1 → Nat) a + S1.size a ≤ S77.size a
  inb_S77_S1_48 : ∀ a, (![48] : Fin 1 → Nat) a + S1.size a ≤ S77.size a
  inb_S77_S1_49 : ∀ a, (![49] : Fin 1 → Nat) a + S1.size a ≤ S77.size a
  inb_S77_S1_50 : ∀ a, (![50] : Fin 1 → Nat) a + S1.size a ≤ S77.size a
  inb_S77_S1_51 : ∀ a, (![51] : Fin 1 → Nat) a + S1.size a ≤ S77.size a
  inb_S77_S1_52 : ∀ a, (![52] : Fin 1 → Nat) a + S1.size a ≤ S77.size a
  inb_S77_S1_53 : ∀ a, (![53] : Fin 1 → Nat) a + S1.size a ≤ S77.size a
  inb_S77_S1_54 : ∀ a, (![54] : Fin 1 → Nat) a + S1.size a ≤ S77.size a
  inb_S77_S1_55 : ∀ a, (![55] : Fin 1 → Nat) a + S1.size a ≤ S77.size a
  inb_S77_S1_56 : ∀ a, (![56] : Fin 1 → Nat) a + S1.size a ≤ S77.size a
  inb_S77_S1_57 : ∀ a, (![57] : Fin 1 → Nat) a + S1.size a ≤ S77.size a
  inb_S77_S1_58 : ∀ a, (![58] : Fin 1 → Nat) a + S1.size a ≤ S77.size a
  inb_S77_S1_59 : ∀ a, (![59] : Fin 1 → Nat) a + S1.size a ≤ S77.size a
  inb_S77_S1_60 : ∀ a, (![60] : Fin 1 → Nat) a + S1.size a ≤ S77.size a
  inb_S77_S1_61 : ∀ a, (![61] : Fin 1 → Nat) a + S1.size a ≤ S77.size a
  inb_S77_S1_62 : ∀ a, (![62] : Fin 1 → Nat) a + S1.size a ≤ S77.size a
  inb_S77_S1_63 : ∀ a, (![63] : Fin 1 → Nat) a + S1.size a ≤ S77.size a
  inb_S77_S1_64 : ∀ a, (![64] : Fin 1 → Nat) a + S1.size a ≤ S77.size a
  inb_S77_S1_65 : ∀ a, (![65] : Fin 1 → Nat) a + S1.size a ≤ S77.size a
  inb_S77_S1_66 : ∀ a, (![66] : Fin 1 → Nat) a + S1.size a ≤ S77.size a
  inb_S77_S1_67 : ∀ a, (![67] : Fin 1 → Nat) a + S1.size a ≤ S77.size a
  inb_S77_S1_68 : ∀ a, (![68] : Fin 1 → Nat) a + S1.size a ≤ S77.size a
  inb_S77_S1_69 : ∀ a, (![69] : Fin 1 → Nat) a + S1.size a ≤ S77.size a
  inb_S77_S1_70 : ∀ a, (![70] : Fin 1 → Nat) a + S1.size a ≤ S77.size a
  inb_S77_S1_71 : ∀ a, (![71] : Fin 1 → Nat) a + S1.size a ≤ S77.size a
  inb_S77_S1_72 : ∀ a, (![72] : Fin 1 → Nat) a + S1.size a ≤ S77.size a
  inb_S77_S1_73 : ∀ a, (![73] : Fin 1 → Nat) a + S1.size a ≤ S77.size a
  inb_S77_S1_74 : ∀ a, (![74] : Fin 1 → Nat) a + S1.size a ≤ S77.size a
  inb_S77_S1_75 : ∀ a, (![75] : Fin 1 → Nat) a + S1.size a ≤ S77.size a
  inb_S77_S1_76 : ∀ a, (![76] : Fin 1 → Nat) a + S1.size a ≤ S77.size a
  squeezes_S1_S_ : S1.Squeezes S_
  inb_S77x768_S1x768_0_0 : ∀ a, (![0, 0] : Fin 2 → Nat) a + S1x768.size a ≤ S77x768.size a
  squeezes_S1x768_S768 : S1x768.Squeezes S768
  inb_S77x768_S1x768_1_0 : ∀ a, (![1, 0] : Fin 2 → Nat) a + S1x768.size a ≤ S77x768.size a
  inb_S77x768_S1x768_2_0 : ∀ a, (![2, 0] : Fin 2 → Nat) a + S1x768.size a ≤ S77x768.size a
  inb_S77x768_S1x768_3_0 : ∀ a, (![3, 0] : Fin 2 → Nat) a + S1x768.size a ≤ S77x768.size a
  inb_S77x768_S1x768_4_0 : ∀ a, (![4, 0] : Fin 2 → Nat) a + S1x768.size a ≤ S77x768.size a
  inb_S77x768_S1x768_5_0 : ∀ a, (![5, 0] : Fin 2 → Nat) a + S1x768.size a ≤ S77x768.size a
  inb_S77x768_S1x768_6_0 : ∀ a, (![6, 0] : Fin 2 → Nat) a + S1x768.size a ≤ S77x768.size a
  inb_S77x768_S1x768_7_0 : ∀ a, (![7, 0] : Fin 2 → Nat) a + S1x768.size a ≤ S77x768.size a
  inb_S77x768_S1x768_8_0 : ∀ a, (![8, 0] : Fin 2 → Nat) a + S1x768.size a ≤ S77x768.size a
  inb_S77x768_S1x768_9_0 : ∀ a, (![9, 0] : Fin 2 → Nat) a + S1x768.size a ≤ S77x768.size a
  inb_S77x768_S1x768_10_0 : ∀ a, (![10, 0] : Fin 2 → Nat) a + S1x768.size a ≤ S77x768.size a
  inb_S77x768_S1x768_11_0 : ∀ a, (![11, 0] : Fin 2 → Nat) a + S1x768.size a ≤ S77x768.size a
  inb_S77x768_S1x768_12_0 : ∀ a, (![12, 0] : Fin 2 → Nat) a + S1x768.size a ≤ S77x768.size a
  inb_S77x768_S1x768_13_0 : ∀ a, (![13, 0] : Fin 2 → Nat) a + S1x768.size a ≤ S77x768.size a
  inb_S77x768_S1x768_14_0 : ∀ a, (![14, 0] : Fin 2 → Nat) a + S1x768.size a ≤ S77x768.size a
  inb_S77x768_S1x768_15_0 : ∀ a, (![15, 0] : Fin 2 → Nat) a + S1x768.size a ≤ S77x768.size a
  inb_S77x768_S1x768_16_0 : ∀ a, (![16, 0] : Fin 2 → Nat) a + S1x768.size a ≤ S77x768.size a
  inb_S77x768_S1x768_17_0 : ∀ a, (![17, 0] : Fin 2 → Nat) a + S1x768.size a ≤ S77x768.size a
  inb_S77x768_S1x768_18_0 : ∀ a, (![18, 0] : Fin 2 → Nat) a + S1x768.size a ≤ S77x768.size a
  inb_S77x768_S1x768_19_0 : ∀ a, (![19, 0] : Fin 2 → Nat) a + S1x768.size a ≤ S77x768.size a
  inb_S77x768_S1x768_20_0 : ∀ a, (![20, 0] : Fin 2 → Nat) a + S1x768.size a ≤ S77x768.size a
  inb_S77x768_S1x768_21_0 : ∀ a, (![21, 0] : Fin 2 → Nat) a + S1x768.size a ≤ S77x768.size a
  inb_S77x768_S1x768_22_0 : ∀ a, (![22, 0] : Fin 2 → Nat) a + S1x768.size a ≤ S77x768.size a
  inb_S77x768_S1x768_23_0 : ∀ a, (![23, 0] : Fin 2 → Nat) a + S1x768.size a ≤ S77x768.size a
  inb_S77x768_S1x768_24_0 : ∀ a, (![24, 0] : Fin 2 → Nat) a + S1x768.size a ≤ S77x768.size a
  inb_S77x768_S1x768_25_0 : ∀ a, (![25, 0] : Fin 2 → Nat) a + S1x768.size a ≤ S77x768.size a
  inb_S77x768_S1x768_26_0 : ∀ a, (![26, 0] : Fin 2 → Nat) a + S1x768.size a ≤ S77x768.size a
  inb_S77x768_S1x768_27_0 : ∀ a, (![27, 0] : Fin 2 → Nat) a + S1x768.size a ≤ S77x768.size a
  inb_S77x768_S1x768_28_0 : ∀ a, (![28, 0] : Fin 2 → Nat) a + S1x768.size a ≤ S77x768.size a
  inb_S77x768_S1x768_29_0 : ∀ a, (![29, 0] : Fin 2 → Nat) a + S1x768.size a ≤ S77x768.size a
  inb_S77x768_S1x768_30_0 : ∀ a, (![30, 0] : Fin 2 → Nat) a + S1x768.size a ≤ S77x768.size a
  inb_S77x768_S1x768_31_0 : ∀ a, (![31, 0] : Fin 2 → Nat) a + S1x768.size a ≤ S77x768.size a
  inb_S77x768_S1x768_32_0 : ∀ a, (![32, 0] : Fin 2 → Nat) a + S1x768.size a ≤ S77x768.size a
  inb_S77x768_S1x768_33_0 : ∀ a, (![33, 0] : Fin 2 → Nat) a + S1x768.size a ≤ S77x768.size a
  inb_S77x768_S1x768_34_0 : ∀ a, (![34, 0] : Fin 2 → Nat) a + S1x768.size a ≤ S77x768.size a
  inb_S77x768_S1x768_35_0 : ∀ a, (![35, 0] : Fin 2 → Nat) a + S1x768.size a ≤ S77x768.size a
  inb_S77x768_S1x768_36_0 : ∀ a, (![36, 0] : Fin 2 → Nat) a + S1x768.size a ≤ S77x768.size a
  inb_S77x768_S1x768_37_0 : ∀ a, (![37, 0] : Fin 2 → Nat) a + S1x768.size a ≤ S77x768.size a
  inb_S77x768_S1x768_38_0 : ∀ a, (![38, 0] : Fin 2 → Nat) a + S1x768.size a ≤ S77x768.size a
  inb_S77x768_S1x768_39_0 : ∀ a, (![39, 0] : Fin 2 → Nat) a + S1x768.size a ≤ S77x768.size a
  inb_S77x768_S1x768_40_0 : ∀ a, (![40, 0] : Fin 2 → Nat) a + S1x768.size a ≤ S77x768.size a
  inb_S77x768_S1x768_41_0 : ∀ a, (![41, 0] : Fin 2 → Nat) a + S1x768.size a ≤ S77x768.size a
  inb_S77x768_S1x768_42_0 : ∀ a, (![42, 0] : Fin 2 → Nat) a + S1x768.size a ≤ S77x768.size a
  inb_S77x768_S1x768_43_0 : ∀ a, (![43, 0] : Fin 2 → Nat) a + S1x768.size a ≤ S77x768.size a
  inb_S77x768_S1x768_44_0 : ∀ a, (![44, 0] : Fin 2 → Nat) a + S1x768.size a ≤ S77x768.size a
  inb_S77x768_S1x768_45_0 : ∀ a, (![45, 0] : Fin 2 → Nat) a + S1x768.size a ≤ S77x768.size a
  inb_S77x768_S1x768_46_0 : ∀ a, (![46, 0] : Fin 2 → Nat) a + S1x768.size a ≤ S77x768.size a
  inb_S77x768_S1x768_47_0 : ∀ a, (![47, 0] : Fin 2 → Nat) a + S1x768.size a ≤ S77x768.size a
  inb_S77x768_S1x768_48_0 : ∀ a, (![48, 0] : Fin 2 → Nat) a + S1x768.size a ≤ S77x768.size a
  inb_S77x768_S1x768_49_0 : ∀ a, (![49, 0] : Fin 2 → Nat) a + S1x768.size a ≤ S77x768.size a
  inb_S77x768_S1x768_50_0 : ∀ a, (![50, 0] : Fin 2 → Nat) a + S1x768.size a ≤ S77x768.size a
  inb_S77x768_S1x768_51_0 : ∀ a, (![51, 0] : Fin 2 → Nat) a + S1x768.size a ≤ S77x768.size a
  inb_S77x768_S1x768_52_0 : ∀ a, (![52, 0] : Fin 2 → Nat) a + S1x768.size a ≤ S77x768.size a
  inb_S77x768_S1x768_53_0 : ∀ a, (![53, 0] : Fin 2 → Nat) a + S1x768.size a ≤ S77x768.size a
  inb_S77x768_S1x768_54_0 : ∀ a, (![54, 0] : Fin 2 → Nat) a + S1x768.size a ≤ S77x768.size a
  inb_S77x768_S1x768_55_0 : ∀ a, (![55, 0] : Fin 2 → Nat) a + S1x768.size a ≤ S77x768.size a
  inb_S77x768_S1x768_56_0 : ∀ a, (![56, 0] : Fin 2 → Nat) a + S1x768.size a ≤ S77x768.size a
  inb_S77x768_S1x768_57_0 : ∀ a, (![57, 0] : Fin 2 → Nat) a + S1x768.size a ≤ S77x768.size a
  inb_S77x768_S1x768_58_0 : ∀ a, (![58, 0] : Fin 2 → Nat) a + S1x768.size a ≤ S77x768.size a
  inb_S77x768_S1x768_59_0 : ∀ a, (![59, 0] : Fin 2 → Nat) a + S1x768.size a ≤ S77x768.size a
  inb_S77x768_S1x768_60_0 : ∀ a, (![60, 0] : Fin 2 → Nat) a + S1x768.size a ≤ S77x768.size a
  inb_S77x768_S1x768_61_0 : ∀ a, (![61, 0] : Fin 2 → Nat) a + S1x768.size a ≤ S77x768.size a
  inb_S77x768_S1x768_62_0 : ∀ a, (![62, 0] : Fin 2 → Nat) a + S1x768.size a ≤ S77x768.size a
  inb_S77x768_S1x768_63_0 : ∀ a, (![63, 0] : Fin 2 → Nat) a + S1x768.size a ≤ S77x768.size a
  inb_S77x768_S1x768_64_0 : ∀ a, (![64, 0] : Fin 2 → Nat) a + S1x768.size a ≤ S77x768.size a
  inb_S77x768_S1x768_65_0 : ∀ a, (![65, 0] : Fin 2 → Nat) a + S1x768.size a ≤ S77x768.size a
  inb_S77x768_S1x768_66_0 : ∀ a, (![66, 0] : Fin 2 → Nat) a + S1x768.size a ≤ S77x768.size a
  inb_S77x768_S1x768_67_0 : ∀ a, (![67, 0] : Fin 2 → Nat) a + S1x768.size a ≤ S77x768.size a
  inb_S77x768_S1x768_68_0 : ∀ a, (![68, 0] : Fin 2 → Nat) a + S1x768.size a ≤ S77x768.size a
  inb_S77x768_S1x768_69_0 : ∀ a, (![69, 0] : Fin 2 → Nat) a + S1x768.size a ≤ S77x768.size a
  inb_S77x768_S1x768_70_0 : ∀ a, (![70, 0] : Fin 2 → Nat) a + S1x768.size a ≤ S77x768.size a
  inb_S77x768_S1x768_71_0 : ∀ a, (![71, 0] : Fin 2 → Nat) a + S1x768.size a ≤ S77x768.size a
  inb_S77x768_S1x768_72_0 : ∀ a, (![72, 0] : Fin 2 → Nat) a + S1x768.size a ≤ S77x768.size a
  inb_S77x768_S1x768_73_0 : ∀ a, (![73, 0] : Fin 2 → Nat) a + S1x768.size a ≤ S77x768.size a
  inb_S77x768_S1x768_74_0 : ∀ a, (![74, 0] : Fin 2 → Nat) a + S1x768.size a ≤ S77x768.size a
  inb_S77x768_S1x768_75_0 : ∀ a, (![75, 0] : Fin 2 → Nat) a + S1x768.size a ≤ S77x768.size a
  inb_S77x768_S1x768_76_0 : ∀ a, (![76, 0] : Fin 2 → Nat) a + S1x768.size a ≤ S77x768.size a
  h_S1x768 : 0 < S1x768.numel
  shapeCasts_S1x768_S768 : S1x768.ShapeCasts S768
  shapeCasts_S768_S1x768 : S768.ShapeCasts S1x768
  inb_S77x768_S77x768_0_0 : ∀ a, (![0, 0] : Fin 2 → Nat) a + S77x768.size a ≤ S77x768.size a
  h_S77x768 : 0 < S77x768.numel
  bcast_S77x768_S1x77x768_1_2 : S77x768.BroadcastsInDim S1x77x768 (![1, 2] : Fin 2 → Fin S1x77x768.rank)
  hcc0_scratch2 : 2 + S77.numel ≤ 79
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S77x768.size a ≤ S77x768.size a
  hwx0_0 : ∀ i : grid0.Coords, EltTy.bits .f32 = 32 ∨ (Rect.block (s := S77x768) S77x768.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S77x768.size a ≤ S77x768.size a
  hwx0_1 : ∀ i : grid0.Coords, EltTy.bits .f32 = 32 ∨ (Rect.block (s := S77x768) S77x768.size (cc0_transform_2 i) (hinb0_1 i)).WholeWords (EltTy.packing .f32)

variable [Facts₀]

abbrev cc0_scratch2 : DmaSems sig S77 := SemArray.consecutive 2 S77 hcc0_scratch2

abbrev spec0_0 : Pipeline.WinSpec sig grid0.rank :=
  Pipeline.WinSpec.ofSpec (Memref.whole main_arg3) S77x768.size reads0_0 false true 1 stage0_0 sem0_0 nbuf0_0 hstage0_0

abbrev spec0_1 : Pipeline.WinSpec sig grid0.rank :=
  Pipeline.WinSpec.ofSpec (Memref.whole main_v2) S77x768.size reads0_1 true true 1 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S77 : Shape := ⟨1, ![77]⟩
abbrev S49408x768 : Shape := ⟨2, ![49408, 768]⟩
abbrev S77x768 : Shape := ⟨2, ![77, 768]⟩
abbrev S_ : Shape := ⟨0, ![]⟩
abbrev S77x1 : Shape := ⟨2, ![77, 1]⟩
abbrev S1 : Shape := ⟨1, ![1]⟩
abbrev S1x1 : Shape := ⟨2, ![1, 1]⟩
abbrev S1x77x768 : Shape := ⟨3, ![1, 77, 768]⟩

abbrev nBuf : Space → Nat
  | .hbm => 52
  | .vmem => 0
  | .smem => 0
  | _ => 0

abbrev bufTy : (tb : Table) → Fin (tcTables nBuf tb) → BufTy
  | .hbm, ⟨0, _⟩ => ⟨S77, .i32⟩
  | .hbm, ⟨1, _⟩ => ⟨S77, .i32⟩
  | .hbm, ⟨2, _⟩ => ⟨S49408x768, .f32⟩
  | .hbm, ⟨3, _⟩ => ⟨S77x768, .f32⟩
  | .hbm, ⟨4, _⟩ => ⟨S_, .i32⟩
  | .hbm, ⟨5, _⟩ => ⟨S77, .i32⟩
  | .hbm, ⟨6, _⟩ => ⟨S77, .i1⟩
  | .hbm, ⟨7, _⟩ => ⟨S_, .i32⟩
  | .hbm, ⟨8, _⟩ => ⟨S77, .i32⟩
  | .hbm, ⟨9, _⟩ => ⟨S77, .i32⟩
  | .hbm, ⟨10, _⟩ => ⟨S77, .i32⟩
  | .hbm, ⟨11, _⟩ => ⟨S77x1, .i32⟩
  | .hbm, ⟨12, _⟩ => ⟨S1, .i32⟩
  | .hbm, ⟨13, _⟩ => ⟨S_, .i32⟩
  | .hbm, ⟨14, _⟩ => ⟨S77x1, .i32⟩
  | .hbm, ⟨15, _⟩ => ⟨S77x1, .i1⟩
  | .hbm, ⟨16, _⟩ => ⟨S1x1, .i32⟩
  | .hbm, ⟨17, _⟩ => ⟨S77x1, .i32⟩
  | .hbm, ⟨18, _⟩ => ⟨S77x1, .i1⟩
  | .hbm, ⟨19, _⟩ => ⟨S77x1, .i1⟩
  | .hbm, ⟨20, _⟩ => ⟨S_, .i1⟩
  | .hbm, ⟨21, _⟩ => ⟨S77, .i1⟩
  | .hbm, ⟨22, _⟩ => ⟨S77x768, .f32⟩
  | .hbm, ⟨23, _⟩ => ⟨S77x768, .i1⟩
  | .hbm, ⟨24, _⟩ => ⟨S_, .f32⟩
  | .hbm, ⟨25, _⟩ => ⟨S77x768, .f32⟩
  | .hbm, ⟨26, _⟩ => ⟨S77x768, .f32⟩
  | .hbm, ⟨27, _⟩ => ⟨S_, .i32⟩
  | .hbm, ⟨28, _⟩ => ⟨S77, .i32⟩
  | .hbm, ⟨29, _⟩ => ⟨S77, .i1⟩
  | .hbm, ⟨30, _⟩ => ⟨S_, .i32⟩
  | .hbm, ⟨31, _⟩ => ⟨S77, .i32⟩
  | .hbm, ⟨32, _⟩ => ⟨S77, .i32⟩
  | .hbm, ⟨33, _⟩ => ⟨S77, .i32⟩
  | .hbm, ⟨34, _⟩ => ⟨S77x1, .i32⟩
  | .hbm, ⟨35, _⟩ => ⟨S1, .i32⟩
  | .hbm, ⟨36, _⟩ => ⟨S_, .i32⟩
  | .hbm, ⟨37, _⟩ => ⟨S77x1, .i32⟩
  | .hbm, ⟨38, _⟩ => ⟨S77x1, .i1⟩
  | .hbm, ⟨39, _⟩ => ⟨S1x1, .i32⟩
  | .hbm, ⟨40, _⟩ => ⟨S77x1, .i32⟩
  | .hbm, ⟨41, _⟩ => ⟨S77x1, .i1⟩
  | .hbm, ⟨42, _⟩ => ⟨S77x1, .i1⟩
  | .hbm, ⟨43, _⟩ => ⟨S_, .i1⟩
  | .hbm, ⟨44, _⟩ => ⟨S77, .i1⟩
  | .hbm, ⟨45, _⟩ => ⟨S77x768, .f32⟩
  | .hbm, ⟨46, _⟩ => ⟨S77x768, .i1⟩
  | .hbm, ⟨47, _⟩ => ⟨S_, .f32⟩
  | .hbm, ⟨48, _⟩ => ⟨S77x768, .f32⟩
  | .hbm, ⟨49, _⟩ => ⟨S77x768, .f32⟩
  | .hbm, ⟨50, _⟩ => ⟨S77x768, .f32⟩
  | .hbm, ⟨51, _⟩ => ⟨S1x77x768, .f32⟩
  | _, _ => ⟨S77, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S77 : S_.BroadcastsInDim S77 (![] : Fin 0 → Fin S77.rank)
  bcast_S77_S77x1_0 : S77.BroadcastsInDim S77x1 (![0] : Fin 1 → Fin S77x1.rank)
  bcast_S_S77x1 : S_.BroadcastsInDim S77x1 (![] : Fin 0 → Fin S77x1.rank)
  bcast_S1_S1x1_1 : S1.BroadcastsInDim S1x1 (![1] : Fin 1 → Fin S1x1.rank)
  bcast_S1x1_S77x1_0_1 : S1x1.BroadcastsInDim S77x1 (![0, 1] : Fin 2 → Fin S77x1.rank)
  reducesTo_S77x1_S77_d1 : S77x1.ReducesTo [1] S77
  h_S_ : 0 < S_.numel
  bcast_S77_S77x768_0 : S77.BroadcastsInDim S77x768 (![0] : Fin 1 → Fin S77x768.rank)
  bcast_S_S77x768 : S_.BroadcastsInDim S77x768 (![] : Fin 0 → Fin S77x768.rank)
  bcast_S77x768_S1x77x768_1_2 : S77x768.BroadcastsInDim S1x77x768 (![1, 2] : Fin 2 → Fin S1x77x768.rank)
  gather_S49408x768_S77x1_S77x768_1_0_n_n_0_1_1768_wf : GatherDims.WF S49408x768 S77x1 S77x768 [1] [0] [] [0] [] 1 ![1, 768]
  gather_S77x768_S77x1_S77x768_1_0_n_n_0_1_1768_wf : GatherDims.WF S77x768 S77x1 S77x768 [1] [0] [] [0] [] 1 ![1, 768]

variable [Facts₀]

def gather_S49408x768_S77x1_S77x768_1_0_n_n_0_1_1768 : GatherDims S49408x768 S77x1 S77x768 where
  offsetDims := [1]
  collapsedSliceDims := [0]
  operandBatchingDims := []
  startIndicesBatchingDims := []
  startIndexMap := [0]
  indexVectorDim := 1
  sliceSizes := ![1, 768]
  wf := gather_S49408x768_S77x1_S77x768_1_0_n_n_0_1_1768_wf
def gather_S77x768_S77x1_S77x768_1_0_n_n_0_1_1768 : GatherDims S77x768 S77x1 S77x768 where
  offsetDims := [1]
  collapsedSliceDims := [0]
  operandBatchingDims := []
  startIndicesBatchingDims := []
  startIndexMap := [0]
  indexVectorDim := 1
  sliceSizes := ![1, 768]
  wf := gather_S77x768_S77x1_S77x768_1_0_n_n_0_1_1768_wf

class Facts : Prop extends Facts₀ where

variable [Facts]
-- ==== Proof.KDefs.lean ====
/-
  The names the kernel body's run is stated over: the operands the body is called with beside its two blocks
  (the two scalar tables of clamped ids, the token table left in its own memory, the two scratch arrays), a buffer
  held whole at a share, a DMA semaphore cell at zero, the token table's read share for a cell, and row k of the
  first scratch array held on its own elements; and the arithmetic of the body's assumed side conditions: a row
  index below the table's row count keeps a one-row slice inside the table.
-/
import proofs.«408740_j35519379538186_3_alg».proof.Proof.Gen.KernelIdeal.Launch
import proofs.«408740_j35519379538186_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

/-- The two scalar tables, the token table and the two scratch arrays, as the body is called with them. -/
abbrev idsM : Memref sig .tc .smem S77 .i32 := Memref.whole main_v0
abbrev posM : Memref sig .tc .smem S77 .i32 := Memref.whole main_v1
abbrev tokM : Memref sig .tc .hbm S49408x768 .f32 := Memref.whole main_arg2
abbrev scA : Memref sig .tc .vmem S77x768 .f32 := Memref.whole cc0_scratch0
abbrev scB : Memref sig .tc .vmem S77x768 .f32 := Memref.whole cc0_scratch1

/-- A memref's buffer on core c, and it held whole at a share. -/
abbrev Bf (c : Dev nD) {sp : Space} {S : Shape} {e : EltTy} (M : Memref sig .tc sp S e) : Type := Buf (Elt F) (M.view.loc (c : Thread nD τ))
abbrev ptq (c : Dev nD) {sp : Space} {S : Shape} {e : EltTy} (M : Memref sig .tc sp S e) (q : PosShare TreeShare) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  M.view.loc (c : Thread nD τ) ↦{fullShare} f
/-- A memref held on its own elements at the full share (a window's staging memref, as the pipeline hands it over). -/
abbrev ptm (c : Dev nD) {sp : Space} {S : Shape} {e : EltTy} (M : Memref sig .tc sp S e) (f : Bf (F := F) c M) : sProp 𝕄 :=
  M.view.loc (c : Thread nD τ) ↦[M.view.set]{fullShare} f
/-- Cell k of the core's DMA semaphores at zero. -/
abbrev cellAt (c : Dev nD) (k : ℕ) (hk : k < 79 := by decide) : sProp 𝕄 := semVal ((c : Thread nD τ), SemLoc.dma ⟨k, hk⟩) 0
/-- The token table's read share for the copy that completes on cell k. -/
abbrev tokAt (c : Dev nD) (k : ℕ) (f : Bf (F := F) c tokM) : sProp 𝕄 :=
  tokM.view.loc (c : Thread nD τ) ↦{Transfers.shareTokN fullShare k} f

/-- Row k of the first scratch array, as the body's copies name it, and the array held on that row's elements. -/
abbrev rowM (k : ℕ) (hk : ∀ a : Fin 2, (![k, 0] : Fin 2 → Nat) a + S1x768.size a ≤ S77x768.size a := by decide) : Memref sig .tc .vmem S768 .f32 :=
  (scA.slice (Rect.unit (s := S77x768) ![k, 0] S1x768.size hk) (fun _ => rfl)).squeeze S768 squeezes_S1x768_S768
abbrev rowAt (c : Dev nD) (k : ℕ) (f : Bf (F := F) c scA) (hk : ∀ a : Fin 2, (![k, 0] : Fin 2 → Nat) a + S1x768.size a ≤ S77x768.size a := by decide) : sProp 𝕄 :=
  (rowM k hk).view.loc (c : Thread nD τ) ↦[(rowM k hk).view.set]{fullShare} f

/-- A row of a table of n rows and 768 columns at a word below n lies inside the table. -/
theorem row_inside {w : BitVec 32} {n : Nat} (h : w.toNat < n) :
    ∀ a : Fin 2, (![w.toNat, 0] : Fin 2 → Nat) a + (![1, 768] : Fin 2 → Nat) a ≤ (![n, 768] : Fin 2 → Nat) a := by
  intro a; fin_cases a
  · show w.toNat + 1 ≤ n; omega
  · show 0 + 768 ≤ 768; omega

/-- The token rows the ids name: entry (s, d) is the token table at row ids[s], column d. -/
def gatherTok (c : Dev nD) (T0 : Bf (F := F) c idsM) (fh : Bf (F := F) c tokM) (hT0 : ∀ j, (T0 j).toNat < 49408) : Vec F S77x768 .f32 :=
  fun j => tokM.view.read (Elt F) fh (ix2 ⟨(T0 (ix1 (j 0))).toNat, hT0 _⟩ (j 1))

/-- The position rows the position ids name, out of the position table's block. -/
def gatherPos (c : Dev nD) (arg4 : Memref sig .tc .vmem S77x768 .f32) (T1 : Bf (F := F) c posM) (x4 : Bf (F := F) c arg4) (hT1 : ∀ j, (T1 j).toNat < 77) : Vec F S77x768 .f32 :=
  fun j => arg4.view.read (Elt F) x4 (ix2 ⟨(T1 (ix1 (j 0))).toNat, hT1 _⟩ (j 1))

/-- What the body leaves in the output's block: the two looked-up arrays added. -/
def outBlock (c : Dev nD) (arg4 : Memref sig .tc .vmem S77x768 .f32) (T0 : Bf (F := F) c idsM) (T1 : Bf (F := F) c posM) (x4 : Bf (F := F) c arg4) (fh : Bf (F := F) c tokM)
    (hT0 : ∀ j, (T0 j).toNat < 49408) (hT1 : ∀ j, (T1 j).toNat < 77) : Vec F S77x768 .f32 :=
  addf (gatherTok c T0 fh hT0) (gatherPos c arg4 T1 x4 hT1)

end Cert.KernelIdeal.Hand

end
-- ==== Proof.KRows.lean ====
/-
  The first scratch array as its 77 rows.

  Row k of the array, as the body's copies name it, is the one-row rectangle at (k, 0) with its leading axis of
  extent 1 dropped: its index d sits at (k, d) of the array (`rowM_emb`), and its elements are the rectangle's
  (`rowM_set`). Two things follow.

  * A row held on its own elements after a copy has landed its payload p over arbitrary prior contents holds, at
    column d, the value p d; where p d is what contents g hold at (k, d), that is the row held at g
    (`row_landed`): contents off the row's elements do not matter.
  * Rectangles of different rows are separated on the row axis, so no two rows share an element
    (`rows_disjoint`), and every element (s, d) lies in row s (`rows_cover`); so the array held whole at g is the
    separating conjunction of its 77 rows, each held on its own elements at g (`rows_bigSep`, and `rows_eq` with
    the conjunction written out row by row).
-/
import proofs.«408740_j35519379538186_3_alg».proof.Proof.KDefs
import Idealize.ShloMosaic.Lib.ValueIdx
import Idealize.ShloMosaic.Lib.Writes
import Idealize.ShloMosaic.Lib.Pipeline.Kit
import Idealize.ShloMosaic.Rules.PointsTo

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- Row k's elements are those of the unit rectangle of one row at (k, 0). -/
theorem rowM_set (k : ℕ) (hk : ∀ a : Fin 2, (![k, 0] : Fin 2 → Nat) a + S1x768.size a ≤ S77x768.size a) :
    (rowM k hk).view.set = (Rect.unit (s := S77x768) ![k, 0] S1x768.size hk).set := by
  show (((View.whole cc0_scratch0 : View sig .tc _ _ _).slice (Rect.unit (s := S77x768) ![k, 0] S1x768.size hk)).reshape S768 _).set = _
  rw [View.set_reshape, View.set_slice_whole]

/-- Row k's index d sits at (k, d) of the array. -/
theorem rowM_emb (k : ℕ) (hk : ∀ a : Fin 2, (![k, 0] : Fin 2 → Nat) a + S1x768.size a ≤ S77x768.size a) (hk77 : k < 77)
    (d : Fin 768) : (rowM k hk).view.emb (ValueIdx.ix1 d) = (ValueIdx.ix2 ⟨k, hk77⟩ d : S77x768.Idx) := by
  show (Rect.unit (s := S77x768) ![k, 0] S1x768.size hk).emb (Shape.reshapeEquiv squeezes_S1x768_S768.numel_eq (ValueIdx.ix1 d)) = _
  have h1 : Shape.reshapeEquiv squeezes_S1x768_S768.numel_eq (ValueIdx.ix1 d)
      = Fin.cons (⟨0, Nat.one_pos⟩ : Fin 1) (ValueIdx.ix1 d : S768.Idx) :=
    Shape.reshapeEquiv_cons_one (n := 1) (d := ![768]) _ _
  rw [h1]
  funext a
  refine Fin.ext ?_
  rw [Rect.emb_apply]
  match a with
  | ⟨0, _⟩ => show k + 1 * 0 = k; omega
  | ⟨1, _⟩ => show 0 + 1 * d.val = d.val; omega

/-- A row after a landed copy: on the row's elements the written contents are the payload at the column, which is
    `g` there. -/
theorem row_landed (c : Dev nD) (k : ℕ) (hk : ∀ a : Fin 2, (![k, 0] : Fin 2 → Nat) a + S1x768.size a ≤ S77x768.size a) (hk77 : k < 77)
    (fa g : Bf (F := F) c scA) (p : S768.Idx → Elt F .f32)
    (hp : ∀ d : Fin 768, p (ValueIdx.ix1 d) = scA.view.read (Elt F) g (ValueIdx.ix2 ⟨k, hk77⟩ d)) :
    ((rowM k hk).view.loc (c : Thread nD τ) ↦[(rowM k hk).view.set]{fullShare} (rowM k hk).view.writes (Elt F) fa [⟨Rect.whole S768, p⟩] : sProp 𝕄)
      = rowAt c k g hk := by
  refine pointsTo_congr fun i hi => ?_
  obtain ⟨x, -, rfl⟩ := Finset.mem_map.mp hi
  obtain ⟨d, rfl⟩ : ∃ d, x = ValueIdx.ix1 d := ⟨x 0, ValueIdx.eq_ix1 x⟩
  rw [View.writes_singleton]
  have he : (rowM k hk).view.emb (ValueIdx.ix1 d) = ((rowM k hk).view.slice (Rect.whole S768)).emb (ValueIdx.ix1 d) := by
    show _ = (rowM k hk).view.emb ((Rect.whole S768).emb (ValueIdx.ix1 d))
    rw [Rect.emb_whole_apply]
  rw [he, View.write_emb_of_mem _ _ (Finset.mem_univ _), hp d, ← he, rowM_emb k hk hk77 d]
  rfl

/-- A row index below 77 keeps the one-row rectangle at (k, 0) inside the array. -/
theorem row_inb (k : ℕ) (hk77 : k < 77) : ∀ a : Fin 2, (![k, 0] : Fin 2 → Nat) a + S1x768.size a ≤ S77x768.size a := by
  intro a; fin_cases a
  · show k + 1 ≤ 77; omega
  · show 0 + 768 ≤ 768; omega

/-- Two different rows share no element: their rectangles are separated on the row axis. -/
theorem rows_disjoint (k k' : Fin 77) (h : k ≠ k') :
    Disjoint (rowM k.val (row_inb k.val k.isLt)).view.set (rowM k'.val (row_inb k'.val k'.isLt)).view.set := by
  rw [rowM_set, rowM_set]
  refine Rect.unit_disjoint (0 : Fin 2) ?_
  show k.val + 1 ≤ k'.val ∨ k'.val + 1 ≤ k.val
  have : k.val ≠ k'.val := fun e => h (Fin.ext e)
  omega

/-- Every element of the array lies in the row its first coordinate names. -/
theorem rows_cover :
    (Finset.univ : Finset S77x768.Idx) = Finset.univ.biUnion fun k : Fin 77 => (rowM k.val (row_inb k.val k.isLt)).view.set := by
  ext i
  simp only [Finset.mem_univ, Finset.mem_biUnion, true_and, true_iff]
  refine ⟨⟨(i 0).val, ValueIdx.idx2_lt0 i⟩, ?_⟩
  rw [rowM_set, Rect.mem_set_unit]
  intro a; fin_cases a
  · show (i 0).val ≤ (i 0).val ∧ (i 0).val < (i 0).val + 1
    omega
  · show 0 ≤ (i 1).val ∧ (i 1).val < 0 + 768
    have := ValueIdx.idx2_lt1 i
    omega

/-- The array held whole is its 77 rows held each on its own elements. -/
theorem rows_bigSep (c : Dev nD) (g : Bf (F := F) c scA) :
    (pt c scA g : sProp 𝕄) = bigSep Finset.univ fun k : Fin 77 => rowAt c k.val g (row_inb k.val k.isLt) := by
  have h : (scA.view.loc (c : Thread nD τ) ↦[Finset.univ.biUnion fun k : Fin 77 => (rowM k.val (row_inb k.val k.isLt)).view.set]{fullShare} g : sProp 𝕄)
      = bigSep Finset.univ fun k : Fin 77 => scA.view.loc (c : Thread nD τ) ↦[(rowM k.val (row_inb k.val k.isLt)).view.set]{fullShare} g :=
    pointsTo_biUnion Finset.univ _ fun k _ k' _ hkk => rows_disjoint k k' hkk
  rw [← rows_cover] at h
  exact h

/-- The same with the 77 rows written out. -/
theorem rows_eq (c : Dev nD) (g : Bf (F := F) c scA) :
    (pt c scA g : sProp 𝕄) = iprop(rowAt c 0 g ∗ rowAt c 1 g ∗ rowAt c 2 g ∗ rowAt c 3 g ∗ rowAt c 4 g ∗ rowAt c 5 g ∗ rowAt c 6 g ∗ rowAt c 7 g ∗ rowAt c 8 g ∗ rowAt c 9 g ∗ rowAt c 10 g ∗ rowAt c 11 g ∗ rowAt c 12 g ∗ rowAt c 13 g ∗ rowAt c 14 g ∗ rowAt c 15 g ∗ rowAt c 16 g ∗ rowAt c 17 g ∗ rowAt c 18 g ∗ rowAt c 19 g ∗ rowAt c 20 g ∗ rowAt c 21 g ∗ rowAt c 22 g ∗ rowAt c 23 g ∗ rowAt c 24 g ∗ rowAt c 25 g ∗ rowAt c 26 g ∗ rowAt c 27 g ∗ rowAt c 28 g ∗ rowAt c 29 g ∗ rowAt c 30 g ∗ rowAt c 31 g ∗ rowAt c 32 g ∗ rowAt c 33 g ∗ rowAt c 34 g ∗ rowAt c 35 g ∗ rowAt c 36 g ∗ rowAt c 37 g ∗ rowAt c 38 g ∗ rowAt c 39 g ∗ rowAt c 40 g ∗ rowAt c 41 g ∗ rowAt c 42 g ∗ rowAt c 43 g ∗ rowAt c 44 g ∗ rowAt c 45 g ∗ rowAt c 46 g ∗ rowAt c 47 g ∗ rowAt c 48 g ∗ rowAt c 49 g ∗ rowAt c 50 g ∗ rowAt c 51 g ∗ rowAt c 52 g ∗ rowAt c 53 g ∗ rowAt c 54 g ∗ rowAt c 55 g ∗ rowAt c 56 g ∗ rowAt c 57 g ∗ rowAt c 58 g ∗ rowAt c 59 g ∗ rowAt c 60 g ∗ rowAt c 61 g ∗ rowAt c 62 g ∗ rowAt c 63 g ∗ rowAt c 64 g ∗ rowAt c 65 g ∗ rowAt c 66 g ∗ rowAt c 67 g ∗ rowAt c 68 g ∗ rowAt c 69 g ∗ rowAt c 70 g ∗ rowAt c 71 g ∗ rowAt c 72 g ∗ rowAt c 73 g ∗ rowAt c 74 g ∗ rowAt c 75 g ∗ rowAt c 76 g) := by
  rw [rows_bigSep, bigSep_univ_eq_bigSepL (List.finRange 77) (List.toFinset_finRange 77).symm (List.nodup_finRange 77)]
  rfl

end Cert.KernelIdeal.Hand

end
-- ==== Proof.KReads.lean ====
/-
  The reads the kernel body's run names, each at one index.

  A word of a scalar table read through the one-element rectangle at position k is the table's entry k. Row w of the
  token table, taken as a one-row rectangle at offsets (w, 0) and then re-indexed by its 768 columns alone, reads at
  column d the table's entry (w, d). The one-row rectangle at offsets (w, 0) of the position table's block reads at
  (0, d) the block's entry (w, d). Re-indexing a [1, 768] vector by its columns alone and back changes no entry.
  Each is the same computation: the index a rectangle (and a row-major re-indexing) sends a given index to,
  coordinate by coordinate.
-/
import proofs.«408740_j35519379538186_3_alg».proof.Proof.KDefs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The one-element rectangle at position k of the token-id table reads entry k. -/
theorem ids_word (c : Dev nD) (T0 : Bf (F := F) c idsM) (k : ℕ) (hk : k < 77)
    (h1 : ∀ a, (![k] : Fin 1 → Nat) a + S1.size a ≤ S77.size a)
    (h2 : 0 < (Rect.unit (s := S77) ![k] S1.size h1).toLoadRect.shape.numel) :
    View.readAt (Elt F) idsM.view (Rect.unit (s := S77) ![k] S1.size h1).toLoadRect T0 (Shape.Idx.first h2)
      = T0 (ValueIdx.ix1 ⟨k, hk⟩) := by
  show T0 ((Rect.unit (s := S77) ![k] S1.size h1).emb _) = T0 _
  congr 1
  funext a
  match a with
  | ⟨0, _⟩ => exact Fin.ext (show k + 1 * 0 = k by omega)

/-- The one-element rectangle at position k of the position-id table reads entry k. -/
theorem pos_word (c : Dev nD) (T1 : Bf (F := F) c posM) (k : ℕ) (hk : k < 77)
    (h1 : ∀ a, (![k] : Fin 1 → Nat) a + S1.size a ≤ S77.size a)
    (h2 : 0 < (Rect.unit (s := S77) ![k] S1.size h1).toLoadRect.shape.numel) :
    View.readAt (Elt F) posM.view (Rect.unit (s := S77) ![k] S1.size h1).toLoadRect T1 (Shape.Idx.first h2)
      = T1 (ValueIdx.ix1 ⟨k, hk⟩) := by
  show T1 ((Rect.unit (s := S77) ![k] S1.size h1).emb _) = T1 _
  congr 1
  funext a
  match a with
  | ⟨0, _⟩ => exact Fin.ext (show k + 1 * 0 = k by omega)

/-- Row w of the token table, as the one-row rectangle at offsets (w, 0) indexed by its columns alone, reads at
    column d the table's entry (w, d): column d is at row-major position d of the one row, which the rectangle
    places at (w + 0, 0 + d). -/
theorem tok_row_read (c : Dev nD) (fh : Bf (F := F) c tokM) (w : BitVec 32) (hw : w.toNat < 49408)
    (off : Fin 2 → Nat) (hoff : off = ![w.toNat, 0])
    (h1 : ∀ a, off a + S1x768.size a ≤ S49408x768.size a)
    (h2 : ∀ a, (Rect.unit (s := S49408x768) off S1x768.size h1).stride a = 1)
    (h3 : (Rect.unit (s := S49408x768) off S1x768.size h1).shape.Squeezes S768) (d : Fin 768) :
    ReadAs.same.apply (View.read (Elt F) ((tokM.slice (Rect.unit (s := S49408x768) off S1x768.size h1) h2).squeeze S768 h3).view fh)
        (ValueIdx.ix1 d)
      = tokM.view.read (Elt F) fh (ValueIdx.ix2 ⟨w.toNat, hw⟩ d) := by
  subst hoff
  show fh _ = fh _
  congr 1
  show (Rect.unit (s := S49408x768) ![w.toNat, 0] S1x768.size h1).emb (Shape.reshapeEquiv h3.numel_eq (ValueIdx.ix1 d))
    = ValueIdx.ix2 ⟨w.toNat, hw⟩ d
  have e : Shape.reshapeEquiv h3.numel_eq (ValueIdx.ix1 d) = ValueIdx.ix2 (0 : Fin 1) d :=
    Shape.reshapeEquiv_eq_of_rowMajor h3.numel_eq (by
      rw [Shape.rowMajor_val_two, Shape.rowMajor_val_one]
      show 0 * _ + d.val = d.val
      omega)
  rw [e]
  funext a
  match a with
  | ⟨0, _⟩ => exact Fin.ext (show w.toNat + 1 * 0 = w.toNat by omega)
  | ⟨1, _⟩ => exact Fin.ext (show 0 + 1 * d.val = d.val by omega)

/-- The one-row rectangle at offsets (w, 0) of a [77, 768] array reads at (0, d) the array's entry (w, d). -/
theorem pos_row_read (c : Dev nD) (arg4 : Memref sig .tc .vmem S77x768 .f32) (harg4 : arg4.IsWhole) (x4 : Bf (F := F) c arg4)
    (w : BitVec 32) (hw : w.toNat < 77) (off : Fin 2 → Nat) (hoff : off = ![w.toNat, 0])
    (h1 : ∀ a, off a + S1x768.size a ≤ S77x768.size a) (z : Fin 1) (d : Fin 768) :
    arg4.view.readAt (Elt F) (Rect.unit (s := S77x768) off S1x768.size h1).toLoadRect x4 (ValueIdx.ix2 z d)
      = arg4.view.read (Elt F) x4 (ValueIdx.ix2 ⟨w.toNat, hw⟩ d) := by
  subst hoff
  rw [View.readAt_apply]
  congr 1
  funext a
  match a with
  | ⟨0, _⟩ => exact Fin.ext (show w.toNat + 1 * z.val = w.toNat by have := z.isLt; omega)
  | ⟨1, _⟩ => exact Fin.ext (show 0 + 1 * d.val = d.val by omega)

/-- A [1, 768] vector indexed by its columns alone: column d is the entry (0, d), both at row-major position d. -/
theorem cast_to_row_apply (v : Vec F S1x768 .f32) (h1 : S1x768.ShapeCasts S768) (z : Fin 1) (d : Fin 768) :
    shapeCast S768 v h1 (ValueIdx.ix1 d) = v (ValueIdx.ix2 z d) :=
  shapeCast_apply v h1 (ValueIdx.ix1 d) (ValueIdx.ix2 z d) (by
    rw [Shape.rowMajor_val_two, Shape.rowMajor_val_one]
    show z.val * _ + d.val = d.val
    have := z.isLt
    have hz : z.val = 0 := by omega
    rw [hz]; omega)

/-- A 768-vector indexed as one row of 768 columns: the entry (0, d) is entry d. -/
theorem cast_of_row_apply (u : FVec F S768 .f32) (h2 : S768.ShapeCasts S1x768) (z : Fin 1) (d : Fin 768) :
    shapeCast S1x768 u h2 (ValueIdx.ix2 z d) = u (ValueIdx.ix1 d) :=
  shapeCast_apply u h2 (ValueIdx.ix2 z d) (ValueIdx.ix1 d) (by
    rw [Shape.rowMajor_val_two, Shape.rowMajor_val_one]
    show d.val = z.val * _ + d.val
    have := z.isLt
    have hz : z.val = 0 := by omega
    rw [hz]; omega)

/-- Re-indexing a [1, 768] vector by its columns alone and back as one row changes no entry. -/
theorem cast_row_apply (v : Vec F S1x768 .f32) (h1 : S1x768.ShapeCasts S768) (h2 : S768.ShapeCasts S1x768) (z : Fin 1) (d : Fin 768) :
    shapeCast S1x768 (shapeCast S768 v h1) h2 (ValueIdx.ix2 z d) = v (ValueIdx.ix2 z d) := by
  rw [cast_of_row_apply _ h2 z d, cast_to_row_apply v h1 z d]

end Cert.KernelIdeal.Hand

end
-- ==== Proof.KLand.lean ====
/-
  The two scratch arrays after the copies have landed, as one contents function each.

  Row s of the first scratch array is written by the copy of row ids[s] of the token table; row s of the second by
  the store of row pos[s] of the position table's block. Read back whole, the first is the array of looked-up token
  rows and the second the array of looked-up position rows.
-/
import proofs.«408740_j35519379538186_3_alg».proof.Proof.KRows
import proofs.«408740_j35519379538186_3_alg».proof.Proof.KReads
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

/-- The first scratch array's contents once every copy has landed: the looked-up token rows. -/
def gA (c : Dev nD) (T0 : Bf (F := F) c idsM) (fh : Bf (F := F) c tokM) (hT0 : ∀ j, (T0 j).toNat < 49408) : Bf (F := F) c scA :=
  (Memref.isWhole_whole cc0_scratch0).unread (gatherTok c T0 fh hT0)

theorem gA_read (c : Dev nD) (T0 : Bf (F := F) c idsM) (fh : Bf (F := F) c tokM) (hT0 : ∀ j, (T0 j).toNat < 49408) :
    scA.view.read (Elt F) (gA c T0 fh hT0) = gatherTok c T0 fh hT0 :=
  (Memref.isWhole_whole cc0_scratch0).read_unread _

/-- Row k of the first scratch array, written by the copy of the token table's row at the k-th table word, holds
    the looked-up rows' row k. -/
theorem tok_row_landed (c : Dev nD) (k : ℕ) (hk : ∀ a : Fin 2, (![k, 0] : Fin 2 → Nat) a + S1x768.size a ≤ S77x768.size a) (hk77 : k < 77)
    (fa : Bf (F := F) c scA) (T0 : Bf (F := F) c idsM) (fh : Bf (F := F) c tokM) (hT0 : ∀ j, (T0 j).toNat < 49408)
    (w : BitVec 32) (hw : w = T0 (ix1 ⟨k, hk77⟩)) (off : Fin 2 → Nat) (hoff : off = ![w.toNat, 0])
    (h1 : ∀ a, off a + S1x768.size a ≤ S49408x768.size a)
    (h2 : ∀ a, (Rect.unit (s := S49408x768) off S1x768.size h1).stride a = 1)
    (h3 : (Rect.unit (s := S49408x768) off S1x768.size h1).shape.Squeezes S768) :
    ((rowM k hk).view.loc (c : Thread nD τ) ↦[(rowM k hk).view.set]{fullShare}
        (rowM k hk).view.writes (Elt F) fa [⟨Rect.whole S768,
          ReadAs.same.apply (View.read (Elt F) ((tokM.slice (Rect.unit (s := S49408x768) off S1x768.size h1) h2).squeeze S768 h3).view fh)⟩] : sProp 𝕄)
      = rowAt c k (gA c T0 fh hT0) hk := by
  refine row_landed c k hk hk77 fa (gA c T0 fh hT0) _ fun d => ?_
  have hlt : w.toNat < 49408 := by rw [hw]; exact hT0 _
  rw [tok_row_read c fh w hlt off hoff h1 h2 h3 d, gA_read]
  unfold gatherTok
  subst hw
  rfl

/-- A row that lies inside the array is one of its 77 rows. -/
theorem row_lt {k : ℕ} (hk : ∀ a : Fin 2, (![k, 0] : Fin 2 → Nat) a + S1x768.size a ≤ S77x768.size a) : k < 77 := by
  have h := hk 0
  have e : (![k, 0] : Fin 2 → Nat) 0 + S1x768.size 0 = k + 1 := rfl
  have e' : S77x768.size 0 = 77 := rfl
  omega

/-- Row k of the second scratch array is stored with the position block's row at the k-th table word (through
    two reshapes that only drop and restore the leading axis of extent 1): at every index of the stored piece it holds
    the looked-up position rows' entry there. -/
theorem pos_piece_ok (c : Dev nD) (arg4 : Memref sig .tc .vmem S77x768 .f32) (harg4 : arg4.IsWhole)
    (T1 : Bf (F := F) c posM) (x4 : Bf (F := F) c arg4) (hT1 : ∀ j, (T1 j).toNat < 77)
    (k : ℕ) (hk : ∀ a : Fin 2, (![k, 0] : Fin 2 → Nat) a + S1x768.size a ≤ S77x768.size a)
    (w : BitVec 32) (hw : w = T1 (ix1 ⟨k, row_lt hk⟩)) (off : Fin 2 → Nat) (hoff : off = ![w.toNat, 0])
    (h1 : ∀ a, off a + S1x768.size a ≤ S77x768.size a) (hc1 : S1x768.ShapeCasts S768) (hc2 : S768.ShapeCasts S1x768) :
    ∀ x : (Rect.unit (s := S77x768) ![k, 0] S1x768.size hk).shape.Idx,
      shapeCast S1x768 (shapeCast S768 (arg4.view.readAt (Elt F) (Rect.unit (s := S77x768) off S1x768.size h1).toLoadRect x4) hc1) hc2 x
        = gatherPos c arg4 T1 x4 hT1 ((Rect.unit (s := S77x768) ![k, 0] S1x768.size hk).emb x) := by
  intro x
  obtain ⟨z, d, rfl⟩ : ∃ (z : Fin 1) (d : Fin 768), x = ix2 z d := ⟨x 0, x 1, eq_ix2 x⟩
  have hlt : w.toNat < 77 := by rw [hw]; exact hT1 _
  rw [cast_row_apply _ hc1 hc2 z d, pos_row_read c arg4 harg4 x4 w hlt off hoff h1 z d]
  unfold gatherPos
  subst hw
  have e : (Rect.unit (s := S77x768) ![k, 0] S1x768.size hk).emb (ix2 z d) = ix2 (⟨k, row_lt hk⟩ : Fin 77) d := by
    funext a
    match a with
    | ⟨0, _⟩ => exact Fin.ext (by show k + 1 * (z : Nat) = k; have := z.isLt; omega)
    | ⟨1, _⟩ => exact Fin.ext (by show 0 + 1 * (d : Nat) = d; omega)
  rw [e]

/-- The whole-shape rectangle at the origin, read as a load's coordinates, is the identity on indices. -/
theorem whole_idx (h0 : ∀ a, (![0, 0] : Fin 2 → Nat) a + S77x768.size a ≤ S77x768.size a) (y : S77x768.Idx) :
    (Rect.unit (s := S77x768) ![0, 0] S77x768.size h0).toLoadRect.idx y = y := by
  funext a
  match a with
  | ⟨0, _⟩ => exact Fin.ext (by show 0 + 1 * (y 0 : Nat) = y 0; omega)
  | ⟨1, _⟩ => exact Fin.ext (by show 0 + 1 * (y 1 : Nat) = y 1; omega)

/-- The second scratch array's contents once its 77 rows are stored: the looked-up position rows. -/
def gB (c : Dev nD) (arg4 : Memref sig .tc .vmem S77x768 .f32) (T1 : Bf (F := F) c posM) (x4 : Bf (F := F) c arg4) (hT1 : ∀ j, (T1 j).toNat < 77) : Bf (F := F) c scB :=
  (Memref.isWhole_whole cc0_scratch1).unread (gatherPos c arg4 T1 x4 hT1)

theorem gB_read (c : Dev nD) (arg4 : Memref sig .tc .vmem S77x768 .f32) (T1 : Bf (F := F) c posM) (x4 : Bf (F := F) c arg4) (hT1 : ∀ j, (T1 j).toNat < 77) :
    scB.view.read (Elt F) (gB c arg4 T1 x4 hT1) = gatherPos c arg4 T1 x4 hT1 :=
  (Memref.isWhole_whole cc0_scratch1).read_unread _

/-- The second scratch array written, over anything, by pieces that cover it and each hold the looked-up position
    rows on their rectangle, holds the looked-up position rows. -/
theorem scB_clean (c : Dev nD) (arg4 : Memref sig .tc .vmem S77x768 .f32) (T1 : Bf (F := F) c posM) (x4 : Bf (F := F) c arg4) (hT1 : ∀ j, (T1 j).toNat < 77)
    (L : List (View.Piece (Elt F) S77x768 .f32))
    (hL : ∀ p ∈ L, ∀ x : p.1.shape.Idx, p.2 x = gatherPos c arg4 T1 x4 hT1 (p.1.emb x))
    (hcov : ∀ y : S77x768.Idx, ∃ p ∈ L, y ∈ p.1.set) :
    scB.view.writes (Elt F) scB.view.junk L = gB c arg4 T1 x4 hT1 := by
  apply (Memref.isWhole_whole cc0_scratch1).eq_unread
  rw [View.read_writes_junk_eq_canon]
  funext y
  exact View.canon_apply_of_pieces _ L hL y (hcov y)

/-- What the body's last store leaves in the output's block: the first scratch array read whole (the looked-up
    token rows) plus the second read whole (the looked-up position rows), written over the whole block. -/
theorem out_block_eq (c : Dev nD) (arg4 : Memref sig .tc .vmem S77x768 .f32) (arg5 : Memref sig .tc .vmem S77x768 .f32) (harg5 : arg5.IsWhole)
    (T0 : Bf (F := F) c idsM) (T1 : Bf (F := F) c posM) (x4 : Bf (F := F) c arg4) (fh : Bf (F := F) c tokM)
    (hT0 : ∀ j, (T0 j).toNat < 49408) (hT1 : ∀ j, (T1 j).toNat < 77)
    (h0 : ∀ a, (![0, 0] : Fin 2 → Nat) a + S77x768.size a ≤ S77x768.size a) :
    arg5.view.writes (Elt F) arg5.view.junk
      [⟨Rect.unit (s := S77x768) ![0, 0] S77x768.size h0,
        k0_pay1 (View.readAt (Elt F) scA.view (Rect.unit (s := S77x768) ![0, 0] S77x768.size h0).toLoadRect (gA c T0 fh hT0))
          (View.readAt (Elt F) scB.view (Rect.unit (s := S77x768) ![0, 0] S77x768.size h0).toLoadRect (gB c arg4 T1 x4 hT1))⟩]
      = harg5.unread (outBlock c arg4 T0 T1 x4 fh hT0 hT1) := by
  apply harg5.eq_unread
  rw [View.read_writes_junk_eq_canon, View.canon_unit_zero (by funext a; fin_cases a <;> rfl) h0]
  unfold k0_pay1 outBlock
  have eA : View.readAt (Elt F) scA.view (Rect.unit (s := S77x768) ![0, 0] S77x768.size h0).toLoadRect (gA c T0 fh hT0) = gatherTok c T0 fh hT0 := by
    funext y
    rw [View.readAt_apply, whole_idx h0 y, gA_read]
  have eB : View.readAt (Elt F) scB.view (Rect.unit (s := S77x768) ![0, 0] S77x768.size h0).toLoadRect (gB c arg4 T1 x4 hT1) = gatherPos c arg4 T1 x4 hT1 := by
    funext y
    rw [View.readAt_apply, whole_idx h0 y, gB_read]
  rw [eA, eB]

end Cert.KernelIdeal.Hand

end
-- ==== Proof.KRun.lean ====
/-
  The kernel body run once, at symbolic operands.

  The body reads the 77 clamped token ids and the 77 clamped position ids from the two scalar tables, starts 77
  copies of one row each of the token table (left in its own memory) into rows 0..76 of a first scratch array,
  each copy on a semaphore cell of its own; copies row pos[s] of the position table's block into row s of a second
  scratch array, for s = 0..76; waits for the 77 copies; and stores the sum of the two scratch arrays into the
  output's block. Every row index it uses is read from a table whose words are below the table's row count, which is
  what the body's assumed side conditions ask. So the output's block ends at: entry (s, d) = tok[ids[s], d] + pw[pos[s], d].

  The token table is read by 77 copies in flight at once, so it is held as 77 read shares, one per cell; the first
  scratch array is held row by row while the copies fly, and put back together, at the looked-up rows, before the
  body's last loads.
-/
import proofs.«408740_j35519379538186_3_alg».proof.Proof.KDefs
import Idealize.ShloMosaic.Lib.ValueIdx
import proofs.«408740_j35519379538186_3_alg».proof.Proof.KLand
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

set_option maxHeartbeats 8000000 in
/-- From the tables held at a share and at contents whose words are rows of their tables, the position table's block,
    the output's block and the two scratch arrays held whole, the 77 cells at zero and the 77 read shares of the token
    table, the body runs to its return handing all of them back, the output's block at the looked-up rows added. -/
theorem kernelRun (c : Dev nD) (i : grid0.Coords)
    (arg4 : Memref sig .tc .vmem S77x768 .f32) (harg4 : arg4.IsWhole) (arg5 : Memref sig .tc .vmem S77x768 .f32) (harg5 : arg5.IsWhole)
    (q : PosShare TreeShare) (T0 : Bf (F := F) c idsM) (T1 : Bf (F := F) c posM) (x4 : Bf (F := F) c arg4) (fh : Bf (F := F) c tokM)
    (hT0 : ∀ j, (T0 j).toNat < 49408) (hT1 : ∀ j, (T1 j).toNat < 77)
    (f5 : Bf (F := F) c arg5) (fa : Bf (F := F) c scA) (fb : Bf (F := F) c scB) (W : Waits sig Unit) (K : PUnit → sProp 𝕄) :
    iprop(ptq c idsM q T0 ∗ ptq c posM q T1 ∗ ptm c arg4 x4 ∗ ptm c arg5 f5 ∗ pt c scA fa ∗ pt c scB fb
        ∗ iprop(cellAt c 2 ∗ cellAt c 3 ∗ cellAt c 4 ∗ cellAt c 5 ∗ cellAt c 6 ∗ cellAt c 7 ∗ cellAt c 8 ∗ cellAt c 9 ∗ cellAt c 10 ∗ cellAt c 11 ∗ cellAt c 12 ∗ cellAt c 13 ∗ cellAt c 14 ∗ cellAt c 15 ∗ cellAt c 16 ∗ cellAt c 17 ∗ cellAt c 18 ∗ cellAt c 19 ∗ cellAt c 20 ∗ cellAt c 21 ∗ cellAt c 22 ∗ cellAt c 23 ∗ cellAt c 24 ∗ cellAt c 25 ∗ cellAt c 26 ∗ cellAt c 27 ∗ cellAt c 28 ∗ cellAt c 29 ∗ cellAt c 30 ∗ cellAt c 31 ∗ cellAt c 32 ∗ cellAt c 33 ∗ cellAt c 34 ∗ cellAt c 35 ∗ cellAt c 36 ∗ cellAt c 37 ∗ cellAt c 38 ∗ cellAt c 39 ∗ cellAt c 40 ∗ cellAt c 41 ∗ cellAt c 42 ∗ cellAt c 43 ∗ cellAt c 44 ∗ cellAt c 45 ∗ cellAt c 46 ∗ cellAt c 47 ∗ cellAt c 48 ∗ cellAt c 49 ∗ cellAt c 50 ∗ cellAt c 51 ∗ cellAt c 52 ∗ cellAt c 53 ∗ cellAt c 54 ∗ cellAt c 55 ∗ cellAt c 56 ∗ cellAt c 57 ∗ cellAt c 58 ∗ cellAt c 59 ∗ cellAt c 60 ∗ cellAt c 61 ∗ cellAt c 62 ∗ cellAt c 63 ∗ cellAt c 64 ∗ cellAt c 65 ∗ cellAt c 66 ∗ cellAt c 67 ∗ cellAt c 68 ∗ cellAt c 69 ∗ cellAt c 70 ∗ cellAt c 71 ∗ cellAt c 72 ∗ cellAt c 73 ∗ cellAt c 74 ∗ cellAt c 75 ∗ cellAt c 76 ∗ cellAt c 77 ∗ cellAt c 78)
        ∗ iprop(tokAt c 2 fh ∗ tokAt c 3 fh ∗ tokAt c 4 fh ∗ tokAt c 5 fh ∗ tokAt c 6 fh ∗ tokAt c 7 fh ∗ tokAt c 8 fh ∗ tokAt c 9 fh ∗ tokAt c 10 fh ∗ tokAt c 11 fh ∗ tokAt c 12 fh ∗ tokAt c 13 fh ∗ tokAt c 14 fh ∗ tokAt c 15 fh ∗ tokAt c 16 fh ∗ tokAt c 17 fh ∗ tokAt c 18 fh ∗ tokAt c 19 fh ∗ tokAt c 20 fh ∗ tokAt c 21 fh ∗ tokAt c 22 fh ∗ tokAt c 23 fh ∗ tokAt c 24 fh ∗ tokAt c 25 fh ∗ tokAt c 26 fh ∗ tokAt c 27 fh ∗ tokAt c 28 fh ∗ tokAt c 29 fh ∗ tokAt c 30 fh ∗ tokAt c 31 fh ∗ tokAt c 32 fh ∗ tokAt c 33 fh ∗ tokAt c 34 fh ∗ tokAt c 35 fh ∗ tokAt c 36 fh ∗ tokAt c 37 fh ∗ tokAt c 38 fh ∗ tokAt c 39 fh ∗ tokAt c 40 fh ∗ tokAt c 41 fh ∗ tokAt c 42 fh ∗ tokAt c 43 fh ∗ tokAt c 44 fh ∗ tokAt c 45 fh ∗ tokAt c 46 fh ∗ tokAt c 47 fh ∗ tokAt c 48 fh ∗ tokAt c 49 fh ∗ tokAt c 50 fh ∗ tokAt c 51 fh ∗ tokAt c 52 fh ∗ tokAt c 53 fh ∗ tokAt c 54 fh ∗ tokAt c 55 fh ∗ tokAt c 56 fh ∗ tokAt c 57 fh ∗ tokAt c 58 fh ∗ tokAt c 59 fh ∗ tokAt c 60 fh ∗ tokAt c 61 fh ∗ tokAt c 62 fh ∗ tokAt c 63 fh ∗ tokAt c 64 fh ∗ tokAt c 65 fh ∗ tokAt c 66 fh ∗ tokAt c 67 fh ∗ tokAt c 68 fh ∗ tokAt c 69 fh ∗ tokAt c 70 fh ∗ tokAt c 71 fh ∗ tokAt c 72 fh ∗ tokAt c 73 fh ∗ tokAt c 74 fh ∗ tokAt c 75 fh ∗ tokAt c 76 fh ∗ tokAt c 77 fh ∗ tokAt c 78 fh)
        ∗ owes (c : Thread nD τ) 0 W
        ∗ (iprop(ptq c idsM q T0 ∗ ptq c posM q T1 ∗ ptm c arg4 x4 ∗ ptm c arg5 (harg5.unread (outBlock c arg4 T0 T1 x4 fh hT0 hT1)) ∗ (∃ f, pt c scA f) ∗ (∃ f, pt c scB f)
            ∗ iprop(cellAt c 2 ∗ cellAt c 3 ∗ cellAt c 4 ∗ cellAt c 5 ∗ cellAt c 6 ∗ cellAt c 7 ∗ cellAt c 8 ∗ cellAt c 9 ∗ cellAt c 10 ∗ cellAt c 11 ∗ cellAt c 12 ∗ cellAt c 13 ∗ cellAt c 14 ∗ cellAt c 15 ∗ cellAt c 16 ∗ cellAt c 17 ∗ cellAt c 18 ∗ cellAt c 19 ∗ cellAt c 20 ∗ cellAt c 21 ∗ cellAt c 22 ∗ cellAt c 23 ∗ cellAt c 24 ∗ cellAt c 25 ∗ cellAt c 26 ∗ cellAt c 27 ∗ cellAt c 28 ∗ cellAt c 29 ∗ cellAt c 30 ∗ cellAt c 31 ∗ cellAt c 32 ∗ cellAt c 33 ∗ cellAt c 34 ∗ cellAt c 35 ∗ cellAt c 36 ∗ cellAt c 37 ∗ cellAt c 38 ∗ cellAt c 39 ∗ cellAt c 40 ∗ cellAt c 41 ∗ cellAt c 42 ∗ cellAt c 43 ∗ cellAt c 44 ∗ cellAt c 45 ∗ cellAt c 46 ∗ cellAt c 47 ∗ cellAt c 48 ∗ cellAt c 49 ∗ cellAt c 50 ∗ cellAt c 51 ∗ cellAt c 52 ∗ cellAt c 53 ∗ cellAt c 54 ∗ cellAt c 55 ∗ cellAt c 56 ∗ cellAt c 57 ∗ cellAt c 58 ∗ cellAt c 59 ∗ cellAt c 60 ∗ cellAt c 61 ∗ cellAt c 62 ∗ cellAt c 63 ∗ cellAt c 64 ∗ cellAt c 65 ∗ cellAt c 66 ∗ cellAt c 67 ∗ cellAt c 68 ∗ cellAt c 69 ∗ cellAt c 70 ∗ cellAt c 71 ∗ cellAt c 72 ∗ cellAt c 73 ∗ cellAt c 74 ∗ cellAt c 75 ∗ cellAt c 76 ∗ cellAt c 77 ∗ cellAt c 78)
            ∗ iprop(tokAt c 2 fh ∗ tokAt c 3 fh ∗ tokAt c 4 fh ∗ tokAt c 5 fh ∗ tokAt c 6 fh ∗ tokAt c 7 fh ∗ tokAt c 8 fh ∗ tokAt c 9 fh ∗ tokAt c 10 fh ∗ tokAt c 11 fh ∗ tokAt c 12 fh ∗ tokAt c 13 fh ∗ tokAt c 14 fh ∗ tokAt c 15 fh ∗ tokAt c 16 fh ∗ tokAt c 17 fh ∗ tokAt c 18 fh ∗ tokAt c 19 fh ∗ tokAt c 20 fh ∗ tokAt c 21 fh ∗ tokAt c 22 fh ∗ tokAt c 23 fh ∗ tokAt c 24 fh ∗ tokAt c 25 fh ∗ tokAt c 26 fh ∗ tokAt c 27 fh ∗ tokAt c 28 fh ∗ tokAt c 29 fh ∗ tokAt c 30 fh ∗ tokAt c 31 fh ∗ tokAt c 32 fh ∗ tokAt c 33 fh ∗ tokAt c 34 fh ∗ tokAt c 35 fh ∗ tokAt c 36 fh ∗ tokAt c 37 fh ∗ tokAt c 38 fh ∗ tokAt c 39 fh ∗ tokAt c 40 fh ∗ tokAt c 41 fh ∗ tokAt c 42 fh ∗ tokAt c 43 fh ∗ tokAt c 44 fh ∗ tokAt c 45 fh ∗ tokAt c 46 fh ∗ tokAt c 47 fh ∗ tokAt c 48 fh ∗ tokAt c 49 fh ∗ tokAt c 50 fh ∗ tokAt c 51 fh ∗ tokAt c 52 fh ∗ tokAt c 53 fh ∗ tokAt c 54 fh ∗ tokAt c 55 fh ∗ tokAt c 56 fh ∗ tokAt c 57 fh ∗ tokAt c 58 fh ∗ tokAt c 59 fh ∗ tokAt c 60 fh ∗ tokAt c 61 fh ∗ tokAt c 62 fh ∗ tokAt c 63 fh ∗ tokAt c 64 fh ∗ tokAt c 65 fh ∗ tokAt c 66 fh ∗ tokAt c 67 fh ∗ tokAt c 68 fh ∗ tokAt c 69 fh ∗ tokAt c 70 fh ∗ tokAt c 71 fh ∗ tokAt c 72 fh ∗ tokAt c 73 fh ∗ tokAt c 74 fh ∗ tokAt c 75 fh ∗ tokAt c 76 fh ∗ tokAt c 77 fh ∗ tokAt c 78 fh)
            ∗ (∃ W', owes (c : Thread nD τ) 0 W')) -∗ K ⟨⟩))
      ⊢ wp frame (wpE (defs₀ (F := F)) Variants.none c none) Set.univ
          (cc0__gather_add_kernel i idsM (Memref.isWhole_whole _) posM (Memref.isWhole_whole _) tokM (Memref.isWhole_whole _) arg4 harg4 arg5 harg5 scA (Memref.isWhole_whole _) scB (Memref.isWhole_whole _) cc0_scratch2) K := by
  iintro ⟨HT0, HT1, H4, H5, HA, HB, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78⟩, ⟨Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, Ht64, Ht65, Ht66, Ht67, Ht68, Ht69, Ht70, Ht71, Ht72, Ht73, Ht74, Ht75, Ht76, Ht77, Ht78⟩, HW, Hk⟩
  -- the first scratch array row by row, so that each copy lends and returns one row
  ihave HA' := (Entails.of_eq (rows_eq c fa)) $$ HA
  icases HA' with ⟨HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31, HA32, HA33, HA34, HA35, HA36, HA37, HA38, HA39, HA40, HA41, HA42, HA43, HA44, HA45, HA46, HA47, HA48, HA49, HA50, HA51, HA52, HA53, HA54, HA55, HA56, HA57, HA58, HA59, HA60, HA61, HA62, HA63, HA64, HA65, HA66, HA67, HA68, HA69, HA70, HA71, HA72, HA73, HA74, HA75, HA76⟩
  sl_exec_parts! (disch := first | exact ⟨row_inside (hT0 _), row_inside (hT0 _)⟩ | exact row_inside (hT1 _))
  -- the second scratch array: its 77 stored rows cover it, and each is the looked-up position row
  have hB : scB.view.writes (Elt F) scB.view.junk (kernelRun.sl.HB_77 c arg4 T1 x4 hT1) = gB c arg4 T1 x4 hT1 := by
    refine scB_clean c arg4 T1 x4 hT1 _ ?hL (View.cover_of_tiledL _ S1x768.size (by sl_kernel_rfl))
    sl_unfold_run_names
    iterate 77 (refine List.forall_mem_cons.2 ⟨pos_piece_ok c arg4 harg4 T1 x4 hT1 _ (by decide) _ (pos_word c T1 _ (by decide) _ _) _ (by rfl) _ _ _, ?_⟩)
    intro p hp; cases hp
  ihave HB' := (Entails.of_eq (congrArg (fun f => (scB.view.loc (c : Thread nD τ) ↦{fullShare} f : sProp 𝕄)) hB)) $$ HB
  -- every copy has landed: each row of the first scratch array holds its looked-up token row
  sl_unfold_run_names
  ihave HR0 := (Entails.of_eq (tok_row_landed c 0 _ (by decide) fa T0 fh hT0 _ (ids_word c T0 0 (by decide) _ _) _ (by rfl) _ _ _)) $$ HA0
  ihave HR1 := (Entails.of_eq (tok_row_landed c 1 _ (by decide) fa T0 fh hT0 _ (ids_word c T0 1 (by decide) _ _) _ (by rfl) _ _ _)) $$ HA1
  ihave HR2 := (Entails.of_eq (tok_row_landed c 2 _ (by decide) fa T0 fh hT0 _ (ids_word c T0 2 (by decide) _ _) _ (by rfl) _ _ _)) $$ HA2
  ihave HR3 := (Entails.of_eq (tok_row_landed c 3 _ (by decide) fa T0 fh hT0 _ (ids_word c T0 3 (by decide) _ _) _ (by rfl) _ _ _)) $$ HA3
  ihave HR4 := (Entails.of_eq (tok_row_landed c 4 _ (by decide) fa T0 fh hT0 _ (ids_word c T0 4 (by decide) _ _) _ (by rfl) _ _ _)) $$ HA4
  ihave HR5 := (Entails.of_eq (tok_row_landed c 5 _ (by decide) fa T0 fh hT0 _ (ids_word c T0 5 (by decide) _ _) _ (by rfl) _ _ _)) $$ HA5
  ihave HR6 := (Entails.of_eq (tok_row_landed c 6 _ (by decide) fa T0 fh hT0 _ (ids_word c T0 6 (by decide) _ _) _ (by rfl) _ _ _)) $$ HA6
  ihave HR7 := (Entails.of_eq (tok_row_landed c 7 _ (by decide) fa T0 fh hT0 _ (ids_word c T0 7 (by decide) _ _) _ (by rfl) _ _ _)) $$ HA7
  ihave HR8 := (Entails.of_eq (tok_row_landed c 8 _ (by decide) fa T0 fh hT0 _ (ids_word c T0 8 (by decide) _ _) _ (by rfl) _ _ _)) $$ HA8
  ihave HR9 := (Entails.of_eq (tok_row_landed c 9 _ (by decide) fa T0 fh hT0 _ (ids_word c T0 9 (by decide) _ _) _ (by rfl) _ _ _)) $$ HA9
  ihave HR10 := (Entails.of_eq (tok_row_landed c 10 _ (by decide) fa T0 fh hT0 _ (ids_word c T0 10 (by decide) _ _) _ (by rfl) _ _ _)) $$ HA10
  ihave HR11 := (Entails.of_eq (tok_row_landed c 11 _ (by decide) fa T0 fh hT0 _ (ids_word c T0 11 (by decide) _ _) _ (by rfl) _ _ _)) $$ HA11
  ihave HR12 := (Entails.of_eq (tok_row_landed c 12 _ (by decide) fa T0 fh hT0 _ (ids_word c T0 12 (by decide) _ _) _ (by rfl) _ _ _)) $$ HA12
  ihave HR13 := (Entails.of_eq (tok_row_landed c 13 _ (by decide) fa T0 fh hT0 _ (ids_word c T0 13 (by decide) _ _) _ (by rfl) _ _ _)) $$ HA13
  ihave HR14 := (Entails.of_eq (tok_row_landed c 14 _ (by decide) fa T0 fh hT0 _ (ids_word c T0 14 (by decide) _ _) _ (by rfl) _ _ _)) $$ HA14
  ihave HR15 := (Entails.of_eq (tok_row_landed c 15 _ (by decide) fa T0 fh hT0 _ (ids_word c T0 15 (by decide) _ _) _ (by rfl) _ _ _)) $$ HA15
  ihave HR16 := (Entails.of_eq (tok_row_landed c 16 _ (by decide) fa T0 fh hT0 _ (ids_word c T0 16 (by decide) _ _) _ (by rfl) _ _ _)) $$ HA16
  ihave HR17 := (Entails.of_eq (tok_row_landed c 17 _ (by decide) fa T0 fh hT0 _ (ids_word c T0 17 (by decide) _ _) _ (by rfl) _ _ _)) $$ HA17
  ihave HR18 := (Entails.of_eq (tok_row_landed c 18 _ (by decide) fa T0 fh hT0 _ (ids_word c T0 18 (by decide) _ _) _ (by rfl) _ _ _)) $$ HA18
  ihave HR19 := (Entails.of_eq (tok_row_landed c 19 _ (by decide) fa T0 fh hT0 _ (ids_word c T0 19 (by decide) _ _) _ (by rfl) _ _ _)) $$ HA19
  ihave HR20 := (Entails.of_eq (tok_row_landed c 20 _ (by decide) fa T0 fh hT0 _ (ids_word c T0 20 (by decide) _ _) _ (by rfl) _ _ _)) $$ HA20
  ihave HR21 := (Entails.of_eq (tok_row_landed c 21 _ (by decide) fa T0 fh hT0 _ (ids_word c T0 21 (by decide) _ _) _ (by rfl) _ _ _)) $$ HA21
  ihave HR22 := (Entails.of_eq (tok_row_landed c 22 _ (by decide) fa T0 fh hT0 _ (ids_word c T0 22 (by decide) _ _) _ (by rfl) _ _ _)) $$ HA22
  ihave HR23 := (Entails.of_eq (tok_row_landed c 23 _ (by decide) fa T0 fh hT0 _ (ids_word c T0 23 (by decide) _ _) _ (by rfl) _ _ _)) $$ HA23
  ihave HR24 := (Entails.of_eq (tok_row_landed c 24 _ (by decide) fa T0 fh hT0 _ (ids_word c T0 24 (by decide) _ _) _ (by rfl) _ _ _)) $$ HA24
  ihave HR25 := (Entails.of_eq (tok_row_landed c 25 _ (by decide) fa T0 fh hT0 _ (ids_word c T0 25 (by decide) _ _) _ (by rfl) _ _ _)) $$ HA25
  ihave HR26 := (Entails.of_eq (tok_row_landed c 26 _ (by decide) fa T0 fh hT0 _ (ids_word c T0 26 (by decide) _ _) _ (by rfl) _ _ _)) $$ HA26
  ihave HR27 := (Entails.of_eq (tok_row_landed c 27 _ (by decide) fa T0 fh hT0 _ (ids_word c T0 27 (by decide) _ _) _ (by rfl) _ _ _)) $$ HA27
  ihave HR28 := (Entails.of_eq (tok_row_landed c 28 _ (by decide) fa T0 fh hT0 _ (ids_word c T0 28 (by decide) _ _) _ (by rfl) _ _ _)) $$ HA28
  ihave HR29 := (Entails.of_eq (tok_row_landed c 29 _ (by decide) fa T0 fh hT0 _ (ids_word c T0 29 (by decide) _ _) _ (by rfl) _ _ _)) $$ HA29
  ihave HR30 := (Entails.of_eq (tok_row_landed c 30 _ (by decide) fa T0 fh hT0 _ (ids_word c T0 30 (by decide) _ _) _ (by rfl) _ _ _)) $$ HA30
  ihave HR31 := (Entails.of_eq (tok_row_landed c 31 _ (by decide) fa T0 fh hT0 _ (ids_word c T0 31 (by decide) _ _) _ (by rfl) _ _ _)) $$ HA31
  ihave HR32 := (Entails.of_eq (tok_row_landed c 32 _ (by decide) fa T0 fh hT0 _ (ids_word c T0 32 (by decide) _ _) _ (by rfl) _ _ _)) $$ HA32
  ihave HR33 := (Entails.of_eq (tok_row_landed c 33 _ (by decide) fa T0 fh hT0 _ (ids_word c T0 33 (by decide) _ _) _ (by rfl) _ _ _)) $$ HA33
  ihave HR34 := (Entails.of_eq (tok_row_landed c 34 _ (by decide) fa T0 fh hT0 _ (ids_word c T0 34 (by decide) _ _) _ (by rfl) _ _ _)) $$ HA34
  ihave HR35 := (Entails.of_eq (tok_row_landed c 35 _ (by decide) fa T0 fh hT0 _ (ids_word c T0 35 (by decide) _ _) _ (by rfl) _ _ _)) $$ HA35
  ihave HR36 := (Entails.of_eq (tok_row_landed c 36 _ (by decide) fa T0 fh hT0 _ (ids_word c T0 36 (by decide) _ _) _ (by rfl) _ _ _)) $$ HA36
  ihave HR37 := (Entails.of_eq (tok_row_landed c 37 _ (by decide) fa T0 fh hT0 _ (ids_word c T0 37 (by decide) _ _) _ (by rfl) _ _ _)) $$ HA37
  ihave HR38 := (Entails.of_eq (tok_row_landed c 38 _ (by decide) fa T0 fh hT0 _ (ids_word c T0 38 (by decide) _ _) _ (by rfl) _ _ _)) $$ HA38
  ihave HR39 := (Entails.of_eq (tok_row_landed c 39 _ (by decide) fa T0 fh hT0 _ (ids_word c T0 39 (by decide) _ _) _ (by rfl) _ _ _)) $$ HA39
  ihave HR40 := (Entails.of_eq (tok_row_landed c 40 _ (by decide) fa T0 fh hT0 _ (ids_word c T0 40 (by decide) _ _) _ (by rfl) _ _ _)) $$ HA40
  ihave HR41 := (Entails.of_eq (tok_row_landed c 41 _ (by decide) fa T0 fh hT0 _ (ids_word c T0 41 (by decide) _ _) _ (by rfl) _ _ _)) $$ HA41
  ihave HR42 := (Entails.of_eq (tok_row_landed c 42 _ (by decide) fa T0 fh hT0 _ (ids_word c T0 42 (by decide) _ _) _ (by rfl) _ _ _)) $$ HA42
  ihave HR43 := (Entails.of_eq (tok_row_landed c 43 _ (by decide) fa T0 fh hT0 _ (ids_word c T0 43 (by decide) _ _) _ (by rfl) _ _ _)) $$ HA43
  ihave HR44 := (Entails.of_eq (tok_row_landed c 44 _ (by decide) fa T0 fh hT0 _ (ids_word c T0 44 (by decide) _ _) _ (by rfl) _ _ _)) $$ HA44
  ihave HR45 := (Entails.of_eq (tok_row_landed c 45 _ (by decide) fa T0 fh hT0 _ (ids_word c T0 45 (by decide) _ _) _ (by rfl) _ _ _)) $$ HA45
  ihave HR46 := (Entails.of_eq (tok_row_landed c 46 _ (by decide) fa T0 fh hT0 _ (ids_word c T0 46 (by decide) _ _) _ (by rfl) _ _ _)) $$ HA46
  ihave HR47 := (Entails.of_eq (tok_row_landed c 47 _ (by decide) fa T0 fh hT0 _ (ids_word c T0 47 (by decide) _ _) _ (by rfl) _ _ _)) $$ HA47
  ihave HR48 := (Entails.of_eq (tok_row_landed c 48 _ (by decide) fa T0 fh hT0 _ (ids_word c T0 48 (by decide) _ _) _ (by rfl) _ _ _)) $$ HA48
  ihave HR49 := (Entails.of_eq (tok_row_landed c 49 _ (by decide) fa T0 fh hT0 _ (ids_word c T0 49 (by decide) _ _) _ (by rfl) _ _ _)) $$ HA49
  ihave HR50 := (Entails.of_eq (tok_row_landed c 50 _ (by decide) fa T0 fh hT0 _ (ids_word c T0 50 (by decide) _ _) _ (by rfl) _ _ _)) $$ HA50
  ihave HR51 := (Entails.of_eq (tok_row_landed c 51 _ (by decide) fa T0 fh hT0 _ (ids_word c T0 51 (by decide) _ _) _ (by rfl) _ _ _)) $$ HA51
  ihave HR52 := (Entails.of_eq (tok_row_landed c 52 _ (by decide) fa T0 fh hT0 _ (ids_word c T0 52 (by decide) _ _) _ (by rfl) _ _ _)) $$ HA52
  ihave HR53 := (Entails.of_eq (tok_row_landed c 53 _ (by decide) fa T0 fh hT0 _ (ids_word c T0 53 (by decide) _ _) _ (by rfl) _ _ _)) $$ HA53
  ihave HR54 := (Entails.of_eq (tok_row_landed c 54 _ (by decide) fa T0 fh hT0 _ (ids_word c T0 54 (by decide) _ _) _ (by rfl) _ _ _)) $$ HA54
  ihave HR55 := (Entails.of_eq (tok_row_landed c 55 _ (by decide) fa T0 fh hT0 _ (ids_word c T0 55 (by decide) _ _) _ (by rfl) _ _ _)) $$ HA55
  ihave HR56 := (Entails.of_eq (tok_row_landed c 56 _ (by decide) fa T0 fh hT0 _ (ids_word c T0 56 (by decide) _ _) _ (by rfl) _ _ _)) $$ HA56
  ihave HR57 := (Entails.of_eq (tok_row_landed c 57 _ (by decide) fa T0 fh hT0 _ (ids_word c T0 57 (by decide) _ _) _ (by rfl) _ _ _)) $$ HA57
  ihave HR58 := (Entails.of_eq (tok_row_landed c 58 _ (by decide) fa T0 fh hT0 _ (ids_word c T0 58 (by decide) _ _) _ (by rfl) _ _ _)) $$ HA58
  ihave HR59 := (Entails.of_eq (tok_row_landed c 59 _ (by decide) fa T0 fh hT0 _ (ids_word c T0 59 (by decide) _ _) _ (by rfl) _ _ _)) $$ HA59
  ihave HR60 := (Entails.of_eq (tok_row_landed c 60 _ (by decide) fa T0 fh hT0 _ (ids_word c T0 60 (by decide) _ _) _ (by rfl) _ _ _)) $$ HA60
  ihave HR61 := (Entails.of_eq (tok_row_landed c 61 _ (by decide) fa T0 fh hT0 _ (ids_word c T0 61 (by decide) _ _) _ (by rfl) _ _ _)) $$ HA61
  ihave HR62 := (Entails.of_eq (tok_row_landed c 62 _ (by decide) fa T0 fh hT0 _ (ids_word c T0 62 (by decide) _ _) _ (by rfl) _ _ _)) $$ HA62
  ihave HR63 := (Entails.of_eq (tok_row_landed c 63 _ (by decide) fa T0 fh hT0 _ (ids_word c T0 63 (by decide) _ _) _ (by rfl) _ _ _)) $$ HA63
  ihave HR64 := (Entails.of_eq (tok_row_landed c 64 _ (by decide) fa T0 fh hT0 _ (ids_word c T0 64 (by decide) _ _) _ (by rfl) _ _ _)) $$ HA64
  ihave HR65 := (Entails.of_eq (tok_row_landed c 65 _ (by decide) fa T0 fh hT0 _ (ids_word c T0 65 (by decide) _ _) _ (by rfl) _ _ _)) $$ HA65
  ihave HR66 := (Entails.of_eq (tok_row_landed c 66 _ (by decide) fa T0 fh hT0 _ (ids_word c T0 66 (by decide) _ _) _ (by rfl) _ _ _)) $$ HA66
  ihave HR67 := (Entails.of_eq (tok_row_landed c 67 _ (by decide) fa T0 fh hT0 _ (ids_word c T0 67 (by decide) _ _) _ (by rfl) _ _ _)) $$ HA67
  ihave HR68 := (Entails.of_eq (tok_row_landed c 68 _ (by decide) fa T0 fh hT0 _ (ids_word c T0 68 (by decide) _ _) _ (by rfl) _ _ _)) $$ HA68
  ihave HR69 := (Entails.of_eq (tok_row_landed c 69 _ (by decide) fa T0 fh hT0 _ (ids_word c T0 69 (by decide) _ _) _ (by rfl) _ _ _)) $$ HA69
  ihave HR70 := (Entails.of_eq (tok_row_landed c 70 _ (by decide) fa T0 fh hT0 _ (ids_word c T0 70 (by decide) _ _) _ (by rfl) _ _ _)) $$ HA70
  ihave HR71 := (Entails.of_eq (tok_row_landed c 71 _ (by decide) fa T0 fh hT0 _ (ids_word c T0 71 (by decide) _ _) _ (by rfl) _ _ _)) $$ HA71
  ihave HR72 := (Entails.of_eq (tok_row_landed c 72 _ (by decide) fa T0 fh hT0 _ (ids_word c T0 72 (by decide) _ _) _ (by rfl) _ _ _)) $$ HA72
  ihave HR73 := (Entails.of_eq (tok_row_landed c 73 _ (by decide) fa T0 fh hT0 _ (ids_word c T0 73 (by decide) _ _) _ (by rfl) _ _ _)) $$ HA73
  ihave HR74 := (Entails.of_eq (tok_row_landed c 74 _ (by decide) fa T0 fh hT0 _ (ids_word c T0 74 (by decide) _ _) _ (by rfl) _ _ _)) $$ HA74
  ihave HR75 := (Entails.of_eq (tok_row_landed c 75 _ (by decide) fa T0 fh hT0 _ (ids_word c T0 75 (by decide) _ _) _ (by rfl) _ _ _)) $$ HA75
  ihave HR76 := (Entails.of_eq (tok_row_landed c 76 _ (by decide) fa T0 fh hT0 _ (ids_word c T0 76 (by decide) _ _) _ (by rfl) _ _ _)) $$ HA76
  -- the rows put back together as the whole array at the looked-up rows
  ihave HA := (Entails.of_eq (rows_eq c (gA c T0 fh hT0)).symm) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    isplitl [HR22]; · iexact HR22
    isplitl [HR23]; · iexact HR23
    isplitl [HR24]; · iexact HR24
    isplitl [HR25]; · iexact HR25
    isplitl [HR26]; · iexact HR26
    isplitl [HR27]; · iexact HR27
    isplitl [HR28]; · iexact HR28
    isplitl [HR29]; · iexact HR29
    isplitl [HR30]; · iexact HR30
    isplitl [HR31]; · iexact HR31
    isplitl [HR32]; · iexact HR32
    isplitl [HR33]; · iexact HR33
    isplitl [HR34]; · iexact HR34
    isplitl [HR35]; · iexact HR35
    isplitl [HR36]; · iexact HR36
    isplitl [HR37]; · iexact HR37
    isplitl [HR38]; · iexact HR38
    isplitl [HR39]; · iexact HR39
    isplitl [HR40]; · iexact HR40
    isplitl [HR41]; · iexact HR41
    isplitl [HR42]; · iexact HR42
    isplitl [HR43]; · iexact HR43
    isplitl [HR44]; · iexact HR44
    isplitl [HR45]; · iexact HR45
    isplitl [HR46]; · iexact HR46
    isplitl [HR47]; · iexact HR47
    isplitl [HR48]; · iexact HR48
    isplitl [HR49]; · iexact HR49
    isplitl [HR50]; · iexact HR50
    isplitl [HR51]; · iexact HR51
    isplitl [HR52]; · iexact HR52
    isplitl [HR53]; · iexact HR53
    isplitl [HR54]; · iexact HR54
    isplitl [HR55]; · iexact HR55
    isplitl [HR56]; · iexact HR56
    isplitl [HR57]; · iexact HR57
    isplitl [HR58]; · iexact HR58
    isplitl [HR59]; · iexact HR59
    isplitl [HR60]; · iexact HR60
    isplitl [HR61]; · iexact HR61
    isplitl [HR62]; · iexact HR62
    isplitl [HR63]; · iexact HR63
    isplitl [HR64]; · iexact HR64
    isplitl [HR65]; · iexact HR65
    isplitl [HR66]; · iexact HR66
    isplitl [HR67]; · iexact HR67
    isplitl [HR68]; · iexact HR68
    isplitl [HR69]; · iexact HR69
    isplitl [HR70]; · iexact HR70
    isplitl [HR71]; · iexact HR71
    isplitl [HR72]; · iexact HR72
    isplitl [HR73]; · iexact HR73
    isplitl [HR74]; · iexact HR74
    isplitl [HR75]; · iexact HR75
    iexact HR76
  sl_exec_parts! (disch := first | exact ⟨row_inside (hT0 _), row_inside (hT0 _)⟩ | exact row_inside (hT1 _))
  sl_unfold_run_names
  sl_step
  iapply Hk
  isplitl [HT0]; · iexact HT0
  isplitl [HT1]; · iexact HT1
  isplitl [H4]; · iexact H4
  isplitl [H5]
  · -- the output's block: the whole-block store of the two scratch arrays added, each read back at its looked-up rows
    ihave H5' := (Entails.of_eq (congrArg (fun f => (arg5.view.loc (c : Thread nD τ) ↦[arg5.view.set]{fullShare} f : sProp 𝕄))
      (out_block_eq c arg4 arg5 harg5 T0 T1 x4 fh hT0 hT1 _))) $$ H5
    iexact H5'
  isplitl [HA]; · iexists _; iexact HA
  isplitl [HB']; · iexists _; iexact HB'
  isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78]
  · isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    isplitl [Hq72]; · iexact Hq72
    isplitl [Hq73]; · iexact Hq73
    isplitl [Hq74]; · iexact Hq74
    isplitl [Hq75]; · iexact Hq75
    isplitl [Hq76]; · iexact Hq76
    isplitl [Hq77]; · iexact Hq77
    iexact Hq78
  isplitl [Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44 Ht45 Ht46 Ht47 Ht48 Ht49 Ht50 Ht51 Ht52 Ht53 Ht54 Ht55 Ht56 Ht57 Ht58 Ht59 Ht60 Ht61 Ht62 Ht63 Ht64 Ht65 Ht66 Ht67 Ht68 Ht69 Ht70 Ht71 Ht72 Ht73 Ht74 Ht75 Ht76 Ht77 Ht78]
  · isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    isplitl [Ht44]; · iexact Ht44
    isplitl [Ht45]; · iexact Ht45
    isplitl [Ht46]; · iexact Ht46
    isplitl [Ht47]; · iexact Ht47
    isplitl [Ht48]; · iexact Ht48
    isplitl [Ht49]; · iexact Ht49
    isplitl [Ht50]; · iexact Ht50
    isplitl [Ht51]; · iexact Ht51
    isplitl [Ht52]; · iexact Ht52
    isplitl [Ht53]; · iexact Ht53
    isplitl [Ht54]; · iexact Ht54
    isplitl [Ht55]; · iexact Ht55
    isplitl [Ht56]; · iexact Ht56
    isplitl [Ht57]; · iexact Ht57
    isplitl [Ht58]; · iexact Ht58
    isplitl [Ht59]; · iexact Ht59
    isplitl [Ht60]; · iexact Ht60
    isplitl [Ht61]; · iexact Ht61
    isplitl [Ht62]; · iexact Ht62
    isplitl [Ht63]; · iexact Ht63
    isplitl [Ht64]; · iexact Ht64
    isplitl [Ht65]; · iexact Ht65
    isplitl [Ht66]; · iexact Ht66
    isplitl [Ht67]; · iexact Ht67
    isplitl [Ht68]; · iexact Ht68
    isplitl [Ht69]; · iexact Ht69
    isplitl [Ht70]; · iexact Ht70
    isplitl [Ht71]; · iexact Ht71
    isplitl [Ht72]; · iexact Ht72
    isplitl [Ht73]; · iexact Ht73
    isplitl [Ht74]; · iexact Ht74
    isplitl [Ht75]; · iexact Ht75
    isplitl [Ht76]; · iexact Ht76
    isplitl [Ht77]; · iexact Ht77
    iexact Ht78
  iexists _; iexact HW

end Cert.KernelIdeal.Hand

end
-- ==== Proof.KChains.lean ====
/-
  The kernel's 77 own DMA semaphore cells, the token table's read shares, the prefetched tables and the scoped
  scratch arrays, each big conjunction written out as the chain of its conjuncts.
-/
import proofs.«408740_j35519379538186_3_alg».proof.Proof.KDefs
import Idealize.ShloMosaic.Lib.Pipeline.Frame
import Idealize.ShloMosaic.Lib.Pipeline.Kit
import Idealize.ShloMosaic.Lib.Transfers
import Mathlib.Data.Fintype.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel's own DMA semaphores: cells 2 to 78 of the core's 79 (cells 0 and 1 are the two windows' staging
    semaphores). -/
abbrev osem : Fin 77 → SemLoc sig := fun j => SemLoc.dma ⟨j.val + 2, by show j.val + 2 < 79; omega⟩

/-- They are scoped, pairwise distinct, and none is a window's staging semaphore. -/
theorem ownSemFacts : Pipeline.OwnSemFacts spec0 osem := by decide

/-- The one unscoped buffer the body copies from by itself: the token table. -/
def H0 : Finset (Ref sig .tc) := {main_arg2}

/-- It is unscoped, no window's array and no prefetched table. -/
theorem H0_sub : H0 ⊆ Pipeline.restRefsP sig pre0 spec0 := by decide

/-- The 77 cells at zero, one by one. -/
theorem sems_eq (c : Dev nD) :
    (Pipeline.ownSems0 (Ix := Unit) (Name := ℕ) (U := Pipeline.UD sig nD τ) (Lvl := ℕ) (Val := Elt F) (τ := τ) osem c : sProp 𝕄)
      = iprop(cellAt c 2 ∗ cellAt c 3 ∗ cellAt c 4 ∗ cellAt c 5 ∗ cellAt c 6 ∗ cellAt c 7 ∗ cellAt c 8 ∗ cellAt c 9 ∗
        cellAt c 10 ∗ cellAt c 11 ∗ cellAt c 12 ∗ cellAt c 13 ∗ cellAt c 14 ∗ cellAt c 15 ∗ cellAt c 16 ∗ cellAt c 17 ∗
        cellAt c 18 ∗ cellAt c 19 ∗ cellAt c 20 ∗ cellAt c 21 ∗ cellAt c 22 ∗ cellAt c 23 ∗ cellAt c 24 ∗ cellAt c 25 ∗
        cellAt c 26 ∗ cellAt c 27 ∗ cellAt c 28 ∗ cellAt c 29 ∗ cellAt c 30 ∗ cellAt c 31 ∗ cellAt c 32 ∗ cellAt c 33 ∗
        cellAt c 34 ∗ cellAt c 35 ∗ cellAt c 36 ∗ cellAt c 37 ∗ cellAt c 38 ∗ cellAt c 39 ∗ cellAt c 40 ∗ cellAt c 41 ∗
        cellAt c 42 ∗ cellAt c 43 ∗ cellAt c 44 ∗ cellAt c 45 ∗ cellAt c 46 ∗ cellAt c 47 ∗ cellAt c 48 ∗ cellAt c 49 ∗
        cellAt c 50 ∗ cellAt c 51 ∗ cellAt c 52 ∗ cellAt c 53 ∗ cellAt c 54 ∗ cellAt c 55 ∗ cellAt c 56 ∗ cellAt c 57 ∗
        cellAt c 58 ∗ cellAt c 59 ∗ cellAt c 60 ∗ cellAt c 61 ∗ cellAt c 62 ∗ cellAt c 63 ∗ cellAt c 64 ∗ cellAt c 65 ∗
        cellAt c 66 ∗ cellAt c 67 ∗ cellAt c 68 ∗ cellAt c 69 ∗ cellAt c 70 ∗ cellAt c 71 ∗ cellAt c 72 ∗ cellAt c 73 ∗
        cellAt c 74 ∗ cellAt c 75 ∗ cellAt c 76 ∗ cellAt c 77 ∗ cellAt c 78) := by
  rw [Pipeline.ownSems0_eq_of_list c osem (List.finRange 77) (List.toFinset_finRange 77).symm (List.nodup_finRange 77)]
  rfl

/-- The token table at its launch contents. -/
theorem hbm_eq (c : Dev nD) (V : (b : Ref sig .tc) → Buf (Elt F) ((c : Thread nD τ).loc b)) :
    (bigSep H0 (fun b => ((c : Thread nD τ).loc b) ↦{fullShare} V b) : sProp 𝕄) = pt c tokM (V main_arg2) := by
  rw [BI.bigSep_eq_bigSepL_of_eq [main_arg2] (by decide) (by decide)]; rfl

/-- The token table's 79 read shares, one by one. -/
theorem toks_list (c : Dev nD) (fh : Bf (F := F) c tokM) :
    (BI.bigSep Finset.univ (fun i : Fin 79 => tokM.view.loc (c : Thread nD τ) ↦{Transfers.shareTok fullShare 79 i} fh) : sProp 𝕄)
      = iprop(tokAt c 0 fh ∗ tokAt c 1 fh ∗ tokAt c 2 fh ∗ tokAt c 3 fh ∗ tokAt c 4 fh ∗ tokAt c 5 fh ∗ tokAt c 6 fh ∗ tokAt c 7 fh ∗ tokAt c 8 fh ∗ tokAt c 9 fh ∗
        tokAt c 10 fh ∗ tokAt c 11 fh ∗ tokAt c 12 fh ∗ tokAt c 13 fh ∗ tokAt c 14 fh ∗ tokAt c 15 fh ∗ tokAt c 16 fh ∗ tokAt c 17 fh ∗
        tokAt c 18 fh ∗ tokAt c 19 fh ∗ tokAt c 20 fh ∗ tokAt c 21 fh ∗ tokAt c 22 fh ∗ tokAt c 23 fh ∗ tokAt c 24 fh ∗ tokAt c 25 fh ∗
        tokAt c 26 fh ∗ tokAt c 27 fh ∗ tokAt c 28 fh ∗ tokAt c 29 fh ∗ tokAt c 30 fh ∗ tokAt c 31 fh ∗ tokAt c 32 fh ∗ tokAt c 33 fh ∗
        tokAt c 34 fh ∗ tokAt c 35 fh ∗ tokAt c 36 fh ∗ tokAt c 37 fh ∗ tokAt c 38 fh ∗ tokAt c 39 fh ∗ tokAt c 40 fh ∗ tokAt c 41 fh ∗
        tokAt c 42 fh ∗ tokAt c 43 fh ∗ tokAt c 44 fh ∗ tokAt c 45 fh ∗ tokAt c 46 fh ∗ tokAt c 47 fh ∗ tokAt c 48 fh ∗ tokAt c 49 fh ∗
        tokAt c 50 fh ∗ tokAt c 51 fh ∗ tokAt c 52 fh ∗ tokAt c 53 fh ∗ tokAt c 54 fh ∗ tokAt c 55 fh ∗ tokAt c 56 fh ∗ tokAt c 57 fh ∗
        tokAt c 58 fh ∗ tokAt c 59 fh ∗ tokAt c 60 fh ∗ tokAt c 61 fh ∗ tokAt c 62 fh ∗ tokAt c 63 fh ∗ tokAt c 64 fh ∗ tokAt c 65 fh ∗
        tokAt c 66 fh ∗ tokAt c 67 fh ∗ tokAt c 68 fh ∗ tokAt c 69 fh ∗ tokAt c 70 fh ∗ tokAt c 71 fh ∗ tokAt c 72 fh ∗ tokAt c 73 fh ∗
        tokAt c 74 fh ∗ tokAt c 75 fh ∗ tokAt c 76 fh ∗ tokAt c 77 fh ∗ tokAt c 78 fh) := by
  rw [BI.bigSep_univ_eq_bigSepL (List.finRange 79) (List.toFinset_finRange 79).symm (List.nodup_finRange 79)]
  rfl

/-- The token table held whole is the remainder after 79 read shares and the 79 read shares. -/
theorem toks_split (c : Dev nD) (fh : Bf (F := F) c tokM) :
    (pt c tokM fh : sProp 𝕄) ⊢ iprop(ptq c tokM (Transfers.shareDrop fullShare 79) fh ∗ tokAt c 0 fh ∗ tokAt c 1 fh ∗ tokAt c 2 fh ∗ tokAt c 3 fh ∗ tokAt c 4 fh ∗ tokAt c 5 fh ∗ tokAt c 6 fh ∗ tokAt c 7 fh ∗ tokAt c 8 fh ∗ tokAt c 9 fh ∗
        tokAt c 10 fh ∗ tokAt c 11 fh ∗ tokAt c 12 fh ∗ tokAt c 13 fh ∗ tokAt c 14 fh ∗ tokAt c 15 fh ∗ tokAt c 16 fh ∗ tokAt c 17 fh ∗
        tokAt c 18 fh ∗ tokAt c 19 fh ∗ tokAt c 20 fh ∗ tokAt c 21 fh ∗ tokAt c 22 fh ∗ tokAt c 23 fh ∗ tokAt c 24 fh ∗ tokAt c 25 fh ∗
        tokAt c 26 fh ∗ tokAt c 27 fh ∗ tokAt c 28 fh ∗ tokAt c 29 fh ∗ tokAt c 30 fh ∗ tokAt c 31 fh ∗ tokAt c 32 fh ∗ tokAt c 33 fh ∗
        tokAt c 34 fh ∗ tokAt c 35 fh ∗ tokAt c 36 fh ∗ tokAt c 37 fh ∗ tokAt c 38 fh ∗ tokAt c 39 fh ∗ tokAt c 40 fh ∗ tokAt c 41 fh ∗
        tokAt c 42 fh ∗ tokAt c 43 fh ∗ tokAt c 44 fh ∗ tokAt c 45 fh ∗ tokAt c 46 fh ∗ tokAt c 47 fh ∗ tokAt c 48 fh ∗ tokAt c 49 fh ∗
        tokAt c 50 fh ∗ tokAt c 51 fh ∗ tokAt c 52 fh ∗ tokAt c 53 fh ∗ tokAt c 54 fh ∗ tokAt c 55 fh ∗ tokAt c 56 fh ∗ tokAt c 57 fh ∗
        tokAt c 58 fh ∗ tokAt c 59 fh ∗ tokAt c 60 fh ∗ tokAt c 61 fh ∗ tokAt c 62 fh ∗ tokAt c 63 fh ∗ tokAt c 64 fh ∗ tokAt c 65 fh ∗
        tokAt c 66 fh ∗ tokAt c 67 fh ∗ tokAt c 68 fh ∗ tokAt c 69 fh ∗ tokAt c 70 fh ∗ tokAt c 71 fh ∗ tokAt c 72 fh ∗ tokAt c 73 fh ∗
        tokAt c 74 fh ∗ tokAt c 75 fh ∗ tokAt c 76 fh ∗ tokAt c 77 fh ∗ tokAt c 78 fh) := by
  have h := Transfers.pointsTo_toks_split (Ix := Unit) (Name := ℕ) (U := Pipeline.UD sig nD τ) (Lvl := ℕ) (Val := Elt F)
    (ℓ := tokM.view.loc (c : Thread nD τ)) (S := Finset.univ) (f := fh) fullShare 79
  rw [toks_list] at h
  exact h

/-- The remainder and the 79 read shares are the token table held whole. -/
theorem toks_join (c : Dev nD) (fh : Bf (F := F) c tokM) :
    iprop(ptq c tokM (Transfers.shareDrop fullShare 79) fh ∗ tokAt c 0 fh ∗ tokAt c 1 fh ∗ tokAt c 2 fh ∗ tokAt c 3 fh ∗ tokAt c 4 fh ∗ tokAt c 5 fh ∗ tokAt c 6 fh ∗ tokAt c 7 fh ∗ tokAt c 8 fh ∗ tokAt c 9 fh ∗
        tokAt c 10 fh ∗ tokAt c 11 fh ∗ tokAt c 12 fh ∗ tokAt c 13 fh ∗ tokAt c 14 fh ∗ tokAt c 15 fh ∗ tokAt c 16 fh ∗ tokAt c 17 fh ∗
        tokAt c 18 fh ∗ tokAt c 19 fh ∗ tokAt c 20 fh ∗ tokAt c 21 fh ∗ tokAt c 22 fh ∗ tokAt c 23 fh ∗ tokAt c 24 fh ∗ tokAt c 25 fh ∗
        tokAt c 26 fh ∗ tokAt c 27 fh ∗ tokAt c 28 fh ∗ tokAt c 29 fh ∗ tokAt c 30 fh ∗ tokAt c 31 fh ∗ tokAt c 32 fh ∗ tokAt c 33 fh ∗
        tokAt c 34 fh ∗ tokAt c 35 fh ∗ tokAt c 36 fh ∗ tokAt c 37 fh ∗ tokAt c 38 fh ∗ tokAt c 39 fh ∗ tokAt c 40 fh ∗ tokAt c 41 fh ∗
        tokAt c 42 fh ∗ tokAt c 43 fh ∗ tokAt c 44 fh ∗ tokAt c 45 fh ∗ tokAt c 46 fh ∗ tokAt c 47 fh ∗ tokAt c 48 fh ∗ tokAt c 49 fh ∗
        tokAt c 50 fh ∗ tokAt c 51 fh ∗ tokAt c 52 fh ∗ tokAt c 53 fh ∗ tokAt c 54 fh ∗ tokAt c 55 fh ∗ tokAt c 56 fh ∗ tokAt c 57 fh ∗
        tokAt c 58 fh ∗ tokAt c 59 fh ∗ tokAt c 60 fh ∗ tokAt c 61 fh ∗ tokAt c 62 fh ∗ tokAt c 63 fh ∗ tokAt c 64 fh ∗ tokAt c 65 fh ∗
        tokAt c 66 fh ∗ tokAt c 67 fh ∗ tokAt c 68 fh ∗ tokAt c 69 fh ∗ tokAt c 70 fh ∗ tokAt c 71 fh ∗ tokAt c 72 fh ∗ tokAt c 73 fh ∗
        tokAt c 74 fh ∗ tokAt c 75 fh ∗ tokAt c 76 fh ∗ tokAt c 77 fh ∗ tokAt c 78 fh) ⊢ (pt c tokM fh : sProp 𝕄) := by
  have h := Transfers.pointsTo_toks_join (Ix := Unit) (Name := ℕ) (U := Pipeline.UD sig nD τ) (Lvl := ℕ) (Val := Elt F)
    (ℓ := tokM.view.loc (c : Thread nD τ)) (S := Finset.univ) (f := fh) fullShare 79
  rw [toks_list] at h
  exact h

/-- The two prefetched tables, each at its share: the clamped token ids and the clamped position ids. -/
theorem tabs_eq (c : Dev nD) (q : PosShare TreeShare) (v : pre0.Contents (Elt F)) :
    (Pipeline.prefHeld (Ix := Unit) (Name := ℕ) (U := Pipeline.UD sig nD τ) (Lvl := ℕ) pre0 c (fun _ => q) v : sProp 𝕄)
      = iprop(ptq c idsM q (v 0) ∗ ptq c posM q (v 1)) := by
  unfold Pipeline.prefHeld
  rw [BI.bigSep_fin_two]
  rfl

/-- The core's scoped buffers that are no staging buffer: the two scratch arrays, each whole at some contents. -/
theorem scoped_eq (c : Dev nD) :
    (Pipeline.scopedRest (Ix := Unit) (Name := ℕ) (U := Pipeline.UD sig nD τ) (Lvl := ℕ) (Val := Elt F) spec0 c : sProp 𝕄)
      = iprop((∃ f, pt c scA f) ∗ (∃ f, pt c scB f)) := by
  rw [Gen.scopedRest0_eq]

end Cert.KernelIdeal.Hand

end
-- ==== Proof.Spec.lean ====
/-
  The value both programs compute, as one function of the argument arrays.

  For token ids `ids` and position ids `pos` (77 words each), a token table `tok` of 49408 rows and a position
  table `pw` of 77 rows, each of 768 extended reals, the result is the array of shape [1, 77, 768] whose entry
  (0, s, d) is `tok[ids[s], d] + pw[pos[s], d]`: an embedding lookup, row `s` of the result being the sum of one
  row of each table. A word names the row of its value as an unsigned number; the function is made total by
  reducing that number modulo the number of rows, which changes nothing where the word is in range, and both
  programs are compared with it only there.
-/
import Idealize.ShloMosaic.PureOps.Ideal
import Idealize.ShloMosaic.Lib.ValueIdx

noncomputable section

namespace Cert.EmbedSpec

open Idealize.ShloMosaic Idealize.ShloMosaic.ValueIdx

abbrev T77 : Shape := ⟨1, ![77]⟩
abbrev T49408x768 : Shape := ⟨2, ![49408, 768]⟩
abbrev T77x768 : Shape := ⟨2, ![77, 768]⟩
abbrev T1x77x768 : Shape := ⟨3, ![1, 77, 768]⟩

/-- The row of an `n`-row table that the word `w` names (its unsigned value, reduced modulo `n`). -/
def rowOf (n : Nat) (hn : 0 < n) (w : BitVec 32) : Fin n := ⟨w.toNat % n, Nat.mod_lt _ hn⟩

theorem rowOf_val_of_lt {n : Nat} (hn : 0 < n) {w : BitVec 32} (h : w.toNat < n) : (rowOf n hn w).val = w.toNat :=
  Nat.mod_eq_of_lt h

/-- A word is a row of an `n`-row table: as a signed number it lies in `[0, n)`. -/
def InRange (n : Nat) (w : BitVec 32) : Prop := 0 ≤ w.toInt ∧ w.toInt < (n : Int)

theorem InRange.toNat_lt {n : Nat} {w : BitVec 32} (h : InRange n w) : w.toNat < n := by
  obtain ⟨h0, h1⟩ := h
  have : w.toInt = (w.toNat : Int) := by
    rw [BitVec.toInt_eq_toNat_cond] at h0 ⊢
    split at h0 <;> rename_i hc
    · simp [hc]
    · omega
  omega

/-- The looked-up rows added, as a [77, 768] array: entry (s, d) is `tok[ids[s], d] + pw[pos[s], d]`. -/
def rows (ids pos : T77.Idx → BitVec 32) (tok : T49408x768.Idx → EReal) (pw : T77x768.Idx → EReal) : T77x768.Idx → EReal :=
  fun j => tok (ix2 (rowOf 49408 (by decide) (ids (ix1 (j 0)))) (j 1)) + pw (ix2 (rowOf 77 (by decide) (pos (ix1 (j 0)))) (j 1))

/-- The result, of shape [1, 77, 768]: the added rows under one leading axis of extent 1. -/
def result (ids pos : T77.Idx → BitVec 32) (tok : T49408x768.Idx → EReal) (pw : T77x768.Idx → EReal) : T1x77x768.Idx → EReal :=
  fun j => rows ids pos tok pw (ix2 (j 1) (j 2))

end Cert.EmbedSpec

end
-- ==== Proof.HostPrefix.lean ====
/-
  The host lines of the kernel's program before its one region, read as values.

  Before the region the host computes two tables of 77 words: the token ids clamped to [0, 49407] and the position
  ids clamped to [0, 76], each as max(0, ·) followed by min(hi, ·) on signed 32-bit words. It writes no argument and
  not the buffer the region's result goes to. A word already in [0, hi] is its own clamp, and a clamped word, read
  unsigned, is at most hi.
-/
import proofs.«408740_j35519379538186_3_alg».proof.Proof.Gen.KernelIdeal.Launch
import proofs.«408740_j35519379538186_3_alg».proof.Proof.Spec
import Idealize.ShloMosaic.Lib.StableHlo.Run

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The lines and the contents they leave -/

/-- The host operations before the region, stretch by stretch: two constants, the clamp of the token ids, two
    constants, the clamp of the position ids. -/
abbrev prefixOps : List (List (HloOp τ sig (Elt F))) := [Gen.hostOps0, Gen.hostOps0_1, Gen.hostOps0_2, Gen.hostOps0_3]

/-- Each of them touches TensorCore references only. -/
theorem prefixOps_sub :
    (prefixOps (F := F)).Forall fun ops => ops.Forall fun op => op.bufs ⊆ StableHlo.tcRefs τ sig :=
  ⟨Gen.hostOps0_sub, Gen.hostOps0_1_sub, Gen.hostOps0_2_sub, Gen.hostOps0_3_sub⟩

/-- None of them allocates a buffer. -/
theorem prefixOps_fresh : (prefixOps (F := F)).Forall fun ops => ops.Forall fun op => op.fresh = ∅ :=
  ⟨⟨rfl, rfl⟩, ⟨rfl, rfl, rfl, rfl, rfl, rfl⟩, ⟨rfl, rfl⟩, ⟨rfl, rfl, rfl, rfl, rfl, rfl⟩⟩

/-- A vector of words clamped to [0, hi] the way the host's clip computes it: max with 0, then min with hi,
    both signed. -/
def clipTo (hi : BitVec 32) (x : IVec S77 32) : IVec S77 32 :=
  minsi (broadcastInDim S77 ![] Gen.bcast_S_S77 (constantI S_ 32 hi))
    (maxsi (broadcastInDim S77 ![] Gen.bcast_S_S77 (constantI S_ 32 0#32)) x)

/-- The device's buffers when the region is entered: the launch contents after the lines. -/
def V₀ (m : (ℓ : Loc nD τ sig) → Buf (Elt F) ℓ) (c : Dev nD) : Valuation τ sig (Elt F) :=
  StableHlo.after (prefixOps (F := F)).flatten (fun b => m (c, b))

/-- The same, reference by reference, spelt as the fold over the flattened lines. -/
theorem V₀_eq (m : (ℓ : Loc nD τ sig) → Buf (Elt F) ℓ) :
    (fun (c : Dev nD) (b : Ref sig .tc) => V₀ m c b)
      = fun (c : Dev nD) (b : Ref sig .tc) => StableHlo.after (prefixOps (F := F)).flatten (fun b => m (c, b)) b := rfl

/-- The first table is the token ids clamped to [0, 49407]. -/
theorem V₀_ids (m : (ℓ : Loc nD τ sig) → Buf (Elt F) ℓ) (c : Dev nD) :
    V₀ m c (Proc.devRef .tc main_v0) = clipTo 49407#32 (m ((c.tc : Thread nD τ).loc main_arg0)) := by
  unfold V₀
  simp only [Gen.hostOps0, Gen.hostOps0_1, Gen.hostOps0_2, Gen.hostOps0_3, List.flatten_cons, List.flatten_nil,
    List.append_nil, List.cons_append, List.nil_append]
  after_results
  rfl

/-- The second table is the position ids clamped to [0, 76]. -/
theorem V₀_pos (m : (ℓ : Loc nD τ sig) → Buf (Elt F) ℓ) (c : Dev nD) :
    V₀ m c (Proc.devRef .tc main_v1) = clipTo 76#32 (m ((c.tc : Thread nD τ).loc main_arg1)) := by
  unfold V₀
  simp only [Gen.hostOps0, Gen.hostOps0_1, Gen.hostOps0_2, Gen.hostOps0_3, List.flatten_cons, List.flatten_nil,
    List.append_nil, List.cons_append, List.nil_append]
  after_results
  rfl

/-! No line writes an argument, nor the buffer the region's result goes to. -/

theorem V₀_arg0 (m : (ℓ : Loc nD τ sig) → Buf (Elt F) ℓ) (c : Dev nD) :
    V₀ m c (Proc.devRef .tc main_arg0) = m ((c.tc : Thread nD τ).loc main_arg0) := by
  unfold V₀
  simp only [Gen.hostOps0, Gen.hostOps0_1, Gen.hostOps0_2, Gen.hostOps0_3, List.flatten_cons, List.flatten_nil,
    List.append_nil, List.cons_append, List.nil_append]
  after_results

theorem V₀_arg1 (m : (ℓ : Loc nD τ sig) → Buf (Elt F) ℓ) (c : Dev nD) :
    V₀ m c (Proc.devRef .tc main_arg1) = m ((c.tc : Thread nD τ).loc main_arg1) := by
  unfold V₀
  simp only [Gen.hostOps0, Gen.hostOps0_1, Gen.hostOps0_2, Gen.hostOps0_3, List.flatten_cons, List.flatten_nil,
    List.append_nil, List.cons_append, List.nil_append]
  after_results

theorem V₀_arg2 (m : (ℓ : Loc nD τ sig) → Buf (Elt F) ℓ) (c : Dev nD) :
    V₀ m c (Proc.devRef .tc main_arg2) = m ((c.tc : Thread nD τ).loc main_arg2) := by
  unfold V₀
  simp only [Gen.hostOps0, Gen.hostOps0_1, Gen.hostOps0_2, Gen.hostOps0_3, List.flatten_cons, List.flatten_nil,
    List.append_nil, List.cons_append, List.nil_append]
  after_results

theorem V₀_arg3 (m : (ℓ : Loc nD τ sig) → Buf (Elt F) ℓ) (c : Dev nD) :
    V₀ m c (Proc.devRef .tc main_arg3) = m ((c.tc : Thread nD τ).loc main_arg3) := by
  unfold V₀
  simp only [Gen.hostOps0, Gen.hostOps0_1, Gen.hostOps0_2, Gen.hostOps0_3, List.flatten_cons, List.flatten_nil,
    List.append_nil, List.cons_append, List.nil_append]
  after_results

theorem V₀_v2 (m : (ℓ : Loc nD τ sig) → Buf (Elt F) ℓ) (c : Dev nD) :
    V₀ m c (Proc.devRef .tc main_v2) = m ((c.tc : Thread nD τ).loc main_v2) := by
  unfold V₀
  simp only [Gen.hostOps0, Gen.hostOps0_1, Gen.hostOps0_2, Gen.hostOps0_3, List.flatten_cons, List.flatten_nil,
    List.append_nil, List.cons_append, List.nil_append]
  after_results

/-! ## The clamp at one word -/

/-- One clamped word: min(hi, max(0, w)), signed. -/
theorem clipTo_apply (hi : BitVec 32) (x : IVec S77 32) (i : S77.Idx) :
    clipTo hi x i = IntOp.minsi hi (IntOp.maxsi 0#32 (x i)) := rfl

/-- A word that is nonnegative as a signed number reads the same unsigned. -/
theorem toInt_eq_toNat_of_nonneg (w : BitVec 32) (hw : 0 ≤ w.toInt) : w.toInt = (w.toNat : Int) :=
  BitVec.toInt_eq_toNat_of_lt (BitVec.toInt_pos_iff.mp hw)

/-- max(0, w) is nonnegative as a signed number. -/
theorem maxsi_zero_nonneg (w : BitVec 32) : 0 ≤ (IntOp.maxsi 0#32 w).toInt := by
  have h0 : (0#32 : BitVec 32).toInt = 0 := by decide
  unfold IntOp.maxsi
  split <;> rename_i h
  · exact h0.ge
  · rw [BitVec.slt_iff_toInt_lt, h0] at h; omega

/-- A clamped word, read unsigned, is at most the upper end: it is nonnegative signed and at most hi signed. -/
theorem clipTo_toNat_le (hi : BitVec 32) (hhi : 0 ≤ hi.toInt) (x : IVec S77 32) (i : S77.Idx) :
    (clipTo hi x i).toNat ≤ hi.toNat := by
  rw [clipTo_apply]
  have hy := maxsi_zero_nonneg (x i)
  generalize IntOp.maxsi 0#32 (x i) = y at hy
  unfold IntOp.minsi
  split <;> rename_i h
  · exact Nat.le_refl _
  · rw [BitVec.slt_iff_toInt_lt, toInt_eq_toNat_of_nonneg hi hhi, toInt_eq_toNat_of_nonneg y hy] at h
    omega

/-- A vector of words each in [0, hi] is its own clamp. -/
theorem clipTo_of_inRange (hi : BitVec 32) (n : Nat) (hn : hi.toInt + 1 = n) (x : IVec S77 32)
    (h : ∀ i, Cert.EmbedSpec.InRange n (x i)) : clipTo hi x = x := by
  funext i
  rw [clipTo_apply]
  obtain ⟨h1, h2⟩ := h i
  have h0 : (0#32 : BitVec 32).toInt = 0 := by decide
  have hm : IntOp.maxsi 0#32 (x i) = x i := by
    unfold IntOp.maxsi
    rw [if_neg]
    rw [BitVec.slt_iff_toInt_lt, h0]; omega
  rw [hm]
  unfold IntOp.minsi
  rw [if_neg]
  rw [BitVec.slt_iff_toInt_lt]; omega

end Cert.KernelIdeal.Hand

end
-- ==== Proof.KFrame.lean ====
/-
  The kernel program's run: its frame and the value it leaves.

  @main is: sixteen host lines (the two clamps of the ids into the scalar tables), the one pallas_call on a grid of
  one point, one host line (the leading axis of extent 1). The pallas_call stages the position table whole as its
  input block and writes its output block back whole; its body copies token rows by itself, on 77 semaphore cells of
  its own, out of the token table, which no window stages. So the region's invariant is: the two scratch arrays at
  some contents, the generator register, the 77 cells at zero, the token table whole at its entry contents, and the
  two scalar tables at half a share at the clamped ids. The body's run (the looked-up rows added) gives what the
  output's block holds after the one point, hence the output array after the region, hence the result after the last
  host line.
-/
import proofs.«408740_j35519379538186_3_alg».proof.Proof.KRun
import proofs.«408740_j35519379538186_3_alg».proof.Proof.KChains
import proofs.«408740_j35519379538186_3_alg».proof.Proof.HostPrefix
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry -/

/-- Core c's TensorCore buffers when the region is entered: after the host lines before it. -/
abbrev V (c : Dev nD) (b : Ref sig .tc) : Buf (Elt F) ((c : Thread nD τ).loc b) := V₀ m c (Proc.devRef .tc b)

/-- The scalar tables the region runs at: the clamped ids, as the host lines leave them. -/
def tabs : pre0.Contents (Elt F) := fun k => V m 0 (pre0.ref k)

/-- They are admissible: this pipeline's side condition on its tables asks nothing. -/
def adm : (p : Fin 1) → (pcfgs (F := F) p).Adm := fun _ => ⟨tabs m, trivial⟩

/-- The pipeline at those tables. -/
abbrev cfgA : Cfg sig Λ₀ := Pipeline.pin (pcfgs (F := F)) (adm m) 0

theorem tabs_of (c : Dev nD) (k : Fin pre0.K) : V m c (pre0.ref k) = tabs m k := by
  obtain rfl : c = 0 := Subsingleton.elim _ _; rfl

/-- Every word of the first table is a row of the token table, and of the second a row of the position table. -/
theorem tabs0_lt (j) : ((tabs m 0 : Bf (F := F) (0 : Dev nD) idsM) j).toNat < 49408 := by
  have h := clipTo_toNat_le 49407#32 (by decide) (m (((0 : Dev nD).tc : Thread nD τ).loc main_arg0)) j
  have e : tabs m 0 = clipTo 49407#32 (m (((0 : Dev nD).tc : Thread nD τ).loc main_arg0)) := V₀_ids m 0
  rw [e]; have : (49407#32 : BitVec 32).toNat = 49407 := by decide
  omega
theorem tabs1_lt (j) : ((tabs m 1 : Bf (F := F) (0 : Dev nD) posM) j).toNat < 77 := by
  have h := clipTo_toNat_le 76#32 (by decide) (m (((0 : Dev nD).tc : Thread nD τ).loc main_arg1)) j
  have e : tabs m 1 = clipTo 76#32 (m (((0 : Dev nD).tc : Thread nD τ).loc main_arg1)) := V₀_pos m 0
  rw [e]; have : (76#32 : BitVec 32).toNat = 76 := by decide
  omega

/-- @main up to the region and after it: the host lines, the region, the last host line. -/
theorem hmain (𝒱₀ : Variants) :
    Pipeline.HMainPK (Ix := Unit) (Name := ℕ) (U := Pipeline.UD sig nD τ) (Lvl := ℕ) (pcfgs (F := F)) 0 defs₀ 𝒱₀ m (main (F := F))
      (fun c b => V m c b) (fun _ => Pipeline.chain ([Gen.hostOps1].map StableHlo.seq)) :=
  Pipeline.hmainP_around (pcfgs (F := F)) 0 defs₀ 𝒱₀ m main prefixOps [Gen.hostOps1] prefixOps_sub prefixOps_fresh (fun c => Gen.main_chain c)

/-! ## The windows' blocks and the proof data -/

/-- Window w's block at the point t, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- Each window's current staging memref at the point t, as the pipeline passes it to the body, and its wholeness. -/
abbrev ms0 (t : Fin (cfgA m).N) : Memref sig .tc .vmem S77x768 .f32 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S77x768 .f32 := spec0_1.stage ((cfgA m).slots t 1)
abbrev hs1 (t : Fin (cfgA m).N) : (ms1 m t).IsWhole := hstage0_1 (((cfgA m).slots t 1).cast nbuf0_1)

/-- The tables' words are rows of their tables, on any core. -/
theorem ids_lt (c : Dev nD) (j) : ((tabs m 0 : Bf (F := F) c idsM) j).toNat < 49408 := tabs0_lt m j
theorem pos_lt (c : Dev nD) (j) : ((tabs m 1 : Bf (F := F) c posM) j).toNat < 77 := tabs1_lt m j

/-- What the output's staging buffer holds after the body at the point t: the looked-up rows added. -/
def outAt (c : Dev nD) (t : Fin (cfgA m).N) : Vec F S77x768 .f32 :=
  outBlock c (ms0 m t) (tabs m 0) (tabs m 1) ((hs0 m t).unread (iblk m c 0 t)) (V m c main_arg2) (ids_lt m c) (pos_lt m c)

/-- The proof data of the one pipeline on core c. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => outAt m c t
  Φ _ := iprop(Pipeline.ΦD osem spec0 H0 (V m) c ∗ Pipeline.ΦT pre0 (tabs m) c)
  q _ := fullShare
  owed _ := 0

theorem A_eq (c : Dev nD) (w : Fin (cfgA m).W) : (dats m 0 c).A w = V m c (Pipeline.arrRef spec0 w) := by
  dsimp only [dats]
theorem after0 (c : Dev nD) (t : Fin (cfgA m).N) : (dats m 0 c).after 0 t = iblk m c 0 t := rfl
theorem after1 (c : Dev nD) (t : Fin (cfgA m).N) : (dats m 0 c).after 1 t = outAt m c t := rfl

/-- The input's staging buffer holds its block at the point, fetched there or not. -/
theorem before0 (c : Dev nD) (t : Fin (cfgA m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-! ## The body obligation -/

/-- What the body is called with at the point t, -/
def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

/-- and what it returns. -/
def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t))

/-- The kernel function's call at the point t. -/
abbrev bodyAt (t : Fin (cfgA m).N) : Prog (TpuEff nD τ sig (Elt F) Λ₀ .tc) PUnit :=
  cc0__gather_add_kernel (grid0.coords t) idsM (Memref.isWhole_whole _) posM (Memref.isWhole_whole _) tokM (Memref.isWhole_whole _)
    (ms0 m t) (hs0 m t) (ms1 m t) (hs1 m t) scA (Memref.isWhole_whole _) scB (Memref.isWhole_whole _) cc0_scratch2

/-- The body at the point: the invariant hands it the scratch arrays, the cells at zero, the token table (split into
    its read shares) and the tables; the input's memref holds its block; the run applies, and everything goes back
    as it was, the output's memref at the looked-up rows added. -/
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0]
  rw [show (dats m 0 c).Φ t.succ = (dats m 0 c).Φ t.castSucc from rfl, after0, after1]
  rw [show (dats m 0 c).Φ t.castSucc = iprop(Pipeline.ΦD osem spec0 H0 (V m) c ∗ Pipeline.ΦT pre0 (tabs m) c) from rfl,
    Pipeline.ΦD_eq, scoped_eq, sems_eq, hbm_eq c (V m c)]
  unfold Pipeline.ΦT
  rw [tabs_eq c fullShare.right (tabs m)]
  unfold Dat.owesAt Pipeline.owesWithin
  rw [show (dats m 0 c).owed t.castSucc = 0 from rfl, show (dats m 0 c).owed t.succ = 0 from rfl]
  unfold owns
  iintro ⟨⟨⟨⟨⟨%fa, HA⟩, ⟨%fb, HB⟩⟩, Hg, Hq, Hh⟩, ⟨HT0, HT1⟩⟩, ⟨%W, -, HW⟩, ⟨%d0, %f0, %hf0, H0⟩, ⟨%d1, %f1, -, H1⟩⟩
  obtain rfl := (hs0 m t).eq_unread hf0
  ihave Hh' := (toks_split c (V m c main_arg2)) $$ Hh
  icases Hh' with ⟨Hr, Hk0, Hk1, Htoks⟩
  iapply (kernelRun c (grid0.coords t) (ms0 m t) (hs0 m t) (ms1 m t) (hs1 m t) fullShare.right (tabs m 0) (tabs m 1)
    ((hs0 m t).unread (iblk m c 0 t)) (V m c main_arg2) (ids_lt m c) (pos_lt m c) f1 fa fb W _)
  isplitl [HT0]; · iexact HT0
  isplitl [HT1]; · iexact HT1
  isplitl [H0]; · iexact H0
  isplitl [H1]; · iexact H1
  isplitl [HA]; · iexact HA
  isplitl [HB]; · iexact HB
  isplitl [Hq]; · iexact Hq
  isplitl [Htoks]; · iexact Htoks
  isplitl [HW]; · iexact HW
  iintro ⟨HT0, HT1, H0, H1, HA, HB, Hq, Htoks, ⟨%W', HW'⟩⟩
  isplitl [HA HB Hg Hq Hr Hk0 Hk1 Htoks HT0 HT1]
  · isplitr [HT0 HT1]
    · isplitl [HA HB]
      · isplitl [HA]; · iexact HA
        iexact HB
      isplitl [Hg]; · iexact Hg
      isplitl [Hq]; · iexact Hq
      iapply (toks_join c (V m c main_arg2))
      isplitl [Hr]; · iexact Hr
      isplitl [Hk0]; · iexact Hk0
      isplitl [Hk1]; · iexact Hk1
      iexact Htoks
    · isplitl [HT0]; · iexact HT0
      iexact HT1
  isplitl [HW']
  · iexists W'; isplitr; · ipureintro; exact fun _ _ => Or.inl trivial
    iexact HW'
  isplitl [H0]
  · iexists _; isplitr; swap; · iexact H0
    ipureintro; exact (hs0 m t).read_unread _
  iexists _; isplitr; swap; · iexact H1
  ipureintro; exact (hs1 m t).read_unread _

set_option maxRecDepth 1000000 in
/-- The library's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt m t) (fun _ => bodyPost m c t)
  exact sound_body m c t

/-! ## The host line after the region -/

theorem sfx_sub : ∀ ops ∈ ([Gen.hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  simp only [Gen.hostOps1, List.mem_cons, List.mem_nil_iff, or_false] at hop
  subst hop
  rw [StableHlo.unary_bufs]
  decide
theorem sfx_fresh : ∀ ops ∈ ([Gen.hostOps1] : List (List (HloOp τ sig (Elt F)))), ∀ op ∈ ops, op.fresh = ∅ := by
  intro ops hops op hop
  simp only [List.mem_cons, List.mem_nil_iff, or_false] at hops
  subst hops
  simp only [Gen.hostOps1, List.mem_cons, List.mem_nil_iff, or_false] at hop
  subst hop
  rfl
theorem sfx_keeps : ∀ ops ∈ ([Gen.hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [Gen.hostOps1, List.mem_cons, List.mem_nil_iff, or_false] at hop
  subst hop
  intro w; fin_cases w <;> simp only [StableHlo.unary_writes, Finset.mem_singleton] <;> exact StableHlo.devRef_ne_of_ne (by decide)

/-! ## The run -/

set_option backward.isDefEq.respectTransparency.types false in
/-- Every weakly fair execution of @main terminates, the pipeline's arrays at what the proof data computes, every
    other unscoped buffer at what the host lines leave. -/
theorem run_main : θ_run defs (onTc (τ := τ) (main (F := F))) (s₀ m ρ)
    (Pipeline.FramePost (Pipeline.pin (pcfgs (F := F)) (adm m)) (dats m) 0
      (Pipeline.afterTail (pcfgs (F := F)) (adm m) (dats m) 0 (V₀ m) [Gen.hostOps1])) :=
  Pipeline.θ_run_frameP_dma_around (pcfgs (F := F)) (adm m) (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V₀ m) (opss := [Gen.hostOps1]) (hsub := sfx_sub) (hfresh := sfx_fresh) (hkeep := sfx_keeps)
    (hmain := hmain m Variants.none) (hA := A_eq m) (hpf := fun c k => tabs_of m c k)
    (hin := fun _ => .rfl)
    (hout := fun c => (show iprop(Pipeline.ΦD osem spec0 H0 (V m) c ∗ Pipeline.ΦT pre0 (tabs m) c) ⊢ Pipeline.ΦD osem spec0 H0 (V m) c from by
      iintro ⟨H, -⟩; iexact H))

end Cert.KernelIdeal.Hand

end
-- ==== Proof.KOut.lean ====
/-
  The kernel program's frame and the value of its result, read off its run.

  The run leaves every windowed array at what the proof data computes and every other unscoped buffer at what the
  last host line leaves. The position table is the input window's array and is never written. The output window's
  array is written back once, at the one grid point, by a block at block index (0, 0) with the array's own extents:
  the block reads the array where the array is and covers it, so the array ends at what the body left in the block,
  the looked-up rows added. The last host line writes only the result, the output array under one leading axis of
  extent 1; the three arguments that bypass the region are no window's array and no host line writes them.
-/
import proofs.«408740_j35519379538186_3_alg».proof.Proof.KFrame
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The grid has one point: what the body leaves at any point is what it leaves at that one. -/
theorem outAt_point (c : Dev nD) (t : Fin (cfgA m).N) : outAt m c t = outAt m c t0_0 := by
  rw [fin_N0 t]

/-- The input's array is never written: after the region it holds what the launch found there. -/
theorem arr0_final (c : Dev nD) : (dats m 0 c).arrAt 0 (cfgA m).N = m ((c.tc : Thread nD τ).loc main_arg3) := by
  rw [(dats m 0 c).arrAt_in 0 rfl _, A_eq]
  exact V₀_arg3 m c

set_option backward.isDefEq.respectTransparency.types false in
/-- The output's array after the one write-back is the block the body left: the one point's block is at block index
    (0, 0) and has the array's extents, so it reads the array where the array is, and it covers every index. -/
theorem arr1_final (c : Dev nD) : (dats m 0 c).arrAt 1 (cfgA m).N = (outAt m c t0_0 : Buf (Elt F) (((cfgA m).win 1).arr.view.loc (c.tc : Thread nD τ))) := by
  refine (dats m 0 c).arrAt_eq_of_cover 1 _ (fun t _ => ?_) (fun i => ?_)
  · show ((cfgA m).win 1).cut ((cfgA m).grid.coords t) ((dats m 0 c).after 1 t) = _
    rw [after1]
    obtain rfl : t = t0_0 := fin_N0 t
    funext j
    revert j
    show ∀ j : S77x768.Idx, outAt m c t0_0 j = outAt m c t0_0 ((((cfgA m).win 1).blk t0_0).view.emb j)
    intro j
    congr 1
    funext a; apply Fin.ext
    match a with
    | ⟨0, _⟩ => show (j 0).val = 0 * 77 + 1 * (j 0).val; omega
    | ⟨1, _⟩ => show (j 1).val = 0 * 768 + 1 * (j 1).val; omega
  · refine ⟨t0_0, rfl, ?_⟩
    show i ∈ ((View.whole main_v2).slice (((cfgA m).win 1).rect t0_0)).set
    rw [View.set_slice_whole]
    revert i
    show ∀ i : S77x768.Idx, i ∈ (((cfgA m).win 1).rect t0_0).set
    intro i
    refine Rect.mem_set_unit.mpr fun a => ?_
    match a with
    | ⟨0, _⟩ => show 0 * 77 ≤ (i 0).val ∧ (i 0).val < 0 * 77 + 77; have h : (i 0).val < 77 := (i 0).isLt; exact ⟨by omega, by omega⟩
    | ⟨1, _⟩ => show 0 * 768 ≤ (i 1).val ∧ (i 1).val < 0 * 768 + 768; have h : (i 1).val < 768 := (i 1).isLt; exact ⟨by omega, by omega⟩

/-- No window's array is one of the first three arguments. -/
theorem arr_ne_arg0 : ∀ w, Pipeline.arrRef spec0 w ≠ main_arg0 := by decide
theorem arr_ne_arg1 : ∀ w, Pipeline.arrRef spec0 w ≠ main_arg1 := by decide
theorem arr_ne_arg2 : ∀ w, Pipeline.arrRef spec0 w ≠ main_arg2 := by decide
/-- Nor the result. -/
theorem arr_ne_v3 : ∀ w, Pipeline.arrRef spec0 w ≠ main_v3 := by decide

/-- After the last host line the first three arguments hold what the launch found: the line writes only the result,
    no window's array is one of them, and no host line before the region writes them. -/
theorem tail_arg0 (c : Dev nD) : Pipeline.afterTail (pcfgs (F := F)) (adm m) (dats m) 0 (V₀ m) [Gen.hostOps1] c main_arg0 = m ((c.tc : Thread nD τ).loc main_arg0) := by
  unfold Pipeline.afterTail
  show StableHlo.after Gen.hostOps1 _ (Proc.devRef .tc main_arg0) = _
  after_results
  exact (Pipeline.withArrays_of_ne spec0 c (V₀ m c) _ main_arg0 arr_ne_arg0).trans (V₀_arg0 m c)

theorem tail_arg1 (c : Dev nD) : Pipeline.afterTail (pcfgs (F := F)) (adm m) (dats m) 0 (V₀ m) [Gen.hostOps1] c main_arg1 = m ((c.tc : Thread nD τ).loc main_arg1) := by
  unfold Pipeline.afterTail
  show StableHlo.after Gen.hostOps1 _ (Proc.devRef .tc main_arg1) = _
  after_results
  exact (Pipeline.withArrays_of_ne spec0 c (V₀ m c) _ main_arg1 arr_ne_arg1).trans (V₀_arg1 m c)

theorem tail_arg2 (c : Dev nD) : Pipeline.afterTail (pcfgs (F := F)) (adm m) (dats m) 0 (V₀ m) [Gen.hostOps1] c main_arg2 = m ((c.tc : Thread nD τ).loc main_arg2) := by
  unfold Pipeline.afterTail
  show StableHlo.after Gen.hostOps1 _ (Proc.devRef .tc main_arg2) = _
  after_results
  exact (Pipeline.withArrays_of_ne spec0 c (V₀ m c) _ main_arg2 arr_ne_arg2).trans (V₀_arg2 m c)

/-- After the last host line the result is the output array under one leading axis of extent 1. -/
theorem tail_v3 (c : Dev nD) : Pipeline.afterTail (pcfgs (F := F)) (adm m) (dats m) 0 (V₀ m) [Gen.hostOps1] c main_v3
    = broadcastInDim S1x77x768 ![1, 2] Gen.bcast_S77x768_S1x77x768_1_2 (outAt m c t0_0) := by
  unfold Pipeline.afterTail
  show StableHlo.after Gen.hostOps1 _ (Proc.devRef .tc main_v3) = _
  after_results
  exact congrArg (broadcastInDim S1x77x768 ![1, 2] Gen.bcast_S77x768_S1x77x768_1_2)
    ((Pipeline.withArrays_arr spec0 (launch0 (F := F)).win.arr_inj c (V₀ m c) (fun w => (dats m 0 c).arrAt w (cfgA m).N) 1).trans (arr1_final m c))

/-- The program runs, and its four argument arrays end as the launch found them: the position table is the input
    window's array, never written; the other three bypass the region and the last host line leaves them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_arg0 (Pipeline.mem_restRefs_of main_arg0 (by decide) arr_ne_arg0)).trans (tail_arg0 m c),
       ((h c).2 main_arg1 (Pipeline.mem_restRefs_of main_arg1 (by decide) arr_ne_arg1)).trans (tail_arg1 m c),
       ((h c).2 main_arg2 (Pipeline.mem_restRefs_of main_arg2 (by decide) arr_ne_arg2)).trans (tail_arg2 m c),
       ((h c).1 0).trans (arr0_final m c)⟩)
    (run_main m ρ)

/-- The program runs, its result the looked-up rows added under one leading axis of extent 1, its arguments unchanged. -/
theorem value_run : θ_run defs (onTc (τ := τ) (main (F := F))) ⟨m, fun _ => 0, ρ⟩ (fun r => ∀ c : Dev nD,
      r.2.mem ((c.tc : Thread nD τ).loc main_v3) = broadcastInDim S1x77x768 ![1, 2] Gen.bcast_S77x768_S1x77x768_1_2 (outAt m c t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v3 (Pipeline.mem_restRefs_of main_v3 (by decide) arr_ne_v3)).trans (tail_v3 m c),
       ((h c).2 main_arg0 (Pipeline.mem_restRefs_of main_arg0 (by decide) arr_ne_arg0)).trans (tail_arg0 m c),
       ((h c).2 main_arg1 (Pipeline.mem_restRefs_of main_arg1 (by decide) arr_ne_arg1)).trans (tail_arg1 m c),
       ((h c).2 main_arg2 (Pipeline.mem_restRefs_of main_arg2 (by decide) arr_ne_arg2)).trans (tail_arg2 m c),
       ((h c).1 0).trans (arr0_final m c)⟩)
    (run_main m ρ)

end Cert.KernelIdeal.Hand

end
-- ==== Proof.BKDefs.lean ====
/-
  The names the kernel body's run is stated over: the operands the body is called with beside its two blocks
  (the two scalar tables of clamped ids, the token table left in its own memory, the two scratch arrays), a buffer
  held whole at a share, a DMA semaphore cell at zero, the token table's read share for a cell, and row k of the
  first scratch array held on its own elements; and the arithmetic of the body's assumed side conditions: a row
  index below the table's row count keeps a one-row slice inside the table.
-/
import proofs.«408740_j35519379538186_3_alg».proof.Proof.Gen.Kernel.Launch
import proofs.«408740_j35519379538186_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (Pipeline.UD sig nD τ) ℕ

/-- The two scalar tables, the token table and the two scratch arrays, as the body is called with them. -/
abbrev idsM : Memref sig .tc .smem S77 .i32 := Memref.whole main_v0
abbrev posM : Memref sig .tc .smem S77 .i32 := Memref.whole main_v1
abbrev tokM : Memref sig .tc .hbm S49408x768 .f32 := Memref.whole main_arg2
abbrev scA : Memref sig .tc .vmem S77x768 .f32 := Memref.whole cc0_scratch0
abbrev scB : Memref sig .tc .vmem S77x768 .f32 := Memref.whole cc0_scratch1

/-- A memref's buffer on core c, and it held whole at a share. -/
abbrev Bf (c : Dev nD) {sp : Space} {S : Shape} {e : EltTy} (M : Memref sig .tc sp S e) : Type := Buf (Elt F) (M.view.loc (c : Thread nD τ))
abbrev ptq (c : Dev nD) {sp : Space} {S : Shape} {e : EltTy} (M : Memref sig .tc sp S e) (q : PosShare TreeShare) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  M.view.loc (c : Thread nD τ) ↦{fullShare} f
/-- A memref held on its own elements at the full share (a window's staging memref, as the pipeline hands it over). -/
abbrev ptm (c : Dev nD) {sp : Space} {S : Shape} {e : EltTy} (M : Memref sig .tc sp S e) (f : Bf (F := F) c M) : sProp 𝕄 :=
  M.view.loc (c : Thread nD τ) ↦[M.view.set]{fullShare} f
/-- Cell k of the core's DMA semaphores at zero. -/
abbrev cellAt (c : Dev nD) (k : ℕ) (hk : k < 79 := by decide) : sProp 𝕄 := semVal ((c : Thread nD τ), SemLoc.dma ⟨k, hk⟩) 0
/-- The token table's read share for the copy that completes on cell k. -/
abbrev tokAt (c : Dev nD) (k : ℕ) (f : Bf (F := F) c tokM) : sProp 𝕄 :=
  tokM.view.loc (c : Thread nD τ) ↦{Transfers.shareTokN fullShare k} f

/-- Row k of the first scratch array, as the body's copies name it, and the array held on that row's elements. -/
abbrev rowM (k : ℕ) (hk : ∀ a : Fin 2, (![k, 0] : Fin 2 → Nat) a + S1x768.size a ≤ S77x768.size a := by decide) : Memref sig .tc .vmem S768 .f32 :=
  (scA.slice (Rect.unit (s := S77x768) ![k, 0] S1x768.size hk) (fun _ => rfl)).squeeze S768 squeezes_S1x768_S768
abbrev rowAt (c : Dev nD) (k : ℕ) (f : Bf (F := F) c scA) (hk : ∀ a : Fin 2, (![k, 0] : Fin 2 → Nat) a + S1x768.size a ≤ S77x768.size a := by decide) : sProp 𝕄 :=
  (rowM k hk).view.loc (c : Thread nD τ) ↦[(rowM k hk).view.set]{fullShare} f

/-- A row of a table of n rows and 768 columns at a word below n lies inside the table. -/
theorem row_inside {w : BitVec 32} {n : Nat} (h : w.toNat < n) :
    ∀ a : Fin 2, (![w.toNat, 0] : Fin 2 → Nat) a + (![1, 768] : Fin 2 → Nat) a ≤ (![n, 768] : Fin 2 → Nat) a := by
  intro a; fin_cases a
  · show w.toNat + 1 ≤ n; omega
  · show 0 + 768 ≤ 768; omega

/-- The token rows the ids name: entry (s, d) is the token table at row ids[s], column d. -/
def gatherTok (c : Dev nD) (T0 : Bf (F := F) c idsM) (fh : Bf (F := F) c tokM) (hT0 : ∀ j, (T0 j).toNat < 49408) : Vec F S77x768 .f32 :=
  fun j => tokM.view.read (Elt F) fh (ix2 ⟨(T0 (ix1 (j 0))).toNat, hT0 _⟩ (j 1))

/-- The position rows the position ids name, out of the position table's block. -/
def gatherPos (c : Dev nD) (arg4 : Memref sig .tc .vmem S77x768 .f32) (T1 : Bf (F := F) c posM) (x4 : Bf (F := F) c arg4) (hT1 : ∀ j, (T1 j).toNat < 77) : Vec F S77x768 .f32 :=
  fun j => arg4.view.read (Elt F) x4 (ix2 ⟨(T1 (ix1 (j 0))).toNat, hT1 _⟩ (j 1))

/-- What the body leaves in the output's block: the two looked-up arrays added. -/
def outBlock (c : Dev nD) (arg4 : Memref sig .tc .vmem S77x768 .f32) (T0 : Bf (F := F) c idsM) (T1 : Bf (F := F) c posM) (x4 : Bf (F := F) c arg4) (fh : Bf (F := F) c tokM)
    (hT0 : ∀ j, (T0 j).toNat < 49408) (hT1 : ∀ j, (T1 j).toNat < 77) : Vec F S77x768 .f32 :=
  addf (gatherTok c T0 fh hT0) (gatherPos c arg4 T1 x4 hT1)

end Cert.Kernel.Hand

end
-- ==== Proof.BKRows.lean ====
/-
  The first scratch array as its 77 rows.

  Row k of the array, as the body's copies name it, is the one-row rectangle at (k, 0) with its leading axis of
  extent 1 dropped: its index d sits at (k, d) of the array (`rowM_emb`), and its elements are the rectangle's
  (`rowM_set`). Two things follow.

  * A row held on its own elements after a copy has landed its payload p over arbitrary prior contents holds, at
    column d, the value p d; where p d is what contents g hold at (k, d), that is the row held at g
    (`row_landed`): contents off the row's elements do not matter.
  * Rectangles of different rows are separated on the row axis, so no two rows share an element
    (`rows_disjoint`), and every element (s, d) lies in row s (`rows_cover`); so the array held whole at g is the
    separating conjunction of its 77 rows, each held on its own elements at g (`rows_bigSep`, and `rows_eq` with
    the conjunction written out row by row).
-/
import proofs.«408740_j35519379538186_3_alg».proof.Proof.BKDefs
import Idealize.ShloMosaic.Lib.ValueIdx
import Idealize.ShloMosaic.Lib.Writes
import Idealize.ShloMosaic.Lib.Pipeline.Kit
import Idealize.ShloMosaic.Rules.PointsTo

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- Row k's elements are those of the unit rectangle of one row at (k, 0). -/
theorem rowM_set (k : ℕ) (hk : ∀ a : Fin 2, (![k, 0] : Fin 2 → Nat) a + S1x768.size a ≤ S77x768.size a) :
    (rowM k hk).view.set = (Rect.unit (s := S77x768) ![k, 0] S1x768.size hk).set := by
  show (((View.whole cc0_scratch0 : View sig .tc _ _ _).slice (Rect.unit (s := S77x768) ![k, 0] S1x768.size hk)).reshape S768 _).set = _
  rw [View.set_reshape, View.set_slice_whole]

/-- Row k's index d sits at (k, d) of the array. -/
theorem rowM_emb (k : ℕ) (hk : ∀ a : Fin 2, (![k, 0] : Fin 2 → Nat) a + S1x768.size a ≤ S77x768.size a) (hk77 : k < 77)
    (d : Fin 768) : (rowM k hk).view.emb (ValueIdx.ix1 d) = (ValueIdx.ix2 ⟨k, hk77⟩ d : S77x768.Idx) := by
  show (Rect.unit (s := S77x768) ![k, 0] S1x768.size hk).emb (Shape.reshapeEquiv squeezes_S1x768_S768.numel_eq (ValueIdx.ix1 d)) = _
  have h1 : Shape.reshapeEquiv squeezes_S1x768_S768.numel_eq (ValueIdx.ix1 d)
      = Fin.cons (⟨0, Nat.one_pos⟩ : Fin 1) (ValueIdx.ix1 d : S768.Idx) :=
    Shape.reshapeEquiv_cons_one (n := 1) (d := ![768]) _ _
  rw [h1]
  funext a
  refine Fin.ext ?_
  rw [Rect.emb_apply]
  match a with
  | ⟨0, _⟩ => show k + 1 * 0 = k; omega
  | ⟨1, _⟩ => show 0 + 1 * d.val = d.val; omega

/-- A row after a landed copy: on the row's elements the written contents are the payload at the column, which is
    `g` there. -/
theorem row_landed (c : Dev nD) (k : ℕ) (hk : ∀ a : Fin 2, (![k, 0] : Fin 2 → Nat) a + S1x768.size a ≤ S77x768.size a) (hk77 : k < 77)
    (fa g : Bf (F := F) c scA) (p : S768.Idx → Elt F .f32)
    (hp : ∀ d : Fin 768, p (ValueIdx.ix1 d) = scA.view.read (Elt F) g (ValueIdx.ix2 ⟨k, hk77⟩ d)) :
    ((rowM k hk).view.loc (c : Thread nD τ) ↦[(rowM k hk).view.set]{fullShare} (rowM k hk).view.writes (Elt F) fa [⟨Rect.whole S768, p⟩] : sProp 𝕄)
      = rowAt c k g hk := by
  refine pointsTo_congr fun i hi => ?_
  obtain ⟨x, -, rfl⟩ := Finset.mem_map.mp hi
  obtain ⟨d, rfl⟩ : ∃ d, x = ValueIdx.ix1 d := ⟨x 0, ValueIdx.eq_ix1 x⟩
  rw [View.writes_singleton]
  have he : (rowM k hk).view.emb (ValueIdx.ix1 d) = ((rowM k hk).view.slice (Rect.whole S768)).emb (ValueIdx.ix1 d) := by
    show _ = (rowM k hk).view.emb ((Rect.whole S768).emb (ValueIdx.ix1 d))
    rw [Rect.emb_whole_apply]
  rw [he, View.write_emb_of_mem _ _ (Finset.mem_univ _), hp d, ← he, rowM_emb k hk hk77 d]
  rfl

/-- A row index below 77 keeps the one-row rectangle at (k, 0) inside the array. -/
theorem row_inb (k : ℕ) (hk77 : k < 77) : ∀ a : Fin 2, (![k, 0] : Fin 2 → Nat) a + S1x768.size a ≤ S77x768.size a := by
  intro a; fin_cases a
  · show k + 1 ≤ 77; omega
  · show 0 + 768 ≤ 768; omega

/-- Two different rows share no element: their rectangles are separated on the row axis. -/
theorem rows_disjoint (k k' : Fin 77) (h : k ≠ k') :
    Disjoint (rowM k.val (row_inb k.val k.isLt)).view.set (rowM k'.val (row_inb k'.val k'.isLt)).view.set := by
  rw [rowM_set, rowM_set]
  refine Rect.unit_disjoint (0 : Fin 2) ?_
  show k.val + 1 ≤ k'.val ∨ k'.val + 1 ≤ k.val
  have : k.val ≠ k'.val := fun e => h (Fin.ext e)
  omega

/-- Every element of the array lies in the row its first coordinate names. -/
theorem rows_cover :
    (Finset.univ : Finset S77x768.Idx) = Finset.univ.biUnion fun k : Fin 77 => (rowM k.val (row_inb k.val k.isLt)).view.set := by
  ext i
  simp only [Finset.mem_univ, Finset.mem_biUnion, true_and, true_iff]
  refine ⟨⟨(i 0).val, ValueIdx.idx2_lt0 i⟩, ?_⟩
  rw [rowM_set, Rect.mem_set_unit]
  intro a; fin_cases a
  · show (i 0).val ≤ (i 0).val ∧ (i 0).val < (i 0).val + 1
    omega
  · show 0 ≤ (i 1).val ∧ (i 1).val < 0 + 768
    have := ValueIdx.idx2_lt1 i
    omega

/-- The array held whole is its 77 rows held each on its own elements. -/
theorem rows_bigSep (c : Dev nD) (g : Bf (F := F) c scA) :
    (pt c scA g : sProp 𝕄) = bigSep Finset.univ fun k : Fin 77 => rowAt c k.val g (row_inb k.val k.isLt) := by
  have h : (scA.view.loc (c : Thread nD τ) ↦[Finset.univ.biUnion fun k : Fin 77 => (rowM k.val (row_inb k.val k.isLt)).view.set]{fullShare} g : sProp 𝕄)
      = bigSep Finset.univ fun k : Fin 77 => scA.view.loc (c : Thread nD τ) ↦[(rowM k.val (row_inb k.val k.isLt)).view.set]{fullShare} g :=
    pointsTo_biUnion Finset.univ _ fun k _ k' _ hkk => rows_disjoint k k' hkk
  rw [← rows_cover] at h
  exact h

/-- The same with the 77 rows written out. -/
theorem rows_eq (c : Dev nD) (g : Bf (F := F) c scA) :
    (pt c scA g : sProp 𝕄) = iprop(rowAt c 0 g ∗ rowAt c 1 g ∗ rowAt c 2 g ∗ rowAt c 3 g ∗ rowAt c 4 g ∗ rowAt c 5 g ∗ rowAt c 6 g ∗ rowAt c 7 g ∗ rowAt c 8 g ∗ rowAt c 9 g ∗ rowAt c 10 g ∗ rowAt c 11 g ∗ rowAt c 12 g ∗ rowAt c 13 g ∗ rowAt c 14 g ∗ rowAt c 15 g ∗ rowAt c 16 g ∗ rowAt c 17 g ∗ rowAt c 18 g ∗ rowAt c 19 g ∗ rowAt c 20 g ∗ rowAt c 21 g ∗ rowAt c 22 g ∗ rowAt c 23 g ∗ rowAt c 24 g ∗ rowAt c 25 g ∗ rowAt c 26 g ∗ rowAt c 27 g ∗ rowAt c 28 g ∗ rowAt c 29 g ∗ rowAt c 30 g ∗ rowAt c 31 g ∗ rowAt c 32 g ∗ rowAt c 33 g ∗ rowAt c 34 g ∗ rowAt c 35 g ∗ rowAt c 36 g ∗ rowAt c 37 g ∗ rowAt c 38 g ∗ rowAt c 39 g ∗ rowAt c 40 g ∗ rowAt c 41 g ∗ rowAt c 42 g ∗ rowAt c 43 g ∗ rowAt c 44 g ∗ rowAt c 45 g ∗ rowAt c 46 g ∗ rowAt c 47 g ∗ rowAt c 48 g ∗ rowAt c 49 g ∗ rowAt c 50 g ∗ rowAt c 51 g ∗ rowAt c 52 g ∗ rowAt c 53 g ∗ rowAt c 54 g ∗ rowAt c 55 g ∗ rowAt c 56 g ∗ rowAt c 57 g ∗ rowAt c 58 g ∗ rowAt c 59 g ∗ rowAt c 60 g ∗ rowAt c 61 g ∗ rowAt c 62 g ∗ rowAt c 63 g ∗ rowAt c 64 g ∗ rowAt c 65 g ∗ rowAt c 66 g ∗ rowAt c 67 g ∗ rowAt c 68 g ∗ rowAt c 69 g ∗ rowAt c 70 g ∗ rowAt c 71 g ∗ rowAt c 72 g ∗ rowAt c 73 g ∗ rowAt c 74 g ∗ rowAt c 75 g ∗ rowAt c 76 g) := by
  rw [rows_bigSep, bigSep_univ_eq_bigSepL (List.finRange 77) (List.toFinset_finRange 77).symm (List.nodup_finRange 77)]
  rfl

end Cert.Kernel.Hand

end
-- ==== Proof.BKReads.lean ====
/-
  The reads the kernel body's run names, each at one index.

  A word of a scalar table read through the one-element rectangle at position k is the table's entry k. Row w of the
  token table, taken as a one-row rectangle at offsets (w, 0) and then re-indexed by its 768 columns alone, reads at
  column d the table's entry (w, d). The one-row rectangle at offsets (w, 0) of the position table's block reads at
  (0, d) the block's entry (w, d). Re-indexing a [1, 768] vector by its columns alone and back changes no entry.
  Each is the same computation: the index a rectangle (and a row-major re-indexing) sends a given index to,
  coordinate by coordinate.
-/
import proofs.«408740_j35519379538186_3_alg».proof.Proof.BKDefs
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The one-element rectangle at position k of the token-id table reads entry k. -/
theorem ids_word (c : Dev nD) (T0 : Bf (F := F) c idsM) (k : ℕ) (hk : k < 77)
    (h1 : ∀ a, (![k] : Fin 1 → Nat) a + S1.size a ≤ S77.size a)
    (h2 : 0 < (Rect.unit (s := S77) ![k] S1.size h1).toLoadRect.shape.numel) :
    View.readAt (Elt F) idsM.view (Rect.unit (s := S77) ![k] S1.size h1).toLoadRect T0 (Shape.Idx.first h2)
      = T0 (ValueIdx.ix1 ⟨k, hk⟩) := by
  show T0 ((Rect.unit (s := S77) ![k] S1.size h1).emb _) = T0 _
  congr 1
  funext a
  match a with
  | ⟨0, _⟩ => exact Fin.ext (show k + 1 * 0 = k by omega)

/-- The one-element rectangle at position k of the position-id table reads entry k. -/
theorem pos_word (c : Dev nD) (T1 : Bf (F := F) c posM) (k : ℕ) (hk : k < 77)
    (h1 : ∀ a, (![k] : Fin 1 → Nat) a + S1.size a ≤ S77.size a)
    (h2 : 0 < (Rect.unit (s := S77) ![k] S1.size h1).toLoadRect.shape.numel) :
    View.readAt (Elt F) posM.view (Rect.unit (s := S77) ![k] S1.size h1).toLoadRect T1 (Shape.Idx.first h2)
      = T1 (ValueIdx.ix1 ⟨k, hk⟩) := by
  show T1 ((Rect.unit (s := S77) ![k] S1.size h1).emb _) = T1 _
  congr 1
  funext a
  match a with
  | ⟨0, _⟩ => exact Fin.ext (show k + 1 * 0 = k by omega)

/-- Row w of the token table, as the one-row rectangle at offsets (w, 0) indexed by its columns alone, reads at
    column d the table's entry (w, d): column d is at row-major position d of the one row, which the rectangle
    places at (w + 0, 0 + d). -/
theorem tok_row_read (c : Dev nD) (fh : Bf (F := F) c tokM) (w : BitVec 32) (hw : w.toNat < 49408)
    (off : Fin 2 → Nat) (hoff : off = ![w.toNat, 0])
    (h1 : ∀ a, off a + S1x768.size a ≤ S49408x768.size a)
    (h2 : ∀ a, (Rect.unit (s := S49408x768) off S1x768.size h1).stride a = 1)
    (h3 : (Rect.unit (s := S49408x768) off S1x768.size h1).shape.Squeezes S768) (d : Fin 768) :
    ReadAs.same.apply (View.read (Elt F) ((tokM.slice (Rect.unit (s := S49408x768) off S1x768.size h1) h2).squeeze S768 h3).view fh)
        (ValueIdx.ix1 d)
      = tokM.view.read (Elt F) fh (ValueIdx.ix2 ⟨w.toNat, hw⟩ d) := by
  subst hoff
  show fh _ = fh _
  congr 1
  show (Rect.unit (s := S49408x768) ![w.toNat, 0] S1x768.size h1).emb (Shape.reshapeEquiv h3.numel_eq (ValueIdx.ix1 d))
    = ValueIdx.ix2 ⟨w.toNat, hw⟩ d
  have e : Shape.reshapeEquiv h3.numel_eq (ValueIdx.ix1 d) = ValueIdx.ix2 (0 : Fin 1) d :=
    Shape.reshapeEquiv_eq_of_rowMajor h3.numel_eq (by
      rw [Shape.rowMajor_val_two, Shape.rowMajor_val_one]
      show 0 * _ + d.val = d.val
      omega)
  rw [e]
  funext a
  match a with
  | ⟨0, _⟩ => exact Fin.ext (show w.toNat + 1 * 0 = w.toNat by omega)
  | ⟨1, _⟩ => exact Fin.ext (show 0 + 1 * d.val = d.val by omega)

/-- The one-row rectangle at offsets (w, 0) of a [77, 768] array reads at (0, d) the array's entry (w, d). -/
theorem pos_row_read (c : Dev nD) (arg4 : Memref sig .tc .vmem S77x768 .f32) (harg4 : arg4.IsWhole) (x4 : Bf (F := F) c arg4)
    (w : BitVec 32) (hw : w.toNat < 77) (off : Fin 2 → Nat) (hoff : off = ![w.toNat, 0])
    (h1 : ∀ a, off a + S1x768.size a ≤ S77x768.size a) (z : Fin 1) (d : Fin 768) :
    arg4.view.readAt (Elt F) (Rect.unit (s := S77x768) off S1x768.size h1).toLoadRect x4 (ValueIdx.ix2 z d)
      = arg4.view.read (Elt F) x4 (ValueIdx.ix2 ⟨w.toNat, hw⟩ d) := by
  subst hoff
  rw [View.readAt_apply]
  congr 1
  funext a
  match a with
  | ⟨0, _⟩ => exact Fin.ext (show w.toNat + 1 * z.val = w.toNat by have := z.isLt; omega)
  | ⟨1, _⟩ => exact Fin.ext (show 0 + 1 * d.val = d.val by omega)

/-- A [1, 768] vector indexed by its columns alone: column d is the entry (0, d), both at row-major position d. -/
theorem cast_to_row_apply (v : Vec F S1x768 .f32) (h1 : S1x768.ShapeCasts S768) (z : Fin 1) (d : Fin 768) :
    shapeCast S768 v h1 (ValueIdx.ix1 d) = v (ValueIdx.ix2 z d) :=
  shapeCast_apply v h1 (ValueIdx.ix1 d) (ValueIdx.ix2 z d) (by
    rw [Shape.rowMajor_val_two, Shape.rowMajor_val_one]
    show z.val * _ + d.val = d.val
    have := z.isLt
    have hz : z.val = 0 := by omega
    rw [hz]; omega)

/-- A 768-vector indexed as one row of 768 columns: the entry (0, d) is entry d. -/
theorem cast_of_row_apply (u : FVec F S768 .f32) (h2 : S768.ShapeCasts S1x768) (z : Fin 1) (d : Fin 768) :
    shapeCast S1x768 u h2 (ValueIdx.ix2 z d) = u (ValueIdx.ix1 d) :=
  shapeCast_apply u h2 (ValueIdx.ix2 z d) (ValueIdx.ix1 d) (by
    rw [Shape.rowMajor_val_two, Shape.rowMajor_val_one]
    show d.val = z.val * _ + d.val
    have := z.isLt
    have hz : z.val = 0 := by omega
    rw [hz]; omega)

/-- Re-indexing a [1, 768] vector by its columns alone and back as one row changes no entry. -/
theorem cast_row_apply (v : Vec F S1x768 .f32) (h1 : S1x768.ShapeCasts S768) (h2 : S768.ShapeCasts S1x768) (z : Fin 1) (d : Fin 768) :
    shapeCast S1x768 (shapeCast S768 v h1) h2 (ValueIdx.ix2 z d) = v (ValueIdx.ix2 z d) := by
  rw [cast_of_row_apply _ h2 z d, cast_to_row_apply v h1 z d]

end Cert.Kernel.Hand

end
-- ==== Proof.BKLand.lean ====
/-
  The two scratch arrays after the copies have landed, as one contents function each.

  Row s of the first scratch array is written by the copy of row ids[s] of the token table; row s of the second by
  the store of row pos[s] of the position table's block. Read back whole, the first is the array of looked-up token
  rows and the second the array of looked-up position rows.
-/
import proofs.«408740_j35519379538186_3_alg».proof.Proof.BKRows
import proofs.«408740_j35519379538186_3_alg».proof.Proof.BKReads
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (Pipeline.UD sig nD τ) ℕ

/-- The first scratch array's contents once every copy has landed: the looked-up token rows. -/
def gA (c : Dev nD) (T0 : Bf (F := F) c idsM) (fh : Bf (F := F) c tokM) (hT0 : ∀ j, (T0 j).toNat < 49408) : Bf (F := F) c scA :=
  (Memref.isWhole_whole cc0_scratch0).unread (gatherTok c T0 fh hT0)

theorem gA_read (c : Dev nD) (T0 : Bf (F := F) c idsM) (fh : Bf (F := F) c tokM) (hT0 : ∀ j, (T0 j).toNat < 49408) :
    scA.view.read (Elt F) (gA c T0 fh hT0) = gatherTok c T0 fh hT0 :=
  (Memref.isWhole_whole cc0_scratch0).read_unread _

/-- Row k of the first scratch array, written by the copy of the token table's row at the k-th table word, holds
    the looked-up rows' row k. -/
theorem tok_row_landed (c : Dev nD) (k : ℕ) (hk : ∀ a : Fin 2, (![k, 0] : Fin 2 → Nat) a + S1x768.size a ≤ S77x768.size a) (hk77 : k < 77)
    (fa : Bf (F := F) c scA) (T0 : Bf (F := F) c idsM) (fh : Bf (F := F) c tokM) (hT0 : ∀ j, (T0 j).toNat < 49408)
    (w : BitVec 32) (hw : w = T0 (ix1 ⟨k, hk77⟩)) (off : Fin 2 → Nat) (hoff : off = ![w.toNat, 0])
    (h1 : ∀ a, off a + S1x768.size a ≤ S49408x768.size a)
    (h2 : ∀ a, (Rect.unit (s := S49408x768) off S1x768.size h1).stride a = 1)
    (h3 : (Rect.unit (s := S49408x768) off S1x768.size h1).shape.Squeezes S768) :
    ((rowM k hk).view.loc (c : Thread nD τ) ↦[(rowM k hk).view.set]{fullShare}
        (rowM k hk).view.writes (Elt F) fa [⟨Rect.whole S768,
          ReadAs.same.apply (View.read (Elt F) ((tokM.slice (Rect.unit (s := S49408x768) off S1x768.size h1) h2).squeeze S768 h3).view fh)⟩] : sProp 𝕄)
      = rowAt c k (gA c T0 fh hT0) hk := by
  refine row_landed c k hk hk77 fa (gA c T0 fh hT0) _ fun d => ?_
  have hlt : w.toNat < 49408 := by rw [hw]; exact hT0 _
  rw [tok_row_read c fh w hlt off hoff h1 h2 h3 d, gA_read]
  unfold gatherTok
  subst hw
  rfl

/-- A row that lies inside the array is one of its 77 rows. -/
theorem row_lt {k : ℕ} (hk : ∀ a : Fin 2, (![k, 0] : Fin 2 → Nat) a + S1x768.size a ≤ S77x768.size a) : k < 77 := by
  have h := hk 0
  have e : (![k, 0] : Fin 2 → Nat) 0 + S1x768.size 0 = k + 1 := rfl
  have e' : S77x768.size 0 = 77 := rfl
  omega

/-- Row k of the second scratch array is stored with the position block's row at the k-th table word (through
    two reshapes that only drop and restore the leading axis of extent 1): at every index of the stored piece it holds
    the looked-up position rows' entry there. -/
theorem pos_piece_ok (c : Dev nD) (arg4 : Memref sig .tc .vmem S77x768 .f32) (harg4 : arg4.IsWhole)
    (T1 : Bf (F := F) c posM) (x4 : Bf (F := F) c arg4) (hT1 : ∀ j, (T1 j).toNat < 77)
    (k : ℕ) (hk : ∀ a : Fin 2, (![k, 0] : Fin 2 → Nat) a + S1x768.size a ≤ S77x768.size a)
    (w : BitVec 32) (hw : w = T1 (ix1 ⟨k, row_lt hk⟩)) (off : Fin 2 → Nat) (hoff : off = ![w.toNat, 0])
    (h1 : ∀ a, off a + S1x768.size a ≤ S77x768.size a) (hc1 : S1x768.ShapeCasts S768) (hc2 : S768.ShapeCasts S1x768) :
    ∀ x : (Rect.unit (s := S77x768) ![k, 0] S1x768.size hk).shape.Idx,
      shapeCast S1x768 (shapeCast S768 (arg4.view.readAt (Elt F) (Rect.unit (s := S77x768) off S1x768.size h1).toLoadRect x4) hc1) hc2 x
        = gatherPos c arg4 T1 x4 hT1 ((Rect.unit (s := S77x768) ![k, 0] S1x768.size hk).emb x) := by
  intro x
  obtain ⟨z, d, rfl⟩ : ∃ (z : Fin 1) (d : Fin 768), x = ix2 z d := ⟨x 0, x 1, eq_ix2 x⟩
  have hlt : w.toNat < 77 := by rw [hw]; exact hT1 _
  rw [cast_row_apply _ hc1 hc2 z d, pos_row_read c arg4 harg4 x4 w hlt off hoff h1 z d]
  unfold gatherPos
  subst hw
  have e : (Rect.unit (s := S77x768) ![k, 0] S1x768.size hk).emb (ix2 z d) = ix2 (⟨k, row_lt hk⟩ : Fin 77) d := by
    funext a
    match a with
    | ⟨0, _⟩ => exact Fin.ext (by show k + 1 * (z : Nat) = k; have := z.isLt; omega)
    | ⟨1, _⟩ => exact Fin.ext (by show 0 + 1 * (d : Nat) = d; omega)
  rw [e]

/-- The whole-shape rectangle at the origin, read as a load's coordinates, is the identity on indices. -/
theorem whole_idx (h0 : ∀ a, (![0, 0] : Fin 2 → Nat) a + S77x768.size a ≤ S77x768.size a) (y : S77x768.Idx) :
    (Rect.unit (s := S77x768) ![0, 0] S77x768.size h0).toLoadRect.idx y = y := by
  funext a
  match a with
  | ⟨0, _⟩ => exact Fin.ext (by show 0 + 1 * (y 0 : Nat) = y 0; omega)
  | ⟨1, _⟩ => exact Fin.ext (by show 0 + 1 * (y 1 : Nat) = y 1; omega)

/-- The second scratch array's contents once its 77 rows are stored: the looked-up position rows. -/
def gB (c : Dev nD) (arg4 : Memref sig .tc .vmem S77x768 .f32) (T1 : Bf (F := F) c posM) (x4 : Bf (F := F) c arg4) (hT1 : ∀ j, (T1 j).toNat < 77) : Bf (F := F) c scB :=
  (Memref.isWhole_whole cc0_scratch1).unread (gatherPos c arg4 T1 x4 hT1)

theorem gB_read (c : Dev nD) (arg4 : Memref sig .tc .vmem S77x768 .f32) (T1 : Bf (F := F) c posM) (x4 : Bf (F := F) c arg4) (hT1 : ∀ j, (T1 j).toNat < 77) :
    scB.view.read (Elt F) (gB c arg4 T1 x4 hT1) = gatherPos c arg4 T1 x4 hT1 :=
  (Memref.isWhole_whole cc0_scratch1).read_unread _

/-- The second scratch array written, over anything, by pieces that cover it and each hold the looked-up position
    rows on their rectangle, holds the looked-up position rows. -/
theorem scB_clean (c : Dev nD) (arg4 : Memref sig .tc .vmem S77x768 .f32) (T1 : Bf (F := F) c posM) (x4 : Bf (F := F) c arg4) (hT1 : ∀ j, (T1 j).toNat < 77)
    (L : List (View.Piece (Elt F) S77x768 .f32))
    (hL : ∀ p ∈ L, ∀ x : p.1.shape.Idx, p.2 x = gatherPos c arg4 T1 x4 hT1 (p.1.emb x))
    (hcov : ∀ y : S77x768.Idx, ∃ p ∈ L, y ∈ p.1.set) :
    scB.view.writes (Elt F) scB.view.junk L = gB c arg4 T1 x4 hT1 := by
  apply (Memref.isWhole_whole cc0_scratch1).eq_unread
  rw [View.read_writes_junk_eq_canon]
  funext y
  exact View.canon_apply_of_pieces _ L hL y (hcov y)

/-- What the body's last store leaves in the output's block: the first scratch array read whole (the looked-up
    token rows) plus the second read whole (the looked-up position rows), written over the whole block. -/
theorem out_block_eq (c : Dev nD) (arg4 : Memref sig .tc .vmem S77x768 .f32) (arg5 : Memref sig .tc .vmem S77x768 .f32) (harg5 : arg5.IsWhole)
    (T0 : Bf (F := F) c idsM) (T1 : Bf (F := F) c posM) (x4 : Bf (F := F) c arg4) (fh : Bf (F := F) c tokM)
    (hT0 : ∀ j, (T0 j).toNat < 49408) (hT1 : ∀ j, (T1 j).toNat < 77)
    (h0 : ∀ a, (![0, 0] : Fin 2 → Nat) a + S77x768.size a ≤ S77x768.size a) :
    arg5.view.writes (Elt F) arg5.view.junk
      [⟨Rect.unit (s := S77x768) ![0, 0] S77x768.size h0,
        k0_pay1 (View.readAt (Elt F) scA.view (Rect.unit (s := S77x768) ![0, 0] S77x768.size h0).toLoadRect (gA c T0 fh hT0))
          (View.readAt (Elt F) scB.view (Rect.unit (s := S77x768) ![0, 0] S77x768.size h0).toLoadRect (gB c arg4 T1 x4 hT1))⟩]
      = harg5.unread (outBlock c arg4 T0 T1 x4 fh hT0 hT1) := by
  apply harg5.eq_unread
  rw [View.read_writes_junk_eq_canon, View.canon_unit_zero (by funext a; fin_cases a <;> rfl) h0]
  unfold k0_pay1 outBlock
  have eA : View.readAt (Elt F) scA.view (Rect.unit (s := S77x768) ![0, 0] S77x768.size h0).toLoadRect (gA c T0 fh hT0) = gatherTok c T0 fh hT0 := by
    funext y
    rw [View.readAt_apply, whole_idx h0 y, gA_read]
  have eB : View.readAt (Elt F) scB.view (Rect.unit (s := S77x768) ![0, 0] S77x768.size h0).toLoadRect (gB c arg4 T1 x4 hT1) = gatherPos c arg4 T1 x4 hT1 := by
    funext y
    rw [View.readAt_apply, whole_idx h0 y, gB_read]
  rw [eA, eB]

end Cert.Kernel.Hand

end
-- ==== Proof.BKRun.lean ====
/-
  The kernel body run once, at symbolic operands.

  The body reads the 77 clamped token ids and the 77 clamped position ids from the two scalar tables, starts 77
  copies of one row each of the token table (left in its own memory) into rows 0..76 of a first scratch array,
  each copy on a semaphore cell of its own; copies row pos[s] of the position table's block into row s of a second
  scratch array, for s = 0..76; waits for the 77 copies; and stores the sum of the two scratch arrays into the
  output's block. Every row index it uses is read from a table whose words are below the table's row count, which is
  what the body's assumed side conditions ask. So the output's block ends at: entry (s, d) = tok[ids[s], d] + pw[pos[s], d].

  The token table is read by 77 copies in flight at once, so it is held as 77 read shares, one per cell; the first
  scratch array is held row by row while the copies fly, and put back together, at the looked-up rows, before the
  body's last loads.
-/
import proofs.«408740_j35519379538186_3_alg».proof.Proof.BKDefs
import Idealize.ShloMosaic.Lib.ValueIdx
import proofs.«408740_j35519379538186_3_alg».proof.Proof.BKLand
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (Pipeline.UD sig nD τ) ℕ

set_option maxHeartbeats 8000000 in
/-- From the tables held at a share and at contents whose words are rows of their tables, the position table's block,
    the output's block and the two scratch arrays held whole, the 77 cells at zero and the 77 read shares of the token
    table, the body runs to its return handing all of them back, the output's block at the looked-up rows added. -/
theorem kernelRun (c : Dev nD) (i : grid0.Coords)
    (arg4 : Memref sig .tc .vmem S77x768 .f32) (harg4 : arg4.IsWhole) (arg5 : Memref sig .tc .vmem S77x768 .f32) (harg5 : arg5.IsWhole)
    (q : PosShare TreeShare) (T0 : Bf (F := F) c idsM) (T1 : Bf (F := F) c posM) (x4 : Bf (F := F) c arg4) (fh : Bf (F := F) c tokM)
    (hT0 : ∀ j, (T0 j).toNat < 49408) (hT1 : ∀ j, (T1 j).toNat < 77)
    (f5 : Bf (F := F) c arg5) (fa : Bf (F := F) c scA) (fb : Bf (F := F) c scB) (W : Waits sig Unit) (K : PUnit → sProp 𝕄) :
    iprop(ptq c idsM q T0 ∗ ptq c posM q T1 ∗ ptm c arg4 x4 ∗ ptm c arg5 f5 ∗ pt c scA fa ∗ pt c scB fb
        ∗ iprop(cellAt c 2 ∗ cellAt c 3 ∗ cellAt c 4 ∗ cellAt c 5 ∗ cellAt c 6 ∗ cellAt c 7 ∗ cellAt c 8 ∗ cellAt c 9 ∗ cellAt c 10 ∗ cellAt c 11 ∗ cellAt c 12 ∗ cellAt c 13 ∗ cellAt c 14 ∗ cellAt c 15 ∗ cellAt c 16 ∗ cellAt c 17 ∗ cellAt c 18 ∗ cellAt c 19 ∗ cellAt c 20 ∗ cellAt c 21 ∗ cellAt c 22 ∗ cellAt c 23 ∗ cellAt c 24 ∗ cellAt c 25 ∗ cellAt c 26 ∗ cellAt c 27 ∗ cellAt c 28 ∗ cellAt c 29 ∗ cellAt c 30 ∗ cellAt c 31 ∗ cellAt c 32 ∗ cellAt c 33 ∗ cellAt c 34 ∗ cellAt c 35 ∗ cellAt c 36 ∗ cellAt c 37 ∗ cellAt c 38 ∗ cellAt c 39 ∗ cellAt c 40 ∗ cellAt c 41 ∗ cellAt c 42 ∗ cellAt c 43 ∗ cellAt c 44 ∗ cellAt c 45 ∗ cellAt c 46 ∗ cellAt c 47 ∗ cellAt c 48 ∗ cellAt c 49 ∗ cellAt c 50 ∗ cellAt c 51 ∗ cellAt c 52 ∗ cellAt c 53 ∗ cellAt c 54 ∗ cellAt c 55 ∗ cellAt c 56 ∗ cellAt c 57 ∗ cellAt c 58 ∗ cellAt c 59 ∗ cellAt c 60 ∗ cellAt c 61 ∗ cellAt c 62 ∗ cellAt c 63 ∗ cellAt c 64 ∗ cellAt c 65 ∗ cellAt c 66 ∗ cellAt c 67 ∗ cellAt c 68 ∗ cellAt c 69 ∗ cellAt c 70 ∗ cellAt c 71 ∗ cellAt c 72 ∗ cellAt c 73 ∗ cellAt c 74 ∗ cellAt c 75 ∗ cellAt c 76 ∗ cellAt c 77 ∗ cellAt c 78)
        ∗ iprop(tokAt c 2 fh ∗ tokAt c 3 fh ∗ tokAt c 4 fh ∗ tokAt c 5 fh ∗ tokAt c 6 fh ∗ tokAt c 7 fh ∗ tokAt c 8 fh ∗ tokAt c 9 fh ∗ tokAt c 10 fh ∗ tokAt c 11 fh ∗ tokAt c 12 fh ∗ tokAt c 13 fh ∗ tokAt c 14 fh ∗ tokAt c 15 fh ∗ tokAt c 16 fh ∗ tokAt c 17 fh ∗ tokAt c 18 fh ∗ tokAt c 19 fh ∗ tokAt c 20 fh ∗ tokAt c 21 fh ∗ tokAt c 22 fh ∗ tokAt c 23 fh ∗ tokAt c 24 fh ∗ tokAt c 25 fh ∗ tokAt c 26 fh ∗ tokAt c 27 fh ∗ tokAt c 28 fh ∗ tokAt c 29 fh ∗ tokAt c 30 fh ∗ tokAt c 31 fh ∗ tokAt c 32 fh ∗ tokAt c 33 fh ∗ tokAt c 34 fh ∗ tokAt c 35 fh ∗ tokAt c 36 fh ∗ tokAt c 37 fh ∗ tokAt c 38 fh ∗ tokAt c 39 fh ∗ tokAt c 40 fh ∗ tokAt c 41 fh ∗ tokAt c 42 fh ∗ tokAt c 43 fh ∗ tokAt c 44 fh ∗ tokAt c 45 fh ∗ tokAt c 46 fh ∗ tokAt c 47 fh ∗ tokAt c 48 fh ∗ tokAt c 49 fh ∗ tokAt c 50 fh ∗ tokAt c 51 fh ∗ tokAt c 52 fh ∗ tokAt c 53 fh ∗ tokAt c 54 fh ∗ tokAt c 55 fh ∗ tokAt c 56 fh ∗ tokAt c 57 fh ∗ tokAt c 58 fh ∗ tokAt c 59 fh ∗ tokAt c 60 fh ∗ tokAt c 61 fh ∗ tokAt c 62 fh ∗ tokAt c 63 fh ∗ tokAt c 64 fh ∗ tokAt c 65 fh ∗ tokAt c 66 fh ∗ tokAt c 67 fh ∗ tokAt c 68 fh ∗ tokAt c 69 fh ∗ tokAt c 70 fh ∗ tokAt c 71 fh ∗ tokAt c 72 fh ∗ tokAt c 73 fh ∗ tokAt c 74 fh ∗ tokAt c 75 fh ∗ tokAt c 76 fh ∗ tokAt c 77 fh ∗ tokAt c 78 fh)
        ∗ owes (c : Thread nD τ) 0 W
        ∗ (iprop(ptq c idsM q T0 ∗ ptq c posM q T1 ∗ ptm c arg4 x4 ∗ ptm c arg5 (harg5.unread (outBlock c arg4 T0 T1 x4 fh hT0 hT1)) ∗ (∃ f, pt c scA f) ∗ (∃ f, pt c scB f)
            ∗ iprop(cellAt c 2 ∗ cellAt c 3 ∗ cellAt c 4 ∗ cellAt c 5 ∗ cellAt c 6 ∗ cellAt c 7 ∗ cellAt c 8 ∗ cellAt c 9 ∗ cellAt c 10 ∗ cellAt c 11 ∗ cellAt c 12 ∗ cellAt c 13 ∗ cellAt c 14 ∗ cellAt c 15 ∗ cellAt c 16 ∗ cellAt c 17 ∗ cellAt c 18 ∗ cellAt c 19 ∗ cellAt c 20 ∗ cellAt c 21 ∗ cellAt c 22 ∗ cellAt c 23 ∗ cellAt c 24 ∗ cellAt c 25 ∗ cellAt c 26 ∗ cellAt c 27 ∗ cellAt c 28 ∗ cellAt c 29 ∗ cellAt c 30 ∗ cellAt c 31 ∗ cellAt c 32 ∗ cellAt c 33 ∗ cellAt c 34 ∗ cellAt c 35 ∗ cellAt c 36 ∗ cellAt c 37 ∗ cellAt c 38 ∗ cellAt c 39 ∗ cellAt c 40 ∗ cellAt c 41 ∗ cellAt c 42 ∗ cellAt c 43 ∗ cellAt c 44 ∗ cellAt c 45 ∗ cellAt c 46 ∗ cellAt c 47 ∗ cellAt c 48 ∗ cellAt c 49 ∗ cellAt c 50 ∗ cellAt c 51 ∗ cellAt c 52 ∗ cellAt c 53 ∗ cellAt c 54 ∗ cellAt c 55 ∗ cellAt c 56 ∗ cellAt c 57 ∗ cellAt c 58 ∗ cellAt c 59 ∗ cellAt c 60 ∗ cellAt c 61 ∗ cellAt c 62 ∗ cellAt c 63 ∗ cellAt c 64 ∗ cellAt c 65 ∗ cellAt c 66 ∗ cellAt c 67 ∗ cellAt c 68 ∗ cellAt c 69 ∗ cellAt c 70 ∗ cellAt c 71 ∗ cellAt c 72 ∗ cellAt c 73 ∗ cellAt c 74 ∗ cellAt c 75 ∗ cellAt c 76 ∗ cellAt c 77 ∗ cellAt c 78)
            ∗ iprop(tokAt c 2 fh ∗ tokAt c 3 fh ∗ tokAt c 4 fh ∗ tokAt c 5 fh ∗ tokAt c 6 fh ∗ tokAt c 7 fh ∗ tokAt c 8 fh ∗ tokAt c 9 fh ∗ tokAt c 10 fh ∗ tokAt c 11 fh ∗ tokAt c 12 fh ∗ tokAt c 13 fh ∗ tokAt c 14 fh ∗ tokAt c 15 fh ∗ tokAt c 16 fh ∗ tokAt c 17 fh ∗ tokAt c 18 fh ∗ tokAt c 19 fh ∗ tokAt c 20 fh ∗ tokAt c 21 fh ∗ tokAt c 22 fh ∗ tokAt c 23 fh ∗ tokAt c 24 fh ∗ tokAt c 25 fh ∗ tokAt c 26 fh ∗ tokAt c 27 fh ∗ tokAt c 28 fh ∗ tokAt c 29 fh ∗ tokAt c 30 fh ∗ tokAt c 31 fh ∗ tokAt c 32 fh ∗ tokAt c 33 fh ∗ tokAt c 34 fh ∗ tokAt c 35 fh ∗ tokAt c 36 fh ∗ tokAt c 37 fh ∗ tokAt c 38 fh ∗ tokAt c 39 fh ∗ tokAt c 40 fh ∗ tokAt c 41 fh ∗ tokAt c 42 fh ∗ tokAt c 43 fh ∗ tokAt c 44 fh ∗ tokAt c 45 fh ∗ tokAt c 46 fh ∗ tokAt c 47 fh ∗ tokAt c 48 fh ∗ tokAt c 49 fh ∗ tokAt c 50 fh ∗ tokAt c 51 fh ∗ tokAt c 52 fh ∗ tokAt c 53 fh ∗ tokAt c 54 fh ∗ tokAt c 55 fh ∗ tokAt c 56 fh ∗ tokAt c 57 fh ∗ tokAt c 58 fh ∗ tokAt c 59 fh ∗ tokAt c 60 fh ∗ tokAt c 61 fh ∗ tokAt c 62 fh ∗ tokAt c 63 fh ∗ tokAt c 64 fh ∗ tokAt c 65 fh ∗ tokAt c 66 fh ∗ tokAt c 67 fh ∗ tokAt c 68 fh ∗ tokAt c 69 fh ∗ tokAt c 70 fh ∗ tokAt c 71 fh ∗ tokAt c 72 fh ∗ tokAt c 73 fh ∗ tokAt c 74 fh ∗ tokAt c 75 fh ∗ tokAt c 76 fh ∗ tokAt c 77 fh ∗ tokAt c 78 fh)
            ∗ (∃ W', owes (c : Thread nD τ) 0 W')) -∗ K ⟨⟩))
      ⊢ wp frame (wpE (defs₀ (F := F)) Variants.none c none) Set.univ
          (cc0__gather_add_kernel i idsM (Memref.isWhole_whole _) posM (Memref.isWhole_whole _) tokM (Memref.isWhole_whole _) arg4 harg4 arg5 harg5 scA (Memref.isWhole_whole _) scB (Memref.isWhole_whole _) cc0_scratch2) K := by
  iintro ⟨HT0, HT1, H4, H5, HA, HB, ⟨Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78⟩, ⟨Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, Ht64, Ht65, Ht66, Ht67, Ht68, Ht69, Ht70, Ht71, Ht72, Ht73, Ht74, Ht75, Ht76, Ht77, Ht78⟩, HW, Hk⟩
  -- the first scratch array row by row, so that each copy lends and returns one row
  ihave HA' := (Entails.of_eq (rows_eq c fa)) $$ HA
  icases HA' with ⟨HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31, HA32, HA33, HA34, HA35, HA36, HA37, HA38, HA39, HA40, HA41, HA42, HA43, HA44, HA45, HA46, HA47, HA48, HA49, HA50, HA51, HA52, HA53, HA54, HA55, HA56, HA57, HA58, HA59, HA60, HA61, HA62, HA63, HA64, HA65, HA66, HA67, HA68, HA69, HA70, HA71, HA72, HA73, HA74, HA75, HA76⟩
  sl_exec_parts! (disch := first | exact ⟨row_inside (hT0 _), row_inside (hT0 _)⟩ | exact row_inside (hT1 _))
  -- the second scratch array: its 77 stored rows cover it, and each is the looked-up position row
  have hB : scB.view.writes (Elt F) scB.view.junk (kernelRun.sl.HB_77 c arg4 T1 x4 hT1) = gB c arg4 T1 x4 hT1 := by
    refine scB_clean c arg4 T1 x4 hT1 _ ?hL (View.cover_of_tiledL _ S1x768.size (by sl_kernel_rfl))
    sl_unfold_run_names
    iterate 77 (refine List.forall_mem_cons.2 ⟨pos_piece_ok c arg4 harg4 T1 x4 hT1 _ (by decide) _ (pos_word c T1 _ (by decide) _ _) _ (by rfl) _ _ _, ?_⟩)
    intro p hp; cases hp
  ihave HB' := (Entails.of_eq (congrArg (fun f => (scB.view.loc (c : Thread nD τ) ↦{fullShare} f : sProp 𝕄)) hB)) $$ HB
  -- every copy has landed: each row of the first scratch array holds its looked-up token row
  sl_unfold_run_names
  ihave HR0 := (Entails.of_eq (tok_row_landed c 0 _ (by decide) fa T0 fh hT0 _ (ids_word c T0 0 (by decide) _ _) _ (by rfl) _ _ _)) $$ HA0
  ihave HR1 := (Entails.of_eq (tok_row_landed c 1 _ (by decide) fa T0 fh hT0 _ (ids_word c T0 1 (by decide) _ _) _ (by rfl) _ _ _)) $$ HA1
  ihave HR2 := (Entails.of_eq (tok_row_landed c 2 _ (by decide) fa T0 fh hT0 _ (ids_word c T0 2 (by decide) _ _) _ (by rfl) _ _ _)) $$ HA2
  ihave HR3 := (Entails.of_eq (tok_row_landed c 3 _ (by decide) fa T0 fh hT0 _ (ids_word c T0 3 (by decide) _ _) _ (by rfl) _ _ _)) $$ HA3
  ihave HR4 := (Entails.of_eq (tok_row_landed c 4 _ (by decide) fa T0 fh hT0 _ (ids_word c T0 4 (by decide) _ _) _ (by rfl) _ _ _)) $$ HA4
  ihave HR5 := (Entails.of_eq (tok_row_landed c 5 _ (by decide) fa T0 fh hT0 _ (ids_word c T0 5 (by decide) _ _) _ (by rfl) _ _ _)) $$ HA5
  ihave HR6 := (Entails.of_eq (tok_row_landed c 6 _ (by decide) fa T0 fh hT0 _ (ids_word c T0 6 (by decide) _ _) _ (by rfl) _ _ _)) $$ HA6
  ihave HR7 := (Entails.of_eq (tok_row_landed c 7 _ (by decide) fa T0 fh hT0 _ (ids_word c T0 7 (by decide) _ _) _ (by rfl) _ _ _)) $$ HA7
  ihave HR8 := (Entails.of_eq (tok_row_landed c 8 _ (by decide) fa T0 fh hT0 _ (ids_word c T0 8 (by decide) _ _) _ (by rfl) _ _ _)) $$ HA8
  ihave HR9 := (Entails.of_eq (tok_row_landed c 9 _ (by decide) fa T0 fh hT0 _ (ids_word c T0 9 (by decide) _ _) _ (by rfl) _ _ _)) $$ HA9
  ihave HR10 := (Entails.of_eq (tok_row_landed c 10 _ (by decide) fa T0 fh hT0 _ (ids_word c T0 10 (by decide) _ _) _ (by rfl) _ _ _)) $$ HA10
  ihave HR11 := (Entails.of_eq (tok_row_landed c 11 _ (by decide) fa T0 fh hT0 _ (ids_word c T0 11 (by decide) _ _) _ (by rfl) _ _ _)) $$ HA11
  ihave HR12 := (Entails.of_eq (tok_row_landed c 12 _ (by decide) fa T0 fh hT0 _ (ids_word c T0 12 (by decide) _ _) _ (by rfl) _ _ _)) $$ HA12
  ihave HR13 := (Entails.of_eq (tok_row_landed c 13 _ (by decide) fa T0 fh hT0 _ (ids_word c T0 13 (by decide) _ _) _ (by rfl) _ _ _)) $$ HA13
  ihave HR14 := (Entails.of_eq (tok_row_landed c 14 _ (by decide) fa T0 fh hT0 _ (ids_word c T0 14 (by decide) _ _) _ (by rfl) _ _ _)) $$ HA14
  ihave HR15 := (Entails.of_eq (tok_row_landed c 15 _ (by decide) fa T0 fh hT0 _ (ids_word c T0 15 (by decide) _ _) _ (by rfl) _ _ _)) $$ HA15
  ihave HR16 := (Entails.of_eq (tok_row_landed c 16 _ (by decide) fa T0 fh hT0 _ (ids_word c T0 16 (by decide) _ _) _ (by rfl) _ _ _)) $$ HA16
  ihave HR17 := (Entails.of_eq (tok_row_landed c 17 _ (by decide) fa T0 fh hT0 _ (ids_word c T0 17 (by decide) _ _) _ (by rfl) _ _ _)) $$ HA17
  ihave HR18 := (Entails.of_eq (tok_row_landed c 18 _ (by decide) fa T0 fh hT0 _ (ids_word c T0 18 (by decide) _ _) _ (by rfl) _ _ _)) $$ HA18
  ihave HR19 := (Entails.of_eq (tok_row_landed c 19 _ (by decide) fa T0 fh hT0 _ (ids_word c T0 19 (by decide) _ _) _ (by rfl) _ _ _)) $$ HA19
  ihave HR20 := (Entails.of_eq (tok_row_landed c 20 _ (by decide) fa T0 fh hT0 _ (ids_word c T0 20 (by decide) _ _) _ (by rfl) _ _ _)) $$ HA20
  ihave HR21 := (Entails.of_eq (tok_row_landed c 21 _ (by decide) fa T0 fh hT0 _ (ids_word c T0 21 (by decide) _ _) _ (by rfl) _ _ _)) $$ HA21
  ihave HR22 := (Entails.of_eq (tok_row_landed c 22 _ (by decide) fa T0 fh hT0 _ (ids_word c T0 22 (by decide) _ _) _ (by rfl) _ _ _)) $$ HA22
  ihave HR23 := (Entails.of_eq (tok_row_landed c 23 _ (by decide) fa T0 fh hT0 _ (ids_word c T0 23 (by decide) _ _) _ (by rfl) _ _ _)) $$ HA23
  ihave HR24 := (Entails.of_eq (tok_row_landed c 24 _ (by decide) fa T0 fh hT0 _ (ids_word c T0 24 (by decide) _ _) _ (by rfl) _ _ _)) $$ HA24
  ihave HR25 := (Entails.of_eq (tok_row_landed c 25 _ (by decide) fa T0 fh hT0 _ (ids_word c T0 25 (by decide) _ _) _ (by rfl) _ _ _)) $$ HA25
  ihave HR26 := (Entails.of_eq (tok_row_landed c 26 _ (by decide) fa T0 fh hT0 _ (ids_word c T0 26 (by decide) _ _) _ (by rfl) _ _ _)) $$ HA26
  ihave HR27 := (Entails.of_eq (tok_row_landed c 27 _ (by decide) fa T0 fh hT0 _ (ids_word c T0 27 (by decide) _ _) _ (by rfl) _ _ _)) $$ HA27
  ihave HR28 := (Entails.of_eq (tok_row_landed c 28 _ (by decide) fa T0 fh hT0 _ (ids_word c T0 28 (by decide) _ _) _ (by rfl) _ _ _)) $$ HA28
  ihave HR29 := (Entails.of_eq (tok_row_landed c 29 _ (by decide) fa T0 fh hT0 _ (ids_word c T0 29 (by decide) _ _) _ (by rfl) _ _ _)) $$ HA29
  ihave HR30 := (Entails.of_eq (tok_row_landed c 30 _ (by decide) fa T0 fh hT0 _ (ids_word c T0 30 (by decide) _ _) _ (by rfl) _ _ _)) $$ HA30
  ihave HR31 := (Entails.of_eq (tok_row_landed c 31 _ (by decide) fa T0 fh hT0 _ (ids_word c T0 31 (by decide) _ _) _ (by rfl) _ _ _)) $$ HA31
  ihave HR32 := (Entails.of_eq (tok_row_landed c 32 _ (by decide) fa T0 fh hT0 _ (ids_word c T0 32 (by decide) _ _) _ (by rfl) _ _ _)) $$ HA32
  ihave HR33 := (Entails.of_eq (tok_row_landed c 33 _ (by decide) fa T0 fh hT0 _ (ids_word c T0 33 (by decide) _ _) _ (by rfl) _ _ _)) $$ HA33
  ihave HR34 := (Entails.of_eq (tok_row_landed c 34 _ (by decide) fa T0 fh hT0 _ (ids_word c T0 34 (by decide) _ _) _ (by rfl) _ _ _)) $$ HA34
  ihave HR35 := (Entails.of_eq (tok_row_landed c 35 _ (by decide) fa T0 fh hT0 _ (ids_word c T0 35 (by decide) _ _) _ (by rfl) _ _ _)) $$ HA35
  ihave HR36 := (Entails.of_eq (tok_row_landed c 36 _ (by decide) fa T0 fh hT0 _ (ids_word c T0 36 (by decide) _ _) _ (by rfl) _ _ _)) $$ HA36
  ihave HR37 := (Entails.of_eq (tok_row_landed c 37 _ (by decide) fa T0 fh hT0 _ (ids_word c T0 37 (by decide) _ _) _ (by rfl) _ _ _)) $$ HA37
  ihave HR38 := (Entails.of_eq (tok_row_landed c 38 _ (by decide) fa T0 fh hT0 _ (ids_word c T0 38 (by decide) _ _) _ (by rfl) _ _ _)) $$ HA38
  ihave HR39 := (Entails.of_eq (tok_row_landed c 39 _ (by decide) fa T0 fh hT0 _ (ids_word c T0 39 (by decide) _ _) _ (by rfl) _ _ _)) $$ HA39
  ihave HR40 := (Entails.of_eq (tok_row_landed c 40 _ (by decide) fa T0 fh hT0 _ (ids_word c T0 40 (by decide) _ _) _ (by rfl) _ _ _)) $$ HA40
  ihave HR41 := (Entails.of_eq (tok_row_landed c 41 _ (by decide) fa T0 fh hT0 _ (ids_word c T0 41 (by decide) _ _) _ (by rfl) _ _ _)) $$ HA41
  ihave HR42 := (Entails.of_eq (tok_row_landed c 42 _ (by decide) fa T0 fh hT0 _ (ids_word c T0 42 (by decide) _ _) _ (by rfl) _ _ _)) $$ HA42
  ihave HR43 := (Entails.of_eq (tok_row_landed c 43 _ (by decide) fa T0 fh hT0 _ (ids_word c T0 43 (by decide) _ _) _ (by rfl) _ _ _)) $$ HA43
  ihave HR44 := (Entails.of_eq (tok_row_landed c 44 _ (by decide) fa T0 fh hT0 _ (ids_word c T0 44 (by decide) _ _) _ (by rfl) _ _ _)) $$ HA44
  ihave HR45 := (Entails.of_eq (tok_row_landed c 45 _ (by decide) fa T0 fh hT0 _ (ids_word c T0 45 (by decide) _ _) _ (by rfl) _ _ _)) $$ HA45
  ihave HR46 := (Entails.of_eq (tok_row_landed c 46 _ (by decide) fa T0 fh hT0 _ (ids_word c T0 46 (by decide) _ _) _ (by rfl) _ _ _)) $$ HA46
  ihave HR47 := (Entails.of_eq (tok_row_landed c 47 _ (by decide) fa T0 fh hT0 _ (ids_word c T0 47 (by decide) _ _) _ (by rfl) _ _ _)) $$ HA47
  ihave HR48 := (Entails.of_eq (tok_row_landed c 48 _ (by decide) fa T0 fh hT0 _ (ids_word c T0 48 (by decide) _ _) _ (by rfl) _ _ _)) $$ HA48
  ihave HR49 := (Entails.of_eq (tok_row_landed c 49 _ (by decide) fa T0 fh hT0 _ (ids_word c T0 49 (by decide) _ _) _ (by rfl) _ _ _)) $$ HA49
  ihave HR50 := (Entails.of_eq (tok_row_landed c 50 _ (by decide) fa T0 fh hT0 _ (ids_word c T0 50 (by decide) _ _) _ (by rfl) _ _ _)) $$ HA50
  ihave HR51 := (Entails.of_eq (tok_row_landed c 51 _ (by decide) fa T0 fh hT0 _ (ids_word c T0 51 (by decide) _ _) _ (by rfl) _ _ _)) $$ HA51
  ihave HR52 := (Entails.of_eq (tok_row_landed c 52 _ (by decide) fa T0 fh hT0 _ (ids_word c T0 52 (by decide) _ _) _ (by rfl) _ _ _)) $$ HA52
  ihave HR53 := (Entails.of_eq (tok_row_landed c 53 _ (by decide) fa T0 fh hT0 _ (ids_word c T0 53 (by decide) _ _) _ (by rfl) _ _ _)) $$ HA53
  ihave HR54 := (Entails.of_eq (tok_row_landed c 54 _ (by decide) fa T0 fh hT0 _ (ids_word c T0 54 (by decide) _ _) _ (by rfl) _ _ _)) $$ HA54
  ihave HR55 := (Entails.of_eq (tok_row_landed c 55 _ (by decide) fa T0 fh hT0 _ (ids_word c T0 55 (by decide) _ _) _ (by rfl) _ _ _)) $$ HA55
  ihave HR56 := (Entails.of_eq (tok_row_landed c 56 _ (by decide) fa T0 fh hT0 _ (ids_word c T0 56 (by decide) _ _) _ (by rfl) _ _ _)) $$ HA56
  ihave HR57 := (Entails.of_eq (tok_row_landed c 57 _ (by decide) fa T0 fh hT0 _ (ids_word c T0 57 (by decide) _ _) _ (by rfl) _ _ _)) $$ HA57
  ihave HR58 := (Entails.of_eq (tok_row_landed c 58 _ (by decide) fa T0 fh hT0 _ (ids_word c T0 58 (by decide) _ _) _ (by rfl) _ _ _)) $$ HA58
  ihave HR59 := (Entails.of_eq (tok_row_landed c 59 _ (by decide) fa T0 fh hT0 _ (ids_word c T0 59 (by decide) _ _) _ (by rfl) _ _ _)) $$ HA59
  ihave HR60 := (Entails.of_eq (tok_row_landed c 60 _ (by decide) fa T0 fh hT0 _ (ids_word c T0 60 (by decide) _ _) _ (by rfl) _ _ _)) $$ HA60
  ihave HR61 := (Entails.of_eq (tok_row_landed c 61 _ (by decide) fa T0 fh hT0 _ (ids_word c T0 61 (by decide) _ _) _ (by rfl) _ _ _)) $$ HA61
  ihave HR62 := (Entails.of_eq (tok_row_landed c 62 _ (by decide) fa T0 fh hT0 _ (ids_word c T0 62 (by decide) _ _) _ (by rfl) _ _ _)) $$ HA62
  ihave HR63 := (Entails.of_eq (tok_row_landed c 63 _ (by decide) fa T0 fh hT0 _ (ids_word c T0 63 (by decide) _ _) _ (by rfl) _ _ _)) $$ HA63
  ihave HR64 := (Entails.of_eq (tok_row_landed c 64 _ (by decide) fa T0 fh hT0 _ (ids_word c T0 64 (by decide) _ _) _ (by rfl) _ _ _)) $$ HA64
  ihave HR65 := (Entails.of_eq (tok_row_landed c 65 _ (by decide) fa T0 fh hT0 _ (ids_word c T0 65 (by decide) _ _) _ (by rfl) _ _ _)) $$ HA65
  ihave HR66 := (Entails.of_eq (tok_row_landed c 66 _ (by decide) fa T0 fh hT0 _ (ids_word c T0 66 (by decide) _ _) _ (by rfl) _ _ _)) $$ HA66
  ihave HR67 := (Entails.of_eq (tok_row_landed c 67 _ (by decide) fa T0 fh hT0 _ (ids_word c T0 67 (by decide) _ _) _ (by rfl) _ _ _)) $$ HA67
  ihave HR68 := (Entails.of_eq (tok_row_landed c 68 _ (by decide) fa T0 fh hT0 _ (ids_word c T0 68 (by decide) _ _) _ (by rfl) _ _ _)) $$ HA68
  ihave HR69 := (Entails.of_eq (tok_row_landed c 69 _ (by decide) fa T0 fh hT0 _ (ids_word c T0 69 (by decide) _ _) _ (by rfl) _ _ _)) $$ HA69
  ihave HR70 := (Entails.of_eq (tok_row_landed c 70 _ (by decide) fa T0 fh hT0 _ (ids_word c T0 70 (by decide) _ _) _ (by rfl) _ _ _)) $$ HA70
  ihave HR71 := (Entails.of_eq (tok_row_landed c 71 _ (by decide) fa T0 fh hT0 _ (ids_word c T0 71 (by decide) _ _) _ (by rfl) _ _ _)) $$ HA71
  ihave HR72 := (Entails.of_eq (tok_row_landed c 72 _ (by decide) fa T0 fh hT0 _ (ids_word c T0 72 (by decide) _ _) _ (by rfl) _ _ _)) $$ HA72
  ihave HR73 := (Entails.of_eq (tok_row_landed c 73 _ (by decide) fa T0 fh hT0 _ (ids_word c T0 73 (by decide) _ _) _ (by rfl) _ _ _)) $$ HA73
  ihave HR74 := (Entails.of_eq (tok_row_landed c 74 _ (by decide) fa T0 fh hT0 _ (ids_word c T0 74 (by decide) _ _) _ (by rfl) _ _ _)) $$ HA74
  ihave HR75 := (Entails.of_eq (tok_row_landed c 75 _ (by decide) fa T0 fh hT0 _ (ids_word c T0 75 (by decide) _ _) _ (by rfl) _ _ _)) $$ HA75
  ihave HR76 := (Entails.of_eq (tok_row_landed c 76 _ (by decide) fa T0 fh hT0 _ (ids_word c T0 76 (by decide) _ _) _ (by rfl) _ _ _)) $$ HA76
  -- the rows put back together as the whole array at the looked-up rows
  ihave HA := (Entails.of_eq (rows_eq c (gA c T0 fh hT0)).symm) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    isplitl [HR22]; · iexact HR22
    isplitl [HR23]; · iexact HR23
    isplitl [HR24]; · iexact HR24
    isplitl [HR25]; · iexact HR25
    isplitl [HR26]; · iexact HR26
    isplitl [HR27]; · iexact HR27
    isplitl [HR28]; · iexact HR28
    isplitl [HR29]; · iexact HR29
    isplitl [HR30]; · iexact HR30
    isplitl [HR31]; · iexact HR31
    isplitl [HR32]; · iexact HR32
    isplitl [HR33]; · iexact HR33
    isplitl [HR34]; · iexact HR34
    isplitl [HR35]; · iexact HR35
    isplitl [HR36]; · iexact HR36
    isplitl [HR37]; · iexact HR37
    isplitl [HR38]; · iexact HR38
    isplitl [HR39]; · iexact HR39
    isplitl [HR40]; · iexact HR40
    isplitl [HR41]; · iexact HR41
    isplitl [HR42]; · iexact HR42
    isplitl [HR43]; · iexact HR43
    isplitl [HR44]; · iexact HR44
    isplitl [HR45]; · iexact HR45
    isplitl [HR46]; · iexact HR46
    isplitl [HR47]; · iexact HR47
    isplitl [HR48]; · iexact HR48
    isplitl [HR49]; · iexact HR49
    isplitl [HR50]; · iexact HR50
    isplitl [HR51]; · iexact HR51
    isplitl [HR52]; · iexact HR52
    isplitl [HR53]; · iexact HR53
    isplitl [HR54]; · iexact HR54
    isplitl [HR55]; · iexact HR55
    isplitl [HR56]; · iexact HR56
    isplitl [HR57]; · iexact HR57
    isplitl [HR58]; · iexact HR58
    isplitl [HR59]; · iexact HR59
    isplitl [HR60]; · iexact HR60
    isplitl [HR61]; · iexact HR61
    isplitl [HR62]; · iexact HR62
    isplitl [HR63]; · iexact HR63
    isplitl [HR64]; · iexact HR64
    isplitl [HR65]; · iexact HR65
    isplitl [HR66]; · iexact HR66
    isplitl [HR67]; · iexact HR67
    isplitl [HR68]; · iexact HR68
    isplitl [HR69]; · iexact HR69
    isplitl [HR70]; · iexact HR70
    isplitl [HR71]; · iexact HR71
    isplitl [HR72]; · iexact HR72
    isplitl [HR73]; · iexact HR73
    isplitl [HR74]; · iexact HR74
    isplitl [HR75]; · iexact HR75
    iexact HR76
  sl_exec_parts! (disch := first | exact ⟨row_inside (hT0 _), row_inside (hT0 _)⟩ | exact row_inside (hT1 _))
  sl_unfold_run_names
  sl_step
  iapply Hk
  isplitl [HT0]; · iexact HT0
  isplitl [HT1]; · iexact HT1
  isplitl [H4]; · iexact H4
  isplitl [H5]
  · -- the output's block: the whole-block store of the two scratch arrays added, each read back at its looked-up rows
    ihave H5' := (Entails.of_eq (congrArg (fun f => (arg5.view.loc (c : Thread nD τ) ↦[arg5.view.set]{fullShare} f : sProp 𝕄))
      (out_block_eq c arg4 arg5 harg5 T0 T1 x4 fh hT0 hT1 _))) $$ H5
    iexact H5'
  isplitl [HA]; · iexists _; iexact HA
  isplitl [HB']; · iexists _; iexact HB'
  isplitl [Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78]
  · isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    isplitl [Hq72]; · iexact Hq72
    isplitl [Hq73]; · iexact Hq73
    isplitl [Hq74]; · iexact Hq74
    isplitl [Hq75]; · iexact Hq75
    isplitl [Hq76]; · iexact Hq76
    isplitl [Hq77]; · iexact Hq77
    iexact Hq78
  isplitl [Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44 Ht45 Ht46 Ht47 Ht48 Ht49 Ht50 Ht51 Ht52 Ht53 Ht54 Ht55 Ht56 Ht57 Ht58 Ht59 Ht60 Ht61 Ht62 Ht63 Ht64 Ht65 Ht66 Ht67 Ht68 Ht69 Ht70 Ht71 Ht72 Ht73 Ht74 Ht75 Ht76 Ht77 Ht78]
  · isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    isplitl [Ht44]; · iexact Ht44
    isplitl [Ht45]; · iexact Ht45
    isplitl [Ht46]; · iexact Ht46
    isplitl [Ht47]; · iexact Ht47
    isplitl [Ht48]; · iexact Ht48
    isplitl [Ht49]; · iexact Ht49
    isplitl [Ht50]; · iexact Ht50
    isplitl [Ht51]; · iexact Ht51
    isplitl [Ht52]; · iexact Ht52
    isplitl [Ht53]; · iexact Ht53
    isplitl [Ht54]; · iexact Ht54
    isplitl [Ht55]; · iexact Ht55
    isplitl [Ht56]; · iexact Ht56
    isplitl [Ht57]; · iexact Ht57
    isplitl [Ht58]; · iexact Ht58
    isplitl [Ht59]; · iexact Ht59
    isplitl [Ht60]; · iexact Ht60
    isplitl [Ht61]; · iexact Ht61
    isplitl [Ht62]; · iexact Ht62
    isplitl [Ht63]; · iexact Ht63
    isplitl [Ht64]; · iexact Ht64
    isplitl [Ht65]; · iexact Ht65
    isplitl [Ht66]; · iexact Ht66
    isplitl [Ht67]; · iexact Ht67
    isplitl [Ht68]; · iexact Ht68
    isplitl [Ht69]; · iexact Ht69
    isplitl [Ht70]; · iexact Ht70
    isplitl [Ht71]; · iexact Ht71
    isplitl [Ht72]; · iexact Ht72
    isplitl [Ht73]; · iexact Ht73
    isplitl [Ht74]; · iexact Ht74
    isplitl [Ht75]; · iexact Ht75
    isplitl [Ht76]; · iexact Ht76
    isplitl [Ht77]; · iexact Ht77
    iexact Ht78
  iexists _; iexact HW

end Cert.Kernel.Hand

end
-- ==== Proof.BKChains.lean ====
/-
  The kernel's 77 own DMA semaphore cells, the token table's read shares, the prefetched tables and the scoped
  scratch arrays, each big conjunction written out as the chain of its conjuncts.
-/
import proofs.«408740_j35519379538186_3_alg».proof.Proof.BKDefs
import Idealize.ShloMosaic.Lib.Pipeline.Frame
import Idealize.ShloMosaic.Lib.Pipeline.Kit
import Idealize.ShloMosaic.Lib.Transfers
import Mathlib.Data.Fintype.Basic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel's own DMA semaphores: cells 2 to 78 of the core's 79 (cells 0 and 1 are the two windows' staging
    semaphores). -/
abbrev osem : Fin 77 → SemLoc sig := fun j => SemLoc.dma ⟨j.val + 2, by show j.val + 2 < 79; omega⟩

/-- They are scoped, pairwise distinct, and none is a window's staging semaphore. -/
theorem ownSemFacts : Pipeline.OwnSemFacts spec0 osem := by decide

/-- The one unscoped buffer the body copies from by itself: the token table. -/
def H0 : Finset (Ref sig .tc) := {main_arg2}

/-- It is unscoped, no window's array and no prefetched table. -/
theorem H0_sub : H0 ⊆ Pipeline.restRefsP sig pre0 spec0 := by decide

/-- The 77 cells at zero, one by one. -/
theorem sems_eq (c : Dev nD) :
    (Pipeline.ownSems0 (Ix := Unit) (Name := ℕ) (U := Pipeline.UD sig nD τ) (Lvl := ℕ) (Val := Elt F) (τ := τ) osem c : sProp 𝕄)
      = iprop(cellAt c 2 ∗ cellAt c 3 ∗ cellAt c 4 ∗ cellAt c 5 ∗ cellAt c 6 ∗ cellAt c 7 ∗ cellAt c 8 ∗ cellAt c 9 ∗
        cellAt c 10 ∗ cellAt c 11 ∗ cellAt c 12 ∗ cellAt c 13 ∗ cellAt c 14 ∗ cellAt c 15 ∗ cellAt c 16 ∗ cellAt c 17 ∗
        cellAt c 18 ∗ cellAt c 19 ∗ cellAt c 20 ∗ cellAt c 21 ∗ cellAt c 22 ∗ cellAt c 23 ∗ cellAt c 24 ∗ cellAt c 25 ∗
        cellAt c 26 ∗ cellAt c 27 ∗ cellAt c 28 ∗ cellAt c 29 ∗ cellAt c 30 ∗ cellAt c 31 ∗ cellAt c 32 ∗ cellAt c 33 ∗
        cellAt c 34 ∗ cellAt c 35 ∗ cellAt c 36 ∗ cellAt c 37 ∗ cellAt c 38 ∗ cellAt c 39 ∗ cellAt c 40 ∗ cellAt c 41 ∗
        cellAt c 42 ∗ cellAt c 43 ∗ cellAt c 44 ∗ cellAt c 45 ∗ cellAt c 46 ∗ cellAt c 47 ∗ cellAt c 48 ∗ cellAt c 49 ∗
        cellAt c 50 ∗ cellAt c 51 ∗ cellAt c 52 ∗ cellAt c 53 ∗ cellAt c 54 ∗ cellAt c 55 ∗ cellAt c 56 ∗ cellAt c 57 ∗
        cellAt c 58 ∗ cellAt c 59 ∗ cellAt c 60 ∗ cellAt c 61 ∗ cellAt c 62 ∗ cellAt c 63 ∗ cellAt c 64 ∗ cellAt c 65 ∗
        cellAt c 66 ∗ cellAt c 67 ∗ cellAt c 68 ∗ cellAt c 69 ∗ cellAt c 70 ∗ cellAt c 71 ∗ cellAt c 72 ∗ cellAt c 73 ∗
        cellAt c 74 ∗ cellAt c 75 ∗ cellAt c 76 ∗ cellAt c 77 ∗ cellAt c 78) := by
  rw [Pipeline.ownSems0_eq_of_list c osem (List.finRange 77) (List.toFinset_finRange 77).symm (List.nodup_finRange 77)]
  rfl

/-- The token table at its launch contents. -/
theorem hbm_eq (c : Dev nD) (V : (b : Ref sig .tc) → Buf (Elt F) ((c : Thread nD τ).loc b)) :
    (bigSep H0 (fun b => ((c : Thread nD τ).loc b) ↦{fullShare} V b) : sProp 𝕄) = pt c tokM (V main_arg2) := by
  rw [BI.bigSep_eq_bigSepL_of_eq [main_arg2] (by decide) (by decide)]; rfl

/-- The token table's 79 read shares, one by one. -/
theorem toks_list (c : Dev nD) (fh : Bf (F := F) c tokM) :
    (BI.bigSep Finset.univ (fun i : Fin 79 => tokM.view.loc (c : Thread nD τ) ↦{Transfers.shareTok fullShare 79 i} fh) : sProp 𝕄)
      = iprop(tokAt c 0 fh ∗ tokAt c 1 fh ∗ tokAt c 2 fh ∗ tokAt c 3 fh ∗ tokAt c 4 fh ∗ tokAt c 5 fh ∗ tokAt c 6 fh ∗ tokAt c 7 fh ∗ tokAt c 8 fh ∗ tokAt c 9 fh ∗
        tokAt c 10 fh ∗ tokAt c 11 fh ∗ tokAt c 12 fh ∗ tokAt c 13 fh ∗ tokAt c 14 fh ∗ tokAt c 15 fh ∗ tokAt c 16 fh ∗ tokAt c 17 fh ∗
        tokAt c 18 fh ∗ tokAt c 19 fh ∗ tokAt c 20 fh ∗ tokAt c 21 fh ∗ tokAt c 22 fh ∗ tokAt c 23 fh ∗ tokAt c 24 fh ∗ tokAt c 25 fh ∗
        tokAt c 26 fh ∗ tokAt c 27 fh ∗ tokAt c 28 fh ∗ tokAt c 29 fh ∗ tokAt c 30 fh ∗ tokAt c 31 fh ∗ tokAt c 32 fh ∗ tokAt c 33 fh ∗
        tokAt c 34 fh ∗ tokAt c 35 fh ∗ tokAt c 36 fh ∗ tokAt c 37 fh ∗ tokAt c 38 fh ∗ tokAt c 39 fh ∗ tokAt c 40 fh ∗ tokAt c 41 fh ∗
        tokAt c 42 fh ∗ tokAt c 43 fh ∗ tokAt c 44 fh ∗ tokAt c 45 fh ∗ tokAt c 46 fh ∗ tokAt c 47 fh ∗ tokAt c 48 fh ∗ tokAt c 49 fh ∗
        tokAt c 50 fh ∗ tokAt c 51 fh ∗ tokAt c 52 fh ∗ tokAt c 53 fh ∗ tokAt c 54 fh ∗ tokAt c 55 fh ∗ tokAt c 56 fh ∗ tokAt c 57 fh ∗
        tokAt c 58 fh ∗ tokAt c 59 fh ∗ tokAt c 60 fh ∗ tokAt c 61 fh ∗ tokAt c 62 fh ∗ tokAt c 63 fh ∗ tokAt c 64 fh ∗ tokAt c 65 fh ∗
        tokAt c 66 fh ∗ tokAt c 67 fh ∗ tokAt c 68 fh ∗ tokAt c 69 fh ∗ tokAt c 70 fh ∗ tokAt c 71 fh ∗ tokAt c 72 fh ∗ tokAt c 73 fh ∗
        tokAt c 74 fh ∗ tokAt c 75 fh ∗ tokAt c 76 fh ∗ tokAt c 77 fh ∗ tokAt c 78 fh) := by
  rw [BI.bigSep_univ_eq_bigSepL (List.finRange 79) (List.toFinset_finRange 79).symm (List.nodup_finRange 79)]
  rfl

/-- The token table held whole is the remainder after 79 read shares and the 79 read shares. -/
theorem toks_split (c : Dev nD) (fh : Bf (F := F) c tokM) :
    (pt c tokM fh : sProp 𝕄) ⊢ iprop(ptq c tokM (Transfers.shareDrop fullShare 79) fh ∗ tokAt c 0 fh ∗ tokAt c 1 fh ∗ tokAt c 2 fh ∗ tokAt c 3 fh ∗ tokAt c 4 fh ∗ tokAt c 5 fh ∗ tokAt c 6 fh ∗ tokAt c 7 fh ∗ tokAt c 8 fh ∗ tokAt c 9 fh ∗
        tokAt c 10 fh ∗ tokAt c 11 fh ∗ tokAt c 12 fh ∗ tokAt c 13 fh ∗ tokAt c 14 fh ∗ tokAt c 15 fh ∗ tokAt c 16 fh ∗ tokAt c 17 fh ∗
        tokAt c 18 fh ∗ tokAt c 19 fh ∗ tokAt c 20 fh ∗ tokAt c 21 fh ∗ tokAt c 22 fh ∗ tokAt c 23 fh ∗ tokAt c 24 fh ∗ tokAt c 25 fh ∗
        tokAt c 26 fh ∗ tokAt c 27 fh ∗ tokAt c 28 fh ∗ tokAt c 29 fh ∗ tokAt c 30 fh ∗ tokAt c 31 fh ∗ tokAt c 32 fh ∗ tokAt c 33 fh ∗
        tokAt c 34 fh ∗ tokAt c 35 fh ∗ tokAt c 36 fh ∗ tokAt c 37 fh ∗ tokAt c 38 fh ∗ tokAt c 39 fh ∗ tokAt c 40 fh ∗ tokAt c 41 fh ∗
        tokAt c 42 fh ∗ tokAt c 43 fh ∗ tokAt c 44 fh ∗ tokAt c 45 fh ∗ tokAt c 46 fh ∗ tokAt c 47 fh ∗ tokAt c 48 fh ∗ tokAt c 49 fh ∗
        tokAt c 50 fh ∗ tokAt c 51 fh ∗ tokAt c 52 fh ∗ tokAt c 53 fh ∗ tokAt c 54 fh ∗ tokAt c 55 fh ∗ tokAt c 56 fh ∗ tokAt c 57 fh ∗
        tokAt c 58 fh ∗ tokAt c 59 fh ∗ tokAt c 60 fh ∗ tokAt c 61 fh ∗ tokAt c 62 fh ∗ tokAt c 63 fh ∗ tokAt c 64 fh ∗ tokAt c 65 fh ∗
        tokAt c 66 fh ∗ tokAt c 67 fh ∗ tokAt c 68 fh ∗ tokAt c 69 fh ∗ tokAt c 70 fh ∗ tokAt c 71 fh ∗ tokAt c 72 fh ∗ tokAt c 73 fh ∗
        tokAt c 74 fh ∗ tokAt c 75 fh ∗ tokAt c 76 fh ∗ tokAt c 77 fh ∗ tokAt c 78 fh) := by
  have h := Transfers.pointsTo_toks_split (Ix := Unit) (Name := ℕ) (U := Pipeline.UD sig nD τ) (Lvl := ℕ) (Val := Elt F)
    (ℓ := tokM.view.loc (c : Thread nD τ)) (S := Finset.univ) (f := fh) fullShare 79
  rw [toks_list] at h
  exact h

/-- The remainder and the 79 read shares are the token table held whole. -/
theorem toks_join (c : Dev nD) (fh : Bf (F := F) c tokM) :
    iprop(ptq c tokM (Transfers.shareDrop fullShare 79) fh ∗ tokAt c 0 fh ∗ tokAt c 1 fh ∗ tokAt c 2 fh ∗ tokAt c 3 fh ∗ tokAt c 4 fh ∗ tokAt c 5 fh ∗ tokAt c 6 fh ∗ tokAt c 7 fh ∗ tokAt c 8 fh ∗ tokAt c 9 fh ∗
        tokAt c 10 fh ∗ tokAt c 11 fh ∗ tokAt c 12 fh ∗ tokAt c 13 fh ∗ tokAt c 14 fh ∗ tokAt c 15 fh ∗ tokAt c 16 fh ∗ tokAt c 17 fh ∗
        tokAt c 18 fh ∗ tokAt c 19 fh ∗ tokAt c 20 fh ∗ tokAt c 21 fh ∗ tokAt c 22 fh ∗ tokAt c 23 fh ∗ tokAt c 24 fh ∗ tokAt c 25 fh ∗
        tokAt c 26 fh ∗ tokAt c 27 fh ∗ tokAt c 28 fh ∗ tokAt c 29 fh ∗ tokAt c 30 fh ∗ tokAt c 31 fh ∗ tokAt c 32 fh ∗ tokAt c 33 fh ∗
        tokAt c 34 fh ∗ tokAt c 35 fh ∗ tokAt c 36 fh ∗ tokAt c 37 fh ∗ tokAt c 38 fh ∗ tokAt c 39 fh ∗ tokAt c 40 fh ∗ tokAt c 41 fh ∗
        tokAt c 42 fh ∗ tokAt c 43 fh ∗ tokAt c 44 fh ∗ tokAt c 45 fh ∗ tokAt c 46 fh ∗ tokAt c 47 fh ∗ tokAt c 48 fh ∗ tokAt c 49 fh ∗
        tokAt c 50 fh ∗ tokAt c 51 fh ∗ tokAt c 52 fh ∗ tokAt c 53 fh ∗ tokAt c 54 fh ∗ tokAt c 55 fh ∗ tokAt c 56 fh ∗ tokAt c 57 fh ∗
        tokAt c 58 fh ∗ tokAt c 59 fh ∗ tokAt c 60 fh ∗ tokAt c 61 fh ∗ tokAt c 62 fh ∗ tokAt c 63 fh ∗ tokAt c 64 fh ∗ tokAt c 65 fh ∗
        tokAt c 66 fh ∗ tokAt c 67 fh ∗ tokAt c 68 fh ∗ tokAt c 69 fh ∗ tokAt c 70 fh ∗ tokAt c 71 fh ∗ tokAt c 72 fh ∗ tokAt c 73 fh ∗
        tokAt c 74 fh ∗ tokAt c 75 fh ∗ tokAt c 76 fh ∗ tokAt c 77 fh ∗ tokAt c 78 fh) ⊢ (pt c tokM fh : sProp 𝕄) := by
  have h := Transfers.pointsTo_toks_join (Ix := Unit) (Name := ℕ) (U := Pipeline.UD sig nD τ) (Lvl := ℕ) (Val := Elt F)
    (ℓ := tokM.view.loc (c : Thread nD τ)) (S := Finset.univ) (f := fh) fullShare 79
  rw [toks_list] at h
  exact h

/-- The two prefetched tables, each at its share: the clamped token ids and the clamped position ids. -/
theorem tabs_eq (c : Dev nD) (q : PosShare TreeShare) (v : pre0.Contents (Elt F)) :
    (Pipeline.prefHeld (Ix := Unit) (Name := ℕ) (U := Pipeline.UD sig nD τ) (Lvl := ℕ) pre0 c (fun _ => q) v : sProp 𝕄)
      = iprop(ptq c idsM q (v 0) ∗ ptq c posM q (v 1)) := by
  unfold Pipeline.prefHeld
  rw [BI.bigSep_fin_two]
  rfl

/-- The core's scoped buffers that are no staging buffer: the two scratch arrays, each whole at some contents. -/
theorem scoped_eq (c : Dev nD) :
    (Pipeline.scopedRest (Ix := Unit) (Name := ℕ) (U := Pipeline.UD sig nD τ) (Lvl := ℕ) (Val := Elt F) spec0 c : sProp 𝕄)
      = iprop((∃ f, pt c scA f) ∗ (∃ f, pt c scB f)) := by
  rw [Gen.scopedRest0_eq]

end Cert.Kernel.Hand

end
-- ==== Proof.BHostPrefix.lean ====
/-
  The host lines of the kernel's program before its one region, read as values.

  Before the region the host computes two tables of 77 words: the token ids clamped to [0, 49407] and the position
  ids clamped to [0, 76], each as max(0, ·) followed by min(hi, ·) on signed 32-bit words. It writes no argument and
  not the buffer the region's result goes to. A word already in [0, hi] is its own clamp, and a clamped word, read
  unsigned, is at most hi.
-/
import proofs.«408740_j35519379538186_3_alg».proof.Proof.Gen.Kernel.Launch
import proofs.«408740_j35519379538186_3_alg».proof.Proof.Spec
import Idealize.ShloMosaic.Lib.StableHlo.Run

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The lines and the contents they leave -/

/-- The host operations before the region, stretch by stretch: two constants, the clamp of the token ids, two
    constants, the clamp of the position ids. -/
abbrev prefixOps : List (List (HloOp τ sig (Elt F))) := [Gen.hostOps0, Gen.hostOps0_1, Gen.hostOps0_2, Gen.hostOps0_3]

/-- Each of them touches TensorCore references only. -/
theorem prefixOps_sub :
    (prefixOps (F := F)).Forall fun ops => ops.Forall fun op => op.bufs ⊆ StableHlo.tcRefs τ sig :=
  ⟨Gen.hostOps0_sub, Gen.hostOps0_1_sub, Gen.hostOps0_2_sub, Gen.hostOps0_3_sub⟩

/-- None of them allocates a buffer. -/
theorem prefixOps_fresh : (prefixOps (F := F)).Forall fun ops => ops.Forall fun op => op.fresh = ∅ :=
  ⟨⟨rfl, rfl⟩, ⟨rfl, rfl, rfl, rfl, rfl, rfl⟩, ⟨rfl, rfl⟩, ⟨rfl, rfl, rfl, rfl, rfl, rfl⟩⟩

/-- A vector of words clamped to [0, hi] the way the host's clip computes it: max with 0, then min with hi,
    both signed. -/
def clipTo (hi : BitVec 32) (x : IVec S77 32) : IVec S77 32 :=
  minsi (broadcastInDim S77 ![] Gen.bcast_S_S77 (constantI S_ 32 hi))
    (maxsi (broadcastInDim S77 ![] Gen.bcast_S_S77 (constantI S_ 32 0#32)) x)

/-- The device's buffers when the region is entered: the launch contents after the lines. -/
def V₀ (m : (ℓ : Loc nD τ sig) → Buf (Elt F) ℓ) (c : Dev nD) : Valuation τ sig (Elt F) :=
  StableHlo.after (prefixOps (F := F)).flatten (fun b => m (c, b))

/-- The same, reference by reference, spelt as the fold over the flattened lines. -/
theorem V₀_eq (m : (ℓ : Loc nD τ sig) → Buf (Elt F) ℓ) :
    (fun (c : Dev nD) (b : Ref sig .tc) => V₀ m c b)
      = fun (c : Dev nD) (b : Ref sig .tc) => StableHlo.after (prefixOps (F := F)).flatten (fun b => m (c, b)) b := rfl

/-- The first table is the token ids clamped to [0, 49407]. -/
theorem V₀_ids (m : (ℓ : Loc nD τ sig) → Buf (Elt F) ℓ) (c : Dev nD) :
    V₀ m c (Proc.devRef .tc main_v0) = clipTo 49407#32 (m ((c.tc : Thread nD τ).loc main_arg0)) := by
  unfold V₀
  simp only [Gen.hostOps0, Gen.hostOps0_1, Gen.hostOps0_2, Gen.hostOps0_3, List.flatten_cons, List.flatten_nil,
    List.append_nil, List.cons_append, List.nil_append]
  after_results
  rfl

/-- The second table is the position ids clamped to [0, 76]. -/
theorem V₀_pos (m : (ℓ : Loc nD τ sig) → Buf (Elt F) ℓ) (c : Dev nD) :
    V₀ m c (Proc.devRef .tc main_v1) = clipTo 76#32 (m ((c.tc : Thread nD τ).loc main_arg1)) := by
  unfold V₀
  simp only [Gen.hostOps0, Gen.hostOps0_1, Gen.hostOps0_2, Gen.hostOps0_3, List.flatten_cons, List.flatten_nil,
    List.append_nil, List.cons_append, List.nil_append]
  after_results
  rfl

/-! No line writes an argument, nor the buffer the region's result goes to. -/

theorem V₀_arg0 (m : (ℓ : Loc nD τ sig) → Buf (Elt F) ℓ) (c : Dev nD) :
    V₀ m c (Proc.devRef .tc main_arg0) = m ((c.tc : Thread nD τ).loc main_arg0) := by
  unfold V₀
  simp only [Gen.hostOps0, Gen.hostOps0_1, Gen.hostOps0_2, Gen.hostOps0_3, List.flatten_cons, List.flatten_nil,
    List.append_nil, List.cons_append, List.nil_append]
  after_results

theorem V₀_arg1 (m : (ℓ : Loc nD τ sig) → Buf (Elt F) ℓ) (c : Dev nD) :
    V₀ m c (Proc.devRef .tc main_arg1) = m ((c.tc : Thread nD τ).loc main_arg1) := by
  unfold V₀
  simp only [Gen.hostOps0, Gen.hostOps0_1, Gen.hostOps0_2, Gen.hostOps0_3, List.flatten_cons, List.flatten_nil,
    List.append_nil, List.cons_append, List.nil_append]
  after_results

theorem V₀_arg2 (m : (ℓ : Loc nD τ sig) → Buf (Elt F) ℓ) (c : Dev nD) :
    V₀ m c (Proc.devRef .tc main_arg2) = m ((c.tc : Thread nD τ).loc main_arg2) := by
  unfold V₀
  simp only [Gen.hostOps0, Gen.hostOps0_1, Gen.hostOps0_2, Gen.hostOps0_3, List.flatten_cons, List.flatten_nil,
    List.append_nil, List.cons_append, List.nil_append]
  after_results

theorem V₀_arg3 (m : (ℓ : Loc nD τ sig) → Buf (Elt F) ℓ) (c : Dev nD) :
    V₀ m c (Proc.devRef .tc main_arg3) = m ((c.tc : Thread nD τ).loc main_arg3) := by
  unfold V₀
  simp only [Gen.hostOps0, Gen.hostOps0_1, Gen.hostOps0_2, Gen.hostOps0_3, List.flatten_cons, List.flatten_nil,
    List.append_nil, List.cons_append, List.nil_append]
  after_results

theorem V₀_v2 (m : (ℓ : Loc nD τ sig) → Buf (Elt F) ℓ) (c : Dev nD) :
    V₀ m c (Proc.devRef .tc main_v2) = m ((c.tc : Thread nD τ).loc main_v2) := by
  unfold V₀
  simp only [Gen.hostOps0, Gen.hostOps0_1, Gen.hostOps0_2, Gen.hostOps0_3, List.flatten_cons, List.flatten_nil,
    List.append_nil, List.cons_append, List.nil_append]
  after_results

/-! ## The clamp at one word -/

/-- One clamped word: min(hi, max(0, w)), signed. -/
theorem clipTo_apply (hi : BitVec 32) (x : IVec S77 32) (i : S77.Idx) :
    clipTo hi x i = IntOp.minsi hi (IntOp.maxsi 0#32 (x i)) := rfl

/-- A word that is nonnegative as a signed number reads the same unsigned. -/
theorem toInt_eq_toNat_of_nonneg (w : BitVec 32) (hw : 0 ≤ w.toInt) : w.toInt = (w.toNat : Int) :=
  BitVec.toInt_eq_toNat_of_lt (BitVec.toInt_pos_iff.mp hw)

/-- max(0, w) is nonnegative as a signed number. -/
theorem maxsi_zero_nonneg (w : BitVec 32) : 0 ≤ (IntOp.maxsi 0#32 w).toInt := by
  have h0 : (0#32 : BitVec 32).toInt = 0 := by decide
  unfold IntOp.maxsi
  split <;> rename_i h
  · exact h0.ge
  · rw [BitVec.slt_iff_toInt_lt, h0] at h; omega

/-- A clamped word, read unsigned, is at most the upper end: it is nonnegative signed and at most hi signed. -/
theorem clipTo_toNat_le (hi : BitVec 32) (hhi : 0 ≤ hi.toInt) (x : IVec S77 32) (i : S77.Idx) :
    (clipTo hi x i).toNat ≤ hi.toNat := by
  rw [clipTo_apply]
  have hy := maxsi_zero_nonneg (x i)
  generalize IntOp.maxsi 0#32 (x i) = y at hy
  unfold IntOp.minsi
  split <;> rename_i h
  · exact Nat.le_refl _
  · rw [BitVec.slt_iff_toInt_lt, toInt_eq_toNat_of_nonneg hi hhi, toInt_eq_toNat_of_nonneg y hy] at h
    omega

/-- A vector of words each in [0, hi] is its own clamp. -/
theorem clipTo_of_inRange (hi : BitVec 32) (n : Nat) (hn : hi.toInt + 1 = n) (x : IVec S77 32)
    (h : ∀ i, Cert.EmbedSpec.InRange n (x i)) : clipTo hi x = x := by
  funext i
  rw [clipTo_apply]
  obtain ⟨h1, h2⟩ := h i
  have h0 : (0#32 : BitVec 32).toInt = 0 := by decide
  have hm : IntOp.maxsi 0#32 (x i) = x i := by
    unfold IntOp.maxsi
    rw [if_neg]
    rw [BitVec.slt_iff_toInt_lt, h0]; omega
  rw [hm]
  unfold IntOp.minsi
  rw [if_neg]
  rw [BitVec.slt_iff_toInt_lt]; omega

end Cert.Kernel.Hand

end
-- ==== Proof.BKFrame.lean ====
/-
  The kernel program's run: its frame and the value it leaves.

  @main is: sixteen host lines (the two clamps of the ids into the scalar tables), the one pallas_call on a grid of
  one point, one host line (the leading axis of extent 1). The pallas_call stages the position table whole as its
  input block and writes its output block back whole; its body copies token rows by itself, on 77 semaphore cells of
  its own, out of the token table, which no window stages. So the region's invariant is: the two scratch arrays at
  some contents, the generator register, the 77 cells at zero, the token table whole at its entry contents, and the
  two scalar tables at half a share at the clamped ids. The body's run (the looked-up rows added) gives what the
  output's block holds after the one point, hence the output array after the region, hence the result after the last
  host line.
-/
import proofs.«408740_j35519379538186_3_alg».proof.Proof.BKRun
import proofs.«408740_j35519379538186_3_alg».proof.Proof.BKChains
import proofs.«408740_j35519379538186_3_alg».proof.Proof.BHostPrefix
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry -/

/-- Core c's TensorCore buffers when the region is entered: after the host lines before it. -/
abbrev V (c : Dev nD) (b : Ref sig .tc) : Buf (Elt F) ((c : Thread nD τ).loc b) := V₀ m c (Proc.devRef .tc b)

/-- The scalar tables the region runs at: the clamped ids, as the host lines leave them. -/
def tabs : pre0.Contents (Elt F) := fun k => V m 0 (pre0.ref k)

/-- They are admissible: this pipeline's side condition on its tables asks nothing. -/
def adm : (p : Fin 1) → (pcfgs (F := F) p).Adm := fun _ => ⟨tabs m, trivial⟩

/-- The pipeline at those tables. -/
abbrev cfgA : Cfg sig Λ₀ := Pipeline.pin (pcfgs (F := F)) (adm m) 0

theorem tabs_of (c : Dev nD) (k : Fin pre0.K) : V m c (pre0.ref k) = tabs m k := by
  obtain rfl : c = 0 := Subsingleton.elim _ _; rfl

/-- Every word of the first table is a row of the token table, and of the second a row of the position table. -/
theorem tabs0_lt (j) : ((tabs m 0 : Bf (F := F) (0 : Dev nD) idsM) j).toNat < 49408 := by
  have h := clipTo_toNat_le 49407#32 (by decide) (m (((0 : Dev nD).tc : Thread nD τ).loc main_arg0)) j
  have e : tabs m 0 = clipTo 49407#32 (m (((0 : Dev nD).tc : Thread nD τ).loc main_arg0)) := V₀_ids m 0
  rw [e]; have : (49407#32 : BitVec 32).toNat = 49407 := by decide
  omega
theorem tabs1_lt (j) : ((tabs m 1 : Bf (F := F) (0 : Dev nD) posM) j).toNat < 77 := by
  have h := clipTo_toNat_le 76#32 (by decide) (m (((0 : Dev nD).tc : Thread nD τ).loc main_arg1)) j
  have e : tabs m 1 = clipTo 76#32 (m (((0 : Dev nD).tc : Thread nD τ).loc main_arg1)) := V₀_pos m 0
  rw [e]; have : (76#32 : BitVec 32).toNat = 76 := by decide
  omega

/-- @main up to the region and after it: the host lines, the region, the last host line. -/
theorem hmain (𝒱₀ : Variants) :
    Pipeline.HMainPK (Ix := Unit) (Name := ℕ) (U := Pipeline.UD sig nD τ) (Lvl := ℕ) (pcfgs (F := F)) 0 defs₀ 𝒱₀ m (main (F := F))
      (fun c b => V m c b) (fun _ => Pipeline.chain ([Gen.hostOps1].map StableHlo.seq)) :=
  Pipeline.hmainP_around (pcfgs (F := F)) 0 defs₀ 𝒱₀ m main prefixOps [Gen.hostOps1] prefixOps_sub prefixOps_fresh (fun c => Gen.main_chain c)

/-! ## The windows' blocks and the proof data -/

/-- Window w's block at the point t, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- Each window's current staging memref at the point t, as the pipeline passes it to the body, and its wholeness. -/
abbrev ms0 (t : Fin (cfgA m).N) : Memref sig .tc .vmem S77x768 .f32 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S77x768 .f32 := spec0_1.stage ((cfgA m).slots t 1)
abbrev hs1 (t : Fin (cfgA m).N) : (ms1 m t).IsWhole := hstage0_1 (((cfgA m).slots t 1).cast nbuf0_1)

/-- The tables' words are rows of their tables, on any core. -/
theorem ids_lt (c : Dev nD) (j) : ((tabs m 0 : Bf (F := F) c idsM) j).toNat < 49408 := tabs0_lt m j
theorem pos_lt (c : Dev nD) (j) : ((tabs m 1 : Bf (F := F) c posM) j).toNat < 77 := tabs1_lt m j

/-- What the output's staging buffer holds after the body at the point t: the looked-up rows added. -/
def outAt (c : Dev nD) (t : Fin (cfgA m).N) : Vec F S77x768 .f32 :=
  outBlock c (ms0 m t) (tabs m 0) (tabs m 1) ((hs0 m t).unread (iblk m c 0 t)) (V m c main_arg2) (ids_lt m c) (pos_lt m c)

/-- The proof data of the one pipeline on core c. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => outAt m c t
  Φ _ := iprop(Pipeline.ΦD osem spec0 H0 (V m) c ∗ Pipeline.ΦT pre0 (tabs m) c)
  q _ := fullShare
  owed _ := 0

theorem A_eq (c : Dev nD) (w : Fin (cfgA m).W) : (dats m 0 c).A w = V m c (Pipeline.arrRef spec0 w) := by
  dsimp only [dats]
theorem after0 (c : Dev nD) (t : Fin (cfgA m).N) : (dats m 0 c).after 0 t = iblk m c 0 t := rfl
theorem after1 (c : Dev nD) (t : Fin (cfgA m).N) : (dats m 0 c).after 1 t = outAt m c t := rfl

/-- The input's staging buffer holds its block at the point, fetched there or not. -/
theorem before0 (c : Dev nD) (t : Fin (cfgA m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-! ## The body obligation -/

/-- What the body is called with at the point t, -/
def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

/-- and what it returns. -/
def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t))

/-- The kernel function's call at the point t. -/
abbrev bodyAt (t : Fin (cfgA m).N) : Prog (TpuEff nD τ sig (Elt F) Λ₀ .tc) PUnit :=
  cc0__gather_add_kernel (grid0.coords t) idsM (Memref.isWhole_whole _) posM (Memref.isWhole_whole _) tokM (Memref.isWhole_whole _)
    (ms0 m t) (hs0 m t) (ms1 m t) (hs1 m t) scA (Memref.isWhole_whole _) scB (Memref.isWhole_whole _) cc0_scratch2

/-- The body at the point: the invariant hands it the scratch arrays, the cells at zero, the token table (split into
    its read shares) and the tables; the input's memref holds its block; the run applies, and everything goes back
    as it was, the output's memref at the looked-up rows added. -/
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0]
  rw [show (dats m 0 c).Φ t.succ = (dats m 0 c).Φ t.castSucc from rfl, after0, after1]
  rw [show (dats m 0 c).Φ t.castSucc = iprop(Pipeline.ΦD osem spec0 H0 (V m) c ∗ Pipeline.ΦT pre0 (tabs m) c) from rfl,
    Pipeline.ΦD_eq, scoped_eq, sems_eq, hbm_eq c (V m c)]
  unfold Pipeline.ΦT
  rw [tabs_eq c fullShare.right (tabs m)]
  unfold Dat.owesAt Pipeline.owesWithin
  rw [show (dats m 0 c).owed t.castSucc = 0 from rfl, show (dats m 0 c).owed t.succ = 0 from rfl]
  unfold owns
  iintro ⟨⟨⟨⟨⟨%fa, HA⟩, ⟨%fb, HB⟩⟩, Hg, Hq, Hh⟩, ⟨HT0, HT1⟩⟩, ⟨%W, -, HW⟩, ⟨%d0, %f0, %hf0, H0⟩, ⟨%d1, %f1, -, H1⟩⟩
  obtain rfl := (hs0 m t).eq_unread hf0
  ihave Hh' := (toks_split c (V m c main_arg2)) $$ Hh
  icases Hh' with ⟨Hr, Hk0, Hk1, Htoks⟩
  iapply (kernelRun c (grid0.coords t) (ms0 m t) (hs0 m t) (ms1 m t) (hs1 m t) fullShare.right (tabs m 0) (tabs m 1)
    ((hs0 m t).unread (iblk m c 0 t)) (V m c main_arg2) (ids_lt m c) (pos_lt m c) f1 fa fb W _)
  isplitl [HT0]; · iexact HT0
  isplitl [HT1]; · iexact HT1
  isplitl [H0]; · iexact H0
  isplitl [H1]; · iexact H1
  isplitl [HA]; · iexact HA
  isplitl [HB]; · iexact HB
  isplitl [Hq]; · iexact Hq
  isplitl [Htoks]; · iexact Htoks
  isplitl [HW]; · iexact HW
  iintro ⟨HT0, HT1, H0, H1, HA, HB, Hq, Htoks, ⟨%W', HW'⟩⟩
  isplitl [HA HB Hg Hq Hr Hk0 Hk1 Htoks HT0 HT1]
  · isplitr [HT0 HT1]
    · isplitl [HA HB]
      · isplitl [HA]; · iexact HA
        iexact HB
      isplitl [Hg]; · iexact Hg
      isplitl [Hq]; · iexact Hq
      iapply (toks_join c (V m c main_arg2))
      isplitl [Hr]; · iexact Hr
      isplitl [Hk0]; · iexact Hk0
      isplitl [Hk1]; · iexact Hk1
      iexact Htoks
    · isplitl [HT0]; · iexact HT0
      iexact HT1
  isplitl [HW']
  · iexists W'; isplitr; · ipureintro; exact fun _ _ => Or.inl trivial
    iexact HW'
  isplitl [H0]
  · iexists _; isplitr; swap; · iexact H0
    ipureintro; exact (hs0 m t).read_unread _
  iexists _; isplitr; swap; · iexact H1
  ipureintro; exact (hs1 m t).read_unread _

set_option maxRecDepth 1000000 in
/-- The library's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt m t) (fun _ => bodyPost m c t)
  exact sound_body m c t

/-! ## The host line after the region -/

theorem sfx_sub : ∀ ops ∈ ([Gen.hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  simp only [Gen.hostOps1, List.mem_cons, List.mem_nil_iff, or_false] at hop
  subst hop
  rw [StableHlo.unary_bufs]
  decide
theorem sfx_fresh : ∀ ops ∈ ([Gen.hostOps1] : List (List (HloOp τ sig (Elt F)))), ∀ op ∈ ops, op.fresh = ∅ := by
  intro ops hops op hop
  simp only [List.mem_cons, List.mem_nil_iff, or_false] at hops
  subst hops
  simp only [Gen.hostOps1, List.mem_cons, List.mem_nil_iff, or_false] at hop
  subst hop
  rfl
theorem sfx_keeps : ∀ ops ∈ ([Gen.hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [Gen.hostOps1, List.mem_cons, List.mem_nil_iff, or_false] at hop
  subst hop
  intro w; fin_cases w <;> simp only [StableHlo.unary_writes, Finset.mem_singleton] <;> exact StableHlo.devRef_ne_of_ne (by decide)

/-! ## The run -/

set_option backward.isDefEq.respectTransparency.types false in
/-- Every weakly fair execution of @main terminates, the pipeline's arrays at what the proof data computes, every
    other unscoped buffer at what the host lines leave. -/
theorem run_main : θ_run defs (onTc (τ := τ) (main (F := F))) (s₀ m ρ)
    (Pipeline.FramePost (Pipeline.pin (pcfgs (F := F)) (adm m)) (dats m) 0
      (Pipeline.afterTail (pcfgs (F := F)) (adm m) (dats m) 0 (V₀ m) [Gen.hostOps1])) :=
  Pipeline.θ_run_frameP_dma_around (pcfgs (F := F)) (adm m) (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V₀ m) (opss := [Gen.hostOps1]) (hsub := sfx_sub) (hfresh := sfx_fresh) (hkeep := sfx_keeps)
    (hmain := hmain m Variants.none) (hA := A_eq m) (hpf := fun c k => tabs_of m c k)
    (hin := fun _ => .rfl)
    (hout := fun c => (show iprop(Pipeline.ΦD osem spec0 H0 (V m) c ∗ Pipeline.ΦT pre0 (tabs m) c) ⊢ Pipeline.ΦD osem spec0 H0 (V m) c from by
      iintro ⟨H, -⟩; iexact H))

end Cert.Kernel.Hand

end
-- ==== Proof.BKOut.lean ====
/-
  The kernel program's frame and the value of its result, read off its run.

  The run leaves every windowed array at what the proof data computes and every other unscoped buffer at what the
  last host line leaves. The position table is the input window's array and is never written. The output window's
  array is written back once, at the one grid point, by a block at block index (0, 0) with the array's own extents:
  the block reads the array where the array is and covers it, so the array ends at what the body left in the block,
  the looked-up rows added. The last host line writes only the result, the output array under one leading axis of
  extent 1; the three arguments that bypass the region are no window's array and no host line writes them.
-/
import proofs.«408740_j35519379538186_3_alg».proof.Proof.BKFrame
import Idealize.ShloMosaic.Lib.Pipeline.Value
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The grid has one point: what the body leaves at any point is what it leaves at that one. -/
theorem outAt_point (c : Dev nD) (t : Fin (cfgA m).N) : outAt m c t = outAt m c t0_0 := by
  rw [fin_N0 t]

/-- The input's array is never written: after the region it holds what the launch found there. -/
theorem arr0_final (c : Dev nD) : (dats m 0 c).arrAt 0 (cfgA m).N = m ((c.tc : Thread nD τ).loc main_arg3) := by
  rw [(dats m 0 c).arrAt_in 0 rfl _, A_eq]
  exact V₀_arg3 m c

set_option backward.isDefEq.respectTransparency.types false in
/-- The output's array after the one write-back is the block the body left: the one point's block is at block index
    (0, 0) and has the array's extents, so it reads the array where the array is, and it covers every index. -/
theorem arr1_final (c : Dev nD) : (dats m 0 c).arrAt 1 (cfgA m).N = (outAt m c t0_0 : Buf (Elt F) (((cfgA m).win 1).arr.view.loc (c.tc : Thread nD τ))) := by
  refine (dats m 0 c).arrAt_eq_of_cover 1 _ (fun t _ => ?_) (fun i => ?_)
  · show ((cfgA m).win 1).cut ((cfgA m).grid.coords t) ((dats m 0 c).after 1 t) = _
    rw [after1]
    obtain rfl : t = t0_0 := fin_N0 t
    funext j
    revert j
    show ∀ j : S77x768.Idx, outAt m c t0_0 j = outAt m c t0_0 ((((cfgA m).win 1).blk t0_0).view.emb j)
    intro j
    congr 1
    funext a; apply Fin.ext
    match a with
    | ⟨0, _⟩ => show (j 0).val = 0 * 77 + 1 * (j 0).val; omega
    | ⟨1, _⟩ => show (j 1).val = 0 * 768 + 1 * (j 1).val; omega
  · refine ⟨t0_0, rfl, ?_⟩
    show i ∈ ((View.whole main_v2).slice (((cfgA m).win 1).rect t0_0)).set
    rw [View.set_slice_whole]
    revert i
    show ∀ i : S77x768.Idx, i ∈ (((cfgA m).win 1).rect t0_0).set
    intro i
    refine Rect.mem_set_unit.mpr fun a => ?_
    match a with
    | ⟨0, _⟩ => show 0 * 77 ≤ (i 0).val ∧ (i 0).val < 0 * 77 + 77; have h : (i 0).val < 77 := (i 0).isLt; exact ⟨by omega, by omega⟩
    | ⟨1, _⟩ => show 0 * 768 ≤ (i 1).val ∧ (i 1).val < 0 * 768 + 768; have h : (i 1).val < 768 := (i 1).isLt; exact ⟨by omega, by omega⟩

/-- No window's array is one of the first three arguments. -/
theorem arr_ne_arg0 : ∀ w, Pipeline.arrRef spec0 w ≠ main_arg0 := by decide
theorem arr_ne_arg1 : ∀ w, Pipeline.arrRef spec0 w ≠ main_arg1 := by decide
theorem arr_ne_arg2 : ∀ w, Pipeline.arrRef spec0 w ≠ main_arg2 := by decide
/-- Nor the result. -/
theorem arr_ne_v3 : ∀ w, Pipeline.arrRef spec0 w ≠ main_v3 := by decide

/-- After the last host line the first three arguments hold what the launch found: the line writes only the result,
    no window's array is one of them, and no host line before the region writes them. -/
theorem tail_arg0 (c : Dev nD) : Pipeline.afterTail (pcfgs (F := F)) (adm m) (dats m) 0 (V₀ m) [Gen.hostOps1] c main_arg0 = m ((c.tc : Thread nD τ).loc main_arg0) := by
  unfold Pipeline.afterTail
  show StableHlo.after Gen.hostOps1 _ (Proc.devRef .tc main_arg0) = _
  after_results
  exact (Pipeline.withArrays_of_ne spec0 c (V₀ m c) _ main_arg0 arr_ne_arg0).trans (V₀_arg0 m c)

theorem tail_arg1 (c : Dev nD) : Pipeline.afterTail (pcfgs (F := F)) (adm m) (dats m) 0 (V₀ m) [Gen.hostOps1] c main_arg1 = m ((c.tc : Thread nD τ).loc main_arg1) := by
  unfold Pipeline.afterTail
  show StableHlo.after Gen.hostOps1 _ (Proc.devRef .tc main_arg1) = _
  after_results
  exact (Pipeline.withArrays_of_ne spec0 c (V₀ m c) _ main_arg1 arr_ne_arg1).trans (V₀_arg1 m c)

theorem tail_arg2 (c : Dev nD) : Pipeline.afterTail (pcfgs (F := F)) (adm m) (dats m) 0 (V₀ m) [Gen.hostOps1] c main_arg2 = m ((c.tc : Thread nD τ).loc main_arg2) := by
  unfold Pipeline.afterTail
  show StableHlo.after Gen.hostOps1 _ (Proc.devRef .tc main_arg2) = _
  after_results
  exact (Pipeline.withArrays_of_ne spec0 c (V₀ m c) _ main_arg2 arr_ne_arg2).trans (V₀_arg2 m c)

/-- After the last host line the result is the output array under one leading axis of extent 1. -/
theorem tail_v3 (c : Dev nD) : Pipeline.afterTail (pcfgs (F := F)) (adm m) (dats m) 0 (V₀ m) [Gen.hostOps1] c main_v3
    = broadcastInDim S1x77x768 ![1, 2] Gen.bcast_S77x768_S1x77x768_1_2 (outAt m c t0_0) := by
  unfold Pipeline.afterTail
  show StableHlo.after Gen.hostOps1 _ (Proc.devRef .tc main_v3) = _
  after_results
  exact congrArg (broadcastInDim S1x77x768 ![1, 2] Gen.bcast_S77x768_S1x77x768_1_2)
    ((Pipeline.withArrays_arr spec0 (launch0 (F := F)).win.arr_inj c (V₀ m c) (fun w => (dats m 0 c).arrAt w (cfgA m).N) 1).trans (arr1_final m c))

/-- The program runs, and its four argument arrays end as the launch found them: the position table is the input
    window's array, never written; the other three bypass the region and the last host line leaves them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_arg0 (Pipeline.mem_restRefs_of main_arg0 (by decide) arr_ne_arg0)).trans (tail_arg0 m c),
       ((h c).2 main_arg1 (Pipeline.mem_restRefs_of main_arg1 (by decide) arr_ne_arg1)).trans (tail_arg1 m c),
       ((h c).2 main_arg2 (Pipeline.mem_restRefs_of main_arg2 (by decide) arr_ne_arg2)).trans (tail_arg2 m c),
       ((h c).1 0).trans (arr0_final m c)⟩)
    (run_main m ρ)

/-- The program runs, its result the looked-up rows added under one leading axis of extent 1, its arguments unchanged. -/
theorem value_run : θ_run defs (onTc (τ := τ) (main (F := F))) ⟨m, fun _ => 0, ρ⟩ (fun r => ∀ c : Dev nD,
      r.2.mem ((c.tc : Thread nD τ).loc main_v3) = broadcastInDim S1x77x768 ![1, 2] Gen.bcast_S77x768_S1x77x768_1_2 (outAt m c t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v3 (Pipeline.mem_restRefs_of main_v3 (by decide) arr_ne_v3)).trans (tail_v3 m c),
       ((h c).2 main_arg0 (Pipeline.mem_restRefs_of main_arg0 (by decide) arr_ne_arg0)).trans (tail_arg0 m c),
       ((h c).2 main_arg1 (Pipeline.mem_restRefs_of main_arg1 (by decide) arr_ne_arg1)).trans (tail_arg1 m c),
       ((h c).2 main_arg2 (Pipeline.mem_restRefs_of main_arg2 (by decide) arr_ne_arg2)).trans (tail_arg2 m c),
       ((h c).1 0).trans (arr0_final m c)⟩)
    (run_main m ρ)

end Cert.Kernel.Hand

end
-- ==== Proof.KValue.lean ====
/-
  The last line of the kernel's program, read as a value at the ideal instance (a float an extended real).

  After its one region the program puts a leading axis of extent 1 in front of the region's output block, an array
  of shape [77, 768]. The array with that leading axis reads, at (a, s, d), the block's entry (s, d): the leading
  axis is the only one the block's axes do not name, and neither of the block's axes has extent 1. The block is the
  sum of two looked-up arrays, entry (s, d) being `tok[ids[s], d] + pw[pos[s], d]` with each word read unsigned as
  a row number; a sum of two arrays at an index is the sum of the entries. A word below the number of rows names the
  row of its own value, since reducing it modulo the number of rows changes nothing. Hence the program's last value
  is the array whose entry (0, s, d) is `tok[ids[s], d] + pw[pos[s], d]`.
-/
import proofs.«408740_j35519379538186_3_alg».proof.KernelIdeal
import proofs.«408740_j35519379538186_3_alg».proof.Proof.Gen.KernelIdeal
import proofs.«408740_j35519379538186_3_alg».proof.Proof.Spec
import Idealize.ShloMosaic.Lib.ValueIdx
import Idealize.ShloMosaic.Lib.Pipeline.Value

noncomputable section

namespace Cert.KernelIdeal.Hand

open Idealize.ShloMosaic Idealize.ShloMosaic.ValueIdx Cert.KernelIdeal

/-- A [77, 768] array under a leading axis of extent 1 reads, at an index, its entry at the index's last two
    coordinates: on each of its two axes, neither of extent 1, it is read at the coordinate the axis is sent to. -/
theorem tail_lead_read {α : Type} (v : S77x768.Idx → α) (j : S1x77x768.Idx) :
    broadcastInDim S1x77x768 ![1, 2] Gen.bcast_S77x768_S1x77x768_1_2 v j = v (ix2 (j 1) (j 2)) :=
  broadcastInDim_apply _ _ v j (ix2 (j 1) (j 2)) (fun a => by fin_cases a <;> rfl)

/-- A word below the number of rows names the row of its own value. -/
theorem tail_row_eq {n : Nat} (hn : 0 < n) (w : BitVec 32) (h : w.toNat < n) :
    (⟨w.toNat, h⟩ : Fin n) = Cert.EmbedSpec.rowOf n hn w :=
  Fin.ext (Cert.EmbedSpec.rowOf_val_of_lt hn h).symm

/-- THE KERNEL'S LAST VALUE: where every token id, read unsigned, is a row of the token table and every position
    id a row of the position table, the sum of the two looked-up arrays under a leading axis of extent 1 is the
    array whose entry (0, s, d) is `tok[ids[s], d] + pw[pos[s], d]`. -/
theorem tail_value (ids pos : IVec S77 32) (tok : FVec Ideal S49408x768 .f32) (pw : FVec Ideal S77x768 .f32)
    (h0 : ∀ j, (ids j).toNat < 49408) (h1 : ∀ j, (pos j).toNat < 77) :
    broadcastInDim S1x77x768 ![1, 2] Gen.bcast_S77x768_S1x77x768_1_2
        (addf (fun j : S77x768.Idx => tok (ix2 ⟨(ids (ix1 (j 0))).toNat, h0 _⟩ (j 1)))
              (fun j : S77x768.Idx => pw (ix2 ⟨(pos (ix1 (j 0))).toNat, h1 _⟩ (j 1))) : FVec Ideal S77x768 .f32)
      = Cert.EmbedSpec.result ids pos tok pw := by
  funext j
  rw [tail_lead_read, addf_apply]
  exact congrArg₂ (· + ·)
    (congrArg (fun r => tok (ix2 r (j 2))) (tail_row_eq (by decide) _ (h0 _)))
    (congrArg (fun r => pw (ix2 r (j 2))) (tail_row_eq (by decide) _ (h1 _)))

end Cert.KernelIdeal.Hand

end
-- ==== Proof.KBridge.lean ====
/-
  The kernel program's value: what its last line leaves, as the specification's function of the argument arrays.

  The region's output block holds the token table's rows at the first scalar table's words added to the position
  block's rows at the second table's words; the last line puts a leading axis of extent 1 in front. Four facts turn
  that into the specification at the argument arrays. (1) The scalar tables are the ids clamped into their tables'
  row ranges, and a word already in range is its own clamp, so where every id is in range the tables are the ids
  themselves. (2) No host line before the region writes the token table, and a buffer read whole reads its contents.
  (3) The position window's one block is the whole position table: the grid has one point, the block has the
  array's shape and block index 0 on both axes, and a block's element sits at block index × block size + its
  coordinate in the block; the staging buffer holding that block, read whole, gives it back; and no host line
  writes the position table. (4) The leading axis over the sum of the two looked-up arrays is the specification's
  result, entry (0, s, d) being `tok[ids[s], d] + pw[pos[s], d]`.
-/
import proofs.«408740_j35519379538186_3_alg».proof.Proof.KFrame
import proofs.«408740_j35519379538186_3_alg».proof.Proof.KValue
import proofs.«408740_j35519379538186_3_alg».proof.Proof.HostPrefix
import proofs.«408740_j35519379538186_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! ## The position window's block is the whole position table -/

/-- Window 0's block at a grid point, read off the position table as the region finds it, is that table: the block
    has the table's shape and block index 0 on both axes, so its element at `y` is the table's at
    `0 × size + 1 × y`. -/
theorem iblk0_eq (m : (ℓ : Loc nD τ sig) → Buf (Elt F) ℓ) (c : Dev nD) (t : Fin (cfgA m).N) :
    (iblk m c 0 t : S77x768.Idx → Elt F .f32) = V m c main_arg3 := by
  refine funext fun (y : S77x768.Idx) => ?_
  show V m c main_arg3 ((((cfgA m).win 0).blk t).view.emb y) = V m c main_arg3 y
  refine congrArg (V m c main_arg3) (funext fun a => Fin.ext ?_)
  match a with
  | ⟨0, _⟩ => show 0 * 77 + 1 * (y 0).val = (y 0).val; omega
  | ⟨1, _⟩ => show 0 * 768 + 1 * (y 1).val = (y 1).val; omega

/-! ## The output block over plain contents -/

/-- The output block, when the position block's staging buffer is read whole at contents `X`: the token table's rows
    at the first table's words added to `X`'s rows at the second table's words. The token table's memref is its
    whole buffer, so it reads the buffer's contents; the staging buffer's raw contents that read `X` read `X`. -/
theorem outBlock_read (c : Dev nD) (arg4 : Memref sig .tc .vmem S77x768 .f32) (h4 : arg4.IsWhole)
    (T0 : Bf (F := F) c idsM) (T1 : Bf (F := F) c posM) (X : S77x768.Idx → Elt F .f32) (fh : Bf (F := F) c tokM)
    (hT0 : ∀ j, (T0 j).toNat < 49408) (hT1 : ∀ j, (T1 j).toNat < 77) :
    outBlock c arg4 T0 T1 (h4.unread X) fh hT0 hT1
      = addf (fun j : S77x768.Idx => fh (ix2 ⟨(T0 (ix1 (j 0))).toNat, hT0 _⟩ (j 1)))
             (fun j : S77x768.Idx => X (ix2 ⟨(T1 (ix1 (j 0))).toNat, hT1 _⟩ (j 1))) := by
  unfold outBlock gatherTok gatherPos
  rw [h4.read_unread]
  rfl

/-- At the ideal instance that block under a leading axis of extent 1 is the specification's result at the two
    tables, the token table's contents and `X`. -/
theorem outBlock_value (c : Dev nD) (arg4 : Memref sig .tc .vmem S77x768 .f32) (h4 : arg4.IsWhole)
    (T0 : Bf (F := Ideal) c idsM) (T1 : Bf (F := Ideal) c posM) (X : S77x768.Idx → Elt Ideal .f32) (fh : Bf (F := Ideal) c tokM)
    (hT0 : ∀ j, (T0 j).toNat < 49408) (hT1 : ∀ j, (T1 j).toNat < 77) :
    broadcastInDim S1x77x768 ![1, 2] Gen.bcast_S77x768_S1x77x768_1_2 (outBlock c arg4 T0 T1 (h4.unread X) fh hT0 hT1)
      = Cert.EmbedSpec.result T0 T1 fh X := by
  rw [outBlock_read]
  exact tail_value T0 T1 fh X hT0 hT1

/-! ## The value -/

/-- THE KERNEL'S VALUE: from a launch memory whose token ids are rows of the token table and whose position ids are
    rows of the position table, the output block at a grid point, under a leading axis of extent 1, is the
    specification's result at the four argument arrays. -/
theorem kernel_value (m : (ℓ : Loc nD τ sig) → Buf (Elt Ideal) ℓ) (c : Dev nD) (t : Fin (cfgA m).N)
    (hids : ∀ i, Cert.EmbedSpec.InRange 49408 (m ((c.tc : Thread nD τ).loc main_arg0) i))
    (hpos : ∀ i, Cert.EmbedSpec.InRange 77 (m ((c.tc : Thread nD τ).loc main_arg1) i)) :
    broadcastInDim S1x77x768 ![1, 2] Gen.bcast_S77x768_S1x77x768_1_2 (outAt (F := Ideal) m c t)
      = Cert.EmbedSpec.result (m ((c.tc : Thread nD τ).loc main_arg0)) (m ((c.tc : Thread nD τ).loc main_arg1))
          (m ((c.tc : Thread nD τ).loc main_arg2)) (m ((c.tc : Thread nD τ).loc main_arg3)) := by
  obtain rfl : c = 0 := Subsingleton.elim _ _
  have e0 : tabs m 0 = m (((0 : Dev nD).tc : Thread nD τ).loc main_arg0) :=
    (V₀_ids m 0).trans (clipTo_of_inRange 49407#32 49408 (by decide) _ hids)
  have e1 : tabs m 1 = m (((0 : Dev nD).tc : Thread nD τ).loc main_arg1) :=
    (V₀_pos m 0).trans (clipTo_of_inRange 76#32 77 (by decide) _ hpos)
  have e2 : V m 0 main_arg2 = m (((0 : Dev nD).tc : Thread nD τ).loc main_arg2) := V₀_arg2 m 0
  have e3 : (iblk m 0 0 t : S77x768.Idx → Elt Ideal .f32) = m (((0 : Dev nD).tc : Thread nD τ).loc main_arg3) :=
    (iblk0_eq m 0 t).trans (V₀_arg3 m 0)
  unfold outAt
  refine (outBlock_value 0 (ms0 m t) (hs0 m t) (tabs m 0) (tabs m 1) (iblk m 0 0 t) (V m 0 main_arg2) (ids_lt m 0) (pos_lt m 0)).trans ?_
  rw [e0, e1, e2, e3]

end Cert.KernelIdeal.Hand

end
-- ==== Proof.RefTerm.lean ====
/-
  The reference's result as one pure term of its four argument arrays: the operations of its two lookups
  (`jnp.take` of the token table at the token ids, and of the position table at the position ids), the sum of
  the two looked-up arrays, and the leading axis of extent 1. A lookup first adds the table's row count to a
  negative index, gathers the rows (the gather clamps its start index), and replaces by the fill value every row
  whose shifted index lies outside `[0, rows)`.
-/
import proofs.«408740_j35519379538186_3_alg».proof.ReferenceIdeal

noncomputable section

namespace Cert.ReferenceIdeal.RefValue

open Idealize.ShloMosaic Cert.ReferenceIdeal
open Cert.ReferenceIdeal.Facts₀ Cert.ReferenceIdeal.Facts

variable {F : FTy → Type} [FloatOps F] [Cert.ReferenceIdeal.Facts]

/-- The index a lookup in a table of `n` rows uses for the word `ids`: `ids + n` where `ids` is negative, else `ids`,
    as a column [77, 1]. -/
def shifted (n : BitVec 32) (ids : IVec S77 32) : IVec S77x1 32 :=
  let c : IVec S_ 32 := constantI S_ 32 0#32
  let v0 : IVec S77 32 := broadcastInDim S77 ![] bcast_S_S77 c
  let v1 : IVec S77 1 := cmpi .slt ids v0
  let c_0 : IVec S_ 32 := constantI S_ 32 n
  let v2 : IVec S77 32 := broadcastInDim S77 ![] bcast_S_S77 c_0
  let v3 : IVec S77 32 := addi ids v2
  let v4 : IVec S77 32 := select v1 v3 ids
  broadcastInDim S77x1 ![0] bcast_S77_S77x1_0 v4

/-- Which rows of a lookup are in range: the shifted index lies in `[0, last]`, as a mask over [77, 768]. -/
def inMask (last : BitVec 32) (v5 : IVec S77x1 32) : IVec S77x768 1 :=
  let c_1 : IVec S1 32 := constantI S1 32 last
  let c_2 : IVec S_ 32 := constantI S_ 32 0#32
  let v6 : IVec S77x1 32 := broadcastInDim S77x1 ![] bcast_S_S77x1 c_2
  let v7 : IVec S77x1 1 := cmpi .sge v5 v6
  let v8 : IVec S1x1 32 := broadcastInDim S1x1 ![1] bcast_S1_S1x1_1 c_1
  let v9 : IVec S77x1 32 := broadcastInDim S77x1 ![0, 1] bcast_S1x1_S77x1_0_1 v8
  let v10 : IVec S77x1 1 := cmpi .sle v5 v9
  let v11 : IVec S77x1 1 := andi v7 v10
  let c_3 : IVec S_ 1 := constantI S_ 1 1#1
  let v12 : IVec S77 1 := Host.reduce IntOp.andi v11 c_3 reducesTo_S77x1_S77_d1 h_S_
  broadcastInDim S77x768 ![0] bcast_S77_S77x768_0 v12

/-- The fill value of an out-of-range row, over [77, 768]. -/
def fill : FVec F S77x768 .f32 :=
  broadcastInDim S77x768 ![] bcast_S_S77x768 (constant (F := F) S_ .f32 0x7FC00000#32)

/-- The lookup of the token table: `jnp.take(tok, ids, axis=0)`. -/
def takeTok (tok : FVec F S49408x768 .f32) (ids : IVec S77 32) : FVec F S77x768 .f32 :=
  let v5 := shifted 49408#32 ids
  select (inMask 49407#32 v5) (Host.gather gather_S49408x768_S77x1_S77x768_1_0_n_n_0_1_1768 tok v5) (fill (F := F))

/-- The lookup of the position table: `jnp.take(pw, pos, axis=0)`. -/
def takePos (pw : FVec F S77x768 .f32) (pos : IVec S77 32) : FVec F S77x768 .f32 :=
  let v5 := shifted 77#32 pos
  select (inMask 76#32 v5) (Host.gather gather_S77x768_S77x1_S77x768_1_0_n_n_0_1_1768 pw v5) (fill (F := F))

/-- The reference's result: the two lookups added, under a leading axis of extent 1. -/
def refOut (ids pos : IVec S77 32) (tok : FVec F S49408x768 .f32) (pw : FVec F S77x768 .f32) : FVec F S1x77x768 .f32 :=
  broadcastInDim S1x77x768 ![1, 2] bcast_S77x768_S1x77x768_1_2 (addf (takeTok tok ids) (takePos pw pos))

end Cert.ReferenceIdeal.RefValue

end
-- ==== Proof.RefRun.lean ====
/-
  The reference program's run. Its entry function makes two calls (one lookup in the token table, one in the
  position table), adds the two looked-up arrays and puts a leading axis of extent 1 in front. A call executes
  the callee's body on the operands, each value of that body in a buffer of its own, so the entry function is one
  straight line of operations: the 22 of a lookup's body with, in their seventh place, the one select of the
  helper that lookup calls, for the token table and then for the position table, followed by the sum and the
  leading axis: 48 operations. Run from any memory whose counters are zero, that line terminates with the result
  buffer at the composed term of the four argument arrays and the argument arrays as they were.
-/
import proofs.«408740_j35519379538186_3_alg».proof.Proof.RefTerm
import proofs.«408740_j35519379538186_3_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The entry function's 48 operations in order, each call's operations over that call's own buffers: the
    lookup in the token table (23, the helper's select seventh), the lookup in the position table (23, likewise),
    the sum, the leading axis. -/
abbrev ops : List (HloOp τ sig (Elt F)) :=
  [ TRef.nullary main_call0.c (constantI S_ 32 0#32),
    TRef.unary main_call0.c main_call0.v0 (broadcastInDim S77 ![] bcast_S_S77),
    TRef.binary (.of main_arg0) main_call0.v0 main_call0.v1 (cmpi .slt),
    TRef.nullary main_call0.c_0 (constantI S_ 32 49408#32),
    TRef.unary main_call0.c_0 main_call0.v2 (broadcastInDim S77 ![] bcast_S_S77),
    TRef.binary (.of main_arg0) main_call0.v2 main_call0.v3 addi,
    TRef.ternary main_call0.v1 main_call0.v3 (.of main_arg0) main_call0.call0.v0 select,
    TRef.unary main_call0.call0.v0 main_call0.v5 (broadcastInDim S77x1 ![0] bcast_S77_S77x1_0),
    TRef.nullary main_call0.c_1 (constantI S1 32 49407#32),
    TRef.nullary main_call0.c_2 (constantI S_ 32 0#32),
    TRef.unary main_call0.c_2 main_call0.v6 (broadcastInDim S77x1 ![] bcast_S_S77x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S77x1 ![0, 1] bcast_S1x1_S77x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S77x1_S77_d1 h_S_),
    TRef.binary (.of main_arg2) main_call0.v5 main_call0.v13 (fun x i => Host.gather gather_S49408x768_S77x1_S77x768_1_0_n_n_0_1_1768 x i),
    TRef.unary main_call0.v12 main_call0.v14 (broadcastInDim S77x768 ![0] bcast_S77_S77x768_0),
    TRef.nullary main_call0.cst (constant S_ .f32 0x7FC00000#32),
    TRef.unary main_call0.cst main_call0.v15 (broadcastInDim S77x768 ![] bcast_S_S77x768),
    TRef.ternary main_call0.v14 main_call0.v13 main_call0.v15 main_call0.v16 select,
    TRef.nullary main_call1.c (constantI S_ 32 0#32),
    TRef.unary main_call1.c main_call1.v0 (broadcastInDim S77 ![] bcast_S_S77),
    TRef.binary (.of main_arg1) main_call1.v0 main_call1.v1 (cmpi .slt),
    TRef.nullary main_call1.c_0 (constantI S_ 32 77#32),
    TRef.unary main_call1.c_0 main_call1.v2 (broadcastInDim S77 ![] bcast_S_S77),
    TRef.binary (.of main_arg1) main_call1.v2 main_call1.v3 addi,
    TRef.ternary main_call1.v1 main_call1.v3 (.of main_arg1) main_call1.call0.v0 select,
    TRef.unary main_call1.call0.v0 main_call1.v5 (broadcastInDim S77x1 ![0] bcast_S77_S77x1_0),
    TRef.nullary main_call1.c_1 (constantI S1 32 76#32),
    TRef.nullary main_call1.c_2 (constantI S_ 32 0#32),
    TRef.unary main_call1.c_2 main_call1.v6 (broadcastInDim S77x1 ![] bcast_S_S77x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S77x1 ![0, 1] bcast_S1x1_S77x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S77x1_S77_d1 h_S_),
    TRef.binary (.of main_arg3) main_call1.v5 main_call1.v13 (fun x i => Host.gather gather_S77x768_S77x1_S77x768_1_0_n_n_0_1_1768 x i),
    TRef.unary main_call1.v12 main_call1.v14 (broadcastInDim S77x768 ![0] bcast_S77_S77x768_0),
    TRef.nullary main_call1.cst (constant S_ .f32 0x7FC00000#32),
    TRef.unary main_call1.cst main_call1.v15 (broadcastInDim S77x768 ![] bcast_S_S77x768),
    TRef.ternary main_call1.v14 main_call1.v13 main_call1.v15 main_call1.v16 select,
    binary main_v0 main_v1 main_v2 (addf : (⟨S77x768, .f32⟩ : BufTy).Contents (Elt F) → (⟨S77x768, .f32⟩ : BufTy).Contents (Elt F) → (⟨S77x768, .f32⟩ : BufTy).Contents (Elt F)),
    unary main_v2 main_v3 (broadcastInDim S1x77x768 ![1, 2] bcast_S77x768_S1x77x768_1_2 : (⟨S77x768, .f32⟩ : BufTy).Contents (Elt F) → (⟨S1x77x768, .f32⟩ : BufTy).Contents (Elt F)) ]

/-- The entry function is that straight line: the called functions' definitions unfolded at their calls, both
    sides are one chain of steps once sequencing is re-associated. -/
theorem main_eq (c : Dev nD) : main (F := F) c = seq ops := by
  simp only [main, fn_take.body, fn_take_0.body, fn_where.body, seq, bind_assoc, pure_bind]

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., unary_bufs_sub ..⟩

/-- What the result buffer holds after the line, from contents `V`: the reference's term of the four argument
    arrays. Each operation's result is read at its own buffer and every other buffer is as it was; the typed
    references of a call's buffers carry their types by computation, so what is left is the same composition of
    the same operations in the same order. -/
theorem out_eq (V : Valuation τ sig (Elt F)) :
    after ops V (main_v3 : DevRef τ sig)
      = refOut (F := F) (V (main_arg0 : DevRef τ sig)) (V (main_arg1 : DevRef τ sig)) (V (main_arg2 : DevRef τ sig))
          (V (main_arg3 : DevRef τ sig)) := by
  after_results_simp
  simp only [TRef.ofBuf, TRef.toBuf, cast_eq]
  rfl

/-- No operation writes an argument array. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-- On every device, for any float values, from any memory with zero counters: every weakly fair execution of
    the entry function terminates with the result buffer at the reference's term of the four argument arrays, and
    the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v3) = refOut (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v3).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.RefRead.lean ====
/-
  The reference's result read at an index, at the ideal instance (a float an extended real).

  The reference is two lookups, added, under a leading axis of extent 1. A lookup in a table of `n` rows at the
  words `ids` (i) adds `n` to a negative word, (ii) gathers, for each position `s`, the table's row at the shifted
  word read signed and clamped into `[0, n - 1]`, and (iii) replaces by a fill value every row whose shifted word
  lies outside `[0, n - 1]`. Where every word of `ids` is, as a signed number, in `[0, n)`:

  * the word is not negative, so the shift leaves it unchanged (`shifted_apply`);
  * both range tests hold at every position, and the conjunction of the two reduced by "and" from 1 over the column
    axis of extent 1 is 1, so the mask is 1 everywhere (`inMask_apply`) and the select keeps the gathered row;
  * the clamp of the word into `[0, n - 1]` is the word itself, which is the row it names
    (`clamp_eq_rowOf`), so the gather reads `table[ids[s], d]` at (s, d) (`gather_rows_apply`).

  The sum of two arrays at an index is the sum of the entries, and the leading axis of extent 1 reads entry
  (0, s, d) at (s, d). Hence the reference's result is the array whose entry (0, s, d) is
  `tok[ids[s], d] + pw[pos[s], d]` (`refOut_eq`).
-/
import proofs.«408740_j35519379538186_3_alg».proof.Proof.RefTerm
import proofs.«408740_j35519379538186_3_alg».proof.Proof.Spec
import proofs.«408740_j35519379538186_3_alg».proof.Proof.Gen.ReferenceIdeal
import Idealize.ShloMosaic.Lib.ValueIdx
import Idealize.ShloMosaic.Lib.Affine
import Idealize.ShloMosaic.PureOps.Reduce

noncomputable section

namespace Cert.ReferenceIdeal.RefRead

open Idealize.ShloMosaic Idealize.ShloMosaic.ValueIdx Cert.ReferenceIdeal Cert.ReferenceIdeal.RefValue
open Cert.ReferenceIdeal.Facts₀ Cert.ReferenceIdeal.Facts Cert.EmbedSpec

variable [Cert.ReferenceIdeal.Facts]

/-! ## The layout operations read at an index -/

/-- A vector of 77 entries laid as a column `[77, 1]` reads, at (s, 0), its entry `s`. -/
theorem col_apply {α : Type} (v : S77.Idx → α) (s : Fin 77) (z : Fin 1) :
    broadcastInDim S77x1 ![0] bcast_S77_S77x1_0 v (ix2 s z) = v (ix1 s) := by
  simp only [broadcastInDim]
  congr 1
  funext a
  match a with
  | ⟨0, _⟩ => rfl

/-- A vector of 77 entries laid along the rows of a `[77, 768]` rectangle reads, at (s, d), its entry `s`. -/
theorem rows_apply {α : Type} (v : S77.Idx → α) (s : Fin 77) (d : Fin 768) :
    broadcastInDim S77x768 ![0] bcast_S77_S77x768_0 v (ix2 s d) = v (ix1 s) := by
  simp only [broadcastInDim]
  congr 1
  funext a
  match a with
  | ⟨0, _⟩ => rfl

/-- A `[77, 768]` array under a leading axis of extent 1 reads, at (a, s, d), its entry (s, d). -/
theorem lead_apply {α : Type} (v : S77x768.Idx → α) (a : Fin 1) (s : Fin 77) (d : Fin 768) :
    broadcastInDim S1x77x768 ![1, 2] bcast_S77x768_S1x77x768_1_2 v (ix3 a s d) = v (ix2 s d) := by
  simp only [broadcastInDim]
  congr 1
  funext b
  match b with
  | ⟨0, _⟩ => rfl
  | ⟨1, _⟩ => rfl

/-! ## Words in range -/

/-- A word in range is not negative: the signed test "less than zero" does not hold of it. -/
theorem not_neg {n : Nat} {w : BitVec 32} (h : InRange n w) : ¬ IntOp.cmpi .slt w 0#32 = 1#1 := by
  rw [IntOp.cmpi_slt, BitVec.toInt_zero]
  exact not_lt.mpr h.1

/-- A word in range reads the same signed and unsigned. -/
theorem toInt_toNat_of_inRange {n : Nat} {w : BitVec 32} (h : InRange n w) : w.toInt.toNat = w.toNat := by
  have h0 := h.1
  have : w.toInt = (w.toNat : Int) := by
    rw [BitVec.toInt_eq_toNat_cond] at h0 ⊢
    split at h0 <;> rename_i hc
    · simp [hc]
    · omega
  omega

/-- The clamp of an in-range word into `[0, n - 1]` is the row the word names. -/
theorem clamp_eq_rowOf {n : Nat} (hn : 0 < n) {w : BitVec 32} (h : InRange n w) :
    min w.toInt.toNat (n - 1) = (rowOf n hn w).val := by
  have hlt := h.toNat_lt
  rw [toInt_toNat_of_inRange h, rowOf_val_of_lt hn hlt]
  exact Nat.min_eq_left (by omega)

/-! ## The shifted index -/

/-- Where every word is in range, the shift leaves it unchanged: the column reads, at (s, 0), the word `ids[s]`. -/
theorem shifted_apply (n : BitVec 32) (N : Nat) (ids : IVec S77 32) (hids : ∀ i, InRange N (ids i)) (s : Fin 77) (z : Fin 1) :
    shifted n ids (ix2 s z) = ids (ix1 s) := by
  unfold shifted
  simp only []
  rw [col_apply, select_apply]
  have h0 : cmpi .slt ids (broadcastInDim S77 ![] bcast_S_S77 (constantI S_ 32 0#32)) (ix1 s) = 0#1 :=
    eq_zero_of_ne_one (not_neg (hids (ix1 s)))
  rw [h0, select_zero]

/-- Every shifted word is then nonnegative … -/
theorem shifted_nonneg (n : BitVec 32) (N : Nat) (ids : IVec S77 32) (hids : ∀ i, InRange N (ids i)) (i : S77x1.Idx) :
    0 ≤ (shifted n ids i).toInt := by
  obtain ⟨s, z, rfl⟩ : ∃ s z, i = ix2 s z := ⟨i 0, i 1, eq_ix2 i⟩
  rw [shifted_apply n N ids hids]; exact (hids _).1

/-- … and below the number of rows. -/
theorem shifted_lt (n : BitVec 32) (N : Nat) (ids : IVec S77 32) (hids : ∀ i, InRange N (ids i)) (i : S77x1.Idx) :
    (shifted n ids i).toInt < (N : Int) := by
  obtain ⟨s, z, rfl⟩ : ∃ s z, i = ix2 s z := ⟨i 0, i 1, eq_ix2 i⟩
  rw [shifted_apply n N ids hids]; exact (hids _).2

/-! ## The range mask -/

/-- A left fold by "and" from 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- Where every index word lies in `[0, last]` (signed), the range mask is 1 at every entry: both tests hold at every
    position of the column, so their conjunction reduced by "and" from 1 is 1 at every row. -/
theorem inMask_apply (last : BitVec 32) (v5 : IVec S77x1 32)
    (h0 : ∀ i, 0 ≤ (v5 i).toInt) (h1 : ∀ i, (v5 i).toInt ≤ last.toInt) (j : S77x768.Idx) :
    inMask last v5 j = 1#1 := by
  obtain ⟨s, d, rfl⟩ : ∃ s d, j = ix2 s d := ⟨j 0, j 1, eq_ix2 j⟩
  unfold inMask
  simp only []
  rw [rows_apply, Host.reduce_eq_foldl]
  refine foldl_andi_one _ (fun i => ?_) _
  refine IntOp.andi_eq_one.2 ⟨?_, ?_⟩
  · refine IntOp.cmpi_sge.2 ?_
    show (0#32 : BitVec 32).toInt ≤ (v5 i).toInt
    rw [BitVec.toInt_zero]; exact h0 i
  · exact IntOp.cmpi_sle.2 (h1 i)

/-! ## The gather of whole rows -/

/-- The dimension numbers of a lookup of whole rows: operand `[N, 768]`, start indices the column `[77, 1]`, result
    `[77, 768]`; the operand's row axis is collapsed and start-indexed, its column axis is the result's offset axis. -/
abbrev rowsDims (N : Nat) (wf : GatherDims.WF ⟨2, ![N, 768]⟩ S77x1 S77x768 [1] [0] [] [0] [] 1 ![1, 768]) :
    GatherDims ⟨2, ![N, 768]⟩ S77x1 S77x768 where
  offsetDims := [1]
  collapsedSliceDims := [0]
  operandBatchingDims := []
  startIndicesBatchingDims := []
  startIndexMap := [0]
  indexVectorDim := 1
  sliceSizes := ![1, 768]
  wf := wf

/-- That gather read at (s, d): the table at row `idx[s, 0]`, read signed and clamped into `[0, N - 1]`, column `d`. -/
theorem gather_rows_apply {α : Type} {N w : Nat} (hN : 0 < N)
    (wf : GatherDims.WF ⟨2, ![N, 768]⟩ S77x1 S77x768 [1] [0] [] [0] [] 1 ![1, 768])
    (x : (⟨2, ![N, 768]⟩ : Shape).Idx → α) (idx : IVec S77x1 w) (s : Fin 77) (d : Fin 768) :
    Host.gather (rowsDims N wf) x idx (ix2 s d) = x (ix2 ⟨min (idx (ix2 s 0)).toInt.toNat (N - 1), by omega⟩ d) := by
  unfold Host.gather
  congr 1
  funext a
  match a with
  | ⟨0, _⟩ =>
    refine Fin.ext ?_
    show (rowsDims N wf).start (ix2 s d) idx 0 + (rowsDims N wf).batchCoord (ix2 s d) 0 + (rowsDims N wf).offCoord (ix2 s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N wf).startIndexMap from List.mem_singleton.mpr rfl)]
    have hsi : (rowsDims N wf).siIdx (ix2 s d) ⟨List.idxOf (0 : Fin 2) (rowsDims N wf).startIndexMap,
        List.idxOf_lt_length_iff.2 (List.mem_singleton.mpr rfl)⟩ = ix2 s 0 := by
      funext b; refine Fin.ext ?_
      match b with
      | ⟨0, _⟩ => rfl
      | ⟨1, _⟩ => rfl
    rw [hsi]
    rfl
  | ⟨1, _⟩ =>
    refine Fin.ext ?_
    show (rowsDims N wf).start (ix2 s d) idx 1 + (rowsDims N wf).batchCoord (ix2 s d) 1 + (rowsDims N wf).offCoord (ix2 s d) 1 = d.val
    have hk : (1 : Fin 2) ∈ (rowsDims N wf).sKept :=
      (GatherDims.mem_sKept _ _).mpr ⟨(by decide : (1 : Fin 2) ∉ ([0] : List (Fin 2))), List.not_mem_nil⟩
    rw [GatherDims.batchCoord_eq_zero _ _ _ List.not_mem_nil]
    unfold GatherDims.start GatherDims.offCoord
    rw [dif_neg (show (1 : Fin 2) ∉ (rowsDims N wf).startIndexMap from (by decide : (1 : Fin 2) ∉ ([0] : List (Fin 2)))), dif_pos hk]
    simp only [Nat.add_zero, Nat.zero_add]
    rfl

/-! ## The two lookups, and the result -/

/-- The token lookup read at (s, d): row `ids[s]` of the token table. -/
theorem takeTok_apply (tok : FVec Ideal S49408x768 .f32) (ids : IVec S77 32) (hids : ∀ i, InRange 49408 (ids i))
    (s : Fin 77) (d : Fin 768) :
    takeTok (F := Ideal) tok ids (ix2 s d) = tok (ix2 (rowOf 49408 (by decide) (ids (ix1 s))) d) := by
  unfold takeTok
  rw [select_apply, inMask_apply 49407#32 _ (shifted_nonneg _ 49408 ids hids)
    (fun i => by have := shifted_lt 49408#32 49408 ids hids i; rw [show (49407#32 : BitVec 32).toInt = 49407 from by decide]; omega),
    select_one]
  show Host.gather (rowsDims 49408 gather_S49408x768_S77x1_S77x768_1_0_n_n_0_1_1768_wf) tok (shifted 49408#32 ids) (ix2 s d) = _
  rw [gather_rows_apply (by decide)]
  refine congrArg (fun r => tok (ix2 r d)) (Fin.ext ?_)
  show min (shifted 49408#32 ids (ix2 s 0)).toInt.toNat (49408 - 1) = _
  rw [shifted_apply 49408#32 49408 ids hids]
  exact clamp_eq_rowOf (by decide) (hids (ix1 s))

/-- The position lookup read at (s, d): row `pos[s]` of the position table. -/
theorem takePos_apply (pw : FVec Ideal S77x768 .f32) (pos : IVec S77 32) (hpos : ∀ i, InRange 77 (pos i))
    (s : Fin 77) (d : Fin 768) :
    takePos (F := Ideal) pw pos (ix2 s d) = pw (ix2 (rowOf 77 (by decide) (pos (ix1 s))) d) := by
  unfold takePos
  rw [select_apply, inMask_apply 76#32 _ (shifted_nonneg _ 77 pos hpos)
    (fun i => by have := shifted_lt 77#32 77 pos hpos i; rw [show (76#32 : BitVec 32).toInt = 76 from by decide]; omega),
    select_one]
  show Host.gather (rowsDims 77 gather_S77x768_S77x1_S77x768_1_0_n_n_0_1_1768_wf) pw (shifted 77#32 pos) (ix2 s d) = _
  rw [gather_rows_apply (by decide)]
  refine congrArg (fun r => pw (ix2 r d)) (Fin.ext ?_)
  show min (shifted 77#32 pos (ix2 s 0)).toInt.toNat (77 - 1) = _
  rw [shifted_apply 77#32 77 pos hpos]
  exact clamp_eq_rowOf (by decide) (hpos (ix1 s))

/-- THE REFERENCE'S VALUE: where every token id is a row of the token table and every position id a row of the
    position table, the reference's result is the array whose entry (0, s, d) is `tok[ids[s], d] + pw[pos[s], d]`. -/
theorem refOut_eq (ids pos : IVec S77 32) (tok : FVec Ideal S49408x768 .f32) (pw : FVec Ideal S77x768 .f32)
    (hids : ∀ i, InRange 49408 (ids i)) (hpos : ∀ i, InRange 77 (pos i)) :
    refOut (F := Ideal) ids pos tok pw = result ids pos tok pw := by
  funext j
  obtain ⟨a, s, d, rfl⟩ : ∃ a s d, j = ix3 a s d := ⟨j 0, j 1, j 2, eq_ix3 j⟩
  unfold refOut
  rw [lead_apply, addf_apply, takeTok_apply tok ids hids, takePos_apply pw pos hpos]
  rfl

end Cert.ReferenceIdeal.RefRead

end
-- ==== Proof.PreFacts.lean ====
/-
  The precondition, decoded.

  The precondition is the conjunction of four statements, each an "all" over an array: every entry of the token
  table is finite, every entry of the position table is finite, every token id `x` has `0 ≤ x` and `x < 49408`,
  every position id `x` has `0 ≤ x` and `x < 77` (the words compared as signed numbers). Here the two statements
  about the ids are read back from "the conjunction is 1": a conjunction of one-bit words is 1 exactly when both are,
  an "all" that is 1 had a 1 at every index, and a signed comparison that is 1 is the order of the signed values.
  The two finiteness statements are not needed here and are dropped.
-/
import proofs.«408740_j35519379538186_3_alg».proof.Pre_finite_inputs
import proofs.«408740_j35519379538186_3_alg».proof.Proof.Gen.Pre_finite_inputs
import proofs.«408740_j35519379538186_3_alg».proof.Proof.Spec
import Idealize.ShloMosaic.Lib.Affine
import Idealize.ShloMosaic.Lib.ReduceAll
import Idealize.ShloMosaic.Lib.ValueIdx

namespace Cert.PreFacts

open Idealize.ShloMosaic

/-- The shape with no axes has exactly one index. -/
instance : Subsingleton Cert.Pre_finite_inputs.S_.Idx := ⟨fun a b => funext fun d => d.elim0⟩

/-- One element of an id test: if `0 ≤ x` and `x < c` both hold as signed comparisons of words, and the word `c`
    is the number `n`, then `x` is a row of an `n`-row table. -/
theorem inRange_of_test {n : Nat} {c x : BitVec 32} (hc : c.toInt = (n : Int))
    (h : IntOp.andi (IntOp.cmpi .sge x 0#32) (IntOp.cmpi .slt x c) = 1#1) : Cert.EmbedSpec.InRange n x := by
  obtain ⟨hge, hlt⟩ := IntOp.andi_eq_one.1 h
  have h0 : (0#32 : BitVec 32).toInt ≤ x.toInt := IntOp.cmpi_sge.1 hge
  have h1 : x.toInt < c.toInt := IntOp.cmpi_slt.1 hlt
  rw [show (0#32 : BitVec 32).toInt = 0 from by decide] at h0
  rw [hc] at h1
  exact ⟨h0, h1⟩

variable [Cert.Pre_finite_inputs.Facts]
variable {F : FTy → Type} [FloatOps F]

/-- The precondition's third conjunct: every token id is a row of the 49408-row table. -/
theorem ids_inRange (ids pos : IVec Cert.Pre_finite_inputs.S77 32) (tok : FVec F Cert.Pre_finite_inputs.S49408x768 .f32)
    (pw : FVec F Cert.Pre_finite_inputs.S77x768 .f32)
    (h : Cert.Pre_finite_inputs.fn (F := F) ids pos tok pw = fun _ => 1#1) :
    ∀ i, Cert.EmbedSpec.InRange 49408 (ids i) := by
  intro i
  have h0 := congrFun h ValueIdx.ix0
  dsimp only [Cert.Pre_finite_inputs.fn, Cert.Pre_finite_inputs.fn_part1] at h0
  -- the conjunction is ((finite tok ∧ finite pw) ∧ all-ids) ∧ all-pos
  obtain ⟨h123, -⟩ := IntOp.andi_eq_one.1 h0
  obtain ⟨-, h3⟩ := IntOp.andi_eq_one.1 h123
  have he := Host.reduce_andi_all _ _ _ _ _ h3 i
  exact inRange_of_test (c := 49408#32) (by decide) he

/-- The precondition's fourth conjunct: every position id is a row of the 77-row table. -/
theorem pos_inRange (ids pos : IVec Cert.Pre_finite_inputs.S77 32) (tok : FVec F Cert.Pre_finite_inputs.S49408x768 .f32)
    (pw : FVec F Cert.Pre_finite_inputs.S77x768 .f32)
    (h : Cert.Pre_finite_inputs.fn (F := F) ids pos tok pw = fun _ => 1#1) :
    ∀ i, Cert.EmbedSpec.InRange 77 (pos i) := by
  intro i
  have h0 := congrFun h ValueIdx.ix0
  dsimp only [Cert.Pre_finite_inputs.fn, Cert.Pre_finite_inputs.fn_part1] at h0
  -- the conjunction is ((finite tok ∧ finite pw) ∧ all-ids) ∧ all-pos
  obtain ⟨-, h4⟩ := IntOp.andi_eq_one.1 h0
  have he := Host.reduce_andi_all _ _ _ _ _ h4 i
  exact inRange_of_test (c := 77#32) (by decide) he

end Cert.PreFacts
-- ==== Proof.lean ====
/-
  An embedding lookup: for 77 token ids and 77 position ids, row s of the result is the token table's row ids[s]
  plus the position table's row pos[s], under a leading axis of extent 1.

  The kernel clamps the ids into scalar tables on the host, then in one pallas_call copies the 77 token rows by its
  own transfers out of the token table into a scratch array, copies the 77 position rows out of the staged position
  table into a second scratch array, and stores their sum; the reference looks both tables up with a gather that
  wraps a negative index and fills a row whose index is out of range. Where every id is a row of its table the
  clamp, the wrap and the fill all do nothing, and both programs compute the same array: that is the precondition's
  two range conjuncts, and the claim is proved under them (the float inputs' finiteness is not used: addition of
  two extended reals is the same on both sides whatever they are).

  Frames: the kernel program's (at both instances, the same text) from its launch around the region, the body run
  once at symbolic operands; the reference's from its run. Value: the kernel's output block is the looked-up rows
  added, so its result is the specification's; the reference's composed term, read at an index, is the same.
-/
import proofs.«408740_j35519379538186_3_alg».proof.Defs
import proofs.«408740_j35519379538186_3_alg».proof.Proof.Gen.Kernel
import proofs.«408740_j35519379538186_3_alg».proof.Proof.Gen.KernelIdeal
import proofs.«408740_j35519379538186_3_alg».proof.Proof.Gen.ReferenceIdeal
import proofs.«408740_j35519379538186_3_alg».proof.Proof.Gen.Pre_finite_inputs
import proofs.«408740_j35519379538186_3_alg».proof.Proof.KOut
import proofs.«408740_j35519379538186_3_alg».proof.Proof.BKOut
import proofs.«408740_j35519379538186_3_alg».proof.Proof.KBridge
import proofs.«408740_j35519379538186_3_alg».proof.Proof.RefRun
import proofs.«408740_j35519379538186_3_alg».proof.Proof.RefRead
import proofs.«408740_j35519379538186_3_alg».proof.Proof.PreFacts

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.RefValue.run (F := Ideal) m ρ)

/-- The idealization rewrote nothing. -/
theorem preserves : Cert.preserves_Kernel_KernelIdeal := trivial

/-- From memories agreeing on the arguments, under the precondition, both idealized programs end at the
    specification's result of the arguments: the kernel by its output block's value, the reference by its composed
    term read at an index; the range conjuncts of the precondition are what both readings need. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hids : ∀ c : Dev Cert.KernelIdeal.nD, ∀ i, Cert.EmbedSpec.InRange 49408
      (m ((c.tc : Thread Cert.KernelIdeal.nD Cert.KernelIdeal.τ).loc Cert.KernelIdeal.main_arg0) i) :=
    fun c => Cert.PreFacts.ids_inRange _ _ _ _ (hpre c)
  have hpos : ∀ c : Dev Cert.KernelIdeal.nD, ∀ i, Cert.EmbedSpec.InRange 77
      (m ((c.tc : Thread Cert.KernelIdeal.nD Cert.KernelIdeal.τ).loc Cert.KernelIdeal.main_arg1) i) :=
    fun c => Cert.PreFacts.pos_inRange _ _ _ _ (hpre c)
  refine ⟨fun c => Cert.EmbedSpec.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨((h c).1).trans (Cert.KernelIdeal.Hand.kernel_value m c _ (hids c) (hpos c)), (h c).2⟩)
      (Cert.KernelIdeal.Hand.value_run (F := Ideal) m ρ)
  · refine (θ_run (Cert.ReferenceIdeal.defs (F := Ideal)) _ _).mono (fun r h c => ⟨?_, (h c).2⟩)
      (Cert.ReferenceIdeal.RefValue.run (F := Ideal) m' ρ')
    rw [(h c).1, (hagree c).1, (hagree c).2.1, (hagree c).2.2.1, (hagree c).2.2.2]
    exact Cert.ReferenceIdeal.RefRead.refOut_eq _ _ _ _ (hids c) (hpos c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
